-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v9_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S4096x1024 : Shape := ⟨2, ![4096, 1024]⟩
abbrev S4096 : Shape := ⟨1, ![4096]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg0 : IVec S1 32) (main_v63 : IVec S_ 1) (main_v67 : IVec S_ 1) : IVec S_ 1 :=
  let main_v68 : IVec S_ 1 := andi main_v63 main_v67
  let main_c_26 : IVec S_ 32 := constantI S_ 32 0#32
  let main_v69 : IVec S1 32 := broadcastInDim S1 ![] bcast_S_S1 main_c_26
  let main_v70 : IVec S1 1 := cmpi .sge main_arg0 main_v69
  let main_c_27 : IVec S_ 1 := constantI S_ 1 1#1
  let main_v71 : IVec S_ 1 := (fun x v => Host.reduce IntOp.andi x v reducesTo_S1_S_d0 h_S_) main_v70 main_c_27
  let main_v72 : IVec S_ 1 := andi main_v68 main_v71
  main_v72

def fn_part3 {F : FTy → Type} [FloatOps F] (main_arg0 : IVec S1 32) (main_arg12 : FVec F S4096 .f32) (main_arg13 : FVec F S50257x1024 .f32) (main_arg14 : FVec F S50257 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg12
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S50257x1024 .f32 := Host.absf main_arg13
  let main_cst_22 : FVec F S_ .f32 := constant S_ .f32 0x7F800000#32
  let main_v60 : FVec F S50257x1024 .f32 := broadcastInDim S50257x1024 ![] bcast_S_S50257x1024 main_cst_22
  let main_v61 : IVec S50257x1024 1 := cmpf .olt main_v59 main_v60
  let main_c_23 : IVec S_ 1 := constantI S_ 1 1#1
  let main_v62 : IVec S_ 1 := (fun x v => Host.reduce IntOp.andi x v reducesTo_S50257x1024_S_d0_1 h_S_) main_v61 main_c_23
  let main_v63 : IVec S_ 1 := andi main_v58 main_v62
  let main_v64 : FVec F S50257 .f32 := Host.absf main_arg14
  let main_cst_24 : FVec F S_ .f32 := constant S_ .f32 0x7F800000#32
  let main_v65 : FVec F S50257 .f32 := broadcastInDim S50257 ![] bcast_S_S50257 main_cst_24
  let main_v66 : IVec S50257 1 := cmpf .olt main_v64 main_v65
  let main_c_25 : IVec S_ 1 := constantI S_ 1 1#1
  let main_v67 : IVec S_ 1 := (fun x v => Host.reduce IntOp.andi x v reducesTo_S50257_S_d0 h_S_) main_v66 main_c_25
  fn_part4 (F := F) main_arg0 main_v63 main_v67

def fn_part2 {F : FTy → Type} [FloatOps F] (main_arg0 : IVec S1 32) (main_arg8 : FVec F S1024 .f32) (main_arg9 : FVec F S4096x1024 .f32) (main_arg10 : FVec F S4096x1024 .f32) (main_arg11 : FVec F S4096 .f32) (main_arg12 : FVec F S4096 .f32) (main_arg13 : FVec F S50257x1024 .f32) (main_arg14 : FVec F S50257 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S4096x1024 .f32 := Host.absf main_arg9
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S4096x1024 .f32 := Host.absf main_arg10
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S4096 .f32 := Host.absf main_arg11
  let main_cst_18 : FVec F S_ .f32 := constant S_ .f32 0x7F800000#32
  let main_v50 : FVec F S4096 .f32 := broadcastInDim S4096 ![] bcast_S_S4096 main_cst_18
  fn_part3 (F := F) main_arg0 main_arg12 main_arg13 main_arg14 main_v48 main_v49 main_v50

def fn_part1 {F : FTy → Type} [FloatOps F] (main_arg0 : IVec S1 32) (main_arg5 : FVec F S512x2048 .f32) (main_arg6 : FVec F S512 .f32) (main_arg7 : FVec F S1024x2048 .f32) (main_arg8 : FVec F S1024 .f32) (main_arg9 : FVec F S4096x1024 .f32) (main_arg10 : FVec F S4096x1024 .f32) (main_arg11 : FVec F S4096 .f32) (main_arg12 : FVec F S4096 .f32) (main_arg13 : FVec F S50257x1024 .f32) (main_arg14 : FVec F S50257 .f32) (main_v13 : IVec S_ 1) (main_v16 : IVec S50257x1024 1) : IVec S_ 1 :=
  let main_c_5 : IVec S_ 1 := constantI S_ 1 1#1
  let main_v17 : IVec S_ 1 := (fun x v => Host.reduce IntOp.andi x v reducesTo_S50257x1024_S_d0_1 h_S_) main_v16 main_c_5
  let main_v18 : IVec S_ 1 := andi main_v13 main_v17
  let main_v19 : FVec F S512x2048 .f32 := Host.absf main_arg5
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x2048 .f32 := Host.absf main_arg7
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg0 main_arg8 main_arg9 main_arg10 main_arg11 main_arg12 main_arg13 main_arg14 main_v33

def fn {F : FTy → Type} [FloatOps F] (main_arg0 : IVec S1 32) (main_arg1 : FVec F S1x1x1024 .f32) (main_arg2 : FVec F S1x1x1024 .f32) (main_arg3 : FVec F S512x1024 .f32) (main_arg4 : FVec F S50257x1024 .f32) (main_arg5 : FVec F S512x2048 .f32) (main_arg6 : FVec F S512 .f32) (main_arg7 : FVec F S1024x2048 .f32) (main_arg8 : FVec F S1024 .f32) (main_arg9 : FVec F S4096x1024 .f32) (main_arg10 : FVec F S4096x1024 .f32) (main_arg11 : FVec F S4096 .f32) (main_arg12 : FVec F S4096 .f32) (main_arg13 : FVec F S50257x1024 .f32) (main_arg14 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S1x1x1024 .f32 := Host.absf main_arg2
  let main_cst_0 : FVec F S_ .f32 := constant S_ .f32 0x7F800000#32
  let main_v5 : FVec F S1x1x1024 .f32 := broadcastInDim S1x1x1024 ![] bcast_S_S1x1x1024 main_cst_0
  let main_v6 : IVec S1x1x1024 1 := cmpf .olt main_v4 main_v5
  let main_c_1 : IVec S_ 1 := constantI S_ 1 1#1
  let main_v7 : IVec S_ 1 := (fun x v => Host.reduce IntOp.andi x v reducesTo_S1x1x1024_S_d0_1_2 h_S_) main_v6 main_c_1
  let main_v8 : IVec S_ 1 := andi main_v3 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S50257x1024 .f32 := Host.absf main_arg4
  let main_cst_4 : FVec F S_ .f32 := constant S_ .f32 0x7F800000#32
  let main_v15 : FVec F S50257x1024 .f32 := broadcastInDim S50257x1024 ![] bcast_S_S50257x1024 main_cst_4
  let main_v16 : IVec S50257x1024 1 := cmpf .olt main_v14 main_v15
  fn_part1 (F := F) main_arg0 main_arg5 main_arg6 main_arg7 main_arg8 main_arg9 main_arg10 main_arg11 main_arg12 main_arg13 main_arg14 main_v13 main_v16
-- ==== Kernel.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S4096x1024 : Shape := ⟨2, ![4096, 1024]⟩
abbrev S4096 : Shape := ⟨1, ![4096]⟩
abbrev S50257 : Shape := ⟨1, ![50257]⟩
abbrev S_ : Shape := ⟨0, ![]⟩
abbrev S1x1024 : Shape := ⟨2, ![1, 1024]⟩
abbrev S50257x1x1024 : Shape := ⟨3, ![50257, 1, 1024]⟩
abbrev S1x512 : Shape := ⟨2, ![1, 512]⟩
abbrev S1x4096 : Shape := ⟨2, ![1, 4096]⟩
abbrev S1x50257 : Shape := ⟨2, ![1, 50257]⟩
abbrev S1x2048 : Shape := ⟨2, ![1, 2048]⟩
abbrev S1x1 : Shape := ⟨2, ![1, 1]⟩
abbrev S1024x1024 : Shape := ⟨2, ![1024, 1024]⟩
abbrev S3072x1024 : Shape := ⟨2, ![3072, 1024]⟩
abbrev S1x3072 : Shape := ⟨2, ![1, 3072]⟩

abbrev nBuf : Space → Nat
  | .hbm => 85
  | .vmem => 28
  | .smem => 1
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1x1024, .f32⟩
  | .hbm, ⟨3, _⟩ => ⟨S512x1024, .f32⟩
  | .hbm, ⟨4, _⟩ => ⟨S50257x1024, .f32⟩
  | .hbm, ⟨5, _⟩ => ⟨S512x2048, .f32⟩
  | .hbm, ⟨6, _⟩ => ⟨S512, .f32⟩
  | .hbm, ⟨7, _⟩ => ⟨S1024x2048, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S4096, .f32⟩
  | .hbm, ⟨12, _⟩ => ⟨S4096, .f32⟩
  | .hbm, ⟨13, _⟩ => ⟨S50257x1024, .f32⟩
  | .hbm, ⟨14, _⟩ => ⟨S50257, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S1x1024, .f32⟩
  | .hbm, ⟨23, _⟩ => ⟨S1x1024, .f32⟩
  | .hbm, ⟨24, _⟩ => ⟨S50257x1x1024, .f32⟩
  | .hbm, ⟨25, _⟩ => ⟨S1x512, .f32⟩
  | .hbm, ⟨26, _⟩ => ⟨S1x1024, .f32⟩
  | .hbm, ⟨27, _⟩ => ⟨S1x4096, .f32⟩
  | .hbm, ⟨28, _⟩ => ⟨S1x4096, .f32⟩
  | .hbm, ⟨29, _⟩ => ⟨S1x50257, .f32⟩
  | .hbm, ⟨30, _⟩ => ⟨S1x1024, .f32⟩
  | .hbm, ⟨31, _⟩ => ⟨S1x512, .f32⟩
  | .hbm, ⟨32, _⟩ => ⟨S1x4096, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x50257, .f32⟩
  | .hbm, ⟨68, _⟩ => ⟨S_, .f32⟩
  | .hbm, ⟨69, _⟩ => ⟨S1, .f32⟩
  | .hbm, ⟨70, _⟩ => ⟨S_, .f32⟩
  | .hbm, ⟨71, _⟩ => ⟨S1, .f32⟩
  | .hbm, ⟨72, _⟩ => ⟨S1, .f32⟩
  | .hbm, ⟨73, _⟩ => ⟨S1x1, .f32⟩
  | .hbm, ⟨74, _⟩ => ⟨S1x50257, .f32⟩
  | .hbm, ⟨75, _⟩ => ⟨S1x50257, .f32⟩
  | .hbm, ⟨76, _⟩ => ⟨S1x50257, .f32⟩
  | .hbm, ⟨77, _⟩ => ⟨S_, .f32⟩
  | .hbm, ⟨78, _⟩ => ⟨S1, .f32⟩
  | .hbm, ⟨79, _⟩ => ⟨S1x1, .f32⟩
  | .hbm, ⟨80, _⟩ => ⟨S1x1, .f32⟩
  | .hbm, ⟨81, _⟩ => ⟨S1x50257, .f32⟩
  | .hbm, ⟨82, _⟩ => ⟨S1x50257, .f32⟩
  | .hbm, ⟨83, _⟩ => ⟨S1x1x1024, .f32⟩
  | .hbm, ⟨84, _⟩ => ⟨S1x1x1024, .f32⟩
  | .local _ .vmem, ⟨0, _⟩ => ⟨S1x1x1024, .f32⟩
  | .local _ .vmem, ⟨1, _⟩ => ⟨S1x1024, .f32⟩
  | .local _ .vmem, ⟨2, _⟩ => ⟨S512x1024, .f32⟩
  | .local _ .vmem, ⟨3, _⟩ => ⟨S512x2048, .f32⟩
  | .local _ .vmem, ⟨4, _⟩ => ⟨S1x512, .f32⟩
  | .local _ .vmem, ⟨5, _⟩ => ⟨S1024x2048, .f32⟩
  | .local _ .vmem, ⟨6, _⟩ => ⟨S1x1024, .f32⟩
  | .local _ .vmem, ⟨7, _⟩ => ⟨S1x1024, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S3072x1024, .f32⟩
  | .local _ .vmem, ⟨23, _⟩ => ⟨S3072x1024, .f32⟩
  | .local _ .vmem, ⟨24, _⟩ => ⟨S1x3072, .f32⟩
  | .local _ .vmem, ⟨25, _⟩ => ⟨S1x3072, .f32⟩
  | .local _ .vmem, ⟨26, _⟩ => ⟨S1x3072, .f32⟩
  | .local _ .vmem, ⟨27, _⟩ => ⟨S1x3072, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9_0 : Ref sig .tc := ⟨.hbm, 30, rfl⟩
abbrev main_v9_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call1_cst : Ref sig .tc := ⟨.hbm, 68, rfl⟩
abbrev main_call1_v0 : Ref sig .tc := ⟨.hbm, 69, rfl⟩
abbrev main_call1_cst_0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_cst_1 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![17], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S3072x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x3072 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x3072 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  shapeCasts_S1x1x1024_S1x1024 : S1x1x1024.ShapeCasts S1x1024
  shapeCasts_S50257x1024_S50257x1x1024 : S50257x1024.ShapeCasts S50257x1x1024
  shapeCasts_S512_S1x512 : S512.ShapeCasts S1x512
  shapeCasts_S1024_S1x1024 : S1024.ShapeCasts S1x1024
  shapeCasts_S4096_S1x4096 : S4096.ShapeCasts S1x4096
  shapeCasts_S50257_S1x50257 : S50257.ShapeCasts S1x50257
  inb_S1_S1_0 : ∀ a, (![0] : Fin 1 → Nat) a + S1.size a ≤ S1.size a
  numel1_S1 : S1.numel = 1
  inb_S1x1x1024_S1x1x1024_0_0_0 : ∀ a, (![0, 0, 0] : Fin 3 → Nat) a + S1x1x1024.size a ≤ S1x1x1024.size a
  h_S1x1x1024 : 0 < S1x1x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  inb_S1024x1024_S1024x1024_0_0 : ∀ a, (![0, 0] : Fin 2 → Nat) a + S1024x1024.size a ≤ S1024x1024.size a
  h_S1024x1024 : 0 < S1024x1024.numel
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  bcast_S_S1x1024 : S_.BroadcastsInDim S1x1024 (![] : Fin 0 → Fin S1x1024.rank)
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  reducesTo_S1x50257_S1_d1 : S1x50257.ReducesTo [1] S1
  h_S_ : 0 < S_.numel
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S512x2048_S1x512_1_1_0_0_n_n_wf : DotDims.WF S1x2048 S512x2048 S1x512 [1] [1] [0] [0] [] []
  dot_S1x512_S512x1024_S1x1024_1_0_0_1_n_n_wf : DotDims.WF S1x512 S512x1024 S1x1024 [1] [0] [0] [1] [] []
  dot_S1x2048_S1024x2048_S1x1024_1_1_0_0_n_n_wf : DotDims.WF S1x2048 S1024x2048 S1x1024 [1] [1] [0] [0] [] []
  dot_S1x1024_S1024x1024_S1x1024_1_1_0_0_n_n_wf : DotDims.WF S1x1024 S1024x1024 S1x1024 [1] [1] [0] [0] [] []
  dot_S1x1024_S3072x1024_S1x3072_1_1_0_0_n_n_wf : DotDims.WF S1x1024 S3072x1024 S1x3072 [1] [1] [0] [0] [] []
  hrank0 : 0 < grid0.rank
  hstage0_0 : ∀ j, (stage0_0 j).IsWhole
  nbuf0_0 : grid0.bufCount reads0_0 false = 1
  hreads0_0 : ∀ {F : FTy → Type} [FloatOps F] (pf : pre0.Contents (Elt F)) (i i' : grid0.Coords), (∀ a, reads0_0 a = true → i a = i' a) → cc0_transform_0 inb_S1_S1_0 numel1_S1 pf i = cc0_transform_0 inb_S1_S1_0 numel1_S1 pf i'
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .f32 = 32 ∨ (Rect.block (s := S4096x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x4096.size a
  hwx1_5 : ∀ i : grid1.Coords, EltTy.bits .f32 = 32 ∨ (Rect.block (s := S1x4096) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x4096.size a
  hwx1_6 : ∀ i : grid1.Coords, EltTy.bits .f32 = 32 ∨ (Rect.block (s := S1x4096) S1x1024.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S3072x1024.size a < S50257x1024.size a
  hwx2_1 : ∀ i : grid2.Coords, EltTy.bits .f32 = 32 ∨ (Rect.unit (s := S50257x1024) (fun a => cc2_transform_1 i a * S3072x1024.size a) (fun a => (Pipeline.Clip.of (cc2_transform_1 i a) (S3072x1024.size a) (S50257x1024.size a)).extent (S3072x1024.size a)) fun a => Pipeline.Clip.inb (Pipeline.Clip.ok_of (hstart2_1 i a))).WholeWords (EltTy.packing .f32)
  hwxs2_1 : ∀ i : grid2.Coords, EltTy.bits .f32 = 32 ∨ (Rect.unit (s := S3072x1024) (fun _ => 0) (fun a => (Pipeline.Clip.of (cc2_transform_1 i a) (S3072x1024.size a) (S50257x1024.size a)).extent (S3072x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x3072.size a < S1x50257.size a
  hwx2_2 : ∀ i : grid2.Coords, EltTy.bits .f32 = 32 ∨ (Rect.unit (s := S1x50257) (fun a => cc2_transform_2 i a * S1x3072.size a) (fun a => (Pipeline.Clip.of (cc2_transform_2 i a) (S1x3072.size a) (S1x50257.size a)).extent (S1x3072.size a)) fun a => Pipeline.Clip.inb (Pipeline.Clip.ok_of (hstart2_2 i a))).WholeWords (EltTy.packing .f32)
  hwxs2_2 : ∀ i : grid2.Coords, EltTy.bits .f32 = 32 ∨ (Rect.unit (s := S1x3072) (fun _ => 0) (fun a => (Pipeline.Clip.of (cc2_transform_2 i a) (S1x3072.size a) (S1x50257.size a)).extent (S1x3072.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x3072.size a < S1x50257.size a
  hwx2_3 : ∀ i : grid2.Coords, EltTy.bits .f32 = 32 ∨ (Rect.unit (s := S1x50257) (fun a => cc2_transform_3 i a * S1x3072.size a) (fun a => (Pipeline.Clip.of (cc2_transform_3 i a) (S1x3072.size a) (S1x50257.size a)).extent (S1x3072.size a)) fun a => Pipeline.Clip.inb (Pipeline.Clip.ok_of (hstart2_3 i a))).WholeWords (EltTy.packing .f32)
  hwxs2_3 : ∀ i : grid2.Coords, EltTy.bits .f32 = 32 ∨ (Rect.unit (s := S1x3072) (fun _ => 0) (fun a => (Pipeline.Clip.of (cc2_transform_3 i a) (S1x3072.size a) (S1x50257.size a)).extent (S1x3072.size a)) fun a => (Nat.zero_add _).trans_le (Pipeline.Clip.extent_le (Pipeline.Clip.ok_of (hstart2_3 i a)))).WholeWords (EltTy.packing .f32)

variable [Facts₀]

def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf

abbrev spec0_0 : Pipeline.WinSpec sig grid0.rank :=
  Pipeline.WinSpec.ofSpec (Memref.whole main_v3) S1x1x1024.size reads0_0 false false 1 stage0_0 sem0_0 nbuf0_0 hstage0_0

abbrev spec0_1 : Pipeline.WinSpec sig grid0.rank :=
  Pipeline.WinSpec.ofSpec (Memref.whole main_v1) S1x1024.size reads0_1 false true 1 stage0_1 sem0_1 nbuf0_1 hstage0_1

abbrev spec0_2 : Pipeline.WinSpec sig grid0.rank :=
  Pipeline.WinSpec.ofSpec (Memref.whole main_arg3) S512x1024.size reads0_2 false true 1 stage0_2 sem0_2 nbuf0_2 hstage0_2

abbrev spec0_3 : Pipeline.WinSpec sig grid0.rank :=
  Pipeline.WinSpec.ofSpec (Memref.whole main_arg5) S512x2048.size reads0_3 false true 1 stage0_3 sem0_3 nbuf0_3 hstage0_3

abbrev spec0_4 : Pipeline.WinSpec sig grid0.rank :=
  Pipeline.WinSpec.ofSpec (Memref.whole main_v4) S1x512.size reads0_4 false true 1 stage0_4 sem0_4 nbuf0_4 hstage0_4

abbrev spec0_5 : Pipeline.WinSpec sig grid0.rank :=
  Pipeline.WinSpec.ofSpec (Memref.whole main_arg7) S1024x2048.size reads0_5 false true 1 stage0_5 sem0_5 nbuf0_5 hstage0_5

abbrev spec0_6 : Pipeline.WinSpec sig grid0.rank :=
  Pipeline.WinSpec.ofSpec (Memref.whole main_v5) S1x1024.size reads0_6 false true 1 stage0_6 sem0_6 nbuf0_6 hstage0_6

abbrev spec0_7 : Pipeline.WinSpec sig grid0.rank :=
  Pipeline.WinSpec.ofSpec (Memref.whole main_v9_0) S1x1024.size reads0_7 true true 1 stage0_7 sem0_7 nbuf0_7 hstage0_7

abbrev spec0_8 : Pipeline.WinSpec sig grid0.rank :=
  Pipeline.WinSpec.ofSpec (Memref.whole main_v9_1) S1x512.size reads0_8 true true 1 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 inb_S1_S1_0 numel1_S1 pf | 1 => cc0_transform_1 | 2 => cc0_transform_2 | 3 => cc0_transform_3 | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | 5 => hreads0_5 | 6 => hreads0_6 | 7 => hreads0_7 | 8 => hreads0_8 | ⟨_ + 9, h⟩ => absurd h (Nat.not_lt.2 (Nat.le_add_left _ _))
def ok0 (pf : pre0.Contents (Elt F)) : Prop :=
  (∀ i : grid0.Coords, ∃ h : (∀ a, (cc0_transform_0 inb_S1_S1_0 numel1_S1 pf i a + 1) * S1x1x1024.size a ≤ S50257x1x1024.size a), EltTy.bits .f32 = 32 ∨ (Rect.block (s := S50257x1x1024) S1x1x1024.size (cc0_transform_0 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | 5 => hwx0_5 | 6 => hwx0_6 | 7 => hwx0_7 | 8 => hwx0_8 | ⟨_ + 9, h⟩ => absurd h (Nat.not_lt.2 (Nat.le_add_left _ _))
abbrev win1_0 : Pipeline.Window sig grid1 :=
  Pipeline.Window.ofSpec (Memref.whole main_v9_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg13) S3072x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v8) S1x3072.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v39) S1x3072.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where
  harr0 : ∀ w, (spec0 w).arr.IsWhole

variable [Facts]
-- ==== ReferenceIdeal.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S4096x1024 : Shape := ⟨2, ![4096, 1024]⟩
abbrev S4096 : Shape := ⟨1, ![4096]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x4096 : Shape := ⟨2, ![1024, 4096]⟩
abbrev S1x4096 : Shape := ⟨2, ![1, 4096]⟩
abbrev S1024x50257 : Shape := ⟨2, ![1024, 50257]⟩
abbrev S1x50257 : Shape := ⟨2, ![1, 50257]⟩

abbrev nBuf : Space → Nat
  | .hbm => 118
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1x1024, .f32⟩
  | .hbm, ⟨3, _⟩ => ⟨S512x1024, .f32⟩
  | .hbm, ⟨4, _⟩ => ⟨S50257x1024, .f32⟩
  | .hbm, ⟨5, _⟩ => ⟨S512x2048, .f32⟩
  | .hbm, ⟨6, _⟩ => ⟨S512, .f32⟩
  | .hbm, ⟨7, _⟩ => ⟨S1024x2048, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S4096, .f32⟩
  | .hbm, ⟨12, _⟩ => ⟨S4096, .f32⟩
  | .hbm, ⟨13, _⟩ => ⟨S50257x1024, .f32⟩
  | .hbm, ⟨14, _⟩ => ⟨S50257, .f32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1x1, .i32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S2048x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x512, .f32⟩
  | .hbm, ⟨44, _⟩ => ⟨S1x512, .f32⟩
  | .hbm, ⟨45, _⟩ => ⟨S1x1024, .f32⟩
  | .hbm, ⟨46, _⟩ => ⟨S1x2048, .f32⟩
  | .hbm, ⟨47, _⟩ => ⟨S2048x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1024x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S1024x4096, .f32⟩
  | .hbm, ⟨59, _⟩ => ⟨S1x4096, .f32⟩
  | .hbm, ⟨60, _⟩ => ⟨S1x4096, .f32⟩
  | .hbm, ⟨61, _⟩ => ⟨S1x4096, .f32⟩
  | .hbm, ⟨62, _⟩ => ⟨S1x4096, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S_, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1024x50257, .f32⟩
  | .hbm, ⟨98, _⟩ => ⟨S1x50257, .f32⟩
  | .hbm, ⟨99, _⟩ => ⟨S1x50257, .f32⟩
  | .hbm, ⟨100, _⟩ => ⟨S1x50257, .f32⟩
  | .hbm, ⟨101, _⟩ => ⟨S_, .f32⟩
  | .hbm, ⟨102, _⟩ => ⟨S1, .f32⟩
  | .hbm, ⟨103, _⟩ => ⟨S_, .f32⟩
  | .hbm, ⟨104, _⟩ => ⟨S1, .f32⟩
  | .hbm, ⟨105, _⟩ => ⟨S1, .f32⟩
  | .hbm, ⟨106, _⟩ => ⟨S1x1, .f32⟩
  | .hbm, ⟨107, _⟩ => ⟨S1x50257, .f32⟩
  | .hbm, ⟨108, _⟩ => ⟨S1x50257, .f32⟩
  | .hbm, ⟨109, _⟩ => ⟨S1x50257, .f32⟩
  | .hbm, ⟨110, _⟩ => ⟨S_, .f32⟩
  | .hbm, ⟨111, _⟩ => ⟨S1, .f32⟩
  | .hbm, ⟨112, _⟩ => ⟨S1x1, .f32⟩
  | .hbm, ⟨113, _⟩ => ⟨S1x1, .f32⟩
  | .hbm, ⟨114, _⟩ => ⟨S1x50257, .f32⟩
  | .hbm, ⟨115, _⟩ => ⟨S1x50257, .f32⟩
  | .hbm, ⟨116, _⟩ => ⟨S1x1x1024, .f32⟩
  | .hbm, ⟨117, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_7 : Ref sig .tc := ⟨.hbm, 89, rfl⟩
abbrev main_v63 : Ref sig .tc := ⟨.hbm, 90, rfl⟩
abbrev main_v64 : Ref sig .tc := ⟨.hbm, 91, rfl⟩
abbrev main_cst_8 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call1_cst : Ref sig .tc := ⟨.hbm, 101, rfl⟩
abbrev main_call1_v0 : Ref sig .tc := ⟨.hbm, 102, rfl⟩
abbrev main_call1_cst_0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_cst_1 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S4096x1024_S1024x4096_1_0 : S4096x1024.Transposes [1, 0] S1024x4096
  bcast_S4096_S1x4096_1 : S4096.BroadcastsInDim S1x4096 (![1] : Fin 1 → Fin S1x4096.rank)
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x4096_S1x4096_1_0_0_1_n_n_wf : DotDims.WF S1x1024 S1024x4096 S1x4096 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.Hand.Kernel.Table.lean ====
/- The prefetched table of the first pallas_call: one word, the token index clamped by the host into [0, 50256]
   (the larger of 0 and the index, then the smaller of 50256 and that, both in the signed order), so the row block it
   selects lies inside the embedding table whatever the index was; for a non-negative index it is the smaller of the
   index and 50256. -/
import proofs.«413536_j14714557956454_3_alg».proof.Proof.Gen.Kernel.Regions
import Idealize.ShloMosaic.Lib.StableHlo.Run

noncomputable section

namespace Cert.Kernel.Hand

open Cert.Kernel Cert.Kernel.Gen
open Idealize.ShloMosaic Idealize.ShloMosaic.TcCoe
open Idealize.SL Idealize.SL.Sem

/-- The clamp on one word: the smaller of 50256 and the larger of 0 and the word, both in the signed order. -/
def clampWord (x : BitVec 32) : BitVec 32 := IntOp.minsi 50256#32 (IntOp.maxsi 0#32 x)

/-- A 32-bit word read as a signed integer is the word itself below 2^31, and the word less 2^32 from there on. -/
theorem toInt_cases (x : BitVec 32) : (x.toInt = (x.toNat : Int) ∧ x.toNat < 2147483648) ∨ (x.toInt = (x.toNat : Int) - 4294967296 ∧ 2147483648 ≤ x.toNat) := by
  have h := BitVec.toInt_eq_toNat_cond x
  have hl := x.isLt
  by_cases hc : 2 * x.toNat < 2 ^ 32
  · left; rw [if_pos hc] at h; exact ⟨h, by omega⟩
  · right; rw [if_neg hc] at h; exact ⟨by omega, by omega⟩

/-- The clamped word is at most 50256 as a natural number, whatever the word. -/
theorem clampWord_le (x : BitVec 32) : (clampWord x).toNat ≤ 50256 := by
  unfold clampWord IntOp.minsi IntOp.maxsi
  simp only [BitVec.slt]
  have hx := toInt_cases x
  have h0 : (0#32 : BitVec 32).toInt = 0 := by decide
  have h1 : (50256#32 : BitVec 32).toInt = 50256 := by decide
  have h2 : (50256#32 : BitVec 32).toNat = 50256 := by decide
  have h3 : (0#32 : BitVec 32).toNat = 0 := by decide
  split <;> split <;> simp_all <;> omega

/-- For a non-negative word the clamp is the smaller of the word and 50256. -/
theorem clampWord_of_nonneg (x : BitVec 32) (h : 0 ≤ x.toInt) : (clampWord x).toNat = min x.toNat 50256 := by
  unfold clampWord IntOp.minsi IntOp.maxsi
  simp only [BitVec.slt]
  have hx := toInt_cases x
  have h0 : (0#32 : BitVec 32).toInt = 0 := by decide
  have h1 : (50256#32 : BitVec 32).toInt = 50256 := by decide
  have h2 : (50256#32 : BitVec 32).toNat = 50256 := by decide
  have h3 : (0#32 : BitVec 32).toNat = 0 := by decide
  split <;> split <;> simp_all <;> omega

variable {F : FTy → Type} [FloatOps F]

variable (m : (ℓ : Loc nD τ sig) → Buf (Elt F) ℓ)

/-- After the host's clamp the scalar-memory buffer the index map reads holds, at its one entry, the clamp of the
    token index. -/
theorem tbl_word (c : Dev nD) : (V3 m c main_v0 : (⟨S1, .i32⟩ : BufTy).Contents (Elt F))
    = fun i => clampWord ((m ((c : Thread nD τ).loc main_arg0) : (⟨S1, .i32⟩ : BufTy).Contents (Elt F)) i) := by
  dsimp only [V3, V2, V1, V0, hostOps0, hostOps0_1, hostOps0_2]
  after_results
  rfl

/-- The table's contents: what the clamp leaves in that buffer (the one device's). -/
def tbl : pre0.Contents (Elt F) := fun k => V3 m (0 : Dev nD) (pre0.ref k)

/-- The table's one word, as the index map reads it. -/
theorem tbl_at (i : S1.Idx) : (tbl m 0 : (⟨S1, .i32⟩ : BufTy).Contents (Elt F)) i
    = clampWord ((m (((0 : Dev nD) : Thread nD τ).loc main_arg0) : (⟨S1, .i32⟩ : BufTy).Contents (Elt F)) i) :=
  congrFun (tbl_word m 0) i

/-- Any table whose one word is at most 50256 is admissible: the row block it selects, rows `w … w` of 50257, lies
    inside the embedding table (the other two axes are whole). Stated of a table that is a variable. -/
theorem ok0_of_le (pf : pre0.Contents (Elt F))
    (h : (pf.at 0 (Rect.unit (s := S1) ![0] S1.size inb_S1_S1_0) numel1_S1 : BitVec 32).toNat ≤ 50256) : ok0 pf := by
  intro i
  refine ⟨fun a => ?_, Or.inl rfl⟩
  match a with
  | ⟨0, _⟩ =>
    show ((pf.at 0 (Rect.unit (s := S1) ![0] S1.size inb_S1_S1_0) numel1_S1 : BitVec 32).toNat + 1) * 1 ≤ 50257
    omega
  | ⟨1, _⟩ =>
    show ((0#32 : BitVec 32).toNat + 1) * 1 ≤ 1
    decide
  | ⟨2, _⟩ =>
    show ((0#32 : BitVec 32).toNat + 1) * 1024 ≤ 1024
    decide

/-- The table is admissible: its word is a clamp's result. -/
theorem ok_tbl : ok0 (tbl m) := by
  refine ok0_of_le (tbl m) ?_
  have e := tbl_at m ((Rect.unit (s := S1) ![0] S1.size inb_S1_S1_0).emb (Shape.Idx.first (numel1_S1.symm ▸ Nat.one_pos)))
  refine (congrArg BitVec.toNat e).trans_le ?_
  exact clampWord_le _

end Cert.Kernel.Hand

end
-- ==== Proof.Hand.Kernel.Region0.lean ====
/- The first pallas_call, at one grid point. Its window 0 is the row of the embedding table (seen as
   [50257, 1, 1024]) that the prefetched, clamped token index picks; windows 1 to 6 are whole arrays (the
   hidden state, the encoder outputs, the attention matrix and bias, the combining matrix and bias). The body
   reads the seven input blocks and leaves in window 8's buffer the attention weights (a softmax over the 512
   encoder positions) and in window 7's buffer the rectified combined input, each a function of the input
   blocks alone. The table's contents stay a variable throughout: every fact below holds at any admissible
   contents. -/
import proofs.«413536_j14714557956454_3_alg».proof.Proof.Gen.Kernel.Launch
import proofs.«413536_j14714557956454_3_alg».proof.Proof.Gen.Kernel.Skeleton
import proofs.«413536_j14714557956454_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- the admissible contents of the prefetched table: a variable throughout
variable (a : (pcfg0 (F := F)).Adm)

/-! ## The windows' blocks -/

/-- Window `w`'s block at point `t`, read off its array as the region finds it. For window 0 the block's
    row is the table's word, whatever it is. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- Input window 0's staging buffer holds its block at the point, for any proof data whose array is the
    entry contents and whose body leaves the block in place: an input is uncut and never idle. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, for any proof data whose array is the
    entry contents and whose body leaves the block in place: an input is uncut and never idle. -/
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, for any proof data whose array is the
    entry contents and whose body leaves the block in place: an input is uncut and never idle. -/
theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, for any proof data whose array is the
    entry contents and whose body leaves the block in place: an input is uncut and never idle. -/
theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at the point, for any proof data whose array is the
    entry contents and whose body leaves the block in place: an input is uncut and never idle. -/
theorem before0_4_of {c : Dev nD} (dat : Dat τ (Elt F) Unit ℕ (UR sig nD τ) ℕ (cfg0 a) c) (hA : dat.A 4 = V c (Pipeline.arrRef spec0 4))
    (hafter : ∀ t, dat.after 4 t = iblk0 V a c 4 t) (t : Fin (cfg0 a).N) (d) : dat.before 4 t d = iblk0 V a c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at the point, for any proof data whose array is the
    entry contents and whose body leaves the block in place: an input is uncut and never idle. -/
theorem before0_5_of {c : Dev nD} (dat : Dat τ (Elt F) Unit ℕ (UR sig nD τ) ℕ (cfg0 a) c) (hA : dat.A 5 = V c (Pipeline.arrRef spec0 5))
    (hafter : ∀ t, dat.after 5 t = iblk0 V a c 5 t) (t : Fin (cfg0 a).N) (d) : dat.before 5 t d = iblk0 V a c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at the point, for any proof data whose array is the
    entry contents and whose body leaves the block in place: an input is uncut and never idle. -/
theorem before0_6_of {c : Dev nD} (dat : Dat τ (Elt F) Unit ℕ (UR sig nD τ) ℕ (cfg0 a) c) (hA : dat.A 6 = V c (Pipeline.arrRef spec0 6))
    (hafter : ∀ t, dat.after 6 t = iblk0 V a c 6 t) (t : Fin (cfg0 a).N) (d) : dat.before 6 t d = iblk0 V a c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1x1x1024 := Rect.unit (s := S1x1x1024) ![0, 0, 0] S1x1x1024.size inb_S1x1x1024_S1x1x1024_0_0_0
abbrev r0_1 : Rect S1x1024 := Rect.unit (s := S1x1024) ![0, 0] S1x1024.size inb_S1x1024_S1x1024_0_0
abbrev r0_2 : Rect S512x1024 := Rect.unit (s := S512x1024) ![0, 0] S512x1024.size inb_S512x1024_S512x1024_0_0
abbrev r0_3 : Rect S512x2048 := Rect.unit (s := S512x2048) ![0, 0] S512x2048.size inb_S512x2048_S512x2048_0_0
abbrev r0_4 : Rect S1x512 := Rect.unit (s := S1x512) ![0, 0] S1x512.size inb_S1x512_S1x512_0_0
abbrev r0_5 : Rect S1024x2048 := Rect.unit (s := S1024x2048) ![0, 0] S1024x2048.size inb_S1024x2048_S1024x2048_0_0

theorem offs0_2 : (![0, 0] : Fin 2 → Nat) = fun _ => 0 := by decide
theorem offs0_3 : (![0, 0, 0] : Fin 3 → Nat) = fun _ => 0 := by decide

/-! ## What the body leaves in each output window's buffer -/

/-- Window 7's buffer after the body, from the input blocks: its one store, of the rectified combined input. -/
def out0_7 (x0 : Vec F S1x1x1024 .f32) (x1 : Vec F S1x1024 .f32) (x2 : Vec F S512x1024 .f32) (x3 : Vec F S512x2048 .f32) (x4 : Vec F S1x512 .f32) (x5 : Vec F S1024x2048 .f32) (x6 : Vec F S1x1024 .f32) : Vec F S1x1024 .f32 :=
  View.canon [⟨r0_1, k0_pay3 (View.ld x0 r0_0) (View.ld x1 r0_1) (View.ld x3 r0_3) (View.ld x4 r0_4) (View.ld x2 r0_2) (View.ld x5 r0_5) (View.ld x6 r0_1)⟩]

/-- The store is of the whole buffer, so it covers it. -/
theorem cover0_7 (p0 : Vec F S1x1024 .f32) (y : S1x1024.Idx) :
    ∃ pc ∈ ([⟨r0_1, p0⟩] : List (View.Piece (Elt F) S1x1024 .f32)), y ∈ pc.1.set :=
  ⟨_, List.mem_singleton_self _, View.mem_set_unit_zero offs0_2 inb_S1x1024_S1x1024_0_0 y⟩

/-- Whole-buffer loads read the blocks themselves and the one whole-buffer store leaves its payload. -/
theorem out0_7_eq (x0 : Vec F S1x1x1024 .f32) (x1 : Vec F S1x1024 .f32) (x2 : Vec F S512x1024 .f32) (x3 : Vec F S512x2048 .f32) (x4 : Vec F S1x512 .f32) (x5 : Vec F S1024x2048 .f32) (x6 : Vec F S1x1024 .f32) :
    out0_7 x0 x1 x2 x3 x4 x5 x6 = k0_pay3 x0 x1 x3 x4 x2 x5 x6 := by
  unfold out0_7
  rw [View.canon_unit_zero offs0_2, View.ld_unit_zero offs0_3, View.ld_unit_zero offs0_2 _ x1, View.ld_unit_zero offs0_2 _ x3,
    View.ld_unit_zero offs0_2 _ x4, View.ld_unit_zero offs0_2 _ x2, View.ld_unit_zero offs0_2 _ x5, View.ld_unit_zero offs0_2 _ x6]

/-- Window 8's buffer after the body, from the input blocks: its one store, of the attention weights. -/
def out0_8 (x0 : Vec F S1x1x1024 .f32) (x1 : Vec F S1x1024 .f32) (x3 : Vec F S512x2048 .f32) (x4 : Vec F S1x512 .f32) : Vec F S1x512 .f32 :=
  View.canon [⟨r0_4, k0_pay2 (View.ld x0 r0_0) (View.ld x1 r0_1) (View.ld x3 r0_3) (View.ld x4 r0_4)⟩]

theorem cover0_8 (p0 : Vec F S1x512 .f32) (y : S1x512.Idx) :
    ∃ pc ∈ ([⟨r0_4, p0⟩] : List (View.Piece (Elt F) S1x512 .f32)), y ∈ pc.1.set :=
  ⟨_, List.mem_singleton_self _, View.mem_set_unit_zero offs0_2 inb_S1x512_S1x512_0_0 y⟩

theorem out0_8_eq (x0 : Vec F S1x1x1024 .f32) (x1 : Vec F S1x1024 .f32) (x3 : Vec F S512x2048 .f32) (x4 : Vec F S1x512 .f32) :
    out0_8 x0 x1 x3 x4 = k0_pay2 x0 x1 x3 x4 := by
  unfold out0_8
  rw [View.canon_unit_zero offs0_2, View.ld_unit_zero offs0_3, View.ld_unit_zero offs0_2 _ x1, View.ld_unit_zero offs0_2 _ x3,
    View.ld_unit_zero offs0_2 _ x4]

/-! ## The body's triple -/

set_option maxHeartbeats 1000000 in
/-- The body on whole staging memrefs, the inputs' at read contents `xW` and the outputs' at anything, runs to the
    continuation holding the inputs' as they were and each output's at `out0_W` of the inputs'. The table's
    memref is handed over and never read, so nothing is asked of it. -/
theorem sound_kernel0 (c : Dev nD) (E : Set ℕ) (i : grid0.Coords) (arg1 : Memref sig .tc .smem S1 .i32) (harg1 : arg1.IsWhole)
    (arg2 : Memref sig .tc .vmem S1x1x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S1x512 .f32) (harg6 : arg6.IsWhole) (arg7 : Memref sig .tc .vmem S1024x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512 .f32) (harg10 : arg10.IsWhole)
    (x0 : Vec F S1x1x1024 .f32) (x1 : Vec F S1x1024 .f32) (x2 : Vec F S512x1024 .f32) (x3 : Vec F S512x2048 .f32) (x4 : Vec F S1x512 .f32) (x5 : Vec F S1024x2048 .f32) (x6 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out0_7 x0 x1 x2 x3 x4 x5 x6) ∗ owns (c : Thread nD τ) arg10 fullShare (out0_8 x0 x1 x3 x4)) -∗ K ⟨⟩))
      ⊢ wp frame (wpE (defs₀ (F := F)) Variants.none c none) E (cc0__ac_kernel i arg1 harg1 arg2 harg2 arg3 harg3 arg4 harg4 arg5 harg5 arg6 harg6 arg7 harg7 arg8 harg8 arg9 harg9 arg10 harg10) K := by
  simp only [cc0__ac_kernel_eq_skeleton]; unfold cc0__ac_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- The proof data on core `c`: the arrays as the region finds them; after the body each input's buffer at its
    block and each output's at `out0_W` of the input blocks; the invariant the scoped rest, the generator register
    and the table's buffer at its contents, all untouched; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => iblk0 V a c 6 t
    | ⟨7, _⟩ => out0_7 (iblk0 V a c 0 t) (iblk0 V a c 1 t) (iblk0 V a c 2 t) (iblk0 V a c 3 t) (iblk0 V a c 4 t) (iblk0 V a c 5 t) (iblk0 V a c 6 t)
    | ⟨8, _⟩ => out0_8 (iblk0 V a c 0 t) (iblk0 V a c 1 t) (iblk0 V a c 3 t) (iblk0 V a c 4 t)
  Φ _ := iprop(Pipeline.ΦA spec0 c ∗ Pipeline.prefHeld pre0 c (fun _ => fullShare) a.1)
  q _ := fullShare
  owed _ := 0

theorem A_eq0 (c : Dev nD) (w : Fin (cfg0 a).W) : (dat0 V a c).A w = V c (Pipeline.arrRef spec0 w) := by
  dsimp only [dat0]

/-- What the body leaves, window by window. -/
theorem after0_0 (c : Dev nD) (t : Fin (cfg0 a).N) : (dat0 V a c).after 0 t = iblk0 V a c 0 t := by dsimp only [dat0]; rfl
theorem after0_1 (c : Dev nD) (t : Fin (cfg0 a).N) : (dat0 V a c).after 1 t = iblk0 V a c 1 t := by dsimp only [dat0]; rfl
theorem after0_2 (c : Dev nD) (t : Fin (cfg0 a).N) : (dat0 V a c).after 2 t = iblk0 V a c 2 t := by dsimp only [dat0]; rfl
theorem after0_3 (c : Dev nD) (t : Fin (cfg0 a).N) : (dat0 V a c).after 3 t = iblk0 V a c 3 t := by dsimp only [dat0]; rfl
theorem after0_4 (c : Dev nD) (t : Fin (cfg0 a).N) : (dat0 V a c).after 4 t = iblk0 V a c 4 t := by dsimp only [dat0]; rfl
theorem after0_5 (c : Dev nD) (t : Fin (cfg0 a).N) : (dat0 V a c).after 5 t = iblk0 V a c 5 t := by dsimp only [dat0]; rfl
theorem after0_6 (c : Dev nD) (t : Fin (cfg0 a).N) : (dat0 V a c).after 6 t = iblk0 V a c 6 t := by dsimp only [dat0]; rfl
theorem after0_7 (c : Dev nD) (t : Fin (cfg0 a).N) : (dat0 V a c).after 7 t = out0_7 (iblk0 V a c 0 t) (iblk0 V a c 1 t) (iblk0 V a c 2 t) (iblk0 V a c 3 t) (iblk0 V a c 4 t) (iblk0 V a c 5 t) (iblk0 V a c 6 t) := by dsimp only [dat0]; rfl
theorem after0_8 (c : Dev nD) (t : Fin (cfg0 a).N) : (dat0 V a c).after 8 t = out0_8 (iblk0 V a c 0 t) (iblk0 V a c 1 t) (iblk0 V a c 3 t) (iblk0 V a c 4 t) := by dsimp only [dat0]; rfl

/-- Each input's staging buffer holds its block at the point. -/
theorem before0_0 (c : Dev nD) (t : Fin (cfg0 a).N) (d) : (dat0 V a c).before 0 t d = iblk0 V a c 0 t :=
  before0_0_of V a (dat0 V a c) (A_eq0 V a c 0) (after0_0 V a c) t d
theorem before0_1 (c : Dev nD) (t : Fin (cfg0 a).N) (d) : (dat0 V a c).before 1 t d = iblk0 V a c 1 t :=
  before0_1_of V a (dat0 V a c) (A_eq0 V a c 1) (after0_1 V a c) t d
theorem before0_2 (c : Dev nD) (t : Fin (cfg0 a).N) (d) : (dat0 V a c).before 2 t d = iblk0 V a c 2 t :=
  before0_2_of V a (dat0 V a c) (A_eq0 V a c 2) (after0_2 V a c) t d
theorem before0_3 (c : Dev nD) (t : Fin (cfg0 a).N) (d) : (dat0 V a c).before 3 t d = iblk0 V a c 3 t :=
  before0_3_of V a (dat0 V a c) (A_eq0 V a c 3) (after0_3 V a c) t d
theorem before0_4 (c : Dev nD) (t : Fin (cfg0 a).N) (d) : (dat0 V a c).before 4 t d = iblk0 V a c 4 t :=
  before0_4_of V a (dat0 V a c) (A_eq0 V a c 4) (after0_4 V a c) t d
theorem before0_5 (c : Dev nD) (t : Fin (cfg0 a).N) (d) : (dat0 V a c).before 5 t d = iblk0 V a c 5 t :=
  before0_5_of V a (dat0 V a c) (A_eq0 V a c 5) (after0_5 V a c) t d
theorem before0_6 (c : Dev nD) (t : Fin (cfg0 a).N) (d) : (dat0 V a c).before 6 t d = iblk0 V a c 6 t :=
  before0_6_of V a (dat0 V a c) (A_eq0 V a c 6) (after0_6 V a c) t d

/-! ## The body obligation -/

/-- The current staging memref of each window at point `t`. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)
abbrev st0_7 (t : Fin (cfg0 a).N) := ((cfg0 a).win 7).stage ((cfg0 a).slots t 7)
abbrev st0_8 (t : Fin (cfg0 a).N) := ((cfg0 a).win 8).stage ((cfg0 a).slots t 8)

/-- The body at point `t`, on what the pipeline calls it with: the table's memref, then each window's current
    staging memref. -/
abbrev bodyAt0 (t : Fin (cfg0 a).N) : Prog (TpuEff nD τ sig (Elt F) Λ₀ .tc) PUnit :=
  cc0__ac_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

/-- What the body is called with at point `t`, -/
def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d))
    ∗ (∃ d, owns (c : Thread nD τ) (st0_7 a t) fullShare ((dat0 V a c).before 7 t d))
    ∗ (∃ d, owns (c : Thread nD τ) (st0_8 a t) fullShare ((dat0 V a c).before 8 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t)
    ∗ owns (c : Thread nD τ) (st0_7 a t) fullShare ((dat0 V a c).after 7 t)
    ∗ owns (c : Thread nD τ) (st0_8 a t) fullShare ((dat0 V a c).after 8 t))

/-- The body at the point: the inputs' memrefs hold their blocks, so the body's triple applies; the invariant (the
    table's buffer within it) and what the core owes pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3, before0_4, before0_5, before0_6]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ _ _ (iblk0 V a c 0 t) (iblk0 V a c 1 t) (iblk0 V a c 2 t) (iblk0 V a c 3 t) (iblk0 V a c 4 t) (iblk0 V a c 5 t) (iblk0 V a c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at the one point of the grid. -/
theorem body_obligation0 (c : Dev nD) : BodyObligation (dat0 (F := F) V a c) (defs₀ (F := F)) Variants.none () Set.univ := fun t => by
  rw [bigSep_W0, bigSep_W0]
  exact sound_body0 V a c t

end Cert.Kernel.Hand

end
-- ==== Proof.Hand.Kernel.Region1.lean ====
/- The second pallas_call: the four gate tiles x·W_ihᵀ + b_ih + h·W_hhᵀ + b_hh, one tile of 1024 gate columns a grid
   point. At a parameter `V` (the TensorCore's buffer contents when the region is entered): each window's block at a
   point, what the body leaves in the output's buffer (its one whole-buffer store, which is the payload), the body's
   triple on whole staging memrefs, the pipeline's proof data and the body obligation at every point of the grid. -/
import proofs.«413536_j14714557956454_3_alg».proof.Proof.Gen.Kernel.Launch
import proofs.«413536_j14714557956454_3_alg».proof.Proof.Gen.Kernel.Skeleton
import proofs.«413536_j14714557956454_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for any proof
    data whose array is `V`'s and whose body leaves the block in place: where the window is not fetched its block
    index has not moved since the point before. No window is cut and none is idle. The input x and the state h
    (windows 0, 1) have a constant index map and are fetched once; the weights' row blocks (2, 3) and the biases'
    column blocks (4, 5) move with the point. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [1, 1024] buffer: the rectangle of every load and of the store on windows 0, 1, 4, 5, 6. -/
abbrev rv1 : Rect S1x1024 := Rect.unit (s := S1x1024) ![0, 0] S1x1024.size inb_S1x1024_S1x1024_0_0
/-- The whole [1024, 1024] buffer: the rectangle of the loads of the two weight blocks. -/
abbrev rw1 : Rect S1024x1024 := Rect.unit (s := S1024x1024) ![0, 0] S1024x1024.size inb_S1024x1024_S1024x1024_0_0

/-! ## What the body leaves in the output window's buffer -/

/-- Window 6's staging buffer after the body, from the input windows' blocks: its one store, the gate tile
    x·W_ihᵀ + b_ih + h·W_hhᵀ + b_hh of the loaded buffers. -/
def out1_6 (x0 x1 : Vec F S1x1024 .f32) (x2 x3 : Vec F S1024x1024 .f32) (x4 x5 : Vec F S1x1024 .f32) : Vec F S1x1024 .f32 :=
  View.canon [⟨rv1, k1_pay1 (View.ld x0 rv1) (View.ld x1 rv1) (View.ld x2 rw1) (View.ld x3 rw1) (View.ld x4 rv1) (View.ld x5 rv1)⟩]

/-- The one store is of the whole buffer, so it covers it. -/
theorem cover1_6 (p0 : Vec F S1x1024 .f32) (y : S1x1024.Idx) :
    ∃ pc ∈ ([⟨rv1, p0⟩] : List (View.Piece (Elt F) S1x1024 .f32)), y ∈ pc.1.set :=
  View.cover_of_tiled [⟨rv1, p0⟩] S1x1024.size (by rfl) y

/-- The offset of every access of the body, however spelt, is zero on both axes. -/
private theorem hz1 : (![0, 0] : Fin 2 → Nat) = fun _ => 0 := funext fun a => by fin_cases a <;> rfl

/-- One whole-buffer store leaves its payload, and a whole-buffer load reads the buffer: the output's buffer after
    the body is the gate tile of the six input buffers. -/
theorem out1_6_eq (x0 x1 : Vec F S1x1024 .f32) (x2 x3 : Vec F S1024x1024 .f32) (x4 x5 : Vec F S1x1024 .f32) :
    out1_6 x0 x1 x2 x3 x4 x5 = k1_pay1 x0 x1 x2 x3 x4 x5 := by
  unfold out1_6
  rw [View.canon_unit_zero (S := S1x1024) hz1 inb_S1x1024_S1x1024_0_0,
    View.ld_unit_zero (S := S1x1024) hz1 inb_S1x1024_S1x1024_0_0 x0,
    View.ld_unit_zero (S := S1x1024) hz1 inb_S1x1024_S1x1024_0_0 x1,
    View.ld_unit_zero (S := S1024x1024) hz1 inb_S1024x1024_S1024x1024_0_0 x2,
    View.ld_unit_zero (S := S1024x1024) hz1 inb_S1024x1024_S1024x1024_0_0 x3,
    View.ld_unit_zero (S := S1x1024) hz1 inb_S1x1024_S1x1024_0_0 x4,
    View.ld_unit_zero (S := S1x1024) hz1 inb_S1x1024_S1x1024_0_0 x5]

/-! ## The body's triple -/

set_option maxHeartbeats 1000000 in
/-- The kernel body on whole staging memrefs, the six inputs' at contents `x0 … x5` and the output's at anything, runs
    to the continuation holding the inputs' as they were and the output's at `out1_6` of them: six whole-buffer loads,
    a load of the output's buffer nothing reads, and the one store. -/
theorem sound_kernel1 (c : Dev nD) (E : Set ℕ) (i : grid1.Coords) (a0 : Memref sig .tc .vmem S1x1024 .f32) (h0 : a0.IsWhole) (a1 : Memref sig .tc .vmem S1x1024 .f32) (h1 : a1.IsWhole) (a2 : Memref sig .tc .vmem S1024x1024 .f32) (h2 : a2.IsWhole) (a3 : Memref sig .tc .vmem S1024x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole)
    (x0 x1 : Vec F S1x1024 .f32) (x2 x3 : Vec F S1024x1024 .f32) (x4 x5 : Vec F S1x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out1_6 x0 x1 x2 x3 x4 x5)) -∗ K ⟨⟩))
      ⊢ wp frame (wpE (defs₀ (F := F)) Variants.none c none) E (cc1__lstm_kernel i a0 h0 a1 h1 a2 h2 a3 h3 a4 h4 a5 h5 a6 h6) K := by
  simp only [cc1__lstm_kernel_eq_skeleton]; unfold cc1__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the pipeline on core `c`: the arrays as the region finds them; after the body at point `t` each
    input's buffer at its block and the output's at `out1_6` of the six input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one: the invariant, the core's debts, and each
    window's current staging memref (the output's at contents nothing names), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point of the grid. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Hand.Kernel.Region2.lean ====
/- The third pallas_call: the logits h1·W_outᵀ + b_out in 17 tiles of 3072 columns, the last tile cut at
   column 50257. Per point: the four windows' blocks; what the body leaves in the output tile's buffer, as a
   function of the three input buffers' whole contents; the body's triple; and the body obligation with the
   output window forgotten, in which the weight and bias buffers arrive filled out past the arrays' end by
   words nothing names and are handed back as they came. -/
import proofs.«413536_j14714557956454_3_alg».proof.Proof.Gen.Kernel.Launch
import proofs.«413536_j14714557956454_3_alg».proof.Proof.Gen.Kernel.Skeleton
import proofs.«413536_j14714557956454_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it: its part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The word the proof data fills a cut block out with past the array's end; nothing reads it. -/
abbrev zf : F .f32 := Scalar.ofBits .f32 0#32

/-! ## The body's accesses: each buffer whole -/

abbrev r2_0 : Rect S1x1024 := Rect.unit (s := S1x1024) ![0, 0] S1x1024.size inb_S1x1024_S1x1024_0_0
abbrev r2_1 : Rect S3072x1024 := Rect.unit (s := S3072x1024) ![0, 0] S3072x1024.size inb_S3072x1024_S3072x1024_0_0
abbrev r2_2 : Rect S1x3072 := Rect.unit (s := S1x3072) ![0, 0] S1x3072.size inb_S1x3072_S1x3072_0_0

/-! ## What the body leaves in the output tile's buffer -/

/-- The output tile's buffer after the body, from the whole contents of the three input buffers: its one store,
    of the tile h·Wᵀ + b over what the three whole loads read. -/
def out2_3 (x0 : Vec F S1x1024 .f32) (x1 : Vec F S3072x1024 .f32) (x2 : Vec F S1x3072 .f32) : Vec F S1x3072 .f32 :=
  View.canon [⟨r2_2, k2_pay1 (View.ld x0 r2_0) (View.ld x1 r2_1) (View.ld x2 r2_2)⟩]

/-- The store is of the whole buffer, so it covers it. -/
theorem cover2_3 (p0 : Vec F S1x3072 .f32) (y : S1x3072.Idx) :
    ∃ pc ∈ ([⟨r2_2, p0⟩] : List (View.Piece (Elt F) S1x3072 .f32)), y ∈ pc.1.set :=
  ⟨_, List.mem_singleton_self _, View.mem_set_unit_zero (funext fun a => by fin_cases a <;> rfl) inb_S1x3072_S1x3072_0_0 y⟩

/-- Whole loads read the contents and the whole store leaves its payload: the buffer holds the tile. -/
theorem out2_3_eq (x0 : Vec F S1x1024 .f32) (x1 : Vec F S3072x1024 .f32) (x2 : Vec F S1x3072 .f32) :
    out2_3 x0 x1 x2 = k2_pay1 x0 x1 x2 := by
  have hz : (![0, 0] : Fin 2 → Nat) = fun _ => 0 := funext fun a => by fin_cases a <;> rfl
  unfold out2_3
  rw [View.canon_unit_zero hz, View.ld_unit_zero hz, View.ld_unit_zero hz, View.ld_unit_zero hz]

/-! ## The body's triple -/

set_option maxHeartbeats 1000000 in
/-- The kernel body on whole staging memrefs, the three inputs' at any contents and the output's at anything, runs
    to the continuation holding the inputs' as they were and the output's at `out2_3` of them. -/
theorem sound_kernel2 (c : Dev nD) (E : Set ℕ) (i : grid2.Coords)
    (arg1 : Memref sig .tc .vmem S1x1024 .f32) (harg1 : arg1.IsWhole) (arg2 : Memref sig .tc .vmem S3072x1024 .f32) (harg2 : arg2.IsWhole)
    (arg3 : Memref sig .tc .vmem S1x3072 .f32) (harg3 : arg3.IsWhole) (arg4 : Memref sig .tc .vmem S1x3072 .f32) (harg4 : arg4.IsWhole)
    (x0 : Vec F S1x1024 .f32) (x1 : Vec F S3072x1024 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__logits_kernel i arg1 harg1 arg2 harg2 arg3 harg3 arg4 harg4) K := by
  simp only [cc2__logits_kernel_eq_skeleton]; unfold cc2__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The one window of the third call the frame forgets: its output. -/
def fgt2 : Fin cfg2.W → Bool := fun | 0 => false | 1 => false | 2 => false | 3 => true | ⟨_ + 4, h⟩ => absurd h (Nat.not_lt.2 (Nat.le_add_left _ _))

/-- The proof data of the third call on core `c`: the arrays as the region finds them; after the body at point `t`
    the hidden state's buffer at its block, the weight tile's and the bias tile's at their blocks filled out past
    the arrays' end with the zero word, and the output tile's at the tile computed from those three; the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (cfg2.win 1).fill (cfg2.grid.coords t) (fun _ => zf) (iblk2 V c 1 t)
    | ⟨2, _⟩ => (cfg2.win 2).fill (cfg2.grid.coords t) (fun _ => zf) (iblk2 V c 2 t)
    | ⟨3, _⟩ => out2_3 (iblk2 V c 0 t) ((cfg2.win 1).fill (cfg2.grid.coords t) (fun _ => zf) (iblk2 V c 1 t))
        ((cfg2.win 2).fill (cfg2.grid.coords t) (fun _ => zf) (iblk2 V c 2 t))
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) :
    (dat2 V c).after 1 t = (cfg2.win 1).fill (cfg2.grid.coords t) (fun _ => zf) (iblk2 V c 1 t) := by dsimp only [dat2]
theorem after2_2 (c : Dev nD) (t : Fin cfg2.N) :
    (dat2 V c).after 2 t = (cfg2.win 2).fill (cfg2.grid.coords t) (fun _ => zf) (iblk2 V c 2 t) := by dsimp only [dat2]
theorem after2_3 (c : Dev nD) (t : Fin cfg2.N) :
    (dat2 V c).after 3 t = out2_3 (iblk2 V c 0 t) ((cfg2.win 1).fill (cfg2.grid.coords t) (fun _ => zf) (iblk2 V c 1 t))
        ((cfg2.win 2).fill (cfg2.grid.coords t) (fun _ => zf) (iblk2 V c 2 t)) := by dsimp only [dat2]

/-! ## What the body finds -/

/-- The hidden state's buffer holds its block at every point, fetched there or not: the block index never moves. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight tile's and the bias tile's buffers are fetched at every point: each holds its block on the part
    inside the array and, past the array's end, whatever the buffer held. -/
theorem before2_1 (c : Dev nD) (t : Fin cfg2.N) (d) :
    (dat2 V c).before 1 t d = (cfg2.win 1).fill (cfg2.grid.coords t) d (iblk2 V c 1 t) := by
  rw [(dat2 V c).before_fetched 1 t (fetch2_1 t) d]; unfold Dat.fetched Dat.blockOf iblk2; rw [A_eq2]
theorem before2_2 (c : Dev nD) (t : Fin cfg2.N) (d) :
    (dat2 V c).before 2 t d = (cfg2.win 2).fill (cfg2.grid.coords t) d (iblk2 V c 2 t) := by
  rw [(dat2 V c).before_fetched 2 t (fetch2_2 t) d]; unfold Dat.fetched Dat.blockOf iblk2; rw [A_eq2]

/-! ## The body obligation with the output window forgotten, at a generic point -/

/-- What the body is called with at point `t`: the three inputs' buffers at what they then hold, the output's at anything, -/
def bodyPre2f (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ X, owns (c : Thread nD τ) (st2_3 t) fullShare X))

/-- and what it returns: the hidden state's at its block, the two cut windows' stated on the part their transfers
    move, the output's at anything. -/
def bodyPost2f (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t))))
    ∗ (∃ X, owns (c : Thread nD τ) (st2_3 t) fullShare X))

/-- The body at any point: the inputs' buffers hold their blocks, the cut ones filled out by words `d` nothing names,
    so the body's triple applies at those contents; each input comes back as it came, which on the moved part is
    the proof data's block whatever the filler; the invariant and the core's debts pass through unread. -/
theorem sound_body2f (c : Dev nD) (t : Fin cfg2.N) :
    bodyPre2f V c t ⊢ wp frame (wpE (defs₀ (F := F)) Variants.none c none) Set.univ (bodyAt2 t) (fun _ => bodyPost2f V c t) := by
  unfold bodyPre2f bodyPost2f bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, Window.cut_fill, Window.cut_fill]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t)
    ((cfg2.win 1).fill (cfg2.grid.coords t) d1 (iblk2 V c 1 t)) ((cfg2.win 2).fill (cfg2.grid.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

/-- At any float instance: the body obligation with the output window forgotten. -/
theorem body_obligation2_fgt (c : Dev nD) : BodyObligationLoose (dat2 (F := F) V c) (defs₀ (F := F)) Variants.none () Set.univ fgt2 := fun t => by
  rw [bigSep_W2, bigSep_W2]
  exact sound_body2f V c t

end Cert.Kernel.Hand

end
-- ==== Proof.Hand.Kernel.Chain.lean ====
/- The chain of buffer contents through the program's run at exact proof data: the table the first call's index map
   reads, what each call leaves in its output arrays (each output's write-backs folded over the contents the call was
   entered from, every other buffer as entered), every call's proof data at its entry contents, and that each call's
   exit contents are the next valuation of the chain. -/
import proofs.«413536_j14714557956454_3_alg».proof.Proof.Hand.Kernel.Table
import proofs.«413536_j14714557956454_3_alg».proof.Proof.Hand.Kernel.Region0
import proofs.«413536_j14714557956454_3_alg».proof.Proof.Hand.Kernel.Region1
import proofs.«413536_j14714557956454_3_alg».proof.Proof.Hand.Kernel.Region2
import proofs.«413536_j14714557956454_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The table, and what the calls leave -/

/-- The tables' admissible contents: the first call's one table at the clamp's result, the others none. -/
def adm : (p : Fin 3) → (pcfgs (F := F) p).Adm
  | ⟨0, _⟩ => ⟨tbl m, ok_tbl m⟩
  | ⟨1, _⟩ => cfg1.toPCfg_adm
  | ⟨2, _⟩ => cfg2.toPCfg_adm

/-- The buffers as the first call finds them, read at the TensorCore's references. -/
abbrev E0 : (c : Dev nD) → (b : Ref sig .tc) → Buf (Elt F) ((c : Thread nD τ).loc b) := fun c b => V3 m c b

/-- At the first call's exit: its arrays at what the pipeline leaves, every other buffer as entered. -/
def U4 (c : Dev nD) : Valuation τ sig (Elt F) :=
  Pipeline.withArrays spec0 c (V3 m c) fun w => (dat0 (E0 m) (adm m 0) c).arrAt w (cfg0 (adm m 0)).N
/-- What the first call leaves, as the family the generated valuations read. -/
def outsA : Outs (F := F) := fun _ r c => U4 m c r

/-- The buffers as the second call finds them. -/
abbrev E1 : (c : Dev nD) → (b : Ref sig .tc) → Buf (Elt F) ((c : Thread nD τ).loc b) := fun c b => V4 m (outsA m) c b
/-- At the second call's exit. -/
def U5 (c : Dev nD) : Valuation τ sig (Elt F) :=
  Pipeline.withArrays spec1 c (V4 m (outsA m) c) fun w => (dat1 (E1 m) c).arrAt w cfg1.N
/-- What the first two calls leave. -/
def outsB : Outs (F := F) := fun J r c => if J = 4 then outsA m J r c else U5 m c r

/-- The buffers as the third call finds them (after the host's cell nonlinearity). -/
abbrev E2 : (c : Dev nD) → (b : Ref sig .tc) → Buf (Elt F) ((c : Thread nD τ).loc b) := fun c b => V6 m (outsB m) c b
/-- At the third call's exit. -/
def U7 (c : Dev nD) : Valuation τ sig (Elt F) :=
  Pipeline.withArrays spec2 c (V6 m (outsB m) c) fun w => (dat2 (E2 m) c).arrAt w cfg2.N
/-- What the three calls leave. -/
def outsN : Outs (F := F) := fun J r c => if J = 7 then U7 m c r else outsB m J r c

theorem outsN_4 : outsN m 4 = outsA m 4 := rfl
theorem outsN_5 (r : Ref sig .tc) (c : Dev nD) : outsN m 5 r c = U5 m c r := rfl
theorem outsN_7 (r : Ref sig .tc) (c : Dev nD) : outsN m 7 r c = U7 m c r := rfl
theorem outsB_4 : outsB m 4 = outsA m 4 := rfl

/-- Every pipeline's proof data, each at its call's entry contents. -/
def pdats : (p : Fin 3) → (c : Dev nD) → Dat τ (Elt F) Unit ℕ (UR sig nD τ) ℕ (Pipeline.pin (pcfgs (F := F)) (adm m) p) c
  | ⟨0, _⟩ => fun c => dat0 (E0 m) (adm m 0) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## What each call's exit holds, against the generated valuations -/

/-- What the first call leaves in a buffer that is none of its two outputs is what it found there: an input window's
    array is never written, and a buffer no window names is bypassed. -/
theorem U4_of_ne (c : Dev nD) (b : Ref sig .tc) (h7 : b ≠ main_v9_0) (h8 : b ≠ main_v9_1) : U4 m c b = V3 m c b := by
  unfold U4
  by_cases hb : ∃ w, Pipeline.arrRef spec0 w = b
  · obtain ⟨w, rfl⟩ := hb
    rw [Pipeline.withArrays_arr spec0 (launch0 (F := F)).win.arr_inj c (V3 m c) (fun w => (dat0 (E0 m) (adm m 0) c).arrAt w (cfg0 (adm m 0)).N) w]
    match w with
    | ⟨0, _⟩ => exact ((dat0 (E0 m) (adm m 0) c).arrAt_in 0 rfl _).trans (A_eq0 (E0 m) (adm m 0) c 0)
    | ⟨1, _⟩ => exact ((dat0 (E0 m) (adm m 0) c).arrAt_in 1 rfl _).trans (A_eq0 (E0 m) (adm m 0) c 1)
    | ⟨2, _⟩ => exact ((dat0 (E0 m) (adm m 0) c).arrAt_in 2 rfl _).trans (A_eq0 (E0 m) (adm m 0) c 2)
    | ⟨3, _⟩ => exact ((dat0 (E0 m) (adm m 0) c).arrAt_in 3 rfl _).trans (A_eq0 (E0 m) (adm m 0) c 3)
    | ⟨4, _⟩ => exact ((dat0 (E0 m) (adm m 0) c).arrAt_in 4 rfl _).trans (A_eq0 (E0 m) (adm m 0) c 4)
    | ⟨5, _⟩ => exact ((dat0 (E0 m) (adm m 0) c).arrAt_in 5 rfl _).trans (A_eq0 (E0 m) (adm m 0) c 5)
    | ⟨6, _⟩ => exact ((dat0 (E0 m) (adm m 0) c).arrAt_in 6 rfl _).trans (A_eq0 (E0 m) (adm m 0) c 6)
    | ⟨7, _⟩ => exact absurd rfl h7
    | ⟨8, _⟩ => exact absurd rfl h8
  · exact Pipeline.withArrays_of_ne spec0 c _ _ b (fun w e => hb ⟨w, e⟩)

/-- The first call's exit contents are the generated valuation after it, at what the calls leave. -/
theorem V4_eq (c : Dev nD) (b : Ref sig .tc) : V4 m (outsN m) c b = U4 m c b := by
  by_cases h8 : b = main_v9_1
  · subst h8; exact Function.update_self ..
  · by_cases h7 : b = main_v9_0
    · subst h7
      exact (Function.update_of_ne (StableHlo.devRef_ne_of_ne h8) ..).trans (Function.update_self ..)
    · exact (V4_of m (outsN m) c b (by simp [h7, h8])).trans (U4_of_ne m c b h7 h8).symm
theorem hF0 (c : Dev nD) (w : Fin (cfg0 (adm m 0)).W) : (dat0 (E0 m) (adm m 0) c).arrAt w (cfg0 (adm m 0)).N = V4 m (outsN m) c (Pipeline.arrRef spec0 w) := by
  rw [V4_eq]; unfold U4; exact (Pipeline.withArrays_arr spec0 (launch0 (F := F)).win.arr_inj c (V3 m c) (fun w => (dat0 (E0 m) (adm m 0) c).arrAt w (cfg0 (adm m 0)).N) w).symm
theorem hrest0 (c : Dev nD) : ∀ b, b ∉ Finset.univ.image (Pipeline.arrRef spec0) → V4 m (outsN m) c b = V3 m c b := fun b hb => by
  rw [V4_eq]; unfold U4; exact Pipeline.withArrays_of_ne spec0 c _ _ b fun w e => hb (Finset.mem_image.mpr ⟨w, Finset.mem_univ _, e⟩)

theorem V4_outs (c : Dev nD) : V4 m (outsN m) c = V4 m (outsA m) c := rfl

/-- What the second call leaves in a buffer that is not its output is what it found there. -/
theorem U5_of_ne (c : Dev nD) (b : Ref sig .tc) (h : b ≠ main_v10) : U5 m c b = V4 m (outsA m) c b := by
  unfold U5
  by_cases hb : ∃ w, Pipeline.arrRef spec1 w = b
  · obtain ⟨w, rfl⟩ := hb
    rw [Pipeline.withArrays_arr spec1 (launch1 (F := F)).win.arr_inj c (V4 m (outsA m) c) (fun w => (dat1 (E1 m) c).arrAt w cfg1.N) w]
    match w with
    | ⟨0, _⟩ => exact ((dat1 (E1 m) c).arrAt_in 0 rfl _).trans (A_eq1 (E1 m) c 0)
    | ⟨1, _⟩ => exact ((dat1 (E1 m) c).arrAt_in 1 rfl _).trans (A_eq1 (E1 m) c 1)
    | ⟨2, _⟩ => exact ((dat1 (E1 m) c).arrAt_in 2 rfl _).trans (A_eq1 (E1 m) c 2)
    | ⟨3, _⟩ => exact ((dat1 (E1 m) c).arrAt_in 3 rfl _).trans (A_eq1 (E1 m) c 3)
    | ⟨4, _⟩ => exact ((dat1 (E1 m) c).arrAt_in 4 rfl _).trans (A_eq1 (E1 m) c 4)
    | ⟨5, _⟩ => exact ((dat1 (E1 m) c).arrAt_in 5 rfl _).trans (A_eq1 (E1 m) c 5)
    | ⟨6, _⟩ => exact absurd rfl h
  · exact Pipeline.withArrays_of_ne spec1 c _ _ b (fun w e => hb ⟨w, e⟩)

theorem V5_eq (c : Dev nD) (b : Ref sig .tc) : V5 m (outsN m) c b = U5 m c b := by
  by_cases h : b = main_v10
  · subst h; exact Function.update_self ..
  · exact (V5_of m (outsN m) c b (by simp [h])).trans (U5_of_ne m c b h).symm
theorem hF1 (c : Dev nD) (w : Fin cfg1.W) : (dat1 (E1 m) c).arrAt w cfg1.N = V5 m (outsN m) c (Pipeline.arrRef spec1 w) := by
  rw [V5_eq]; unfold U5; exact (Pipeline.withArrays_arr spec1 (launch1 (F := F)).win.arr_inj c (V4 m (outsA m) c) (fun w => (dat1 (E1 m) c).arrAt w cfg1.N) w).symm
theorem hrest1 (c : Dev nD) : ∀ b, b ∉ Finset.univ.image (Pipeline.arrRef spec1) → V5 m (outsN m) c b = V4 m (outsA m) c b := fun b hb => by
  rw [V5_eq]; unfold U5; exact Pipeline.withArrays_of_ne spec1 c _ _ b fun w e => hb (Finset.mem_image.mpr ⟨w, Finset.mem_univ _, e⟩)

/-- The buffers the third call is entered from do not depend on what it will leave. -/
theorem V6_outs (c : Dev nD) : V6 m (outsN m) c = V6 m (outsB m) c := rfl

/-- What the third call leaves in a buffer that is not its output is what it found there. -/
theorem U7_of_ne (c : Dev nD) (b : Ref sig .tc) (h : b ≠ main_v39) : U7 m c b = V6 m (outsB m) c b := by
  unfold U7
  by_cases hb : ∃ w, Pipeline.arrRef spec2 w = b
  · obtain ⟨w, rfl⟩ := hb
    rw [Pipeline.withArrays_arr spec2 (launch2 (F := F)).win.arr_inj c (V6 m (outsB m) c) (fun w => (dat2 (E2 m) c).arrAt w cfg2.N) w]
    match w with
    | ⟨0, _⟩ => exact ((dat2 (E2 m) c).arrAt_in 0 rfl _).trans (A_eq2 (E2 m) c 0)
    | ⟨1, _⟩ => exact ((dat2 (E2 m) c).arrAt_in 1 rfl _).trans (A_eq2 (E2 m) c 1)
    | ⟨2, _⟩ => exact ((dat2 (E2 m) c).arrAt_in 2 rfl _).trans (A_eq2 (E2 m) c 2)
    | ⟨3, _⟩ => exact absurd rfl h
  · exact Pipeline.withArrays_of_ne spec2 c _ _ b (fun w e => hb ⟨w, e⟩)

theorem V7_eq (c : Dev nD) (b : Ref sig .tc) : V7 m (outsN m) c b = U7 m c b := by
  by_cases h : b = main_v39
  · subst h; exact Function.update_self ..
  · exact ((V7_of m (outsN m) c b (by simp [h])).trans (congrFun (V6_outs m c) _)).trans (U7_of_ne m c b h).symm
theorem hF2 (c : Dev nD) (w : Fin cfg2.W) : (dat2 (E2 m) c).arrAt w cfg2.N = V7 m (outsN m) c (Pipeline.arrRef spec2 w) := by
  rw [V7_eq]; unfold U7; exact (Pipeline.withArrays_arr spec2 (launch2 (F := F)).win.arr_inj c (V6 m (outsB m) c) (fun w => (dat2 (E2 m) c).arrAt w cfg2.N) w).symm
theorem hrest2 (c : Dev nD) : ∀ b, b ∉ Finset.univ.image (Pipeline.arrRef spec2) → V7 m (outsN m) c b = V6 m (outsB m) c b := fun b hb => by
  rw [V7_eq]; unfold U7; exact Pipeline.withArrays_of_ne spec2 c _ _ b fun w e => hb (Finset.mem_image.mpr ⟨w, Finset.mem_univ _, e⟩)

end Cert.Kernel.Hand

end
-- ==== Proof.Hand.Kernel.Records.lean ====
/- The three pallas_calls as segments of the program's run at exact proof data: per call its record — its arrays split
   out of the core's unscoped buffers at entry and put back at exit, the generator register through the call's
   invariant, the first call's table through it too, nothing owed. -/
import proofs.«413536_j14714557956454_3_alg».proof.Proof.Hand.Kernel.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The calls as segments -/

-- `iapply` of a library lemma stated over `pin pcs a p` unifies with the pinned configuration only when unification may
-- unfold plain definitions in a metavariable's type
set_option backward.isDefEq.respectTransparency.types false in
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V4 m (outsA m) c) ∗ R c)
  post c := iprop(StableHlo.held (c : Thread nD τ) (Pipeline.ucRefs τ sig) (V5 m (outsN m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (E1 m c) (fun b => V5 m (outsN m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg2 (hb : ∀ c, BodyObligationLoose (dat2 (F := F) (E2 m) c) (defs₀ (F := F)) Variants.none () Set.univ) : Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := hb c
  hwaits := Pipeline.hwaits_of_owed_zero _ _ _ _ L lv 2 fun _ _ => rfl
  pre c := iprop(StableHlo.held (c : Thread nD τ) (Pipeline.ucRefs τ sig) (V6 m (outsB m) c) ∗ R c)
  post c := iprop(StableHlo.held (c : Thread nD τ) (Pipeline.ucRefs τ sig) (V7 m (outsN m) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) (adm m) (pdats m) (launch2 (F := F)).win (launch2 (F := F)).arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := UR sig nD τ) (Lvl := ℕ)
      (launch2 (F := F)).win (launch2 (F := F)).arr_whole c (pdats m) ((pdats m 2 c).share_full fun _ => rfl)
      (E2 m c) (fun b => V7 m (outsN m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (E0 m) (adm m 0) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outsN m) c) ∗ R c)
  X c := iprop(∃ r, prngReg c r)
  Y c := iprop((∃ r, prngReg c r) ∗ Pipeline.prefHeld pre0 c (fun _ => fullShare) (adm m 0).1)
  Z c := Pipeline.unscopedRestP (Ix := Unit) (Name := ℕ) (U := UR sig nD τ) (Lvl := ℕ) pre0 spec0 c (E0 m c)
  hentry c := by
    obtain rfl : c = 0 := Subsingleton.elim _ _
    rw [Pipeline.ownSems0_none]
    have hsplit := Pipeline.arrays_of_unscopedBufs (p := 0) (pcfgs (F := F)) (adm m) (pdats m) (launch0 (F := F)).win (launch0 (F := F)).arr_whole 0
      ((pdats m 0 0).share_full fun _ => rfl) (E0 m 0) fun _ => rfl
    have hsp : (Pipeline.unscopedRest (Pipeline.pin (pcfgs (F := F)) (adm m) 0).spec (0 : Dev nD) (E0 m 0) : sProp 𝕄)
        = iprop(Pipeline.prefHeld pre0 0 (fun _ => fullShare) (fun k => E0 m 0 (pre0.ref k)) ∗ Pipeline.unscopedRestP pre0 spec0 0 (E0 m 0)) :=
      Pipeline.unscopedRest_split (pre := pre0) preFacts0 0 (E0 m 0)
    rw [Pipeline.unscopedBufs_held, hsp] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ Pipeline.prefHeld pre0 c (fun _ => fullShare) (adm m 0).1) from rfl]; unfold Pipeline.ΦA
    iintro ⟨Hp, Hpf, Hr⟩
    isplitr [Hpf]
    · isplitl [Hr]; · iexact Hr
      iexact Hp
    iexact Hpf
  hout c := by
    rw [Pipeline.ownSems0_none, show (pdats m 0 c).Φ (Fin.last _) = iprop(Pipeline.ΦA spec0 c ∗ Pipeline.prefHeld pre0 c (fun _ => fullShare) (adm m 0).1) from rfl]; unfold Pipeline.ΦA
    iintro ⟨⟨Hr, Hp⟩, Hpf⟩
    isplitl [Hp Hpf]
    · isplitl [Hp]; · iexact Hp
      iexact Hpf
    isplitr; · iempintro
    iexact Hr
  hexit c := by
    obtain rfl : c = 0 := Subsingleton.elim _ _
    have hjoin := Pipeline.unscopedBufs_of_arrays (p := 0) (pcfgs (F := F)) (adm m) (Ix := Unit) (Name := ℕ) (U := UR sig nD τ) (Lvl := ℕ)
      (launch0 (F := F)).win (launch0 (F := F)).arr_whole 0 (pdats m) ((pdats m 0 0).share_full fun _ => rfl)
      (E0 m 0) (fun b => V4 m (outsN m) 0 b) ((pdats m 0 0).arrAt · (cfg0 (adm m 0)).N) (hF0 m 0) (hrest0 m 0)
    have hsp : (Pipeline.unscopedRest (Pipeline.pin (pcfgs (F := F)) (adm m) 0).spec (0 : Dev nD) (E0 m 0) : sProp 𝕄)
        = iprop(Pipeline.prefHeld pre0 0 (fun _ => fullShare) (fun k => E0 m 0 (pre0.ref k)) ∗ Pipeline.unscopedRestP pre0 spec0 0 (E0 m 0)) :=
      Pipeline.unscopedRest_split (pre := pre0) preFacts0 0 (E0 m 0)
    rw [Pipeline.unscopedBufs_held, hsp] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

end Cert.Kernel.Hand

end
-- ==== Proof.Hand.Kernel.FrameRel.lean ====
/- The program's calls as segments over RELATIONAL proof data, for a frame that holds at any float instance: the first
   two calls' exact proof data read as relations, the third call's with its output window's relation saying nothing
   (at the word level its last tile's staged rows past the array's end are words nothing names, and a matrix product
   is opaque in a whole operand there); after the third call the core's buffers are held at a valuation that is
   existential in what that call left in its output array, which no argument is and which nothing after it writes an
   argument from; the two host stretches after it run from and to such existential states. -/
import proofs.«413536_j14714557956454_3_alg».proof.Proof.Hand.Kernel.Records
import Idealize.ShloMosaic.Lib.Pipeline.Kit
import Idealize.ShloMosaic.Lib.Pipeline.Cells
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf HostSeg)

variable {F : FTy → Type} [FloatOps F]

local notation "𝕄" => MT nD τ sig Unit (Elt F) ℕ (UR sig nD τ) ℕ

variable (m : (ℓ : Loc nD τ sig) → Buf (Elt F) ℓ)

/-! ## The calls' proof data as relations -/

/-- Every pipeline's proof data read as relations between what the body is handed and what it leaves: the first two
    calls' exactly, the third's with its output window's relation saying nothing. -/
def rdats : (p : Fin 3) → (c : Dev nD) → Pipeline.RDat τ (Elt F) Unit ℕ (UR sig nD τ) ℕ (Pipeline.pin (pcfgs (F := F)) (adm m) p) c
  | ⟨0, _⟩ => fun c => (dat0 (E0 m) (adm m 0) c).toR
  | ⟨1, _⟩ => fun c => (dat1 (E1 m) c).toR
  | ⟨2, _⟩ => fun c => (dat2 (E2 m) c).toRForget fgt2

/-! ## What the calls leave, the third call's output array at any contents -/

/-- What the three calls leave, with core `c`'s copy of the third call's output array at `v`. -/
def outsW (c : Dev nD) (v : Buf (Elt F) ((c : Thread nD τ).loc main_v39)) : Outs (F := F) :=
  Function.update (outsN m) 7 (Function.update (outsN m 7) main_v39 (Function.update (outsN m 7 main_v39) c v))

theorem outsW_self (c : Dev nD) (v : Buf (Elt F) ((c : Thread nD τ).loc main_v39)) : outsW m c v 7 main_v39 c = v := by
  unfold outsW; rw [Function.update_self, Function.update_self, Function.update_self]

theorem outsW_of_ne (c : Dev nD) (v : Buf (Elt F) ((c : Thread nD τ).loc main_v39)) {J : ℕ} (h : J ≠ 7) : outsW m c v J = outsN m J := by
  unfold outsW; exact Function.update_of_ne h _ _

/-- Up to the third call nothing reads that array's contents. -/
theorem V6_outsW (c c' : Dev nD) (v : Buf (Elt F) ((c : Thread nD τ).loc main_v39)) : V6 m (outsW m c v) c' = V6 m (outsB m) c' := by
  have h4 : outsW m c v 4 = outsN m 4 := outsW_of_ne m c v (by decide)
  have h5 : outsW m c v 5 = outsN m 5 := outsW_of_ne m c v (by decide)
  rw [← V6_outs]
  simp only [V6, V5, V4, h4, h5]

/-! ## The calls as segments over the relations -/

set_option backward.isDefEq.respectTransparency.types false in
/-- The first call: its exact record, the body obligation read as a relation, the exit fed the arrays at the
    contents the exact data names. -/
def R0r : Pipeline.RDat.RegionSeg (pcfgs (F := F)) (adm m) (rdats m) () defs₀ 𝒱₀ L lv 0 where
  win := (reg0 m).win
  block_pos := (reg0 m).block_pos
  stage_whole := (reg0 m).stage_whole
  K := (reg0 m).K
  fK := (reg0 m).fK
  osem := (reg0 m).osem
  ho := (reg0 m).ho
  hbody c := ((reg0 m).hbody c).toR
  hwaits := Pipeline.RDat.hwaits_of_owed_zero _ _ _ _ L lv 0 fun _ _ => rfl
  pre := (reg0 m).pre
  post := (reg0 m).post
  X := (reg0 m).X
  Y := (reg0 m).Y
  Z := (reg0 m).Z
  hentry := (reg0 m).hentry
  hin := (reg0 m).hin
  hout := (reg0 m).hout
  hexit c := (sep_mono (Entails.of_eq ((pdats m 0 c).toR_arraysAt_eq (Pipeline.pin (pcfgs (F := F)) (adm m) 0).N)) .rfl).trans ((reg0 m).hexit c)

set_option backward.isDefEq.respectTransparency.types false in
/-- The second call, likewise. -/
def R1r : Pipeline.RDat.RegionSeg (pcfgs (F := F)) (adm m) (rdats m) () defs₀ 𝒱₀ L lv 1 where
  win := (reg1 m).win
  block_pos := (reg1 m).block_pos
  stage_whole := (reg1 m).stage_whole
  K := (reg1 m).K
  fK := (reg1 m).fK
  osem := (reg1 m).osem
  ho := (reg1 m).ho
  hbody c := ((reg1 m).hbody c).toR
  hwaits := Pipeline.RDat.hwaits_of_owed_zero _ _ _ _ L lv 1 fun _ _ => rfl
  pre := (reg1 m).pre
  post := (reg1 m).post
  X := (reg1 m).X
  Y := (reg1 m).Y
  Z := (reg1 m).Z
  hentry := (reg1 m).hentry
  hin := (reg1 m).hin
  hout := (reg1 m).hout
  hexit c := (sep_mono (Entails.of_eq ((pdats m 1 c).toR_arraysAt_eq (Pipeline.pin (pcfgs (F := F)) (adm m) 1).N)) .rfl).trans ((reg1 m).hexit c)

/-! ## The third call's exit -/

/-- Off the third call's output array the valuation after it, read at any contents of that array, is the valuation
    the call was entered from. -/
theorem V7W_of (c : Dev nD) (v : Buf (Elt F) ((c : Thread nD τ).loc main_v39)) (b : Ref sig .tc) (hb : b ∉ ([main_v39] : List (Ref sig .tc))) :
    V7 m (outsW m c v) c b = V6 m (outsB m) c b := by
  rw [V7_of m _ c b hb, V6_outsW]

/-- At that array it holds the contents it is read at. -/
theorem V7W_self (c : Dev nD) (v : Buf (Elt F) ((c : Thread nD τ).loc main_v39)) : V7 m (outsW m c v) c main_v39 = v := by
  show Function.update (V6 m (outsW m c v) c) main_v39 (outsW m c v 7 main_v39 c) main_v39 = v
  rw [Function.update_self, outsW_self]

/-- An input array of the third call holds at its exit what the valuation after the call says, whatever the output array holds. -/
theorem arr2_in (c : Dev nD) (v : Buf (Elt F) ((c : Thread nD τ).loc main_v39)) (w : Fin cfg2.W) (hin : (cfg2.win w).isOut = false)
    (hne : Pipeline.arrRef spec2 w ∉ ([main_v39] : List (Ref sig .tc))) :
    (dat2 (E2 m) c).arrAt w cfg2.N = V7 m (outsW m c v) c (Pipeline.arrRef spec2 w) := by
  rw [(dat2 (E2 m) c).arrAt_in w hin, A_eq2, V7W_of m c v _ hne]

/-- A buffer that is no array of the third call is the output array's neither: the valuation after the call has it as entered. -/
theorem hrest2W (c : Dev nD) (v : Buf (Elt F) ((c : Thread nD τ).loc main_v39)) :
    ∀ b, b ∉ Finset.univ.image (Pipeline.arrRef spec2) → V7 m (outsW m c v) c b = V6 m (outsB m) c b := fun b hb =>
  V7W_of m c v b fun hmem => hb (Finset.mem_image.mpr ⟨(3 : Fin 4), Finset.mem_univ _, (List.mem_singleton.mp hmem).symm⟩)

set_option backward.isDefEq.respectTransparency.types false in
/-- The third call's arrays at what the valuation after it says, beside the rest of the core's unscoped buffers as
    entered, are the unscoped buffers at that valuation. -/
theorem join2 (c : Dev nD) (v : Buf (Elt F) ((c : Thread nD τ).loc main_v39)) :
    iprop((dat2 (E2 m) c).arrays (fun w => V7 m (outsW m c v) c (Pipeline.arrRef spec2 w))
        ∗ Pipeline.unscopedRest (Ix := Unit) (Name := ℕ) (U := UR sig nD τ) (Lvl := ℕ) spec2 c (E2 m c))
      ⊢ (StableHlo.held (c : Thread nD τ) (Pipeline.ucRefs τ sig) (V7 m (outsW m c v) c) : sProp 𝕄) := by
  have hjoin := Pipeline.unscopedBufs_of_arrays (p := 2) (pcfgs (F := F)) (adm m) (Ix := Unit) (Name := ℕ) (U := UR sig nD τ) (Lvl := ℕ)
    (launch2 (F := F)).win (launch2 (F := F)).arr_whole c (pdats m) ((pdats m 2 c).share_full fun _ => rfl)
    (E2 m c) (fun b => V7 m (outsW m c v) c b) (fun w : Fin cfg2.W => V7 m (outsW m c v) c (Pipeline.arrRef spec2 w)) (fun _ => rfl)
    (hrest2W m c v)
  rw [Pipeline.unscopedBufs_held] at hjoin
  exact hjoin

set_option backward.isDefEq.respectTransparency.types false in
/-- An input array of the third call at some contents it may hold at the exit is that array at what the valuation
    after the call says: it may hold only its entry contents. -/
theorem arrIn2 (c : Dev nD) (v : Buf (Elt F) ((c : Thread nD τ).loc main_v39)) (w : Fin cfg2.W) (hf : fgt2 w = false)
    (hin : (cfg2.win w).isOut = false) (hne : Pipeline.arrRef spec2 w ∉ ([main_v39] : List (Ref sig .tc))) :
    (iprop(∃ G, ⌜((dat2 (E2 m) c).toRForget fgt2).ArrAt w cfg2.N G⌝
        ∗ (cfg2.win w).arr.view.loc (c.tc : Thread nD τ) ↦[(cfg2.win w).arr.view.set]{((dat2 (E2 m) c).toRForget fgt2).share w} G) : sProp 𝕄)
      ⊢ ((cfg2.win w).arr.view.loc (c.tc : Thread nD τ) ↦[(cfg2.win w).arr.view.set]{(dat2 (E2 m) c).share w}
          V7 m (outsW m c v) c (Pipeline.arrRef spec2 w)) := by
  rewrite [Dat.toRForget_share]
  iintro ⟨%G, %hG, H⟩
  rw [(((dat2 (E2 m) c).toRForget_arrAt_iff hf _ G).mp hG).trans (arr2_in m c v w hin hne)]
  iexact H

set_option backward.isDefEq.respectTransparency.types false in
/-- The output array at some contents is that array at what the valuation after the call says when read at those contents. -/
theorem arrOut2 (c : Dev nD) :
    (iprop(∃ G, ⌜((dat2 (E2 m) c).toRForget fgt2).ArrAt 3 cfg2.N G⌝
        ∗ (cfg2.win 3).arr.view.loc (c.tc : Thread nD τ) ↦[(cfg2.win 3).arr.view.set]{((dat2 (E2 m) c).toRForget fgt2).share 3} G) : sProp 𝕄)
      ⊢ iprop(∃ v : Buf (Elt F) ((c : Thread nD τ).loc main_v39),
          (cfg2.win 3).arr.view.loc (c.tc : Thread nD τ) ↦[(cfg2.win 3).arr.view.set]{(dat2 (E2 m) c).share 3}
            V7 m (outsW m c v) c (Pipeline.arrRef spec2 3)) := by
  rewrite [Dat.toRForget_share]
  iintro ⟨%G, -, H⟩
  iexists G
  rw [show V7 m (outsW m c G) c (Pipeline.arrRef spec2 3) = G from V7W_self m c G]
  iexact H

set_option backward.isDefEq.respectTransparency.types false in
/-- At the third call's exit its arrays, each at some contents it may hold, and the rest of the core's unscoped
    buffers as entered are the unscoped buffers at the chain's next valuation, read at what the output array holds:
    the three input arrays may hold only their entry contents, the output array's contents are the witness. -/
theorem exit2 (c : Dev nD) :
    iprop(((dat2 (E2 m) c).toRForget fgt2).arraysAt cfg2.N
        ∗ Pipeline.unscopedRest (Ix := Unit) (Name := ℕ) (U := UR sig nD τ) (Lvl := ℕ) spec2 c (E2 m c))
      ⊢ (iprop(∃ v : Buf (Elt F) ((c : Thread nD τ).loc main_v39), StableHlo.held (c : Thread nD τ) (Pipeline.ucRefs τ sig) (V7 m (outsW m c v) c)) : sProp 𝕄) := by
  unfold Pipeline.RDat.arraysAt
  rewrite [bigSep_W2]
  iintro ⟨⟨A0, A1, A2, A3⟩, Hrest⟩
  ihave ⟨%v, H3⟩ := arrOut2 m c $$ A3
  ihave H0 := arrIn2 m c v 0 rfl rfl (by decide) $$ A0
  ihave H1 := arrIn2 m c v 1 rfl rfl (by decide) $$ A1
  ihave H2 := arrIn2 m c v 2 rfl rfl (by decide) $$ A2
  iexists v
  iapply join2 m c v
  isplitr [Hrest]
  swap; · iexact Hrest
  unfold Pipeline.Dat.arrays
  rewrite [bigSep_W2]
  isplitl [H0]; · iexact H0
  isplitl [H1]; · iexact H1
  isplitl [H2]; · iexact H2
  iexact H3

set_option backward.isDefEq.respectTransparency.types false in
/-- The third call: entered from the buffers held at the valuation before it, left with them held at the next
    valuation read at SOME contents of its output array; the generator register through its invariant, nothing owed. -/
def R2r : Pipeline.RDat.RegionSeg (pcfgs (F := F)) (adm m) (rdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2_fgt (E2 m) c).toRForget
  hwaits := Pipeline.RDat.hwaits_of_owed_zero _ _ _ _ L lv 2 fun _ _ => rfl
  pre c := iprop(StableHlo.held (c : Thread nD τ) (Pipeline.ucRefs τ sig) (V6 m (outsB m) c) ∗ R c)
  post c := iprop(∃ v : Buf (Elt F) ((c : Thread nD τ).loc main_v39), StableHlo.held (c : Thread nD τ) (Pipeline.ucRefs τ sig) (V7 m (outsW m c v) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.RDat.arrays_of_unscopedBufs (p := 2) (pcfgs (F := F)) (adm m) (rdats m) (launch2 (F := F)).win (launch2 (F := F)).arr_whole c
      ((rdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    have hx : iprop((rdats m 2 c).arraysAt (Pipeline.pin (pcfgs (F := F)) (adm m) 2).N
          ∗ Pipeline.unscopedRest (Ix := Unit) (Name := ℕ) (U := UR sig nD τ) (Lvl := ℕ) spec2 c (E2 m c))
        ⊢ (iprop(∃ v : Buf (Elt F) ((c : Thread nD τ).loc main_v39), StableHlo.held (c : Thread nD τ) (Pipeline.ucRefs τ sig) (V7 m (outsW m c v) c)) : sProp 𝕄) := exit2 m c
    ihave Hh := hx $$ [Ha Hrest]
    · isplitl [Ha] <;> iassumption
    icases Hh with ⟨%v, Hh⟩
    imodintro
    iexists v
    isplitl [Hh]; · iexact Hh
    isplitl [HY]; · iexact HY
    unfold Pipeline.RDat.owesAt Pipeline.owesWithin
    icases HO with ⟨%W, -, HO⟩; iexists W; iexact HO

/-! ## The host stretches after the third call -/

set_option backward.isDefEq.respectTransparency.types false in
/-- The log-softmax stretch from the buffers held at a valuation existential in the third call's output array: the
    generated stretch at each such valuation, the witness kept. -/
def seg7x : HostSeg (Ix := Unit) (Name := ℕ) (U := UR sig nD τ) (Lvl := ℕ) (pcfgs (F := F)) defs₀ 𝒱₀ L lv where
  prog := StableHlo.seq hostOps3
  pre c := iprop(∃ v : Buf (Elt F) ((c : Thread nD τ).loc main_v39), (seg7 m (outsW m c v) 𝒱₀ L lv (fun _ => R)).pre c)
  post c := iprop(∃ v : Buf (Elt F) ((c : Thread nD τ).loc main_v39), (seg7 m (outsW m c v) 𝒱₀ L lv (fun _ => R)).post c)
  run c {β} k K := by
    iintro ⟨Hk, Hbd, ⟨%v, Hpre⟩, Hla⟩
    iapply (seg7 m (outsW m c v) 𝒱₀ L lv (fun _ => R)).run c k K
    isplitl [Hk]
    · iintro ⟨Hbd, Hpost⟩
      iapply Hk
      isplitl [Hbd]; · iexact Hbd
      iexists v; iexact Hpost
    isplitl [Hbd]; · iexact Hbd
    isplitl [Hpre]; · iexact Hpre
    iexact Hla

set_option backward.isDefEq.respectTransparency.types false in
/-- The last stretch, likewise. -/
def seg8x : HostSeg (Ix := Unit) (Name := ℕ) (U := UR sig nD τ) (Lvl := ℕ) (pcfgs (F := F)) defs₀ 𝒱₀ L lv where
  prog := StableHlo.seq hostOps3_1
  pre c := iprop(∃ v : Buf (Elt F) ((c : Thread nD τ).loc main_v39), (seg8 m (outsW m c v) 𝒱₀ L lv (fun _ => R)).pre c)
  post c := iprop(∃ v : Buf (Elt F) ((c : Thread nD τ).loc main_v39), (seg8 m (outsW m c v) 𝒱₀ L lv (fun _ => R)).post c)
  run c {β} k K := by
    iintro ⟨Hk, Hbd, ⟨%v, Hpre⟩, Hla⟩
    iapply (seg8 m (outsW m c v) 𝒱₀ L lv (fun _ => R)).run c k K
    isplitl [Hk]
    · iintro ⟨Hbd, Hpost⟩
      iapply Hk
      isplitl [Hbd]; · iexact Hbd
      iexists v; iexact Hpost
    isplitl [Hbd]; · iexact Hbd
    isplitl [Hpre]; · iexact Hpre
    iexact Hla

end Cert.Kernel.Hand

end
-- ==== Proof.Hand.KernelIdeal.Table.lean ====
/- The prefetched table of the first pallas_call: one word, the token index clamped by the host into [0, 50256]
   (the larger of 0 and the index, then the smaller of 50256 and that, both in the signed order), so the row block it
   selects lies inside the embedding table whatever the index was; for a non-negative index it is the smaller of the
   index and 50256. -/
import proofs.«413536_j14714557956454_3_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem

/-- The clamp on one word: the smaller of 50256 and the larger of 0 and the word, both in the signed order. -/
def clampWord (x : BitVec 32) : BitVec 32 := IntOp.minsi 50256#32 (IntOp.maxsi 0#32 x)

/-- A 32-bit word read as a signed integer is the word itself below 2^31, and the word less 2^32 from there on. -/
theorem toInt_cases (x : BitVec 32) : (x.toInt = (x.toNat : Int) ∧ x.toNat < 2147483648) ∨ (x.toInt = (x.toNat : Int) - 4294967296 ∧ 2147483648 ≤ x.toNat) := by
  have h := BitVec.toInt_eq_toNat_cond x
  have hl := x.isLt
  by_cases hc : 2 * x.toNat < 2 ^ 32
  · left; rw [if_pos hc] at h; exact ⟨h, by omega⟩
  · right; rw [if_neg hc] at h; exact ⟨by omega, by omega⟩

/-- The clamped word is at most 50256 as a natural number, whatever the word. -/
theorem clampWord_le (x : BitVec 32) : (clampWord x).toNat ≤ 50256 := by
  unfold clampWord IntOp.minsi IntOp.maxsi
  simp only [BitVec.slt]
  have hx := toInt_cases x
  have h0 : (0#32 : BitVec 32).toInt = 0 := by decide
  have h1 : (50256#32 : BitVec 32).toInt = 50256 := by decide
  have h2 : (50256#32 : BitVec 32).toNat = 50256 := by decide
  have h3 : (0#32 : BitVec 32).toNat = 0 := by decide
  split <;> split <;> simp_all <;> omega

/-- For a non-negative word the clamp is the smaller of the word and 50256. -/
theorem clampWord_of_nonneg (x : BitVec 32) (h : 0 ≤ x.toInt) : (clampWord x).toNat = min x.toNat 50256 := by
  unfold clampWord IntOp.minsi IntOp.maxsi
  simp only [BitVec.slt]
  have hx := toInt_cases x
  have h0 : (0#32 : BitVec 32).toInt = 0 := by decide
  have h1 : (50256#32 : BitVec 32).toInt = 50256 := by decide
  have h2 : (50256#32 : BitVec 32).toNat = 50256 := by decide
  have h3 : (0#32 : BitVec 32).toNat = 0 := by decide
  split <;> split <;> simp_all <;> omega

variable {F : FTy → Type} [FloatOps F]

variable (m : (ℓ : Loc nD τ sig) → Buf (Elt F) ℓ)

/-- After the host's clamp the scalar-memory buffer the index map reads holds, at its one entry, the clamp of the
    token index. -/
theorem tbl_word (c : Dev nD) : (V3 m c main_v0 : (⟨S1, .i32⟩ : BufTy).Contents (Elt F))
    = fun i => clampWord ((m ((c : Thread nD τ).loc main_arg0) : (⟨S1, .i32⟩ : BufTy).Contents (Elt F)) i) := by
  dsimp only [V3, V2, V1, V0, hostOps0, hostOps0_1, hostOps0_2]
  after_results
  rfl

/-- The table's contents: what the clamp leaves in that buffer (the one device's). -/
def tbl : pre0.Contents (Elt F) := fun k => V3 m (0 : Dev nD) (pre0.ref k)

/-- The table's one word, as the index map reads it. -/
theorem tbl_at (i : S1.Idx) : (tbl m 0 : (⟨S1, .i32⟩ : BufTy).Contents (Elt F)) i
    = clampWord ((m (((0 : Dev nD) : Thread nD τ).loc main_arg0) : (⟨S1, .i32⟩ : BufTy).Contents (Elt F)) i) :=
  congrFun (tbl_word m 0) i

/-- Any table whose one word is at most 50256 is admissible: the row block it selects, rows `w … w` of 50257, lies
    inside the embedding table (the other two axes are whole). Stated of a table that is a variable. -/
theorem ok0_of_le (pf : pre0.Contents (Elt F))
    (h : (pf.at 0 (Rect.unit (s := S1) ![0] S1.size inb_S1_S1_0) numel1_S1 : BitVec 32).toNat ≤ 50256) : ok0 pf := by
  intro i
  refine ⟨fun a => ?_, Or.inl rfl⟩
  match a with
  | ⟨0, _⟩ =>
    show ((pf.at 0 (Rect.unit (s := S1) ![0] S1.size inb_S1_S1_0) numel1_S1 : BitVec 32).toNat + 1) * 1 ≤ 50257
    omega
  | ⟨1, _⟩ =>
    show ((0#32 : BitVec 32).toNat + 1) * 1 ≤ 1
    decide
  | ⟨2, _⟩ =>
    show ((0#32 : BitVec 32).toNat + 1) * 1024 ≤ 1024
    decide

/-- The table is admissible: its word is a clamp's result. -/
theorem ok_tbl : ok0 (tbl m) := by
  refine ok0_of_le (tbl m) ?_
  have e := tbl_at m ((Rect.unit (s := S1) ![0] S1.size inb_S1_S1_0).emb (Shape.Idx.first (numel1_S1.symm ▸ Nat.one_pos)))
  refine (congrArg BitVec.toNat e).trans_le ?_
  exact clampWord_le _

end Cert.KernelIdeal.Hand

end
-- ==== Proof.Hand.KernelIdeal.Region0.lean ====
/- The first pallas_call, at one grid point. Its window 0 is the row of the embedding table (seen as
   [50257, 1, 1024]) that the prefetched, clamped token index picks; windows 1 to 6 are whole arrays (the
   hidden state, the encoder outputs, the attention matrix and bias, the combining matrix and bias). The body
   reads the seven input blocks and leaves in window 8's buffer the attention weights (a softmax over the 512
   encoder positions) and in window 7's buffer the rectified combined input, each a function of the input
   blocks alone. The table's contents stay a variable throughout: every fact below holds at any admissible
   contents. -/
import proofs.«413536_j14714557956454_3_alg».proof.Proof.Gen.KernelIdeal.Launch
import proofs.«413536_j14714557956454_3_alg».proof.Proof.Gen.KernelIdeal.Skeleton
import proofs.«413536_j14714557956454_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- the admissible contents of the prefetched table: a variable throughout
variable (a : (pcfg0 (F := F)).Adm)

/-! ## The windows' blocks -/

/-- Window `w`'s block at point `t`, read off its array as the region finds it. For window 0 the block's
    row is the table's word, whatever it is. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- Input window 0's staging buffer holds its block at the point, for any proof data whose array is the
    entry contents and whose body leaves the block in place: an input is uncut and never idle. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, for any proof data whose array is the
    entry contents and whose body leaves the block in place: an input is uncut and never idle. -/
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, for any proof data whose array is the
    entry contents and whose body leaves the block in place: an input is uncut and never idle. -/
theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, for any proof data whose array is the
    entry contents and whose body leaves the block in place: an input is uncut and never idle. -/
theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at the point, for any proof data whose array is the
    entry contents and whose body leaves the block in place: an input is uncut and never idle. -/
theorem before0_4_of {c : Dev nD} (dat : Dat τ (Elt F) Unit ℕ (UR sig nD τ) ℕ (cfg0 a) c) (hA : dat.A 4 = V c (Pipeline.arrRef spec0 4))
    (hafter : ∀ t, dat.after 4 t = iblk0 V a c 4 t) (t : Fin (cfg0 a).N) (d) : dat.before 4 t d = iblk0 V a c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at the point, for any proof data whose array is the
    entry contents and whose body leaves the block in place: an input is uncut and never idle. -/
theorem before0_5_of {c : Dev nD} (dat : Dat τ (Elt F) Unit ℕ (UR sig nD τ) ℕ (cfg0 a) c) (hA : dat.A 5 = V c (Pipeline.arrRef spec0 5))
    (hafter : ∀ t, dat.after 5 t = iblk0 V a c 5 t) (t : Fin (cfg0 a).N) (d) : dat.before 5 t d = iblk0 V a c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at the point, for any proof data whose array is the
    entry contents and whose body leaves the block in place: an input is uncut and never idle. -/
theorem before0_6_of {c : Dev nD} (dat : Dat τ (Elt F) Unit ℕ (UR sig nD τ) ℕ (cfg0 a) c) (hA : dat.A 6 = V c (Pipeline.arrRef spec0 6))
    (hafter : ∀ t, dat.after 6 t = iblk0 V a c 6 t) (t : Fin (cfg0 a).N) (d) : dat.before 6 t d = iblk0 V a c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1x1x1024 := Rect.unit (s := S1x1x1024) ![0, 0, 0] S1x1x1024.size inb_S1x1x1024_S1x1x1024_0_0_0
abbrev r0_1 : Rect S1x1024 := Rect.unit (s := S1x1024) ![0, 0] S1x1024.size inb_S1x1024_S1x1024_0_0
abbrev r0_2 : Rect S512x1024 := Rect.unit (s := S512x1024) ![0, 0] S512x1024.size inb_S512x1024_S512x1024_0_0
abbrev r0_3 : Rect S512x2048 := Rect.unit (s := S512x2048) ![0, 0] S512x2048.size inb_S512x2048_S512x2048_0_0
abbrev r0_4 : Rect S1x512 := Rect.unit (s := S1x512) ![0, 0] S1x512.size inb_S1x512_S1x512_0_0
abbrev r0_5 : Rect S1024x2048 := Rect.unit (s := S1024x2048) ![0, 0] S1024x2048.size inb_S1024x2048_S1024x2048_0_0

theorem offs0_2 : (![0, 0] : Fin 2 → Nat) = fun _ => 0 := by decide
theorem offs0_3 : (![0, 0, 0] : Fin 3 → Nat) = fun _ => 0 := by decide

/-! ## What the body leaves in each output window's buffer -/

/-- Window 7's buffer after the body, from the input blocks: its one store, of the rectified combined input. -/
def out0_7 (x0 : Vec F S1x1x1024 .f32) (x1 : Vec F S1x1024 .f32) (x2 : Vec F S512x1024 .f32) (x3 : Vec F S512x2048 .f32) (x4 : Vec F S1x512 .f32) (x5 : Vec F S1024x2048 .f32) (x6 : Vec F S1x1024 .f32) : Vec F S1x1024 .f32 :=
  View.canon [⟨r0_1, k0_pay3 (View.ld x0 r0_0) (View.ld x1 r0_1) (View.ld x3 r0_3) (View.ld x4 r0_4) (View.ld x2 r0_2) (View.ld x5 r0_5) (View.ld x6 r0_1)⟩]

/-- The store is of the whole buffer, so it covers it. -/
theorem cover0_7 (p0 : Vec F S1x1024 .f32) (y : S1x1024.Idx) :
    ∃ pc ∈ ([⟨r0_1, p0⟩] : List (View.Piece (Elt F) S1x1024 .f32)), y ∈ pc.1.set :=
  ⟨_, List.mem_singleton_self _, View.mem_set_unit_zero offs0_2 inb_S1x1024_S1x1024_0_0 y⟩

/-- Whole-buffer loads read the blocks themselves and the one whole-buffer store leaves its payload. -/
theorem out0_7_eq (x0 : Vec F S1x1x1024 .f32) (x1 : Vec F S1x1024 .f32) (x2 : Vec F S512x1024 .f32) (x3 : Vec F S512x2048 .f32) (x4 : Vec F S1x512 .f32) (x5 : Vec F S1024x2048 .f32) (x6 : Vec F S1x1024 .f32) :
    out0_7 x0 x1 x2 x3 x4 x5 x6 = k0_pay3 x0 x1 x3 x4 x2 x5 x6 := by
  unfold out0_7
  rw [View.canon_unit_zero offs0_2, View.ld_unit_zero offs0_3, View.ld_unit_zero offs0_2 _ x1, View.ld_unit_zero offs0_2 _ x3,
    View.ld_unit_zero offs0_2 _ x4, View.ld_unit_zero offs0_2 _ x2, View.ld_unit_zero offs0_2 _ x5, View.ld_unit_zero offs0_2 _ x6]

/-- Window 8's buffer after the body, from the input blocks: its one store, of the attention weights. -/
def out0_8 (x0 : Vec F S1x1x1024 .f32) (x1 : Vec F S1x1024 .f32) (x3 : Vec F S512x2048 .f32) (x4 : Vec F S1x512 .f32) : Vec F S1x512 .f32 :=
  View.canon [⟨r0_4, k0_pay2 (View.ld x0 r0_0) (View.ld x1 r0_1) (View.ld x3 r0_3) (View.ld x4 r0_4)⟩]

theorem cover0_8 (p0 : Vec F S1x512 .f32) (y : S1x512.Idx) :
    ∃ pc ∈ ([⟨r0_4, p0⟩] : List (View.Piece (Elt F) S1x512 .f32)), y ∈ pc.1.set :=
  ⟨_, List.mem_singleton_self _, View.mem_set_unit_zero offs0_2 inb_S1x512_S1x512_0_0 y⟩

theorem out0_8_eq (x0 : Vec F S1x1x1024 .f32) (x1 : Vec F S1x1024 .f32) (x3 : Vec F S512x2048 .f32) (x4 : Vec F S1x512 .f32) :
    out0_8 x0 x1 x3 x4 = k0_pay2 x0 x1 x3 x4 := by
  unfold out0_8
  rw [View.canon_unit_zero offs0_2, View.ld_unit_zero offs0_3, View.ld_unit_zero offs0_2 _ x1, View.ld_unit_zero offs0_2 _ x3,
    View.ld_unit_zero offs0_2 _ x4]

/-! ## The body's triple -/

set_option maxHeartbeats 1000000 in
/-- The body on whole staging memrefs, the inputs' at read contents `xW` and the outputs' at anything, runs to the
    continuation holding the inputs' as they were and each output's at `out0_W` of the inputs'. The table's
    memref is handed over and never read, so nothing is asked of it. -/
theorem sound_kernel0 (c : Dev nD) (E : Set ℕ) (i : grid0.Coords) (arg1 : Memref sig .tc .smem S1 .i32) (harg1 : arg1.IsWhole)
    (arg2 : Memref sig .tc .vmem S1x1x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S1x512 .f32) (harg6 : arg6.IsWhole) (arg7 : Memref sig .tc .vmem S1024x2048 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512 .f32) (harg10 : arg10.IsWhole)
    (x0 : Vec F S1x1x1024 .f32) (x1 : Vec F S1x1024 .f32) (x2 : Vec F S512x1024 .f32) (x3 : Vec F S512x2048 .f32) (x4 : Vec F S1x512 .f32) (x5 : Vec F S1024x2048 .f32) (x6 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out0_7 x0 x1 x2 x3 x4 x5 x6) ∗ owns (c : Thread nD τ) arg10 fullShare (out0_8 x0 x1 x3 x4)) -∗ K ⟨⟩))
      ⊢ wp frame (wpE (defs₀ (F := F)) Variants.none c none) E (cc0__ac_kernel i arg1 harg1 arg2 harg2 arg3 harg3 arg4 harg4 arg5 harg5 arg6 harg6 arg7 harg7 arg8 harg8 arg9 harg9 arg10 harg10) K := by
  simp only [cc0__ac_kernel_eq_skeleton]; unfold cc0__ac_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- The proof data on core `c`: the arrays as the region finds them; after the body each input's buffer at its
    block and each output's at `out0_W` of the input blocks; the invariant the scoped rest, the generator register
    and the table's buffer at its contents, all untouched; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => iblk0 V a c 6 t
    | ⟨7, _⟩ => out0_7 (iblk0 V a c 0 t) (iblk0 V a c 1 t) (iblk0 V a c 2 t) (iblk0 V a c 3 t) (iblk0 V a c 4 t) (iblk0 V a c 5 t) (iblk0 V a c 6 t)
    | ⟨8, _⟩ => out0_8 (iblk0 V a c 0 t) (iblk0 V a c 1 t) (iblk0 V a c 3 t) (iblk0 V a c 4 t)
  Φ _ := iprop(Pipeline.ΦA spec0 c ∗ Pipeline.prefHeld pre0 c (fun _ => fullShare) a.1)
  q _ := fullShare
  owed _ := 0

theorem A_eq0 (c : Dev nD) (w : Fin (cfg0 a).W) : (dat0 V a c).A w = V c (Pipeline.arrRef spec0 w) := by
  dsimp only [dat0]

/-- What the body leaves, window by window. -/
theorem after0_0 (c : Dev nD) (t : Fin (cfg0 a).N) : (dat0 V a c).after 0 t = iblk0 V a c 0 t := by dsimp only [dat0]; rfl
theorem after0_1 (c : Dev nD) (t : Fin (cfg0 a).N) : (dat0 V a c).after 1 t = iblk0 V a c 1 t := by dsimp only [dat0]; rfl
theorem after0_2 (c : Dev nD) (t : Fin (cfg0 a).N) : (dat0 V a c).after 2 t = iblk0 V a c 2 t := by dsimp only [dat0]; rfl
theorem after0_3 (c : Dev nD) (t : Fin (cfg0 a).N) : (dat0 V a c).after 3 t = iblk0 V a c 3 t := by dsimp only [dat0]; rfl
theorem after0_4 (c : Dev nD) (t : Fin (cfg0 a).N) : (dat0 V a c).after 4 t = iblk0 V a c 4 t := by dsimp only [dat0]; rfl
theorem after0_5 (c : Dev nD) (t : Fin (cfg0 a).N) : (dat0 V a c).after 5 t = iblk0 V a c 5 t := by dsimp only [dat0]; rfl
theorem after0_6 (c : Dev nD) (t : Fin (cfg0 a).N) : (dat0 V a c).after 6 t = iblk0 V a c 6 t := by dsimp only [dat0]; rfl
theorem after0_7 (c : Dev nD) (t : Fin (cfg0 a).N) : (dat0 V a c).after 7 t = out0_7 (iblk0 V a c 0 t) (iblk0 V a c 1 t) (iblk0 V a c 2 t) (iblk0 V a c 3 t) (iblk0 V a c 4 t) (iblk0 V a c 5 t) (iblk0 V a c 6 t) := by dsimp only [dat0]; rfl
theorem after0_8 (c : Dev nD) (t : Fin (cfg0 a).N) : (dat0 V a c).after 8 t = out0_8 (iblk0 V a c 0 t) (iblk0 V a c 1 t) (iblk0 V a c 3 t) (iblk0 V a c 4 t) := by dsimp only [dat0]; rfl

/-- Each input's staging buffer holds its block at the point. -/
theorem before0_0 (c : Dev nD) (t : Fin (cfg0 a).N) (d) : (dat0 V a c).before 0 t d = iblk0 V a c 0 t :=
  before0_0_of V a (dat0 V a c) (A_eq0 V a c 0) (after0_0 V a c) t d
theorem before0_1 (c : Dev nD) (t : Fin (cfg0 a).N) (d) : (dat0 V a c).before 1 t d = iblk0 V a c 1 t :=
  before0_1_of V a (dat0 V a c) (A_eq0 V a c 1) (after0_1 V a c) t d
theorem before0_2 (c : Dev nD) (t : Fin (cfg0 a).N) (d) : (dat0 V a c).before 2 t d = iblk0 V a c 2 t :=
  before0_2_of V a (dat0 V a c) (A_eq0 V a c 2) (after0_2 V a c) t d
theorem before0_3 (c : Dev nD) (t : Fin (cfg0 a).N) (d) : (dat0 V a c).before 3 t d = iblk0 V a c 3 t :=
  before0_3_of V a (dat0 V a c) (A_eq0 V a c 3) (after0_3 V a c) t d
theorem before0_4 (c : Dev nD) (t : Fin (cfg0 a).N) (d) : (dat0 V a c).before 4 t d = iblk0 V a c 4 t :=
  before0_4_of V a (dat0 V a c) (A_eq0 V a c 4) (after0_4 V a c) t d
theorem before0_5 (c : Dev nD) (t : Fin (cfg0 a).N) (d) : (dat0 V a c).before 5 t d = iblk0 V a c 5 t :=
  before0_5_of V a (dat0 V a c) (A_eq0 V a c 5) (after0_5 V a c) t d
theorem before0_6 (c : Dev nD) (t : Fin (cfg0 a).N) (d) : (dat0 V a c).before 6 t d = iblk0 V a c 6 t :=
  before0_6_of V a (dat0 V a c) (A_eq0 V a c 6) (after0_6 V a c) t d

/-! ## The body obligation -/

/-- The current staging memref of each window at point `t`. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)
abbrev st0_7 (t : Fin (cfg0 a).N) := ((cfg0 a).win 7).stage ((cfg0 a).slots t 7)
abbrev st0_8 (t : Fin (cfg0 a).N) := ((cfg0 a).win 8).stage ((cfg0 a).slots t 8)

/-- The body at point `t`, on what the pipeline calls it with: the table's memref, then each window's current
    staging memref. -/
abbrev bodyAt0 (t : Fin (cfg0 a).N) : Prog (TpuEff nD τ sig (Elt F) Λ₀ .tc) PUnit :=
  cc0__ac_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

/-- What the body is called with at point `t`, -/
def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d))
    ∗ (∃ d, owns (c : Thread nD τ) (st0_7 a t) fullShare ((dat0 V a c).before 7 t d))
    ∗ (∃ d, owns (c : Thread nD τ) (st0_8 a t) fullShare ((dat0 V a c).before 8 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t)
    ∗ owns (c : Thread nD τ) (st0_7 a t) fullShare ((dat0 V a c).after 7 t)
    ∗ owns (c : Thread nD τ) (st0_8 a t) fullShare ((dat0 V a c).after 8 t))

/-- The body at the point: the inputs' memrefs hold their blocks, so the body's triple applies; the invariant (the
    table's buffer within it) and what the core owes pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3, before0_4, before0_5, before0_6]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ _ _ (iblk0 V a c 0 t) (iblk0 V a c 1 t) (iblk0 V a c 2 t) (iblk0 V a c 3 t) (iblk0 V a c 4 t) (iblk0 V a c 5 t) (iblk0 V a c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at the one point of the grid. -/
theorem body_obligation0 (c : Dev nD) : BodyObligation (dat0 (F := F) V a c) (defs₀ (F := F)) Variants.none () Set.univ := fun t => by
  rw [bigSep_W0, bigSep_W0]
  exact sound_body0 V a c t

end Cert.KernelIdeal.Hand

end
-- ==== Proof.Hand.KernelIdeal.Region1.lean ====
/- The second pallas_call: the four gate tiles x·W_ihᵀ + b_ih + h·W_hhᵀ + b_hh, one tile of 1024 gate columns a grid
   point. At a parameter `V` (the TensorCore's buffer contents when the region is entered): each window's block at a
   point, what the body leaves in the output's buffer (its one whole-buffer store, which is the payload), the body's
   triple on whole staging memrefs, the pipeline's proof data and the body obligation at every point of the grid. -/
import proofs.«413536_j14714557956454_3_alg».proof.Proof.Gen.KernelIdeal.Launch
import proofs.«413536_j14714557956454_3_alg».proof.Proof.Gen.KernelIdeal.Skeleton
import proofs.«413536_j14714557956454_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for any proof
    data whose array is `V`'s and whose body leaves the block in place: where the window is not fetched its block
    index has not moved since the point before. No window is cut and none is idle. The input x and the state h
    (windows 0, 1) have a constant index map and are fetched once; the weights' row blocks (2, 3) and the biases'
    column blocks (4, 5) move with the point. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [1, 1024] buffer: the rectangle of every load and of the store on windows 0, 1, 4, 5, 6. -/
abbrev rv1 : Rect S1x1024 := Rect.unit (s := S1x1024) ![0, 0] S1x1024.size inb_S1x1024_S1x1024_0_0
/-- The whole [1024, 1024] buffer: the rectangle of the loads of the two weight blocks. -/
abbrev rw1 : Rect S1024x1024 := Rect.unit (s := S1024x1024) ![0, 0] S1024x1024.size inb_S1024x1024_S1024x1024_0_0

/-! ## What the body leaves in the output window's buffer -/

/-- Window 6's staging buffer after the body, from the input windows' blocks: its one store, the gate tile
    x·W_ihᵀ + b_ih + h·W_hhᵀ + b_hh of the loaded buffers. -/
def out1_6 (x0 x1 : Vec F S1x1024 .f32) (x2 x3 : Vec F S1024x1024 .f32) (x4 x5 : Vec F S1x1024 .f32) : Vec F S1x1024 .f32 :=
  View.canon [⟨rv1, k1_pay1 (View.ld x0 rv1) (View.ld x1 rv1) (View.ld x2 rw1) (View.ld x3 rw1) (View.ld x4 rv1) (View.ld x5 rv1)⟩]

/-- The one store is of the whole buffer, so it covers it. -/
theorem cover1_6 (p0 : Vec F S1x1024 .f32) (y : S1x1024.Idx) :
    ∃ pc ∈ ([⟨rv1, p0⟩] : List (View.Piece (Elt F) S1x1024 .f32)), y ∈ pc.1.set :=
  View.cover_of_tiled [⟨rv1, p0⟩] S1x1024.size (by rfl) y

/-- The offset of every access of the body, however spelt, is zero on both axes. -/
private theorem hz1 : (![0, 0] : Fin 2 → Nat) = fun _ => 0 := funext fun a => by fin_cases a <;> rfl

/-- One whole-buffer store leaves its payload, and a whole-buffer load reads the buffer: the output's buffer after
    the body is the gate tile of the six input buffers. -/
theorem out1_6_eq (x0 x1 : Vec F S1x1024 .f32) (x2 x3 : Vec F S1024x1024 .f32) (x4 x5 : Vec F S1x1024 .f32) :
    out1_6 x0 x1 x2 x3 x4 x5 = k1_pay1 x0 x1 x2 x3 x4 x5 := by
  unfold out1_6
  rw [View.canon_unit_zero (S := S1x1024) hz1 inb_S1x1024_S1x1024_0_0,
    View.ld_unit_zero (S := S1x1024) hz1 inb_S1x1024_S1x1024_0_0 x0,
    View.ld_unit_zero (S := S1x1024) hz1 inb_S1x1024_S1x1024_0_0 x1,
    View.ld_unit_zero (S := S1024x1024) hz1 inb_S1024x1024_S1024x1024_0_0 x2,
    View.ld_unit_zero (S := S1024x1024) hz1 inb_S1024x1024_S1024x1024_0_0 x3,
    View.ld_unit_zero (S := S1x1024) hz1 inb_S1x1024_S1x1024_0_0 x4,
    View.ld_unit_zero (S := S1x1024) hz1 inb_S1x1024_S1x1024_0_0 x5]

/-! ## The body's triple -/

set_option maxHeartbeats 1000000 in
/-- The kernel body on whole staging memrefs, the six inputs' at contents `x0 … x5` and the output's at anything, runs
    to the continuation holding the inputs' as they were and the output's at `out1_6` of them: six whole-buffer loads,
    a load of the output's buffer nothing reads, and the one store. -/
theorem sound_kernel1 (c : Dev nD) (E : Set ℕ) (i : grid1.Coords) (a0 : Memref sig .tc .vmem S1x1024 .f32) (h0 : a0.IsWhole) (a1 : Memref sig .tc .vmem S1x1024 .f32) (h1 : a1.IsWhole) (a2 : Memref sig .tc .vmem S1024x1024 .f32) (h2 : a2.IsWhole) (a3 : Memref sig .tc .vmem S1024x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole)
    (x0 x1 : Vec F S1x1024 .f32) (x2 x3 : Vec F S1024x1024 .f32) (x4 x5 : Vec F S1x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out1_6 x0 x1 x2 x3 x4 x5)) -∗ K ⟨⟩))
      ⊢ wp frame (wpE (defs₀ (F := F)) Variants.none c none) E (cc1__lstm_kernel i a0 h0 a1 h1 a2 h2 a3 h3 a4 h4 a5 h5 a6 h6) K := by
  simp only [cc1__lstm_kernel_eq_skeleton]; unfold cc1__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the pipeline on core `c`: the arrays as the region finds them; after the body at point `t` each
    input's buffer at its block and the output's at `out1_6` of the six input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one: the invariant, the core's debts, and each
    window's current staging memref (the output's at contents nothing names), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point of the grid. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Hand.KernelIdeal.Region2.lean ====
/- The third pallas_call: the logits h1·W_outᵀ + b_out in 17 tiles of 3072 columns, the last tile cut at
   column 50257. Per point: the four windows' blocks; what the body leaves in the output tile's buffer, as a
   function of the three input buffers' whole contents; the body's triple; and the body obligation with the
   output window forgotten, in which the weight and bias buffers arrive filled out past the arrays' end by
   words nothing names and are handed back as they came. -/
import proofs.«413536_j14714557956454_3_alg».proof.Proof.Gen.KernelIdeal.Launch
import proofs.«413536_j14714557956454_3_alg».proof.Proof.Gen.KernelIdeal.Skeleton
import proofs.«413536_j14714557956454_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it: its part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The word the proof data fills a cut block out with past the array's end; nothing reads it. -/
abbrev zf : F .f32 := Scalar.ofBits .f32 0#32

/-! ## The body's accesses: each buffer whole -/

abbrev r2_0 : Rect S1x1024 := Rect.unit (s := S1x1024) ![0, 0] S1x1024.size inb_S1x1024_S1x1024_0_0
abbrev r2_1 : Rect S3072x1024 := Rect.unit (s := S3072x1024) ![0, 0] S3072x1024.size inb_S3072x1024_S3072x1024_0_0
abbrev r2_2 : Rect S1x3072 := Rect.unit (s := S1x3072) ![0, 0] S1x3072.size inb_S1x3072_S1x3072_0_0

/-! ## What the body leaves in the output tile's buffer -/

/-- The output tile's buffer after the body, from the whole contents of the three input buffers: its one store,
    of the tile h·Wᵀ + b over what the three whole loads read. -/
def out2_3 (x0 : Vec F S1x1024 .f32) (x1 : Vec F S3072x1024 .f32) (x2 : Vec F S1x3072 .f32) : Vec F S1x3072 .f32 :=
  View.canon [⟨r2_2, k2_pay1 (View.ld x0 r2_0) (View.ld x1 r2_1) (View.ld x2 r2_2)⟩]

/-- The store is of the whole buffer, so it covers it. -/
theorem cover2_3 (p0 : Vec F S1x3072 .f32) (y : S1x3072.Idx) :
    ∃ pc ∈ ([⟨r2_2, p0⟩] : List (View.Piece (Elt F) S1x3072 .f32)), y ∈ pc.1.set :=
  ⟨_, List.mem_singleton_self _, View.mem_set_unit_zero (funext fun a => by fin_cases a <;> rfl) inb_S1x3072_S1x3072_0_0 y⟩

/-- Whole loads read the contents and the whole store leaves its payload: the buffer holds the tile. -/
theorem out2_3_eq (x0 : Vec F S1x1024 .f32) (x1 : Vec F S3072x1024 .f32) (x2 : Vec F S1x3072 .f32) :
    out2_3 x0 x1 x2 = k2_pay1 x0 x1 x2 := by
  have hz : (![0, 0] : Fin 2 → Nat) = fun _ => 0 := funext fun a => by fin_cases a <;> rfl
  unfold out2_3
  rw [View.canon_unit_zero hz, View.ld_unit_zero hz, View.ld_unit_zero hz, View.ld_unit_zero hz]

/-! ## The body's triple -/

set_option maxHeartbeats 1000000 in
/-- The kernel body on whole staging memrefs, the three inputs' at any contents and the output's at anything, runs
    to the continuation holding the inputs' as they were and the output's at `out2_3` of them. -/
theorem sound_kernel2 (c : Dev nD) (E : Set ℕ) (i : grid2.Coords)
    (arg1 : Memref sig .tc .vmem S1x1024 .f32) (harg1 : arg1.IsWhole) (arg2 : Memref sig .tc .vmem S3072x1024 .f32) (harg2 : arg2.IsWhole)
    (arg3 : Memref sig .tc .vmem S1x3072 .f32) (harg3 : arg3.IsWhole) (arg4 : Memref sig .tc .vmem S1x3072 .f32) (harg4 : arg4.IsWhole)
    (x0 : Vec F S1x1024 .f32) (x1 : Vec F S3072x1024 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__logits_kernel i arg1 harg1 arg2 harg2 arg3 harg3 arg4 harg4) K := by
  simp only [cc2__logits_kernel_eq_skeleton]; unfold cc2__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The one window of the third call the frame forgets: its output. -/
def fgt2 : Fin cfg2.W → Bool := fun | 0 => false | 1 => false | 2 => false | 3 => true | ⟨_ + 4, h⟩ => absurd h (Nat.not_lt.2 (Nat.le_add_left _ _))

/-- The proof data of the third call on core `c`: the arrays as the region finds them; after the body at point `t`
    the hidden state's buffer at its block, the weight tile's and the bias tile's at their blocks filled out past
    the arrays' end with the zero word, and the output tile's at the tile computed from those three; the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (cfg2.win 1).fill (cfg2.grid.coords t) (fun _ => zf) (iblk2 V c 1 t)
    | ⟨2, _⟩ => (cfg2.win 2).fill (cfg2.grid.coords t) (fun _ => zf) (iblk2 V c 2 t)
    | ⟨3, _⟩ => out2_3 (iblk2 V c 0 t) ((cfg2.win 1).fill (cfg2.grid.coords t) (fun _ => zf) (iblk2 V c 1 t))
        ((cfg2.win 2).fill (cfg2.grid.coords t) (fun _ => zf) (iblk2 V c 2 t))
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) :
    (dat2 V c).after 1 t = (cfg2.win 1).fill (cfg2.grid.coords t) (fun _ => zf) (iblk2 V c 1 t) := by dsimp only [dat2]
theorem after2_2 (c : Dev nD) (t : Fin cfg2.N) :
    (dat2 V c).after 2 t = (cfg2.win 2).fill (cfg2.grid.coords t) (fun _ => zf) (iblk2 V c 2 t) := by dsimp only [dat2]
theorem after2_3 (c : Dev nD) (t : Fin cfg2.N) :
    (dat2 V c).after 3 t = out2_3 (iblk2 V c 0 t) ((cfg2.win 1).fill (cfg2.grid.coords t) (fun _ => zf) (iblk2 V c 1 t))
        ((cfg2.win 2).fill (cfg2.grid.coords t) (fun _ => zf) (iblk2 V c 2 t)) := by dsimp only [dat2]

/-! ## What the body finds -/

/-- The hidden state's buffer holds its block at every point, fetched there or not: the block index never moves. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight tile's and the bias tile's buffers are fetched at every point: each holds its block on the part
    inside the array and, past the array's end, whatever the buffer held. -/
theorem before2_1 (c : Dev nD) (t : Fin cfg2.N) (d) :
    (dat2 V c).before 1 t d = (cfg2.win 1).fill (cfg2.grid.coords t) d (iblk2 V c 1 t) := by
  rw [(dat2 V c).before_fetched 1 t (fetch2_1 t) d]; unfold Dat.fetched Dat.blockOf iblk2; rw [A_eq2]
theorem before2_2 (c : Dev nD) (t : Fin cfg2.N) (d) :
    (dat2 V c).before 2 t d = (cfg2.win 2).fill (cfg2.grid.coords t) d (iblk2 V c 2 t) := by
  rw [(dat2 V c).before_fetched 2 t (fetch2_2 t) d]; unfold Dat.fetched Dat.blockOf iblk2; rw [A_eq2]

/-! ## The body obligation with the output window forgotten, at a generic point -/

/-- What the body is called with at point `t`: the three inputs' buffers at what they then hold, the output's at anything, -/
def bodyPre2f (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ X, owns (c : Thread nD τ) (st2_3 t) fullShare X))

/-- and what it returns: the hidden state's at its block, the two cut windows' stated on the part their transfers
    move, the output's at anything. -/
def bodyPost2f (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t))))
    ∗ (∃ X, owns (c : Thread nD τ) (st2_3 t) fullShare X))

/-- The body at any point: the inputs' buffers hold their blocks, the cut ones filled out by words `d` nothing names,
    so the body's triple applies at those contents; each input comes back as it came, which on the moved part is
    the proof data's block whatever the filler; the invariant and the core's debts pass through unread. -/
theorem sound_body2f (c : Dev nD) (t : Fin cfg2.N) :
    bodyPre2f V c t ⊢ wp frame (wpE (defs₀ (F := F)) Variants.none c none) Set.univ (bodyAt2 t) (fun _ => bodyPost2f V c t) := by
  unfold bodyPre2f bodyPost2f bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, Window.cut_fill, Window.cut_fill]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t)
    ((cfg2.win 1).fill (cfg2.grid.coords t) d1 (iblk2 V c 1 t)) ((cfg2.win 2).fill (cfg2.grid.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

/-- At any float instance: the body obligation with the output window forgotten. -/
theorem body_obligation2_fgt (c : Dev nD) : BodyObligationLoose (dat2 (F := F) V c) (defs₀ (F := F)) Variants.none () Set.univ fgt2 := fun t => by
  rw [bigSep_W2, bigSep_W2]
  exact sound_body2f V c t

end Cert.KernelIdeal.Hand

end
-- ==== Proof.Hand.KernelIdeal.Chain.lean ====
/- The chain of buffer contents through the program's run at exact proof data: the table the first call's index map
   reads, what each call leaves in its output arrays (each output's write-backs folded over the contents the call was
   entered from, every other buffer as entered), every call's proof data at its entry contents, and that each call's
   exit contents are the next valuation of the chain. -/
import proofs.«413536_j14714557956454_3_alg».proof.Proof.Hand.KernelIdeal.Table
import proofs.«413536_j14714557956454_3_alg».proof.Proof.Hand.KernelIdeal.Region0
import proofs.«413536_j14714557956454_3_alg».proof.Proof.Hand.KernelIdeal.Region1
import proofs.«413536_j14714557956454_3_alg».proof.Proof.Hand.KernelIdeal.Region2
import proofs.«413536_j14714557956454_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The table, and what the calls leave -/

/-- The tables' admissible contents: the first call's one table at the clamp's result, the others none. -/
def adm : (p : Fin 3) → (pcfgs (F := F) p).Adm
  | ⟨0, _⟩ => ⟨tbl m, ok_tbl m⟩
  | ⟨1, _⟩ => cfg1.toPCfg_adm
  | ⟨2, _⟩ => cfg2.toPCfg_adm

/-- The buffers as the first call finds them, read at the TensorCore's references. -/
abbrev E0 : (c : Dev nD) → (b : Ref sig .tc) → Buf (Elt F) ((c : Thread nD τ).loc b) := fun c b => V3 m c b

/-- At the first call's exit: its arrays at what the pipeline leaves, every other buffer as entered. -/
def U4 (c : Dev nD) : Valuation τ sig (Elt F) :=
  Pipeline.withArrays spec0 c (V3 m c) fun w => (dat0 (E0 m) (adm m 0) c).arrAt w (cfg0 (adm m 0)).N
/-- What the first call leaves, as the family the generated valuations read. -/
def outsA : Outs (F := F) := fun _ r c => U4 m c r

/-- The buffers as the second call finds them. -/
abbrev E1 : (c : Dev nD) → (b : Ref sig .tc) → Buf (Elt F) ((c : Thread nD τ).loc b) := fun c b => V4 m (outsA m) c b
/-- At the second call's exit. -/
def U5 (c : Dev nD) : Valuation τ sig (Elt F) :=
  Pipeline.withArrays spec1 c (V4 m (outsA m) c) fun w => (dat1 (E1 m) c).arrAt w cfg1.N
/-- What the first two calls leave. -/
def outsB : Outs (F := F) := fun J r c => if J = 4 then outsA m J r c else U5 m c r

/-- The buffers as the third call finds them (after the host's cell nonlinearity). -/
abbrev E2 : (c : Dev nD) → (b : Ref sig .tc) → Buf (Elt F) ((c : Thread nD τ).loc b) := fun c b => V6 m (outsB m) c b
/-- At the third call's exit. -/
def U7 (c : Dev nD) : Valuation τ sig (Elt F) :=
  Pipeline.withArrays spec2 c (V6 m (outsB m) c) fun w => (dat2 (E2 m) c).arrAt w cfg2.N
/-- What the three calls leave. -/
def outsN : Outs (F := F) := fun J r c => if J = 7 then U7 m c r else outsB m J r c

theorem outsN_4 : outsN m 4 = outsA m 4 := rfl
theorem outsN_5 (r : Ref sig .tc) (c : Dev nD) : outsN m 5 r c = U5 m c r := rfl
theorem outsN_7 (r : Ref sig .tc) (c : Dev nD) : outsN m 7 r c = U7 m c r := rfl
theorem outsB_4 : outsB m 4 = outsA m 4 := rfl

/-- Every pipeline's proof data, each at its call's entry contents. -/
def pdats : (p : Fin 3) → (c : Dev nD) → Dat τ (Elt F) Unit ℕ (UR sig nD τ) ℕ (Pipeline.pin (pcfgs (F := F)) (adm m) p) c
  | ⟨0, _⟩ => fun c => dat0 (E0 m) (adm m 0) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## What each call's exit holds, against the generated valuations -/

/-- What the first call leaves in a buffer that is none of its two outputs is what it found there: an input window's
    array is never written, and a buffer no window names is bypassed. -/
theorem U4_of_ne (c : Dev nD) (b : Ref sig .tc) (h7 : b ≠ main_v9_0) (h8 : b ≠ main_v9_1) : U4 m c b = V3 m c b := by
  unfold U4
  by_cases hb : ∃ w, Pipeline.arrRef spec0 w = b
  · obtain ⟨w, rfl⟩ := hb
    rw [Pipeline.withArrays_arr spec0 (launch0 (F := F)).win.arr_inj c (V3 m c) (fun w => (dat0 (E0 m) (adm m 0) c).arrAt w (cfg0 (adm m 0)).N) w]
    match w with
    | ⟨0, _⟩ => exact ((dat0 (E0 m) (adm m 0) c).arrAt_in 0 rfl _).trans (A_eq0 (E0 m) (adm m 0) c 0)
    | ⟨1, _⟩ => exact ((dat0 (E0 m) (adm m 0) c).arrAt_in 1 rfl _).trans (A_eq0 (E0 m) (adm m 0) c 1)
    | ⟨2, _⟩ => exact ((dat0 (E0 m) (adm m 0) c).arrAt_in 2 rfl _).trans (A_eq0 (E0 m) (adm m 0) c 2)
    | ⟨3, _⟩ => exact ((dat0 (E0 m) (adm m 0) c).arrAt_in 3 rfl _).trans (A_eq0 (E0 m) (adm m 0) c 3)
    | ⟨4, _⟩ => exact ((dat0 (E0 m) (adm m 0) c).arrAt_in 4 rfl _).trans (A_eq0 (E0 m) (adm m 0) c 4)
    | ⟨5, _⟩ => exact ((dat0 (E0 m) (adm m 0) c).arrAt_in 5 rfl _).trans (A_eq0 (E0 m) (adm m 0) c 5)
    | ⟨6, _⟩ => exact ((dat0 (E0 m) (adm m 0) c).arrAt_in 6 rfl _).trans (A_eq0 (E0 m) (adm m 0) c 6)
    | ⟨7, _⟩ => exact absurd rfl h7
    | ⟨8, _⟩ => exact absurd rfl h8
  · exact Pipeline.withArrays_of_ne spec0 c _ _ b (fun w e => hb ⟨w, e⟩)

/-- The first call's exit contents are the generated valuation after it, at what the calls leave. -/
theorem V4_eq (c : Dev nD) (b : Ref sig .tc) : V4 m (outsN m) c b = U4 m c b := by
  by_cases h8 : b = main_v9_1
  · subst h8; exact Function.update_self ..
  · by_cases h7 : b = main_v9_0
    · subst h7
      exact (Function.update_of_ne (StableHlo.devRef_ne_of_ne h8) ..).trans (Function.update_self ..)
    · exact (V4_of m (outsN m) c b (by simp [h7, h8])).trans (U4_of_ne m c b h7 h8).symm
theorem hF0 (c : Dev nD) (w : Fin (cfg0 (adm m 0)).W) : (dat0 (E0 m) (adm m 0) c).arrAt w (cfg0 (adm m 0)).N = V4 m (outsN m) c (Pipeline.arrRef spec0 w) := by
  rw [V4_eq]; unfold U4; exact (Pipeline.withArrays_arr spec0 (launch0 (F := F)).win.arr_inj c (V3 m c) (fun w => (dat0 (E0 m) (adm m 0) c).arrAt w (cfg0 (adm m 0)).N) w).symm
theorem hrest0 (c : Dev nD) : ∀ b, b ∉ Finset.univ.image (Pipeline.arrRef spec0) → V4 m (outsN m) c b = V3 m c b := fun b hb => by
  rw [V4_eq]; unfold U4; exact Pipeline.withArrays_of_ne spec0 c _ _ b fun w e => hb (Finset.mem_image.mpr ⟨w, Finset.mem_univ _, e⟩)

theorem V4_outs (c : Dev nD) : V4 m (outsN m) c = V4 m (outsA m) c := rfl

/-- What the second call leaves in a buffer that is not its output is what it found there. -/
theorem U5_of_ne (c : Dev nD) (b : Ref sig .tc) (h : b ≠ main_v10) : U5 m c b = V4 m (outsA m) c b := by
  unfold U5
  by_cases hb : ∃ w, Pipeline.arrRef spec1 w = b
  · obtain ⟨w, rfl⟩ := hb
    rw [Pipeline.withArrays_arr spec1 (launch1 (F := F)).win.arr_inj c (V4 m (outsA m) c) (fun w => (dat1 (E1 m) c).arrAt w cfg1.N) w]
    match w with
    | ⟨0, _⟩ => exact ((dat1 (E1 m) c).arrAt_in 0 rfl _).trans (A_eq1 (E1 m) c 0)
    | ⟨1, _⟩ => exact ((dat1 (E1 m) c).arrAt_in 1 rfl _).trans (A_eq1 (E1 m) c 1)
    | ⟨2, _⟩ => exact ((dat1 (E1 m) c).arrAt_in 2 rfl _).trans (A_eq1 (E1 m) c 2)
    | ⟨3, _⟩ => exact ((dat1 (E1 m) c).arrAt_in 3 rfl _).trans (A_eq1 (E1 m) c 3)
    | ⟨4, _⟩ => exact ((dat1 (E1 m) c).arrAt_in 4 rfl _).trans (A_eq1 (E1 m) c 4)
    | ⟨5, _⟩ => exact ((dat1 (E1 m) c).arrAt_in 5 rfl _).trans (A_eq1 (E1 m) c 5)
    | ⟨6, _⟩ => exact absurd rfl h
  · exact Pipeline.withArrays_of_ne spec1 c _ _ b (fun w e => hb ⟨w, e⟩)

theorem V5_eq (c : Dev nD) (b : Ref sig .tc) : V5 m (outsN m) c b = U5 m c b := by
  by_cases h : b = main_v10
  · subst h; exact Function.update_self ..
  · exact (V5_of m (outsN m) c b (by simp [h])).trans (U5_of_ne m c b h).symm
theorem hF1 (c : Dev nD) (w : Fin cfg1.W) : (dat1 (E1 m) c).arrAt w cfg1.N = V5 m (outsN m) c (Pipeline.arrRef spec1 w) := by
  rw [V5_eq]; unfold U5; exact (Pipeline.withArrays_arr spec1 (launch1 (F := F)).win.arr_inj c (V4 m (outsA m) c) (fun w => (dat1 (E1 m) c).arrAt w cfg1.N) w).symm
theorem hrest1 (c : Dev nD) : ∀ b, b ∉ Finset.univ.image (Pipeline.arrRef spec1) → V5 m (outsN m) c b = V4 m (outsA m) c b := fun b hb => by
  rw [V5_eq]; unfold U5; exact Pipeline.withArrays_of_ne spec1 c _ _ b fun w e => hb (Finset.mem_image.mpr ⟨w, Finset.mem_univ _, e⟩)

/-- The buffers the third call is entered from do not depend on what it will leave. -/
theorem V6_outs (c : Dev nD) : V6 m (outsN m) c = V6 m (outsB m) c := rfl

/-- What the third call leaves in a buffer that is not its output is what it found there. -/
theorem U7_of_ne (c : Dev nD) (b : Ref sig .tc) (h : b ≠ main_v39) : U7 m c b = V6 m (outsB m) c b := by
  unfold U7
  by_cases hb : ∃ w, Pipeline.arrRef spec2 w = b
  · obtain ⟨w, rfl⟩ := hb
    rw [Pipeline.withArrays_arr spec2 (launch2 (F := F)).win.arr_inj c (V6 m (outsB m) c) (fun w => (dat2 (E2 m) c).arrAt w cfg2.N) w]
    match w with
    | ⟨0, _⟩ => exact ((dat2 (E2 m) c).arrAt_in 0 rfl _).trans (A_eq2 (E2 m) c 0)
    | ⟨1, _⟩ => exact ((dat2 (E2 m) c).arrAt_in 1 rfl _).trans (A_eq2 (E2 m) c 1)
    | ⟨2, _⟩ => exact ((dat2 (E2 m) c).arrAt_in 2 rfl _).trans (A_eq2 (E2 m) c 2)
    | ⟨3, _⟩ => exact absurd rfl h
  · exact Pipeline.withArrays_of_ne spec2 c _ _ b (fun w e => hb ⟨w, e⟩)

theorem V7_eq (c : Dev nD) (b : Ref sig .tc) : V7 m (outsN m) c b = U7 m c b := by
  by_cases h : b = main_v39
  · subst h; exact Function.update_self ..
  · exact ((V7_of m (outsN m) c b (by simp [h])).trans (congrFun (V6_outs m c) _)).trans (U7_of_ne m c b h).symm
theorem hF2 (c : Dev nD) (w : Fin cfg2.W) : (dat2 (E2 m) c).arrAt w cfg2.N = V7 m (outsN m) c (Pipeline.arrRef spec2 w) := by
  rw [V7_eq]; unfold U7; exact (Pipeline.withArrays_arr spec2 (launch2 (F := F)).win.arr_inj c (V6 m (outsB m) c) (fun w => (dat2 (E2 m) c).arrAt w cfg2.N) w).symm
theorem hrest2 (c : Dev nD) : ∀ b, b ∉ Finset.univ.image (Pipeline.arrRef spec2) → V7 m (outsN m) c b = V6 m (outsB m) c b := fun b hb => by
  rw [V7_eq]; unfold U7; exact Pipeline.withArrays_of_ne spec2 c _ _ b fun w e => hb (Finset.mem_image.mpr ⟨w, Finset.mem_univ _, e⟩)

end Cert.KernelIdeal.Hand

end
-- ==== Proof.Hand.KernelIdeal.Records.lean ====
/- The three pallas_calls as segments of the program's run at exact proof data: per call its record — its arrays split
   out of the core's unscoped buffers at entry and put back at exit, the generator register through the call's
   invariant, the first call's table through it too, nothing owed. -/
import proofs.«413536_j14714557956454_3_alg».proof.Proof.Hand.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The calls as segments -/

-- `iapply` of a library lemma stated over `pin pcs a p` unifies with the pinned configuration only when unification may
-- unfold plain definitions in a metavariable's type
set_option backward.isDefEq.respectTransparency.types false in
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V4 m (outsA m) c) ∗ R c)
  post c := iprop(StableHlo.held (c : Thread nD τ) (Pipeline.ucRefs τ sig) (V5 m (outsN m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (E1 m c) (fun b => V5 m (outsN m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg2 (hb : ∀ c, BodyObligationLoose (dat2 (F := F) (E2 m) c) (defs₀ (F := F)) Variants.none () Set.univ) : Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := hb c
  hwaits := Pipeline.hwaits_of_owed_zero _ _ _ _ L lv 2 fun _ _ => rfl
  pre c := iprop(StableHlo.held (c : Thread nD τ) (Pipeline.ucRefs τ sig) (V6 m (outsB m) c) ∗ R c)
  post c := iprop(StableHlo.held (c : Thread nD τ) (Pipeline.ucRefs τ sig) (V7 m (outsN m) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) (adm m) (pdats m) (launch2 (F := F)).win (launch2 (F := F)).arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := UR sig nD τ) (Lvl := ℕ)
      (launch2 (F := F)).win (launch2 (F := F)).arr_whole c (pdats m) ((pdats m 2 c).share_full fun _ => rfl)
      (E2 m c) (fun b => V7 m (outsN m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (E0 m) (adm m 0) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outsN m) c) ∗ R c)
  X c := iprop(∃ r, prngReg c r)
  Y c := iprop((∃ r, prngReg c r) ∗ Pipeline.prefHeld pre0 c (fun _ => fullShare) (adm m 0).1)
  Z c := Pipeline.unscopedRestP (Ix := Unit) (Name := ℕ) (U := UR sig nD τ) (Lvl := ℕ) pre0 spec0 c (E0 m c)
  hentry c := by
    obtain rfl : c = 0 := Subsingleton.elim _ _
    rw [Pipeline.ownSems0_none]
    have hsplit := Pipeline.arrays_of_unscopedBufs (p := 0) (pcfgs (F := F)) (adm m) (pdats m) (launch0 (F := F)).win (launch0 (F := F)).arr_whole 0
      ((pdats m 0 0).share_full fun _ => rfl) (E0 m 0) fun _ => rfl
    have hsp : (Pipeline.unscopedRest (Pipeline.pin (pcfgs (F := F)) (adm m) 0).spec (0 : Dev nD) (E0 m 0) : sProp 𝕄)
        = iprop(Pipeline.prefHeld pre0 0 (fun _ => fullShare) (fun k => E0 m 0 (pre0.ref k)) ∗ Pipeline.unscopedRestP pre0 spec0 0 (E0 m 0)) :=
      Pipeline.unscopedRest_split (pre := pre0) preFacts0 0 (E0 m 0)
    rw [Pipeline.unscopedBufs_held, hsp] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ Pipeline.prefHeld pre0 c (fun _ => fullShare) (adm m 0).1) from rfl]; unfold Pipeline.ΦA
    iintro ⟨Hp, Hpf, Hr⟩
    isplitr [Hpf]
    · isplitl [Hr]; · iexact Hr
      iexact Hp
    iexact Hpf
  hout c := by
    rw [Pipeline.ownSems0_none, show (pdats m 0 c).Φ (Fin.last _) = iprop(Pipeline.ΦA spec0 c ∗ Pipeline.prefHeld pre0 c (fun _ => fullShare) (adm m 0).1) from rfl]; unfold Pipeline.ΦA
    iintro ⟨⟨Hr, Hp⟩, Hpf⟩
    isplitl [Hp Hpf]
    · isplitl [Hp]; · iexact Hp
      iexact Hpf
    isplitr; · iempintro
    iexact Hr
  hexit c := by
    obtain rfl : c = 0 := Subsingleton.elim _ _
    have hjoin := Pipeline.unscopedBufs_of_arrays (p := 0) (pcfgs (F := F)) (adm m) (Ix := Unit) (Name := ℕ) (U := UR sig nD τ) (Lvl := ℕ)
      (launch0 (F := F)).win (launch0 (F := F)).arr_whole 0 (pdats m) ((pdats m 0 0).share_full fun _ => rfl)
      (E0 m 0) (fun b => V4 m (outsN m) 0 b) ((pdats m 0 0).arrAt · (cfg0 (adm m 0)).N) (hF0 m 0) (hrest0 m 0)
    have hsp : (Pipeline.unscopedRest (Pipeline.pin (pcfgs (F := F)) (adm m) 0).spec (0 : Dev nD) (E0 m 0) : sProp 𝕄)
        = iprop(Pipeline.prefHeld pre0 0 (fun _ => fullShare) (fun k => E0 m 0 (pre0.ref k)) ∗ Pipeline.unscopedRestP pre0 spec0 0 (E0 m 0)) :=
      Pipeline.unscopedRest_split (pre := pre0) preFacts0 0 (E0 m 0)
    rw [Pipeline.unscopedBufs_held, hsp] at hjoin
    iintro ⟨Ha, HO, ⟨HY, Hpf⟩, Hrest⟩
    imodintro
    isplitl [Ha Hrest Hpf]
    · iapply hjoin
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

end Cert.KernelIdeal.Hand

end
-- ==== Proof.Hand.KernelIdeal.RunValues.lean ====
/- The run of the idealized kernel program with its results named: from any memory with zero counters every weakly fair
   execution ends, each of the four results at the last valuation of the chain "host stretch, call, call, host stretch,
   call, host stretches" read at what the three calls leave, and every argument as launched — given the third call's
   body obligation at exact proof data (which holds where a matrix product is an entrywise sum). -/
import proofs.«413536_j14714557956454_3_alg».proof.Proof.Hand.KernelIdeal.ValuesCond
import proofs.«413536_j14714557956454_3_alg».proof.Proof.Hand.KernelIdeal.Records

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the conditional run's implicit arguments are found by unifying its conclusion with this one
set_option backward.isDefEq.respectTransparency.types false in
theorem run_values (hb : ∀ c, BodyObligationLoose (dat2 (F := F) (E2 m) c) (defs₀ (F := F)) Variants.none () Set.univ) :
    θ_run defs (onTc (τ := τ) (main (F := F))) ⟨m, fun _ => 0, ρ⟩ (fun r => ∀ c : Dev nD,
      r.2.mem ((c.tc : Thread nD τ).loc main_v40) = V9 m (outsN m) c main_v40
      ∧ r.2.mem ((c.tc : Thread nD τ).loc main_v41) = V9 m (outsN m) c main_v41
      ∧ r.2.mem ((c.tc : Thread nD τ).loc main_v42) = V9 m (outsN m) c main_v42
      ∧ r.2.mem ((c.tc : Thread nD τ).loc main_v9_1) = V9 m (outsN m) c main_v9_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  values_cond m emb₁ () 𝒱₀ L lv (fun _ _ => rfl) ρ (outsN m) (adm m) (pdats m) (O₀ := 0) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (reg0 m) (fun c => .rfl) (fun c => .rfl)
    (reg1 m) (fun c => .rfl) (fun c => .rfl)
    (reg2 m hb) (fun c => by rw [V6_outs]; exact .rfl) (fun c => .rfl)

end Cert.KernelIdeal.Hand

end
-- ==== Proof.Hand.KernelIdeal.Region2Ideal.lean ====
/- The third pallas_call at the ideal values: the body obligation with every window named. There a tile's column j
   is the plain sum over the contracted axis of the hidden state against row j of the weight block, plus entry j
   of the bias block; so the columns inside the array read nothing of what fills the weight and bias buffers out
   past the arrays' end, and the part of the output tile its write-back moves is the same for every filler. -/
import proofs.«413536_j14714557956454_3_alg».proof.Proof.Hand.KernelIdeal.Region2
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## A column of the tile reads one row of the weight block and one entry of the bias block -/

/-- Column `j` of h·Wᵀ + b is ∑ₖ h[k]·W[j,k] + b[j], no rounding left in it: two weight blocks that agree on row
    `j` and two bias blocks that agree at `j` give the same column `j`. -/
theorem k2_pay1_congr (x0 : Vec Ideal S1x1024 .f32) (x1 x1' : Vec Ideal S3072x1024 .f32) (x2 x2' : Vec Ideal S1x3072 .f32)
    (j : S1x3072.Idx) (h1 : ∀ i : S3072x1024.Idx, (i 0).val = (j 1).val → x1 i = x1' i) (h2 : x2 j = x2' j) :
    k2_pay1 x0 x1 x2 j = k2_pay1 x0 x1' x2' j := by
  unfold k2_pay1
  rw [shapeCast_self, shapeCast_self, shapeCast_self]
  simp only [addf, matmul]
  rw [h2, Ideal.matmul_constant_zero_apply, Ideal.matmul_constant_zero_apply]
  congr 1
  refine Finset.sum_congr rfl fun k _ => ?_
  show x0 _ * x1 _ = x0 _ * x1' _
  rw [h1 _ rfl]

/-- What each cut window's transfer moves at a point, axis by axis: the weight block's rows, the bias block's
    entries and the tile's columns are cut at the same column of the array, and no other axis is cut. -/
theorem xsize2 : ∀ t : Fin grid2.N,
    win2_1.xsize (grid2.coords t) (0 : Fin 2) = win2_3.xsize (grid2.coords t) (1 : Fin 2) ∧ win2_1.xsize (grid2.coords t) (1 : Fin 2) = 1024
      ∧ win2_2.xsize (grid2.coords t) (0 : Fin 2) = 1 ∧ win2_2.xsize (grid2.coords t) (1 : Fin 2) = win2_3.xsize (grid2.coords t) (1 : Fin 2) := by
  decide +kernel

/-- The part of the output tile its write-back moves does not depend on what fills the weight and the bias buffers
    out past the arrays' end: a column inside the array reads a row and an entry inside the arrays. -/
theorem cut_k2_pay1_fill (t : Fin cfg2.N) (x0 : Vec Ideal S1x1024 .f32)
    (b1 : ((cfg2.win 1).xblock (cfg2.grid.coords t)).Idx → Ideal .f32) (b2 : ((cfg2.win 2).xblock (cfg2.grid.coords t)).Idx → Ideal .f32)
    (d1 d1' : S3072x1024.Idx → Ideal .f32) (d2 d2' : S1x3072.Idx → Ideal .f32) :
    (cfg2.win 3).cut (cfg2.grid.coords t) (k2_pay1 x0 ((cfg2.win 1).fill (cfg2.grid.coords t) d1 b1) ((cfg2.win 2).fill (cfg2.grid.coords t) d2 b2))
      = (cfg2.win 3).cut (cfg2.grid.coords t) (k2_pay1 x0 ((cfg2.win 1).fill (cfg2.grid.coords t) d1' b1) ((cfg2.win 2).fill (cfg2.grid.coords t) d2' b2)) := by
  funext j'
  obtain ⟨e10, e11, e20, e21⟩ := xsize2 t
  apply k2_pay1_congr
  · intro i hi
    have hm : (cfg2.win 1).moved (cfg2.grid.coords t) i = true :=
      ((cfg2.win 1).moved_iff _ i).mpr fun a => by
        match a with
        | ⟨0, _⟩ =>
          show (i 0).val < win2_1.xsize (grid2.coords t) (0 : Fin 2)
          rw [e10, hi]; exact (j' 1).isLt
        | ⟨1, _⟩ =>
          show (i 1).val < win2_1.xsize (grid2.coords t) (1 : Fin 2)
          rw [e11]; exact (i 1).isLt
    unfold Window.fill; rw [dif_pos hm, dif_pos hm]
  · have hm : (cfg2.win 2).moved (cfg2.grid.coords t) ((cfg2.win 3).xinj (cfg2.grid.coords t) j') = true :=
      ((cfg2.win 2).moved_iff _ _).mpr fun a => by
        match a with
        | ⟨0, _⟩ =>
          show (j' 0).val < win2_2.xsize (grid2.coords t) (0 : Fin 2)
          rw [e20]; exact (((cfg2.win 3).xinj (cfg2.grid.coords t) j') 0).isLt
        | ⟨1, _⟩ =>
          show (j' 1).val < win2_2.xsize (grid2.coords t) (1 : Fin 2)
          rw [e21]; exact (j' 1).isLt
    unfold Window.fill; rw [dif_pos hm, dif_pos hm]

/-! ## The body obligation, every window named -/

section Obligation

variable (V : (c : Dev nD) → (b : Ref sig .tc) → Buf (Elt Ideal) ((c : Thread nD τ).loc b))

/-- What the body is called with at point `t`: every window's buffer at what it then holds, -/
def bodyPre2i (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the hidden state's at its block, each cut window's stated on the part its transfers move. -/
def bodyPost2i (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t))))
    ∗ (∃ d, owns (c : Thread nD τ) (st2_3 t) fullShare ((cfg2.win 3).fill (cfg2.grid.coords t) d ((cfg2.win 3).cut (cfg2.grid.coords t) ((dat2 V c).after 3 t)))))

/-- The body at any point: the weight and bias buffers arrive filled out by words `d₁`, `d₂` nothing names, and the
    body leaves the tile computed from them; on the columns inside the array that is the tile computed from the
    blocks filled out by the zero word, which is all the output window's obligation states. -/
theorem sound_body2i (c : Dev nD) (t : Fin cfg2.N) :
    bodyPre2i V c t ⊢ wp frame (wpE (defs₀ (F := Ideal)) Variants.none c none) Set.univ (bodyAt2 t) (fun _ => bodyPost2i V c t) := by
  unfold bodyPre2i bodyPost2i bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, Window.cut_fill, Window.cut_fill]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t)
    ((cfg2.win 1).fill (cfg2.grid.coords t) d1 (iblk2 V c 1 t)) ((cfg2.win 2).fill (cfg2.grid.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists out2_3 (iblk2 V c 0 t) ((cfg2.win 1).fill (cfg2.grid.coords t) d1 (iblk2 V c 1 t))
    ((cfg2.win 2).fill (cfg2.grid.coords t) d2 (iblk2 V c 2 t))
  rw [(cfg2.win 3).fill_congr_cut (cfg2.grid.coords t) (by
    rw [out2_3_eq, out2_3_eq]; exact cut_k2_pay1_fill t _ _ _ _ _ _ _)]
  iexact H3

end Obligation

/-- At the ideal values: the body obligation of the third call, no window forgotten. -/
theorem body_obligation2_ideal (V : (c : Dev nD) → (b : Ref sig .tc) → Buf (Elt Ideal) ((c : Thread nD τ).loc b)) (c : Dev nD) :
    BodyObligationLoose (dat2 (F := Ideal) V c) (defs₀ (F := Ideal)) Variants.none () Set.univ := fun t => by
  rw [bigSep_W2, bigSep_W2]
  exact sound_body2i V c t

end Cert.KernelIdeal.Hand

end
-- ==== Proof.Bridge.Args.lean ====
/- The fifteen argument arrays of the step, read off the kernel program's launch memory at the extended reals, and the
   one fact of the precondition that is about an integer: the token index is not negative. -/
import proofs.«413536_j14714557956454_3_alg».proof.Proof.Hand.KernelIdeal.Chain
import Idealize.ShloMosaic.PureOps.Ideal

noncomputable section

namespace Cert.Bridge

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (c : Dev nD)

/-- Argument 0: the token index. -/
abbrev a0 : (⟨S1, .i32⟩ : BufTy).Contents (Elt Ideal) := m ((c : Thread nD τ).loc main_arg0)
/-- Argument 1: the hidden state. -/
abbrev a1 : (⟨S1x1x1024, .f32⟩ : BufTy).Contents (Elt Ideal) := m ((c : Thread nD τ).loc main_arg1)
/-- Argument 2: the cell state. -/
abbrev a2 : (⟨S1x1x1024, .f32⟩ : BufTy).Contents (Elt Ideal) := m ((c : Thread nD τ).loc main_arg2)
/-- Argument 3: the encoder outputs. -/
abbrev a3 : (⟨S512x1024, .f32⟩ : BufTy).Contents (Elt Ideal) := m ((c : Thread nD τ).loc main_arg3)
/-- Argument 4: the embedding table. -/
abbrev a4 : (⟨S50257x1024, .f32⟩ : BufTy).Contents (Elt Ideal) := m ((c : Thread nD τ).loc main_arg4)
/-- Argument 5: the attention weight matrix. -/
abbrev a5 : (⟨S512x2048, .f32⟩ : BufTy).Contents (Elt Ideal) := m ((c : Thread nD τ).loc main_arg5)
/-- Argument 6: the attention bias. -/
abbrev a6 : (⟨S512, .f32⟩ : BufTy).Contents (Elt Ideal) := m ((c : Thread nD τ).loc main_arg6)
/-- Argument 7: the combine weight matrix. -/
abbrev a7 : (⟨S1024x2048, .f32⟩ : BufTy).Contents (Elt Ideal) := m ((c : Thread nD τ).loc main_arg7)
/-- Argument 8: the combine bias. -/
abbrev a8 : (⟨S1024, .f32⟩ : BufTy).Contents (Elt Ideal) := m ((c : Thread nD τ).loc main_arg8)
/-- Argument 9: W_ih. -/
abbrev a9 : (⟨S4096x1024, .f32⟩ : BufTy).Contents (Elt Ideal) := m ((c : Thread nD τ).loc main_arg9)
/-- Argument 10: W_hh. -/
abbrev a10 : (⟨S4096x1024, .f32⟩ : BufTy).Contents (Elt Ideal) := m ((c : Thread nD τ).loc main_arg10)
/-- Argument 11: b_ih. -/
abbrev a11 : (⟨S4096, .f32⟩ : BufTy).Contents (Elt Ideal) := m ((c : Thread nD τ).loc main_arg11)
/-- Argument 12: b_hh. -/
abbrev a12 : (⟨S4096, .f32⟩ : BufTy).Contents (Elt Ideal) := m ((c : Thread nD τ).loc main_arg12)
/-- Argument 13: the output weight matrix. -/
abbrev a13 : (⟨S50257x1024, .f32⟩ : BufTy).Contents (Elt Ideal) := m ((c : Thread nD τ).loc main_arg13)
/-- Argument 14: the output bias. -/
abbrev a14 : (⟨S50257, .f32⟩ : BufTy).Contents (Elt Ideal) := m ((c : Thread nD τ).loc main_arg14)

/-- The token index is not negative (as a signed 32-bit word). -/
def NonNeg : Prop := ∀ i : S1.Idx, 0 ≤ ((a0 m c i : BitVec 32)).toInt

end Cert.Bridge

end
-- ==== Proof.Bridge.PreIndex.lean ====
/- The precondition's one fact about an integer. The precondition is a conjunction whose last conjunct is the
   all-reduction, by `and` from 1, of the signed comparison "token index ≥ 0" taken entrywise; the conjunction being 1
   makes that conjunct 1, the all-reduction being 1 makes every entry of the comparison 1, and an entry of the signed
   comparison with the zero word being 1 says that the entry, read as a signed integer, is not negative. -/
import proofs.«413536_j14714557956454_3_alg».proof.Defs
import proofs.«413536_j14714557956454_3_alg».proof.Proof.Bridge.Args
import Idealize.ShloMosaic.Lib.ReduceAll
import Idealize.ShloMosaic.Lib.ValueIdx

noncomputable section

namespace Cert.Bridge

open Idealize.ShloMosaic Idealize.ShloMosaic.TcCoe
open Idealize.SL Idealize.SL.Sem

/-- The last conjunct of the precondition, on its own: if the conjunction of anything with the all-reduction of
    "x ≥ 0 entrywise, signed" is 1 at the one index of a rank-0 array, every entry of x is a non-negative signed word. -/
theorem nonneg_of_part4 [hP : Cert.Pre_finite_inputs.Facts] (x : IVec Cert.Pre_finite_inputs.S1 32)
    (p q : IVec Cert.Pre_finite_inputs.S_ 1)
    (h : Cert.Pre_finite_inputs.fn_part4 (F := Ideal) x p q ValueIdx.ix0 = 1#1) (i : Cert.Pre_finite_inputs.S1.Idx) :
    0 ≤ (x i).toInt := by
  dsimp only [Cert.Pre_finite_inputs.fn_part4] at h
  obtain ⟨-, h1⟩ := IntOp.andi_eq_one.1 h
  -- the rank-0 shape has one index
  haveI : Subsingleton Cert.Pre_finite_inputs.S_.Idx := ⟨fun a b => funext fun d => d.elim0⟩
  have h2 := Host.reduce_andi_all _ _ _ _ _ h1 i
  have h3 := IntOp.cmpi_sge.1 h2
  exact h3

/-- Under the precondition the token index is not negative. -/
theorem nonneg_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : NonNeg m c := by
  intro i
  have h0 := congrFun (h c) ValueIdx.ix0
  dsimp only [Cert.Pre_finite_inputs.fn, Cert.Pre_finite_inputs.fn_part1, Cert.Pre_finite_inputs.fn_part2,
    Cert.Pre_finite_inputs.fn_part3] at h0
  exact nonneg_of_part4 _ _ _ h0 i

end Cert.Bridge

end
-- ==== Proof.Bridge.EmbK.lean ====
/- The embedded row, on the first pallas_call's side. Window 0 of that call is the block [1, 1, 1024] of the embedding
   table seen as [50257, 1, 1024], at the row the prefetched word names; the body reads it as [1, 1024]. Whatever the
   admissible table holds, entry (0, j) of what the body reads is entry (w, 0, j) of the reshaped table, w the word; the
   reshaped table at (r, 0, j) is the embedding table at (r, j); and at the run's own table the word is the clamp of the
   token index. So the body's row is row clamp(index) of the embedding table. For a non-negative index the clamp is the
   smaller of the index and 50256, and the index wrapped when negative is the index itself. -/
import proofs.«413536_j14714557956454_3_alg».proof.Proof.Hand.KernelIdeal.Chain
import Idealize.ShloMosaic.Lib.Pipeline.Value
import Idealize.ShloMosaic.Lib.ValueLayout
import Idealize.ShloMosaic.Lib.ValueIdx
import Idealize.ShloMosaic.Lib.StableHlo.Run

noncomputable section

namespace Cert.Bridge.Emb

open Cert.KernelIdeal Cert.KernelIdeal.Gen Cert.KernelIdeal.Hand
open Idealize.ShloMosaic Idealize.ShloMosaic.TcCoe Idealize.ShloMosaic.ValueIdx
open Idealize.SL Idealize.SL.Sem

variable {F : FTy → Type} [FloatOps F]

/-! ## Words -/

/-- The shape [1] has one index. -/
theorem idx_S1_eq (i i' : S1.Idx) : i = i' :=
  funext fun d => Fin.ext (by
    match d with
    | ⟨0, _⟩ =>
      have h1 : (i 0).val < 1 := (i 0).isLt
      have h2 : (i' 0).val < 1 := (i' 0).isLt
      show (i 0).val = (i' 0).val
      omega)

/-- The row of the embedding table a token index selects: its clamp into [0, 50256]. -/
def rowOf (x : BitVec 32) : Fin 50257 := ⟨(clampWord x).toNat, Nat.lt_succ_of_le (clampWord_le x)⟩

/-- For a non-negative index that row is the smaller of the index, read as a signed integer, and 50256. -/
theorem rowOf_val_of_nonneg (x : BitVec 32) (h : 0 ≤ x.toInt) : (rowOf x).val = min x.toInt.toNat (50257 - 1) := by
  show (clampWord x).toNat = _
  rw [clampWord_of_nonneg x h]
  rcases toInt_cases x with ⟨e, _⟩ | ⟨e, _⟩ <;> omega

/-- A non-negative index is not below zero, so the wrap "add 50257 if negative" returns it. -/
theorem wrap_of_nonneg (x : BitVec 32) (h : 0 ≤ x.toInt) :
    Scalar.select (IntOp.cmpi .slt x 0#32) (IntOp.addi x 50257#32) x = x := by
  have h0 : (0#32 : BitVec 32).toInt = 0 := by decide
  have hs : x.slt 0#32 = false := by
    simp only [BitVec.slt, h0]
    exact decide_eq_false (by omega)
  unfold IntOp.cmpi
  dsimp only
  rw [hs]
  exact select_zero _ _

/-! ## The block of window 0, the table a variable -/

section Table

variable (V : (c : Dev nD) → (b : Ref sig .tc) → Buf (Elt F) ((c : Thread nD τ).loc b))
variable (a : (pcfg0 (F := F)).Adm)

/-- Window 0's block index at the point: the table's word on the row axis, 0 on the other two. -/
theorem index0_eq (t : Fin (cfg0 a).N) : ((cfg0 a).win 0).index t
    = ![(a.1.at 0 (Rect.unit (s := S1) ![0] S1.size inb_S1_S1_0) numel1_S1 : BitVec 32).toNat, 0, 0] := rfl

/-- Window 0's block at (0, 0, j) is the reshaped table at (w, 0, j), w the word of the table's contents `pf`. -/
theorem iblk0_0_apply (c : Dev nD) (t : Fin (cfg0 a).N) (pf : pre0.Contents (Elt F)) (hpf : a.1 = pf) (r : Fin 50257)
    (hr : r.val = (pf.at 0 (Rect.unit (s := S1) ![0] S1.size inb_S1_S1_0) numel1_S1 : BitVec 32).toNat) (j : Fin 1024) :
    (iblk0 V a c 0 t : Vec F S1x1x1024 .f32) (ix3 0 0 j) = (V c main_v3 : Vec F S50257x1x1024 .f32) (ix3 r 0 j) := by
  subst hpf
  unfold iblk0
  show (V c main_v3 : Vec F S50257x1x1024 .f32) ((((cfg0 a).win 0).blk t).view.emb (ix3 0 0 j)) = _
  refine congrArg (V c main_v3 : Vec F S50257x1x1024 .f32) (funext fun d => Fin.ext ?_)
  match d with
  | ⟨0, _⟩ =>
    show ((cfg0 a).win 0).index t (0 : Fin 3) * 1 + 1 * 0 = r.val
    rw [index0_eq, hr]
    show (a.1.at 0 (Rect.unit (s := S1) ![0] S1.size inb_S1_S1_0) numel1_S1 : BitVec 32).toNat * 1 + 1 * 0 = _
    omega
  | ⟨1, _⟩ =>
    show ((cfg0 a).win 0).index t (1 : Fin 3) * 1 + 1 * 0 = 0
    rw [index0_eq]; rfl
  | ⟨2, _⟩ =>
    show ((cfg0 a).win 0).index t (2 : Fin 3) * 1024 + 1 * j.val = j.val
    rw [index0_eq]; show 0 * 1024 + 1 * j.val = j.val; omega

/-- The body reads its block [1, 1, 1024] as [1, 1024]: entry (0, j) is entry (0, 0, j). -/
theorem pay1_apply (x : Vec F S1x1x1024 .f32) (j : Fin 1024) : k0_pay1 x (ix2 0 j) = x (ix3 0 0 j) := by
  unfold k0_pay1
  exact shapeCast_1ab_ab_apply x shapeCasts_S1x1x1024_S1x1024 0 j

/-- What the body reads of window 0, at (0, j): the reshaped table at (w, 0, j). -/
theorem pay1_iblk0_apply (c : Dev nD) (t : Fin (cfg0 a).N) (pf : pre0.Contents (Elt F)) (hpf : a.1 = pf) (r : Fin 50257)
    (hr : r.val = (pf.at 0 (Rect.unit (s := S1) ![0] S1.size inb_S1_S1_0) numel1_S1 : BitVec 32).toNat) (j : Fin 1024) :
    k0_pay1 (iblk0 V a c 0 t) (ix2 0 j) = (V c main_v3 : Vec F S50257x1x1024 .f32) (ix3 r 0 j) :=
  (pay1_apply (iblk0 V a c 0 t) j).trans (iblk0_0_apply V a c t pf hpf r hr j)

end Table

/-! ## The reshaped table and the word at the run's contents -/

variable (m : (ℓ : Loc nD τ sig) → Buf (Elt F) ℓ)

/-- When the first call is entered, the buffer its window 0 reads holds the embedding table reshaped to
    [50257, 1, 1024]. -/
theorem v3_eq (c : Dev nD) : (V3 m c main_v3 : (⟨S50257x1x1024, .f32⟩ : BufTy).Contents (Elt F))
    = shapeCast S50257x1x1024 (m ((c : Thread nD τ).loc main_arg4) : (⟨S50257x1024, .f32⟩ : BufTy).Contents (Elt F))
        shapeCasts_S50257x1024_S50257x1x1024 := by
  dsimp only [V3, V2, V1, V0, hostOps0, hostOps0_1, hostOps0_2]
  after_results
  rfl

/-- The table [50257, 1024] seen as [50257, 1, 1024] reads, at (r, u, j), the table at (r, j). -/
theorem reshape_apply (x : Vec F S50257x1024 .f32) (r : Fin 50257) (u : Fin 1) (j : Fin 1024) :
    shapeCast S50257x1x1024 x shapeCasts_S50257x1024_S50257x1x1024 (ix3 r u j) = x (ix2 r j) :=
  shapeCast_apply x _ _ _ (by
    have hu : u.val = 0 := by omega
    rw [Shape.rowMajor_val_three, Shape.rowMajor_val_two]
    show r.val * 1024 + j.val = (r.val * 1 + u.val) * 1024 + j.val
    rw [hu]; omega)

/-- The word of the run's own table is the clamp of the token index. -/
theorem word_tbl (i : S1.Idx) : ((tbl m).at 0 (Rect.unit (s := S1) ![0] S1.size inb_S1_S1_0) numel1_S1 : BitVec 32)
    = clampWord ((m (((0 : Dev nD) : Thread nD τ).loc main_arg0) : (⟨S1, .i32⟩ : BufTy).Contents (Elt F)) i) := by
  have e := tbl_at m ((Rect.unit (s := S1) ![0] S1.size inb_S1_S1_0).emb (Shape.Idx.first (numel1_S1.symm ▸ Nat.one_pos)))
  rw [idx_S1_eq i ((Rect.unit (s := S1) ![0] S1.size inb_S1_S1_0).emb (Shape.Idx.first (numel1_S1.symm ▸ Nat.one_pos)))]
  exact e

/-- The reshaped table as the first call finds it, at (r, 0, j): the embedding table at (r, j). -/
theorem v3_apply (c : Dev nD) (r : Fin 50257) (j : Fin 1024) :
    (E0 m c main_v3 : Vec F S50257x1x1024 .f32) (ix3 r 0 j)
      = (m ((c : Thread nD τ).loc main_arg4) : (⟨S50257x1024, .f32⟩ : BufTy).Contents (Elt F)) (ix2 r j) := by
  show (V3 m c main_v3 : (⟨S50257x1x1024, .f32⟩ : BufTy).Contents (Elt F)) _ = _
  rw [v3_eq]
  exact reshape_apply _ r 0 j

/-- THE KERNEL'S ROW: entry (0, j) of what the first call's body reads of window 0 is the embedding table at the
    row the clamped token index names, column j. -/
theorem embK (c : Dev nD) (t : Fin (cfg0 (adm m 0)).N) (i : S1.Idx) (j : Fin 1024) :
    k0_pay1 (iblk0 (E0 m) (adm m 0) c 0 t) (ix2 0 j)
      = (m ((c : Thread nD τ).loc main_arg4) : (⟨S50257x1024, .f32⟩ : BufTy).Contents (Elt F))
          (ix2 (rowOf ((m ((c : Thread nD τ).loc main_arg0) : (⟨S1, .i32⟩ : BufTy).Contents (Elt F)) i)) j) := by
  obtain rfl : c = 0 := Subsingleton.elim _ _
  exact (pay1_iblk0_apply (E0 m) (adm m 0) 0 t (tbl m) rfl
    (rowOf ((m (((0 : Dev nD) : Thread nD τ).loc main_arg0) : (⟨S1, .i32⟩ : BufTy).Contents (Elt F)) i))
    (congrArg BitVec.toNat (word_tbl m i)).symm j).trans (v3_apply m 0 _ j)

end Cert.Bridge.Emb

end
-- ==== Proof.LibGatherRows.lean ====
/-
  A gather of whole rows read at an index. For an operand [N, C] (or a flat operand [N]) and a column [R, 1] of start
  indices, the gather that collapses the row axis and keeps the columns reads, at (r, c), the operand's row at the start
  index idx[r, 0] taken as a signed integer and clamped into [0, N - 1], column c.
-/
import Idealize.ShloMosaic.PureOps.Ideal
import Idealize.ShloMosaic.Lib.ValueIdx

noncomputable section

namespace Idealize.ShloMosaic.GatherRows

open Idealize.ShloMosaic Idealize.ShloMosaic.ValueIdx

/-- A natural number clamped at `N - 1` is below a positive `N`. -/
theorem clamp_lt {N : Nat} (hN : 0 < N) (k : Nat) : min k (N - 1) < N := by omega

/-! ## Rows of a matrix at a column of start indices -/

section Rows
variable {α : Type}

/-- The dimension numbers of `x[idx[:, 0], :]` for an operand `[N, C]`, a column `[R, 1]` of start indices and a result
    `[R, C]`: the row axis collapsed and mapped by the start index, the column axis kept whole as the result's offset
    axis; their conditions `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The conditions hold only for an operand with at least one row: a slice of one row fits. -/
theorem rows_pos {N R C : Nat} (wf : GatherDims.WF ⟨2, ![N, C]⟩ ⟨2, ![R, 1]⟩ ⟨2, ![R, C]⟩ [1] [0] [] [0] [] 1 ![1, C]) :
    0 < N :=
  (rowDims N R C wf).slice_le 0

/-- THE ROW GATHER READ AT `(r, c)`: the operand's row at the start index `idx[r, 0]`, read signed and clamped into
    `[0, N − 1]`, at column `c`. -/
theorem gather_rows_apply {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r 0)).toInt.toNat (N - 1), clamp_lt (rows_pos wf) _⟩ c) := by
  unfold Host.gather
  congr 1
  funext a
  refine Fin.ext ?_
  match a with
  | ⟨0, _⟩ =>
    show (rowDims N R C wf).start (ix2 r c) idx 0 + (rowDims N R C wf).batchCoord (ix2 r c) 0
      + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
      + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ ([0] : List (Fin 2))))]
    simp only [Nat.add_zero, Nat.zero_add]
    rfl

end Rows

/-! ## A flat array at a column of start indices -/

section Flat
variable {α : Type}

/-- The dimension numbers of `x[idx[:, 0]]` for a flat operand `[N]`, a column `[R, 1]` of start indices and a result
    `[R]`: the operand's one axis collapsed and mapped by the start index, no offset axis; their conditions `wf` are
    decided on a program's literal shapes. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The conditions hold only for a non-empty operand: a slice of one element fits. -/
theorem flat_pos {N R : Nat} (wf : GatherDims.WF ⟨1, ![N]⟩ ⟨2, ![R, 1]⟩ ⟨1, ![R]⟩ [] [0] [] [0] [] 1 ![1]) : 0 < N :=
  (flatDims N R wf).slice_le 0

/-- THE FLAT GATHER READ AT `r`: the operand at the start index `idx[r, 0]`, read signed and clamped into
    `[0, N − 1]`. -/
theorem gather_flat_apply {N R w : Nat} (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatDims N R wf) x idx (ix1 r)
      = x (ix1 ⟨min (idx (ix2 r 0)).toInt.toNat (N - 1), clamp_lt (flat_pos wf) _⟩) := by
  unfold Host.gather
  congr 1
  funext a
  obtain rfl : a = 0 := Subsingleton.elim _ _
  refine Fin.ext ?_
  show (flatDims N R wf).start (ix1 r) idx 0 + (flatDims N R wf).batchCoord (ix1 r) 0
    + (flatDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 r) ⟨List.idxOf (0 : Fin 1) (flatDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

end Flat

/-! ## Two gathers in a row -/

section Compose
variable {α : Type}

/-- Rows of gathered rows are gathered rows: taking the rows of `x[zc[:, 0], :]` at the start indices `idx` is taking the
    rows of `x` at any column `zr` of start indices that reads, at every `r`, the column `zc` at `idx[r, 0]` read signed
    and clamped into `[0, N − 1]` (for instance an elementwise function of a flat array gathered at `idx`, when `zc` is
    the same function of the flat array). -/
theorem gather_rows_rows {M N R C w w' : Nat}
    (wf₁ : GatherDims.WF ⟨2, ![M, C]⟩ ⟨2, ![N, 1]⟩ ⟨2, ![N, C]⟩ [1] [0] [] [0] [] 1 ![1, C])
    (wf₂ : GatherDims.WF ⟨2, ![N, C]⟩ ⟨2, ![R, 1]⟩ ⟨2, ![R, C]⟩ [1] [0] [] [0] [] 1 ![1, C])
    (wf₃ : GatherDims.WF ⟨2, ![M, C]⟩ ⟨2, ![R, 1]⟩ ⟨2, ![R, C]⟩ [1] [0] [] [0] [] 1 ![1, C])
    (x : (⟨2, ![M, C]⟩ : Shape).Idx → α) (zc : IVec ⟨2, ![N, 1]⟩ w') (idx : IVec ⟨2, ![R, 1]⟩ w)
    (zr : IVec ⟨2, ![R, 1]⟩ w')
    (h : ∀ r : Fin R, zr (ix2 r 0) = zc (ix2 ⟨min (idx (ix2 r 0)).toInt.toNat (N - 1), clamp_lt (rows_pos wf₂) _⟩ 0)) :
    Host.gather (rowDims N R C wf₂) (Host.gather (rowDims M N C wf₁) x zc) idx
      = Host.gather (rowDims M R C wf₃) x zr := by
  funext i
  obtain ⟨r, c, rfl⟩ : ∃ (r : Fin R) (c : Fin C), i = ix2 r c := ⟨i 0, i 1, eq_ix2 i⟩
  rw [gather_rows_apply, gather_rows_apply, gather_rows_apply, h r]

end Compose

end Idealize.ShloMosaic.GatherRows

end
-- ==== Proof.Bridge.Emb.lean ====
/- The embedded row: the first pallas_call's body and the reference read the same row of the embedding table. The
   reference gathers the row at the token index wrapped when negative (add 50257), the gather clamping its start index
   into [0, 50256]; the kernel's host clamps the token index into [0, 50256] and the first call's window 0 is the block
   at that row. For a token index that is not negative the wrap returns the index and both clamps are the smaller of
   the index and 50256, so the two rows are one row of the table, entry by entry. -/
import proofs.«413536_j14714557956454_3_alg».proof.Proof.Bridge.EmbK
import proofs.«413536_j14714557956454_3_alg».proof.Proof.Bridge.Args
import proofs.«413536_j14714557956454_3_alg».proof.Proof.RefRead
import proofs.«413536_j14714557956454_3_alg».proof.Proof.LibGatherRows
import Idealize.ShloMosaic.Lib.ValueIdx
import Idealize.ShloMosaic.PureOps.Ideal

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem

namespace Emb

open Cert.ReferenceIdeal.Read in
/-- THE REFERENCE'S ROW: for a token index that is not negative, entry (0, j) of the gathered row is the embedding
    table at the row the clamped index names, column j. The gather reads the row at the start index, taken as a signed
    integer and clamped into [0, 50256]; the start index is the token index wrapped when negative, so the token index
    itself. -/
theorem ref_row (x0 : (⟨S1, .i32⟩ : BufTy).Contents (Elt Ideal)) (x4 : (⟨S50257x1024, .f32⟩ : BufTy).Contents (Elt Ideal))
    (h : ∀ i, 0 ≤ (x0 i : BitVec 32).toInt) (i : S1.Idx) (j : Fin 1024) :
    Cert.ReferenceIdeal.Read.val_main_v6 (F := Ideal) x0 x4 (ix2 0 j) = x4 (ix2 (rowOf (x0 i)) j) := by
  unfold Cert.ReferenceIdeal.Read.val_main_v6
  refine (GatherRows.gather_rows_apply (N := 50257) (R := 1) (C := 1024)
    Cert.ReferenceIdeal.gather_S50257x1024_S1x1_S1x1024_1_0_n_n_0_1_11024.wf x4 (val_main_v5 (F := Ideal) x0) 0 j).trans ?_
  refine congrArg x4 (congrArg (fun r : Fin 50257 => ix2 r j) (Fin.ext ?_))
  show min ((val_main_v5 (F := Ideal) x0 (ix2 0 0)).toInt.toNat) (50257 - 1) = (rowOf (x0 i)).val
  rw [val_main_v5_apply, val_main_v4_apply, val_main_v1_apply, val_main_v3_apply, val_main_v0_apply, val_main_v2_apply,
    val_main_c_apply, val_main_c_0_apply]
  rw [idx_S1_eq (idx_main_v5 (ix2 0 0)) i, wrap_of_nonneg _ (h i)]
  exact (rowOf_val_of_nonneg _ (h i)).symm

end Emb

open Emb

variable (m : (ℓ : Loc nD τ sig) → Buf (Elt Ideal) ℓ) (c : Dev nD)

/-- THE EMBEDDED ROW: for a token index that is not negative, what the first call's body reads of its window 0 is the
    row the reference gathers: both are the row of the embedding table at the smaller of the index and 50256. -/
theorem emb_eq (h : NonNeg m c) (t : Fin (cfg0 (adm m 0)).N) :
    k0_pay1 (iblk0 (E0 m) (adm m 0) c 0 t) = Cert.ReferenceIdeal.Read.val_main_v6 (a0 m c) (a4 m c) := by
  funext i
  obtain ⟨p, q, rfl⟩ : ∃ (p : Fin 1) (q : Fin 1024), i = ix2 p q := ⟨i 0, i 1, eq_ix2 i⟩
  obtain rfl : p = 0 := Subsingleton.elim _ _
  exact (embK m c t (ix1 0) q).trans (ref_row (a0 m c) (a4 m c) h (ix1 0) q).symm

end Cert.Bridge

end
-- ==== Proof.LibContractRhsT.lean ====
import Idealize.ShloMosaic.PureOps.Ideal.Laws
import Idealize.ShloMosaic.Lib.ValueIdx

/-!
# The contraction `[M, K] × [N, K]` read at an entry, on the extended reals

`DotDims.transposedRhs M K N` has the fields of every printed `…_1_1_0_0_n_n` record of rank-2 operands (contract the
left operand's axis 1 with the right operand's axis 1, no batch axes): the product `a · bᵀ`. Over it the host's
`dot_general` and a kernel's `tpu.matmul` into the zero splat are both, at entry `(p, q)`, the sum over `k` of
`a[p, k] · b[q, k]`.
-/

noncomputable section

namespace Cert.LibContractRhsT

open Idealize.ShloMosaic Idealize.ShloMosaic.ValueIdx

/-! ## The operand indices, axis by axis

At result index `j` and contraction index `c` the left operand is read at `(j 0, c)` and the right one at `(j 1, c)`:
a kept axis reads the result index at its place, the contracted axis reads the one coordinate of `c`. -/

/-- The left operand's row is the result's row. -/
theorem lhs_0 (M K N : Nat) (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction index's coordinate. -/
theorem lhs_1 (M K N : Nat) (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row is the result's column. -/
theorem rhs_0 (M K N : Nat) (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction index's coordinate. -/
theorem rhs_1 (M K N : Nat) (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- The sum over the one-axis contraction index, re-indexed by its coordinate `k : Fin K` and with both operand
    indices read off: `∑ k, a[p, k] · b[q, k]`. -/
theorem sum_eq (M K N : Nat) {φ₁ φ₂ : FTy} (a : FVec Ideal (⟨2, ![M, K]⟩ : Shape) φ₁)
    (b : FVec Ideal (⟨2, ![N, K]⟩ : Shape) φ₂) (p : Fin M) (q : Fin N) :
    (∑ c : (DotDims.transposedRhs M K N).contr.Idx,
        a ((DotDims.transposedRhs M K N).lhsIdx (ix2 p q) c) * b ((DotDims.transposedRhs M K N).rhsIdx (ix2 p q) c))
      = ∑ k : Fin K, a (ix2 p k) * b (ix2 q k) := by
  rw [← Equiv.sum_comp (ValueIdx.contrEquiv1 (DotDims.transposedRhs M K N) K rfl rfl).symm]
  refine Finset.sum_congr rfl fun k _ => ?_
  have hk := ValueIdx.contrEquiv1_symm_val (DotDims.transposedRhs M K N) K rfl rfl k
  have el : (DotDims.transposedRhs M K N).lhsIdx (ix2 p q) ((ValueIdx.contrEquiv1 (DotDims.transposedRhs M K N) K rfl rfl).symm k)
      = ix2 p k := funext fun x => Fin.ext (by
    match x with
    | ⟨0, _⟩ => exact lhs_0 M K N _ _
    | ⟨1, _⟩ => exact (lhs_1 M K N _ _).trans hk)
  have er : (DotDims.transposedRhs M K N).rhsIdx (ix2 p q) ((ValueIdx.contrEquiv1 (DotDims.transposedRhs M K N) K rfl rfl).symm k)
      = ix2 q k := funext fun x => Fin.ext (by
    match x with
    | ⟨0, _⟩ => exact rhs_0 M K N _ _
    | ⟨1, _⟩ => exact (rhs_1 M K N _ _).trans hk)
  rw [el, er]

/-! ## The contraction read at an entry -/

/-- The host's `dot_general` contracting both operands' last axes, at entry `(p, q)`: `∑ k, a[p, k] · b[q, k]`. -/
theorem dotGeneral_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    Host.dotGeneral (DotDims.transposedRhs M K N) prec a b (ix2 p q) = ∑ k : Fin K, a (ix2 p k) * b (ix2 q k) := by
  simp only [Host.dotGeneral]
  rw [Ideal.dotGeneral_apply]
  exact sum_eq M K N a b p q

/-- A kernel's `tpu.matmul` contracting both operands' last axes into the zero splat, at entry `(p, q)`: the same sum. -/
theorem matmul_zero_apply (M K N : Nat) {φ₁ φ₂ : FTy} (prec : Option ContractPrecision)
    (a : FVec Ideal (⟨2, ![M, K]⟩ : Shape) φ₁) (b : FVec Ideal (⟨2, ![N, K]⟩ : Shape) φ₂) (p : Fin M) (q : Fin N) :
    matmul (DotDims.transposedRhs M K N) prec a b (constant (F := Ideal) (⟨2, ![M, N]⟩ : Shape) .f32 0x00000000#32) (ix2 p q)
      = ∑ k : Fin K, a (ix2 p k) * b (ix2 q k) := by
  simp only [matmul]
  rw [Ideal.matmul_constant_zero_apply]
  exact sum_eq M K N a b p q

end Cert.LibContractRhsT

end
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibLayout.lean ====
import proofs.«413536_j14714557956454_3_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.Bridge.AttnK.lean ====
/- The first pallas_call's two outputs as functions of what its body reads, on the extended reals.
   The body joins the embedded row and the hidden state along the columns, multiplies the joined row by the transpose
   of the attention matrix and adds the attention bias (the logits, 512 of them), subtracts the logits' largest entry,
   exponentiates, and divides by the sum of the exponentials: the attention weights. It then multiplies the weights by
   the encoder outputs, joins the embedded row with that product, multiplies by the transpose of the combining matrix,
   adds the combining bias and keeps the larger of each entry and zero: the rectified combined input. A change of float
   format is the identity here and each product into the zero splat is the plain sum over the contracted axis, so both
   outputs are the textbook formulas entry by entry, the sums in the order the body takes them. The call has one grid
   point, so each output array after the call is what that point's body stored, and windows 1 to 6 hold whole arrays:
   the hidden state as a row, the encoder outputs, the two matrices, the two biases as rows. -/
import proofs.«413536_j14714557956454_3_alg».proof.Proof.Hand.KernelIdeal.Chain
import proofs.«413536_j14714557956454_3_alg».proof.Proof.LibContractRhsT
import proofs.«413536_j14714557956454_3_alg».proof.Proof.LibDenseDefs
import proofs.«413536_j14714557956454_3_alg».proof.Proof.LibContract
import proofs.«413536_j14714557956454_3_alg».proof.Proof.LibLayout
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-! ## The two outputs as formulas -/

/-- Two rows of 1024 entries joined along the columns. -/
def acJoin (e h : FVec Ideal S1x1024 .f32) : FVec Ideal S1x2048 .f32 :=
  concatenate S1x2048 1 [⟨S1x1024, e⟩, ⟨S1x1024, h⟩] concatenates_S1x1024_S1x1024_S1x2048_d1

/-- The attention logits `x · Wᵀ + b`: entry `(p, q)` is `∑ k, x[p, k] · W[q, k] + b[q]`. -/
def acLogits (x : FVec Ideal S1x2048 .f32) (W : FVec Ideal S512x2048 .f32) (b : FVec Ideal S512 .f32) : FVec Ideal S1x512 .f32 :=
  fun i => (∑ k : Fin 2048, x (ix2 (i 0) k) * W (ix2 (i 1) k)) + b (ix1 (i 1))

/-- The largest entry of row `p`, folded from the word of -∞. -/
def acRowMax (l : FVec Ideal S1x512 .f32) (p : Fin 1) : EReal :=
  (Finset.univ : Finset (Fin 512)).fold max (Ideal.ofBits .f32 0xFF800000#32) (fun k => l (ix2 p k))

/-- The softmax of a row: each entry less the row's largest, exponentiated, over the sum of those exponentials. -/
def acSoftmax (l : FVec Ideal S1x512 .f32) : FVec Ideal S1x512 .f32 :=
  fun i => Ideal.div (Ideal.exp (l i - acRowMax l (i 0))) (∑ k : Fin 512, Ideal.exp (l (ix2 (i 0) k) - acRowMax l (i 0)))

/-- The attention weights from the embedded row, the hidden state, the attention matrix and its bias. -/
def acWeights (e h : FVec Ideal S1x1024 .f32) (W : FVec Ideal S512x2048 .f32) (b : FVec Ideal S512 .f32) : FVec Ideal S1x512 .f32 :=
  acSoftmax (acLogits (acJoin e h) W b)

/-- The weights applied to the encoder outputs: entry `(p, q)` is `∑ k, w[p, k] · enc[k, q]`. -/
def acApplied (w : FVec Ideal S1x512 .f32) (enc : FVec Ideal S512x1024 .f32) : FVec Ideal S1x1024 .f32 :=
  fun i => ∑ k : Fin 512, w (ix2 (i 0) k) * enc (ix2 k (i 1))

/-- The combining layer `x · Wᵀ + b`: entry `(p, q)` is `∑ k, x[p, k] · W[q, k] + b[q]`. -/
def acComb (x : FVec Ideal S1x2048 .f32) (Wc : FVec Ideal S1024x2048 .f32) (bc : FVec Ideal S1024 .f32) : FVec Ideal S1x1024 .f32 :=
  fun i => (∑ k : Fin 2048, x (ix2 (i 0) k) * Wc (ix2 (i 1) k)) + bc (ix1 (i 1))

/-- The rectified combined input. -/
def acInput (e h : FVec Ideal S1x1024 .f32) (enc : FVec Ideal S512x1024 .f32) (W : FVec Ideal S512x2048 .f32) (b : FVec Ideal S512 .f32)
    (Wc : FVec Ideal S1024x2048 .f32) (bc : FVec Ideal S1024 .f32) : FVec Ideal S1x1024 .f32 :=
  Cert.LibDense.reluM (acComb (acJoin e (acApplied (acWeights e h W b) enc)) Wc bc)

/-! ## The body's arithmetic, stage by stage -/

/-- The product into the zero splat plus the bias row is the logits: the bias row `b2` is the bias `b` laid as one row. -/
theorem acLogitsK (x : FVec Ideal S1x2048 .f32) (W : FVec Ideal S512x2048 .f32) (b2 : FVec Ideal S1x512 .f32) (b : FVec Ideal S512 .f32)
    (hb : ∀ q : Fin 512, b2 (ix2 (0 : Fin 1) q) = b (ix1 q)) :
    addf (matmul dot_S1x2048_S512x2048_S1x512_1_1_0_0_n_n none (truncf .bf16 x bitsLt_bf16_f32) (truncf .bf16 W bitsLt_bf16_f32)
        (constant (F := Ideal) S1x512 .f32 0x00000000#32)) b2 = acLogits x W b := by
  funext i
  obtain ⟨p, q, rfl⟩ : ∃ (p : Fin 1) (q : Fin 512), i = ix2 p q := ⟨i 0, i 1, eq_ix2 i⟩
  obtain rfl : p = 0 := Subsingleton.elim _ _
  refine (addf_apply _ _ _).trans ?_
  refine congrArg₂ (· + ·) ?_ (hb q)
  exact Cert.LibContractRhsT.matmul_zero_apply 1 2048 512 none (truncf .bf16 x bitsLt_bf16_f32) (truncf .bf16 W bitsLt_bf16_f32) 0 q

/-- The same for the combining layer. -/
theorem acCombK (x : FVec Ideal S1x2048 .f32) (Wc : FVec Ideal S1024x2048 .f32) (b2 : FVec Ideal S1x1024 .f32) (bc : FVec Ideal S1024 .f32)
    (hb : ∀ q : Fin 1024, b2 (ix2 (0 : Fin 1) q) = bc (ix1 q)) :
    addf (matmul dot_S1x2048_S1024x2048_S1x1024_1_1_0_0_n_n none (truncf .bf16 x bitsLt_bf16_f32) (truncf .bf16 Wc bitsLt_bf16_f32)
        (constant (F := Ideal) S1x1024 .f32 0x00000000#32)) b2 = acComb x Wc bc := by
  funext i
  obtain ⟨p, q, rfl⟩ : ∃ (p : Fin 1) (q : Fin 1024), i = ix2 p q := ⟨i 0, i 1, eq_ix2 i⟩
  obtain rfl : p = 0 := Subsingleton.elim _ _
  refine (addf_apply _ _ _).trans ?_
  refine congrArg₂ (· + ·) ?_ (hb q)
  exact Cert.LibContractRhsT.matmul_zero_apply 1 2048 1024 none (truncf .bf16 x bitsLt_bf16_f32) (truncf .bf16 Wc bitsLt_bf16_f32) 0 q

/-- The weights times the encoder outputs, into the zero splat. -/
theorem acAppliedK (w : FVec Ideal S1x512 .f32) (enc : FVec Ideal S512x1024 .f32) :
    matmul dot_S1x512_S512x1024_S1x1024_1_0_0_1_n_n none (truncf .bf16 w bitsLt_bf16_f32) (truncf .bf16 enc bitsLt_bf16_f32)
        (constant (F := Ideal) S1x1024 .f32 0x00000000#32) = acApplied w enc := by
  funext i
  obtain ⟨p, q, rfl⟩ : ∃ (p : Fin 1) (q : Fin 1024), i = ix2 p q := ⟨i 0, i 1, eq_ix2 i⟩
  exact Cert.LibDense.matmul_plain_zero_apply 1 512 1024 none (truncf .bf16 w bitsLt_bf16_f32) (truncf .bf16 enc bitsLt_bf16_f32) p q

/-- A vector of one entry, cast to [1, 1] and broadcast along the 512 columns, reads that entry everywhere. -/
theorem acKeep (v : FVec Ideal S1 .f32) (p : Fin 1) (q : Fin 512) :
    broadcastTo S1x512 (shapeCast S1x1 v shapeCasts_S1_S1x1) broadcasts_S1x1_S1x512 (ix2 p q) = v (ix1 (0 : Fin 1)) := by
  refine (broadcastTo_apply (shapeCast S1x1 v shapeCasts_S1_S1x1) broadcasts_S1x1_S1x512 (ix2 p q) (ix2 (0 : Fin 1) (0 : Fin 1)) ?_).trans ?_
  · intro x
    match x with
    | ⟨0, _⟩ => exact (if_pos rfl).symm
    | ⟨1, _⟩ => exact (if_pos rfl).symm
  · refine shapeCast_apply v shapeCasts_S1_S1x1 (ix2 (0 : Fin 1) (0 : Fin 1)) (ix1 (0 : Fin 1)) ?_
    rw [Shape.rowMajor_val_one, Shape.rowMajor_val_two]
    rfl

/-- The row's largest entry as the body spells it: reduced along the columns from -∞, kept as a column, broadcast back. -/
def acMaxK (l : FVec Ideal S1x512 .f32) : FVec Ideal S1x512 .f32 :=
  broadcastTo S1x512 (shapeCast S1x1 (multiReduction .maximumf [1] S1 l 0xFF800000#32 reduces_S1x512_S1 (.inl rfl) rfl) shapeCasts_S1_S1x1) broadcasts_S1x1_S1x512

theorem acMaxK_apply (l : FVec Ideal S1x512 .f32) (p : Fin 1) (q : Fin 512) : acMaxK l (ix2 p q) = acRowMax l p := by
  obtain rfl : p = 0 := Subsingleton.elim _ _
  unfold acMaxK
  refine (acKeep _ 0 q).trans ?_
  refine (Ideal.multiReduction_maximumf_single l 0xFF800000#32 reduces_S1x512_S1 (.inl rfl) rfl (ix1 (0 : Fin 1))).trans ?_
  unfold acRowMax
  refine congrArg (fun f => (Finset.univ : Finset (Fin 512)).fold max (Ideal.ofBits .f32 0xFF800000#32) f) (funext fun k => ?_)
  exact congrArg l (funext fun x => Fin.ext (by match x with | ⟨0, _⟩ => rfl | ⟨1, _⟩ => rfl))

/-- The row's sum as the body spells it. -/
def acSumK (x : FVec Ideal S1x512 .f32) : FVec Ideal S1x512 .f32 :=
  broadcastTo S1x512 (shapeCast S1x1 (multiReduction .add [1] S1 x 0x00000000#32 reduces_S1x512_S1 (.inl rfl) rfl) shapeCasts_S1_S1x1) broadcasts_S1x1_S1x512

theorem acSumK_apply (x : FVec Ideal S1x512 .f32) (p : Fin 1) (q : Fin 512) : acSumK x (ix2 p q) = ∑ k : Fin 512, x (ix2 p k) := by
  obtain rfl : p = 0 := Subsingleton.elim _ _
  unfold acSumK
  refine (acKeep _ 0 q).trans ?_
  refine (Ideal.multiReduction_add_single x 0x00000000#32 reduces_S1x512_S1 (.inl rfl) rfl (ix1 (0 : Fin 1))).trans ?_
  refine Finset.sum_congr rfl fun k _ => ?_
  exact congrArg x (funext fun y => Fin.ext (by match y with | ⟨0, _⟩ => rfl | ⟨1, _⟩ => rfl))

/-- The softmax as the body spells it. -/
def acSoftK (l : FVec Ideal S1x512 .f32) : FVec Ideal S1x512 .f32 :=
  divf (exp (subf l (acMaxK l))) (acSumK (exp (subf l (acMaxK l))))

theorem acSoftK_eq (l : FVec Ideal S1x512 .f32) : acSoftK l = acSoftmax l := by
  funext i
  obtain ⟨p, q, rfl⟩ : ∃ (p : Fin 1) (q : Fin 512), i = ix2 p q := ⟨i 0, i 1, eq_ix2 i⟩
  unfold acSoftK acSoftmax
  refine (divf_apply _ _ _).trans ?_
  refine congrArg₂ Ideal.div ?_ ?_
  · show Ideal.exp (l (ix2 p q) - acMaxK l (ix2 p q)) = Ideal.exp (l (ix2 p q) - acRowMax l p)
    rw [acMaxK_apply]
  · refine (acSumK_apply _ p q).trans (Finset.sum_congr rfl fun k _ => ?_)
    show Ideal.exp (l (ix2 p k) - acMaxK l (ix2 p k)) = Ideal.exp (l (ix2 p k) - acRowMax l p)
    rw [acMaxK_apply]

/-- The body's attention weights, from what it loads: the formula, at the loaded row of the table read as [1, 1024]. -/
theorem acPay2 (v0 : FVec Ideal S1x1x1024 .f32) (h : FVec Ideal S1x1024 .f32) (W : FVec Ideal S512x2048 .f32) (b2 : FVec Ideal S1x512 .f32)
    (b : FVec Ideal S512 .f32) (hb : ∀ q : Fin 512, b2 (ix2 (0 : Fin 1) q) = b (ix1 q)) :
    k0_pay2 (F := Ideal) v0 h W b2 = acWeights (k0_pay1 (F := Ideal) v0) h W b := by
  have e : k0_pay2 (F := Ideal) v0 h W b2
      = acSoftK (addf (matmul dot_S1x2048_S512x2048_S1x512_1_1_0_0_n_n none
          (truncf .bf16 (acJoin (k0_pay1 (F := Ideal) v0) (shapeCast S1x1024 h shapeCasts_S1x1024_S1x1024)) bitsLt_bf16_f32) (truncf .bf16 W bitsLt_bf16_f32)
          (constant (F := Ideal) S1x512 .f32 0x00000000#32)) (shapeCast S1x512 b2 shapeCasts_S1x512_S1x512)) := rfl
  rw [e, shapeCast_self, shapeCast_self, acLogitsK _ W b2 b hb, acSoftK_eq]
  rfl

/-- The body's rectified combined input, from what it loads. -/
theorem acPay3 (v0 : FVec Ideal S1x1x1024 .f32) (h : FVec Ideal S1x1024 .f32) (W : FVec Ideal S512x2048 .f32) (b2 : FVec Ideal S1x512 .f32)
    (enc : FVec Ideal S512x1024 .f32) (Wc : FVec Ideal S1024x2048 .f32) (bc2 : FVec Ideal S1x1024 .f32)
    (b : FVec Ideal S512 .f32) (hb : ∀ q : Fin 512, b2 (ix2 (0 : Fin 1) q) = b (ix1 q))
    (bc : FVec Ideal S1024 .f32) (hbc : ∀ q : Fin 1024, bc2 (ix2 (0 : Fin 1) q) = bc (ix1 q)) :
    k0_pay3 (F := Ideal) v0 h W b2 enc Wc bc2 = acInput (k0_pay1 (F := Ideal) v0) h enc W b Wc bc := by
  have e : k0_pay3 (F := Ideal) v0 h W b2 enc Wc bc2
      = maximumf (addf (matmul dot_S1x2048_S1024x2048_S1x1024_1_1_0_0_n_n none
          (truncf .bf16 (acJoin (k0_pay1 (F := Ideal) v0)
            (matmul dot_S1x512_S512x1024_S1x1024_1_0_0_1_n_n none (truncf .bf16 (k0_pay2 (F := Ideal) v0 h W b2) bitsLt_bf16_f32) (truncf .bf16 enc bitsLt_bf16_f32)
              (constant (F := Ideal) S1x1024 .f32 0x00000000#32))) bitsLt_bf16_f32)
          (truncf .bf16 Wc bitsLt_bf16_f32) (constant (F := Ideal) S1x1024 .f32 0x00000000#32)) (shapeCast S1x1024 bc2 shapeCasts_S1x1024_S1x1024))
        (broadcast S1x1024 (Scalar.ofBits (F := Ideal) .f32 0x00000000#32)) := rfl
  rw [e, Cert.LibDense.kernRelu_eq, shapeCast_self, acPay2 v0 h W b2 b hb, acAppliedK, acCombK _ Wc bc2 bc hbc]
  rfl

/-- The same with what the body loads given up to equality: the form the windows' blocks are handed over in. -/
theorem acPay2E (v0 : FVec Ideal S1x1x1024 .f32) (h h' : FVec Ideal S1x1024 .f32) (W W' : FVec Ideal S512x2048 .f32) (b2 b2' : FVec Ideal S1x512 .f32)
    (b : FVec Ideal S512 .f32) (eh : h = h') (eW : W = W') (eb : b2 = b2') (hb : ∀ q : Fin 512, b2' (ix2 (0 : Fin 1) q) = b (ix1 q)) :
    k0_pay2 (F := Ideal) v0 h W b2 = acWeights (k0_pay1 (F := Ideal) v0) h' W' b := by
  subst eh eW eb
  exact acPay2 v0 h W b2 b hb

theorem acPay3E (v0 : FVec Ideal S1x1x1024 .f32) (h h' : FVec Ideal S1x1024 .f32) (W W' : FVec Ideal S512x2048 .f32) (b2 b2' : FVec Ideal S1x512 .f32)
    (enc enc' : FVec Ideal S512x1024 .f32) (Wc Wc' : FVec Ideal S1024x2048 .f32) (bc2 bc2' : FVec Ideal S1x1024 .f32)
    (b : FVec Ideal S512 .f32) (bc : FVec Ideal S1024 .f32) (eh : h = h') (eW : W = W') (eb : b2 = b2') (ee : enc = enc') (eWc : Wc = Wc') (ebc : bc2 = bc2')
    (hb : ∀ q : Fin 512, b2' (ix2 (0 : Fin 1) q) = b (ix1 q)) (hbc : ∀ q : Fin 1024, bc2' (ix2 (0 : Fin 1) q) = bc (ix1 q)) :
    k0_pay3 (F := Ideal) v0 h W b2 enc Wc bc2 = acInput (k0_pay1 (F := Ideal) v0) h' enc' W' b Wc' bc := by
  subst eh eW eb ee eWc ebc
  exact acPay3 v0 h W b2 enc Wc bc2 b hb bc hbc

/-! ## One grid point: what the arrays hold after the call, and what the windows' blocks are -/

section Blocks

variable {F : FTy → Type} [FloatOps F]
variable (V : (c : Dev nD) → (b : Ref sig .tc) → Buf (Elt F) ((c : Thread nD τ).loc b))
variable (a : (pcfg0 (F := F)).Adm)

/-- An access to a whole buffer through its own sizes at zero offsets goes through every element. -/
theorem acMemWhole {κ : Kind} (b : Ref sig κ) {off : Fin b.ty.shape.rank → Nat} (h : off = fun _ => 0)
    (inb : ∀ x, off x + b.ty.shape.size x ≤ b.ty.shape.size x) (i : b.ty.shape.Idx) :
    i ∈ ((Memref.whole b).access (Rect.unit off b.ty.shape.size inb) : View sig κ _ _ _).set := by
  subst h
  have e := Memref.set_access_whole b
  exact e ▸ Finset.mem_univ i

/-- The one point is the last, so both outputs are written back at it. -/
theorem acFlush7 (t : Fin (cfg0 a).N) : ((cfg0 a).win 7).flush t = true := by
  obtain rfl := fin_N0 t
  rfl

theorem acFlush8 (t : Fin (cfg0 a).N) : ((cfg0 a).win 8).flush t = true := by
  obtain rfl := fin_N0 t
  rfl

/-- Window 8's array after the call: its one block is the whole array, written back once, with what the body left. -/
theorem acArr8 (c : Dev nD) (t : Fin (cfg0 a).N) :
    (dat0 V a c).arrAt 8 (cfg0 a).N = out0_8 (iblk0 V a c 0 t) (iblk0 V a c 1 t) (iblk0 V a c 3 t) (iblk0 V a c 4 t) := by
  refine (dat0 V a c).arrAt_eq_of_cover 8 (out0_8 (iblk0 V a c 0 t) (iblk0 V a c 1 t) (iblk0 V a c 3 t) (iblk0 V a c 4 t)) (fun t' _ => ?_) (fun i => ⟨t, acFlush8 a t, ?_⟩)
  · obtain rfl := fin_N0 t'
    obtain rfl := fin_N0 t
    show ((cfg0 a).win 8).cut (grid0.coords t0_0) ((dat0 V a c).after 8 t0_0) = _
    rw [after0_8]
    have hz' : (fun x => ((cfg0 a).win 8).index t0_0 x * main_v9_1.ty.shape.size x) = fun _ => 0 := funext fun x => by fin_cases x <;> rfl
    exact (Memref.read_access_unit_zero (Elt F) main_v9_1 hz' (fun x => by rw [congrFun hz' x]; simp) _).symm
  · obtain rfl := fin_N0 t
    have hz' : (fun x => ((cfg0 a).win 8).index t0_0 x * main_v9_1.ty.shape.size x) = fun _ => 0 := funext fun x => by fin_cases x <;> rfl
    exact acMemWhole main_v9_1 hz' (fun x => by rw [congrFun hz' x]; simp) i

/-- Window 7's array after the call, likewise. -/
theorem acArr7 (c : Dev nD) (t : Fin (cfg0 a).N) :
    (dat0 V a c).arrAt 7 (cfg0 a).N = out0_7 (iblk0 V a c 0 t) (iblk0 V a c 1 t) (iblk0 V a c 2 t) (iblk0 V a c 3 t) (iblk0 V a c 4 t) (iblk0 V a c 5 t) (iblk0 V a c 6 t) := by
  refine (dat0 V a c).arrAt_eq_of_cover 7 (out0_7 (iblk0 V a c 0 t) (iblk0 V a c 1 t) (iblk0 V a c 2 t) (iblk0 V a c 3 t) (iblk0 V a c 4 t) (iblk0 V a c 5 t) (iblk0 V a c 6 t)) (fun t' _ => ?_) (fun i => ⟨t, acFlush7 a t, ?_⟩)
  · obtain rfl := fin_N0 t'
    obtain rfl := fin_N0 t
    show ((cfg0 a).win 7).cut (grid0.coords t0_0) ((dat0 V a c).after 7 t0_0) = _
    rw [after0_7]
    have hz' : (fun x => ((cfg0 a).win 7).index t0_0 x * main_v9_0.ty.shape.size x) = fun _ => 0 := funext fun x => by fin_cases x <;> rfl
    exact (Memref.read_access_unit_zero (Elt F) main_v9_0 hz' (fun x => by rw [congrFun hz' x]; simp) _).symm
  · obtain rfl := fin_N0 t
    have hz' : (fun x => ((cfg0 a).win 7).index t0_0 x * main_v9_0.ty.shape.size x) = fun _ => 0 := funext fun x => by fin_cases x <;> rfl
    exact acMemWhole main_v9_0 hz' (fun x => by rw [congrFun hz' x]; simp) i

/-- Windows 1 to 6: the block at the point is the whole array. -/
theorem acBlk1 (c : Dev nD) (t : Fin (cfg0 a).N) : (iblk0 V a c 1 t : Vec F S1x1024 .f32) = (V c main_v1 : Vec F S1x1024 .f32) := by
  obtain rfl := fin_N0 t
  unfold iblk0
  have hz' : (fun x => ((cfg0 a).win 1).index t0_0 x * main_v1.ty.shape.size x) = fun _ => 0 := funext fun x => by fin_cases x <;> rfl
  exact Memref.read_access_unit_zero (Elt F) main_v1 hz' (fun x => by rw [congrFun hz' x]; simp) _

theorem acBlk2 (c : Dev nD) (t : Fin (cfg0 a).N) : (iblk0 V a c 2 t : Vec F S512x1024 .f32) = (V c main_arg3 : Vec F S512x1024 .f32) := by
  obtain rfl := fin_N0 t
  unfold iblk0
  have hz' : (fun x => ((cfg0 a).win 2).index t0_0 x * main_arg3.ty.shape.size x) = fun _ => 0 := funext fun x => by fin_cases x <;> rfl
  exact Memref.read_access_unit_zero (Elt F) main_arg3 hz' (fun x => by rw [congrFun hz' x]; simp) _

theorem acBlk3 (c : Dev nD) (t : Fin (cfg0 a).N) : (iblk0 V a c 3 t : Vec F S512x2048 .f32) = (V c main_arg5 : Vec F S512x2048 .f32) := by
  obtain rfl := fin_N0 t
  unfold iblk0
  have hz' : (fun x => ((cfg0 a).win 3).index t0_0 x * main_arg5.ty.shape.size x) = fun _ => 0 := funext fun x => by fin_cases x <;> rfl
  exact Memref.read_access_unit_zero (Elt F) main_arg5 hz' (fun x => by rw [congrFun hz' x]; simp) _

theorem acBlk4 (c : Dev nD) (t : Fin (cfg0 a).N) : (iblk0 V a c 4 t : Vec F S1x512 .f32) = (V c main_v4 : Vec F S1x512 .f32) := by
  obtain rfl := fin_N0 t
  unfold iblk0
  have hz' : (fun x => ((cfg0 a).win 4).index t0_0 x * main_v4.ty.shape.size x) = fun _ => 0 := funext fun x => by fin_cases x <;> rfl
  exact Memref.read_access_unit_zero (Elt F) main_v4 hz' (fun x => by rw [congrFun hz' x]; simp) _

theorem acBlk5 (c : Dev nD) (t : Fin (cfg0 a).N) : (iblk0 V a c 5 t : Vec F S1024x2048 .f32) = (V c main_arg7 : Vec F S1024x2048 .f32) := by
  obtain rfl := fin_N0 t
  unfold iblk0
  have hz' : (fun x => ((cfg0 a).win 5).index t0_0 x * main_arg7.ty.shape.size x) = fun _ => 0 := funext fun x => by fin_cases x <;> rfl
  exact Memref.read_access_unit_zero (Elt F) main_arg7 hz' (fun x => by rw [congrFun hz' x]; simp) _

theorem acBlk6 (c : Dev nD) (t : Fin (cfg0 a).N) : (iblk0 V a c 6 t : Vec F S1x1024 .f32) = (V c main_v5 : Vec F S1x1024 .f32) := by
  obtain rfl := fin_N0 t
  unfold iblk0
  have hz' : (fun x => ((cfg0 a).win 6).index t0_0 x * main_v5.ty.shape.size x) = fun _ => 0 := funext fun x => by fin_cases x <;> rfl
  exact Memref.read_access_unit_zero (Elt F) main_v5 hz' (fun x => by rw [congrFun hz' x]; simp) _

end Blocks

/-! ## What the host left in the arrays the call reads -/

section Host

variable {F : FTy → Type} [FloatOps F]
variable (m : (ℓ : Loc nD τ sig) → Buf (Elt F) ℓ) (c : Dev nD)

/-- The hidden state [1, 1, 1024] reshaped to [1, 1024]. -/
theorem acV1 : (V3 m c main_v1 : (⟨S1x1024, .f32⟩ : BufTy).Contents (Elt F))
    = shapeCast S1x1024 (m ((c : Thread nD τ).loc main_arg1) : (⟨S1x1x1024, .f32⟩ : BufTy).Contents (Elt F)) shapeCasts_S1x1x1024_S1x1024 := by
  dsimp only [V3, V2, V1, V0, hostOps0, hostOps0_1, hostOps0_2]
  after_results
  rfl

/-- The attention bias [512] reshaped to [1, 512]. -/
theorem acV4 : (V3 m c main_v4 : (⟨S1x512, .f32⟩ : BufTy).Contents (Elt F))
    = shapeCast S1x512 (m ((c : Thread nD τ).loc main_arg6) : (⟨S512, .f32⟩ : BufTy).Contents (Elt F)) shapeCasts_S512_S1x512 := by
  dsimp only [V3, V2, V1, V0, hostOps0, hostOps0_1, hostOps0_2]
  after_results
  rfl

/-- The combining bias [1024] reshaped to [1, 1024]. -/
theorem acV5 : (V3 m c main_v5 : (⟨S1x1024, .f32⟩ : BufTy).Contents (Elt F))
    = shapeCast S1x1024 (m ((c : Thread nD τ).loc main_arg8) : (⟨S1024, .f32⟩ : BufTy).Contents (Elt F)) shapeCasts_S1024_S1x1024 := by
  dsimp only [V3, V2, V1, V0, hostOps0, hostOps0_1, hostOps0_2]
  after_results
  rfl

/-- The encoder outputs and the two matrices are the arguments themselves: no host operation writes them. -/
theorem acVarg3 : V3 m c main_arg3 = m ((c : Thread nD τ).loc main_arg3) :=
  (V3_of m c main_arg3 (by decide)).trans <| (V2_of m c main_arg3 (by decide)).trans <| (V1_of m c main_arg3 (by decide)).trans rfl
theorem acVarg5 : V3 m c main_arg5 = m ((c : Thread nD τ).loc main_arg5) :=
  (V3_of m c main_arg5 (by decide)).trans <| (V2_of m c main_arg5 (by decide)).trans <| (V1_of m c main_arg5 (by decide)).trans rfl
theorem acVarg7 : V3 m c main_arg7 = m ((c : Thread nD τ).loc main_arg7) :=
  (V3_of m c main_arg7 (by decide)).trans <| (V2_of m c main_arg7 (by decide)).trans <| (V1_of m c main_arg7 (by decide)).trans rfl

end Host

/-! ## The two output arrays after the call -/

section Run

variable (m : (ℓ : Loc nD τ sig) → Buf (Elt Ideal) ℓ) (c : Dev nD)

/-- The hidden state as the row the call reads. -/
def acHid : FVec Ideal S1x1024 .f32 :=
  shapeCast S1x1024 (m ((c : Thread nD τ).loc main_arg1) : (⟨S1x1x1024, .f32⟩ : BufTy).Contents (Elt Ideal)) shapeCasts_S1x1x1024_S1x1024

/-- At the call's exit an output array holds what the pipeline left in it. -/
theorem acU4_8 : U4 m c main_v9_1 = (dat0 (E0 m) (adm m 0) c).arrAt 8 (cfg0 (adm m 0)).N := by
  unfold U4
  exact Pipeline.withArrays_arr spec0 (launch0 (F := Ideal)).win.arr_inj c (V3 m c) (fun w => (dat0 (E0 m) (adm m 0) c).arrAt w (cfg0 (adm m 0)).N) 8

theorem acU4_7 : U4 m c main_v9_0 = (dat0 (E0 m) (adm m 0) c).arrAt 7 (cfg0 (adm m 0)).N := by
  unfold U4
  exact Pipeline.withArrays_arr spec0 (launch0 (F := Ideal)).win.arr_inj c (V3 m c) (fun w => (dat0 (E0 m) (adm m 0) c).arrAt w (cfg0 (adm m 0)).N) 7

/-- The bias rows the call reads are the bias vectors laid as one row. -/
theorem acBiasRow (b : FVec Ideal S512 .f32) (q : Fin 512) : shapeCast S1x512 b shapeCasts_S512_S1x512 (ix2 (0 : Fin 1) q) = b (ix1 q) :=
  shapeCast_a_1a_apply b shapeCasts_S512_S1x512 0 q

theorem acBiasRowC (b : FVec Ideal S1024 .f32) (q : Fin 1024) : shapeCast S1x1024 b shapeCasts_S1024_S1x1024 (ix2 (0 : Fin 1) q) = b (ix1 q) :=
  shapeCast_a_1a_apply b shapeCasts_S1024_S1x1024 0 q

/-- THE ATTENTION WEIGHTS: the second output array after the call, from the row the body reads of window 0 and the
    arguments. -/
theorem acAttnK (t : Fin (cfg0 (adm m 0)).N) :
    U4 m c main_v9_1 = acWeights (k0_pay1 (F := Ideal) (iblk0 (E0 m) (adm m 0) c 0 t)) (acHid m c)
      (m ((c : Thread nD τ).loc main_arg5)) (m ((c : Thread nD τ).loc main_arg6)) := by
  have e1 : (iblk0 (E0 m) (adm m 0) c 1 t : Vec Ideal S1x1024 .f32) = acHid m c :=
    (acBlk1 (E0 m) (adm m 0) c t).trans (acV1 m c)
  have e3 : (iblk0 (E0 m) (adm m 0) c 3 t : Vec Ideal S512x2048 .f32) = m ((c : Thread nD τ).loc main_arg5) :=
    (acBlk3 (E0 m) (adm m 0) c t).trans (acVarg5 m c)
  have e4 : (iblk0 (E0 m) (adm m 0) c 4 t : Vec Ideal S1x512 .f32)
      = shapeCast S1x512 (m ((c : Thread nD τ).loc main_arg6) : (⟨S512, .f32⟩ : BufTy).Contents (Elt Ideal)) shapeCasts_S512_S1x512 :=
    (acBlk4 (E0 m) (adm m 0) c t).trans (acV4 m c)
  exact (acU4_8 m c).trans <| (acArr8 (E0 m) (adm m 0) c t).trans <|
    (out0_8_eq (iblk0 (E0 m) (adm m 0) c 0 t) (iblk0 (E0 m) (adm m 0) c 1 t) (iblk0 (E0 m) (adm m 0) c 3 t) (iblk0 (E0 m) (adm m 0) c 4 t)).trans <|
    acPay2E (iblk0 (E0 m) (adm m 0) c 0 t) (iblk0 (E0 m) (adm m 0) c 1 t) (acHid m c) (iblk0 (E0 m) (adm m 0) c 3 t) (m ((c : Thread nD τ).loc main_arg5))
      (iblk0 (E0 m) (adm m 0) c 4 t) (shapeCast S1x512 (m ((c : Thread nD τ).loc main_arg6) : (⟨S512, .f32⟩ : BufTy).Contents (Elt Ideal)) shapeCasts_S512_S1x512)
      (m ((c : Thread nD τ).loc main_arg6)) e1 e3 e4 (acBiasRow _)

/-- THE RECTIFIED COMBINED INPUT: the first output array after the call. -/
theorem acInputK (t : Fin (cfg0 (adm m 0)).N) :
    U4 m c main_v9_0 = acInput (k0_pay1 (F := Ideal) (iblk0 (E0 m) (adm m 0) c 0 t)) (acHid m c)
      (m ((c : Thread nD τ).loc main_arg3)) (m ((c : Thread nD τ).loc main_arg5)) (m ((c : Thread nD τ).loc main_arg6))
      (m ((c : Thread nD τ).loc main_arg7)) (m ((c : Thread nD τ).loc main_arg8)) := by
  have e1 : (iblk0 (E0 m) (adm m 0) c 1 t : Vec Ideal S1x1024 .f32) = acHid m c :=
    (acBlk1 (E0 m) (adm m 0) c t).trans (acV1 m c)
  have e2 : (iblk0 (E0 m) (adm m 0) c 2 t : Vec Ideal S512x1024 .f32) = m ((c : Thread nD τ).loc main_arg3) :=
    (acBlk2 (E0 m) (adm m 0) c t).trans (acVarg3 m c)
  have e3 : (iblk0 (E0 m) (adm m 0) c 3 t : Vec Ideal S512x2048 .f32) = m ((c : Thread nD τ).loc main_arg5) :=
    (acBlk3 (E0 m) (adm m 0) c t).trans (acVarg5 m c)
  have e4 : (iblk0 (E0 m) (adm m 0) c 4 t : Vec Ideal S1x512 .f32)
      = shapeCast S1x512 (m ((c : Thread nD τ).loc main_arg6) : (⟨S512, .f32⟩ : BufTy).Contents (Elt Ideal)) shapeCasts_S512_S1x512 :=
    (acBlk4 (E0 m) (adm m 0) c t).trans (acV4 m c)
  have e5 : (iblk0 (E0 m) (adm m 0) c 5 t : Vec Ideal S1024x2048 .f32) = m ((c : Thread nD τ).loc main_arg7) :=
    (acBlk5 (E0 m) (adm m 0) c t).trans (acVarg7 m c)
  have e6 : (iblk0 (E0 m) (adm m 0) c 6 t : Vec Ideal S1x1024 .f32)
      = shapeCast S1x1024 (m ((c : Thread nD τ).loc main_arg8) : (⟨S1024, .f32⟩ : BufTy).Contents (Elt Ideal)) shapeCasts_S1024_S1x1024 :=
    (acBlk6 (E0 m) (adm m 0) c t).trans (acV5 m c)
  exact (acU4_7 m c).trans <| (acArr7 (E0 m) (adm m 0) c t).trans <|
    (out0_7_eq (iblk0 (E0 m) (adm m 0) c 0 t) (iblk0 (E0 m) (adm m 0) c 1 t) (iblk0 (E0 m) (adm m 0) c 2 t) (iblk0 (E0 m) (adm m 0) c 3 t)
      (iblk0 (E0 m) (adm m 0) c 4 t) (iblk0 (E0 m) (adm m 0) c 5 t) (iblk0 (E0 m) (adm m 0) c 6 t)).trans <|
    acPay3E (iblk0 (E0 m) (adm m 0) c 0 t) (iblk0 (E0 m) (adm m 0) c 1 t) (acHid m c) (iblk0 (E0 m) (adm m 0) c 3 t) (m ((c : Thread nD τ).loc main_arg5))
      (iblk0 (E0 m) (adm m 0) c 4 t) (shapeCast S1x512 (m ((c : Thread nD τ).loc main_arg6) : (⟨S512, .f32⟩ : BufTy).Contents (Elt Ideal)) shapeCasts_S512_S1x512)
      (iblk0 (E0 m) (adm m 0) c 2 t) (m ((c : Thread nD τ).loc main_arg3)) (iblk0 (E0 m) (adm m 0) c 5 t) (m ((c : Thread nD τ).loc main_arg7))
      (iblk0 (E0 m) (adm m 0) c 6 t) (shapeCast S1x1024 (m ((c : Thread nD τ).loc main_arg8) : (⟨S1024, .f32⟩ : BufTy).Contents (Elt Ideal)) shapeCasts_S1024_S1x1024)
      (m ((c : Thread nD τ).loc main_arg6)) (m ((c : Thread nD τ).loc main_arg8)) e1 e3 e4 e2 e5 e6 (acBiasRow _) (acBiasRowC _)

end Run

end Cert.Bridge

end
-- ==== Proof.Bridge.Attn.lean ====
/- The reference's attention weights and rectified combined input are the same formulas as the first pallas_call's two
   outputs. The reference joins the embedded row and the hidden state, multiplies by the transposed attention matrix
   (a plain product with the matrix transposed beforehand: the same sum over the contracted axis), adds the bias
   broadcast along the row, takes the row's largest entry by a fold from -∞ (and once more the larger of it and -∞, which
   changes nothing), subtracts, exponentiates, sums from zero and divides; then the weights times the encoder outputs, the
   second join, the combining layer and the larger of each entry and zero. Entry by entry both sides are one expression,
   the sums in one order, so no law of the extended reals beyond `0 + x = x` and `max b (max b …) = max b …` is used. -/
import proofs.«413536_j14714557956454_3_alg».proof.Proof.Bridge.AttnK
import proofs.«413536_j14714557956454_3_alg».proof.Proof.Bridge.Args
import proofs.«413536_j14714557956454_3_alg».proof.Proof.RefRead
import Idealize.ShloMosaic.PureOps.Reduce
import Idealize.ShloMosaic.PureOps.Ideal.Laws

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal.Read

/-! ## The reference's stages are the formulas -/

section Ref

variable (x0 : (⟨S1, .i32⟩ : BufTy).Contents (Elt Ideal)) (x1 : (⟨S1x1x1024, .f32⟩ : BufTy).Contents (Elt Ideal))
  (x3 : (⟨S512x1024, .f32⟩ : BufTy).Contents (Elt Ideal)) (x4 : (⟨S50257x1024, .f32⟩ : BufTy).Contents (Elt Ideal))
  (x5 : (⟨S512x2048, .f32⟩ : BufTy).Contents (Elt Ideal)) (x6 : (⟨S512, .f32⟩ : BufTy).Contents (Elt Ideal))
  (x7 : (⟨S1024x2048, .f32⟩ : BufTy).Contents (Elt Ideal)) (x8 : (⟨S1024, .f32⟩ : BufTy).Contents (Elt Ideal))

/-- The reference's logits: the product with the transposed matrix reads the matrix at `(q, k)`, the broadcast bias at `q`. -/
theorem acRefLogits : val_main_v13 (F := Ideal) x0 x1 x4 x5 x6
    = acLogits (acJoin (val_main_v6 (F := Ideal) x0 x4) (val_main_v7 (F := Ideal) x1)) x5 x6 := by
  funext i
  obtain ⟨p, q, rfl⟩ : ∃ (p : Fin 1) (q : Fin 512), i = ix2 p q := ⟨i 0, i 1, eq_ix2 i⟩
  obtain rfl : p = 0 := Subsingleton.elim _ _
  rw [val_main_v13_apply, Ideal.addf_def, val_main_v11_apply, val_main_v12_apply]
  unfold acLogits
  refine congrArg₂ (· + ·) (Finset.sum_congr rfl fun k _ => ?_) (congrArg x6 (funext fun y => Fin.ext (by match y with | ⟨0, _⟩ => rfl)))
  rw [val_main_v10_apply]
  refine congrArg₂ (· * ·) ?_ (congrArg x5 (funext fun y => Fin.ext (by match y with | ⟨0, _⟩ => rfl | ⟨1, _⟩ => rfl)))
  exact congrArg (val_main_v9 (F := Ideal) x0 x1 x4) (funext fun y => Fin.ext (by match y with | ⟨0, _⟩ => rfl | ⟨1, _⟩ => rfl))

/-- The reference's reduction of a row by the larger-of from -∞ is the fold over the row's entries. -/
theorem acRefFold (l : FVec Ideal S1x512 .f32) :
    Host.reduce (FloatOps.maximumf (F := Ideal) (φ := .f32)) l (val_main_cst (F := Ideal)) Cert.ReferenceIdeal.Gen.reducesTo_S1x512_S1_d1 Cert.ReferenceIdeal.Gen.h_S_ (ix1 (0 : Fin 1))
      = acRowMax l 0 := by
  refine (Host.reduce_eq_fold_single (s := S1x512) (t := S1) (a := 1) (u := S_) (FloatOps.maximumf (F := Ideal) (φ := .f32)) l (val_main_cst (F := Ideal)) Cert.ReferenceIdeal.Gen.reducesTo_S1x512_S1_d1 reduces_S1x512_S1 Cert.ReferenceIdeal.Gen.h_S_ (ix1 (0 : Fin 1))).trans ?_
  unfold acRowMax
  refine congrArg (fun f => (Finset.univ : Finset (Fin 512)).fold max (Ideal.ofBits .f32 0xFF800000#32) f) (funext fun k => ?_)
  exact congrArg l (funext fun y => Fin.ext (by match y with | ⟨0, _⟩ => rfl | ⟨1, _⟩ => rfl))

/-- The larger of -∞ and the fold from -∞ is the fold. -/
theorem acRefMaxL (l : FVec Ideal S1x512 .f32) :
    FloatOps.maximumf (FloatOps.ofBits (F := Ideal) .f32 0xFF800000#32)
        (Host.reduce (FloatOps.maximumf (F := Ideal) (φ := .f32)) l (val_main_cst (F := Ideal)) Cert.ReferenceIdeal.Gen.reducesTo_S1x512_S1_d1 Cert.ReferenceIdeal.Gen.h_S_ (ix1 (0 : Fin 1)))
      = acRowMax l 0 := by
  rw [acRefFold l]
  unfold acRowMax
  exact max_eq_right ((Finset.le_fold_max _).mpr (Or.inl le_rfl))

/-- The reference's row maximum, broadcast back along the row. -/
theorem acRefMax (p : Fin 1) (q : Fin 512) :
    val_main_v18 (F := Ideal) x0 x1 x4 x5 x6 (ix2 p q) = acRowMax (val_main_v13 (F := Ideal) x0 x1 x4 x5 x6) p := by
  obtain rfl : p = 0 := Subsingleton.elim _ _
  rw [val_main_v18_apply, val_main_v17_apply, val_main_v16_apply, val_main_v15_apply, val_main_cst_1_apply]
  have hj : idx_main_v17 (idx_main_v18 (ix2 (0 : Fin 1) q)) = ix1 (0 : Fin 1) := funext fun y => Fin.ext (by match y with | ⟨0, _⟩ => rfl)
  rw [hj]
  unfold val_main_v14
  generalize val_main_v13 (F := Ideal) x0 x1 x4 x5 x6 = l
  exact acRefMaxL l

/-- The reference's exponentials. -/
theorem acRefExp (k : Fin 512) : val_main_v20 (F := Ideal) x0 x1 x4 x5 x6 (ix2 (0 : Fin 1) k)
    = Ideal.exp (val_main_v13 (F := Ideal) x0 x1 x4 x5 x6 (ix2 (0 : Fin 1) k) - acRowMax (val_main_v13 (F := Ideal) x0 x1 x4 x5 x6) 0) := by
  rw [val_main_v20_apply, val_main_v19_apply, acRefMax]
  rfl

/-- The reference's attention weights. -/
theorem acRefWeights : val_main_v24 (F := Ideal) x0 x1 x4 x5 x6
    = acWeights (val_main_v6 (F := Ideal) x0 x4) (val_main_v7 (F := Ideal) x1) x5 x6 := by
  unfold acWeights
  rw [← acRefLogits]
  funext i
  obtain ⟨p, q, rfl⟩ : ∃ (p : Fin 1) (q : Fin 512), i = ix2 p q := ⟨i 0, i 1, eq_ix2 i⟩
  obtain rfl : p = 0 := Subsingleton.elim _ _
  rw [val_main_v24_apply, Ideal.hostDivf_def, val_main_v23_apply, val_main_v22_apply, val_main_v21_apply, val_main_cst_2_apply]
  unfold acSoftmax
  refine congrArg₂ Ideal.div (acRefExp x0 x1 x4 x5 x6 q) ?_
  refine (congrArg (· + _) Ideal.ofBits_zero_f32).trans ((zero_add _).trans ?_)
  refine Finset.sum_congr rfl fun k _ => ?_
  refine (congrArg (val_main_v20 (F := Ideal) x0 x1 x4 x5 x6) (funext fun y => Fin.ext (by match y with | ⟨0, _⟩ => rfl | ⟨1, _⟩ => rfl))).trans (acRefExp x0 x1 x4 x5 x6 k)

/-- The reference's weights applied to the encoder outputs. -/
theorem acRefApplied : val_main_v25 (F := Ideal) x0 x1 x3 x4 x5 x6 = acApplied (val_main_v24 (F := Ideal) x0 x1 x4 x5 x6) x3 := by
  funext i
  obtain ⟨p, q, rfl⟩ : ∃ (p : Fin 1) (q : Fin 1024), i = ix2 p q := ⟨i 0, i 1, eq_ix2 i⟩
  rw [val_main_v25_apply]
  unfold acApplied
  refine Finset.sum_congr rfl fun k _ => ?_
  exact congrArg₂ (· * ·) (congrArg (val_main_v24 (F := Ideal) x0 x1 x4 x5 x6) (funext fun y => Fin.ext (by match y with | ⟨0, _⟩ => rfl | ⟨1, _⟩ => rfl)))
    (congrArg x3 (funext fun y => Fin.ext (by match y with | ⟨0, _⟩ => rfl | ⟨1, _⟩ => rfl)))

/-- The reference's combining layer. -/
theorem acRefComb : val_main_v30 (F := Ideal) x0 x1 x3 x4 x5 x6 x7 x8
    = acComb (acJoin (val_main_v6 (F := Ideal) x0 x4) (val_main_v25 (F := Ideal) x0 x1 x3 x4 x5 x6)) x7 x8 := by
  funext i
  obtain ⟨p, q, rfl⟩ : ∃ (p : Fin 1) (q : Fin 1024), i = ix2 p q := ⟨i 0, i 1, eq_ix2 i⟩
  obtain rfl : p = 0 := Subsingleton.elim _ _
  rw [val_main_v30_apply, Ideal.addf_def, val_main_v28_apply, val_main_v29_apply]
  unfold acComb
  refine congrArg₂ (· + ·) (Finset.sum_congr rfl fun k _ => ?_) (congrArg x8 (funext fun y => Fin.ext (by match y with | ⟨0, _⟩ => rfl)))
  rw [val_main_v27_apply]
  refine congrArg₂ (· * ·) ?_ (congrArg x7 (funext fun y => Fin.ext (by match y with | ⟨0, _⟩ => rfl | ⟨1, _⟩ => rfl)))
  exact congrArg (val_main_v26 (F := Ideal) x0 x1 x3 x4 x5 x6) (funext fun y => Fin.ext (by match y with | ⟨0, _⟩ => rfl | ⟨1, _⟩ => rfl))

/-- The reference's rectified combined input. -/
theorem acRefInput : val_main_v31 (F := Ideal) x0 x1 x3 x4 x5 x6 x7 x8
    = acInput (val_main_v6 (F := Ideal) x0 x4) (val_main_v7 (F := Ideal) x1) x3 x5 x6 x7 x8 := by
  unfold acInput
  rw [← acRefWeights, ← acRefApplied, ← acRefComb]
  exact Cert.LibDense.hostRelu_eq Cert.ReferenceIdeal.Gen.bcast_S_S1x1024 (val_main_v30 (F := Ideal) x0 x1 x3 x4 x5 x6 x7 x8)

end Ref

/-! ## The two outputs of the first call are the reference's -/

section Outputs

variable (m : (ℓ : Loc nD τ sig) → Buf (Elt Ideal) ℓ) (c : Dev nD)

/-- The attention weights the first call leaves are the reference's, once the row the body reads of window 0 is the
    reference's embedded row. -/
theorem attn_eq (hE : ∀ t : Fin (cfg0 (adm m 0)).N, k0_pay1 (iblk0 (E0 m) (adm m 0) c 0 t) = Cert.ReferenceIdeal.Read.val_main_v6 (a0 m c) (a4 m c)) :
    U4 m c main_v9_1 = Cert.ReferenceIdeal.Read.val_main_v24 (a0 m c) (a1 m c) (a4 m c) (a5 m c) (a6 m c) := by
  rw [acRefWeights, ← hE t0_0]
  exact acAttnK m c t0_0

/-- The rectified combined input the first call leaves is the reference's, under the same hypothesis. -/
theorem x_eq (hE : ∀ t : Fin (cfg0 (adm m 0)).N, k0_pay1 (iblk0 (E0 m) (adm m 0) c 0 t) = Cert.ReferenceIdeal.Read.val_main_v6 (a0 m c) (a4 m c)) :
    U4 m c main_v9_0 = Cert.ReferenceIdeal.Read.val_main_v31 (a0 m c) (a1 m c) (a3 m c) (a4 m c) (a5 m c) (a6 m c) (a7 m c) (a8 m c) := by
  rw [acRefInput, ← hE t0_0]
  exact acInputK m c t0_0

end Outputs

end Cert.Bridge

end
-- ==== Proof.Bridge.GatesK.lean ====
/- The second pallas_call's output as one array. Each of the four grid points writes a tile of 1024 gate columns; tile t,
   column q is gate column 1024·t + q:
     (∑ k, x[0, k] · W_ih[1024·t + q, k]) + b_ih[0, 1024·t + q] + (∑ k, h[0, k] · W_hh[1024·t + q, k]) + b_hh[0, 1024·t + q].
   The four tiles are the column blocks of ONE [1, 4096] array, the gate pre-activations x · W_ihᵀ + b_ih + h · W_hhᵀ + b_hh
   of the buffers the call is entered with, and they tile it: after the call the output array is that array. In the program's
   run those buffers are the first call's output x, the host's reshapes of h, b_ih and b_hh, and the launched weights. -/
import proofs.«413536_j14714557956454_3_alg».proof.Proof.Hand.KernelIdeal.Chain
import Idealize.ShloMosaic.Lib.StableHlo.Run
import proofs.«413536_j14714557956454_3_alg».proof.Proof.LibContractRhsT
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Bridge.Gates

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-! ## The gate pre-activations as one array -/

/-- Gate column `j` of x · W_ihᵀ + b_ih + h · W_hhᵀ + b_hh, the sums added in the order the program adds them. -/
def gatesOf (x h : S1x1024.Idx → EReal) (wih whh : S4096x1024.Idx → EReal) (bih bhh : S1x4096.Idx → EReal) : S1x4096.Idx → EReal :=
  fun i => (((∑ k : Fin 1024, x (ix2 (i 0) k) * wih (ix2 (i 1) k)) + bih i) + (∑ k : Fin 1024, h (ix2 (i 0) k) * whh (ix2 (i 1) k))) + bhh i

theorem gatesOf_apply (x h : S1x1024.Idx → EReal) (wih whh : S4096x1024.Idx → EReal) (bih bhh : S1x4096.Idx → EReal) (p : Fin 1) (j : Fin 4096) :
    gatesOf x h wih whh bih bhh (ix2 p j)
      = (((∑ k : Fin 1024, x (ix2 p k) * wih (ix2 j k)) + bih (ix2 p j)) + (∑ k : Fin 1024, h (ix2 p k) * whh (ix2 j k))) + bhh (ix2 p j) := rfl

/-! ## One tile, entry by entry -/

/-- The printed contraction of the body's two products: both operands contracted on their last axis. -/
theorem dot_eq : dot_S1x1024_S1024x1024_S1x1024_1_1_0_0_n_n = DotDims.transposedRhs 1 1024 1024 := rfl

/-- The body's tile from its six loaded buffers, at row `p` and column `q`: on the extended reals the change of float
    format is the identity, the shape casts are of a shape to itself, and each product into the zero splat is the sum
    over the contracted axis. -/
theorem tile_apply (x h : Vec Ideal S1x1024 .f32) (w1 w2 : Vec Ideal S1024x1024 .f32) (b1 b2 : Vec Ideal S1x1024 .f32) (p : Fin 1) (q : Fin 1024) :
    k1_pay1 (F := Ideal) x h w1 w2 b1 b2 (ix2 p q)
      = (((∑ k : Fin 1024, x (ix2 p k) * w1 (ix2 q k)) + b1 (ix2 p q)) + (∑ k : Fin 1024, h (ix2 p k) * w2 (ix2 q k))) + b2 (ix2 p q) := by
  unfold k1_pay1
  simp only [shapeCast_self]
  refine (addf_apply _ _ _).trans ?_
  refine congrArg (· + b2 (ix2 p q)) ?_
  refine (addf_apply _ _ _).trans ?_
  refine congrArg₂ (· + ·) ?_ ?_
  · refine (addf_apply _ _ _).trans ?_
    refine congrArg (· + b1 (ix2 p q)) ?_
    exact Cert.LibContractRhsT.matmul_zero_apply 1 1024 1024 none (truncf .bf16 x bitsLt_bf16_f32) (truncf .bf16 w1 bitsLt_bf16_f32) p q
  · exact Cert.LibContractRhsT.matmul_zero_apply 1 1024 1024 none (truncf .bf16 h bitsLt_bf16_f32) (truncf .bf16 w2 bitsLt_bf16_f32) p q

/-! ## The tiles and the array -/

-- the TensorCore's buffer contents when the call is entered
variable (V : (c : Dev nD) → (b : Ref sig .tc) → Buf (Elt Ideal) ((c : Thread nD τ).loc b))

/-! The six arrays the call is entered with, each at its literal type. -/
/-- The rectified combined input x. -/
abbrev xArr (c : Dev nD) : S1x1024.Idx → EReal := V c main_v9_0
/-- The hidden state h. -/
abbrev hArr (c : Dev nD) : S1x1024.Idx → EReal := V c main_v1
/-- W_ih. -/
abbrev wihArr (c : Dev nD) : S4096x1024.Idx → EReal := V c main_arg9
/-- W_hh. -/
abbrev whhArr (c : Dev nD) : S4096x1024.Idx → EReal := V c main_arg10
/-- b_ih as a row. -/
abbrev bihArr (c : Dev nD) : S1x4096.Idx → EReal := V c main_v6
/-- b_hh as a row. -/
abbrev bhhArr (c : Dev nD) : S1x4096.Idx → EReal := V c main_v7

/-- The gate pre-activations of the six arrays the call is entered with. -/
abbrev gatesArr (c : Dev nD) : S1x4096.Idx → EReal :=
  gatesOf (xArr V c) (hArr V c) (wihArr V c) (whhArr V c) (bihArr V c) (bhhArr V c)

/-- The printed index maps, decided over the four points: the input x and the state h stay at block (0, 0); the weights'
    row block, the biases' column block and the output's column block are the point's number. -/
theorem index_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val :=
  (by decide +kernel : ∀ t : Fin grid1.N, _)

/-- A point of the grid is below 4. -/
theorem point_lt (t : Fin cfg1.N) : t.val < 4 := by
  have h : t.val < grid1.N := t.isLt
  rw [N_1] at h
  exact h

/-- Gate column 1024·t + q: column `q` of point `t`'s tile. -/
def gcol (t : Fin cfg1.N) (q : Fin 1024) : Fin 4096 := ⟨1024 * t.val + q.val, by have := point_lt t; have := q.isLt; omega⟩

/-! Each input window's block at a point, read where it lies in its array. -/

/-- The input x is one block: the whole row. -/
theorem xblk_apply (c : Dev nD) (t : Fin cfg1.N) (p : Fin 1) (k : Fin 1024) :
    (iblk1 V c 0 t : Vec Ideal S1x1024 .f32) (ix2 p k) = xArr V c (ix2 p k) := by
  obtain ⟨e0, e1, -⟩ := index_facts t
  show xArr V c (((cfg1.win 0).blk t).view.emb (ix2 p k)) = _
  refine congrArg (xArr V c) ?_
  funext a; apply Fin.ext
  match a with
  | ⟨0, _⟩ => show win1_0.index t (0 : Fin 2) * 1 + 1 * p.val = p.val; rw [e0]; omega
  | ⟨1, _⟩ => show win1_0.index t (1 : Fin 2) * 1024 + 1 * k.val = k.val; rw [e1]; omega

/-- The state h is one block: the whole row. -/
theorem hblk_apply (c : Dev nD) (t : Fin cfg1.N) (p : Fin 1) (k : Fin 1024) :
    (iblk1 V c 1 t : Vec Ideal S1x1024 .f32) (ix2 p k) = hArr V c (ix2 p k) := by
  obtain ⟨-, -, e0, e1, -⟩ := index_facts t
  show hArr V c (((cfg1.win 1).blk t).view.emb (ix2 p k)) = _
  refine congrArg (hArr V c) ?_
  funext a; apply Fin.ext
  match a with
  | ⟨0, _⟩ => show win1_1.index t (0 : Fin 2) * 1 + 1 * p.val = p.val; rw [e0]; omega
  | ⟨1, _⟩ => show win1_1.index t (1 : Fin 2) * 1024 + 1 * k.val = k.val; rw [e1]; omega

/-- Row `q` of W_ih's block at point `t` is row 1024·t + q of W_ih. -/
theorem wihblk_apply (c : Dev nD) (t : Fin cfg1.N) (q : Fin 1024) (k : Fin 1024) :
    (iblk1 V c 2 t : Vec Ideal S1024x1024 .f32) (ix2 q k) = wihArr V c (ix2 (gcol t q) k) := by
  obtain ⟨-, -, -, -, e0, e1, -⟩ := index_facts t
  show wihArr V c (((cfg1.win 2).blk t).view.emb (ix2 q k)) = _
  refine congrArg (wihArr V c) ?_
  funext a; apply Fin.ext
  match a with
  | ⟨0, _⟩ => show win1_2.index t (0 : Fin 2) * 1024 + 1 * q.val = 1024 * t.val + q.val; rw [e0]; omega
  | ⟨1, _⟩ => show win1_2.index t (1 : Fin 2) * 1024 + 1 * k.val = k.val; rw [e1]; omega

/-- Row `q` of W_hh's block at point `t` is row 1024·t + q of W_hh. -/
theorem whhblk_apply (c : Dev nD) (t : Fin cfg1.N) (q : Fin 1024) (k : Fin 1024) :
    (iblk1 V c 3 t : Vec Ideal S1024x1024 .f32) (ix2 q k) = whhArr V c (ix2 (gcol t q) k) := by
  obtain ⟨-, -, -, -, -, -, e0, e1, -⟩ := index_facts t
  show whhArr V c (((cfg1.win 3).blk t).view.emb (ix2 q k)) = _
  refine congrArg (whhArr V c) ?_
  funext a; apply Fin.ext
  match a with
  | ⟨0, _⟩ => show win1_3.index t (0 : Fin 2) * 1024 + 1 * q.val = 1024 * t.val + q.val; rw [e0]; omega
  | ⟨1, _⟩ => show win1_3.index t (1 : Fin 2) * 1024 + 1 * k.val = k.val; rw [e1]; omega

/-- Column `q` of b_ih's block at point `t` is column 1024·t + q of b_ih. -/
theorem bihblk_apply (c : Dev nD) (t : Fin cfg1.N) (p : Fin 1) (q : Fin 1024) :
    (iblk1 V c 4 t : Vec Ideal S1x1024 .f32) (ix2 p q) = bihArr V c (ix2 p (gcol t q)) := by
  obtain ⟨-, -, -, -, -, -, -, -, e0, e1, -⟩ := index_facts t
  show bihArr V c (((cfg1.win 4).blk t).view.emb (ix2 p q)) = _
  refine congrArg (bihArr V c) ?_
  funext a; apply Fin.ext
  match a with
  | ⟨0, _⟩ => show win1_4.index t (0 : Fin 2) * 1 + 1 * p.val = p.val; rw [e0]; omega
  | ⟨1, _⟩ => show win1_4.index t (1 : Fin 2) * 1024 + 1 * q.val = 1024 * t.val + q.val; rw [e1]; omega

/-- Column `q` of b_hh's block at point `t` is column 1024·t + q of b_hh. -/
theorem bhhblk_apply (c : Dev nD) (t : Fin cfg1.N) (p : Fin 1) (q : Fin 1024) :
    (iblk1 V c 5 t : Vec Ideal S1x1024 .f32) (ix2 p q) = bhhArr V c (ix2 p (gcol t q)) := by
  obtain ⟨-, -, -, -, -, -, -, -, -, -, e0, e1, -⟩ := index_facts t
  show bhhArr V c (((cfg1.win 5).blk t).view.emb (ix2 p q)) = _
  refine congrArg (bhhArr V c) ?_
  funext a; apply Fin.ext
  match a with
  | ⟨0, _⟩ => show win1_5.index t (0 : Fin 2) * 1 + 1 * p.val = p.val; rw [e0]; omega
  | ⟨1, _⟩ => show win1_5.index t (1 : Fin 2) * 1024 + 1 * q.val = 1024 * t.val + q.val; rw [e1]; omega

/-- Entry (p, q) of the output's block at point `t` lies at (p, 1024·t + q) of the output array. -/
theorem outblk_emb (t : Fin cfg1.N) (p : Fin 1) (q : Fin 1024) :
    ((cfg1.win 6).blk t).view.emb (ix2 p q) = (ix2 p (gcol t q) : S1x4096.Idx) := by
  obtain ⟨-, -, -, -, -, -, -, -, -, -, -, -, e0, e1⟩ := index_facts t
  funext a; apply Fin.ext
  match a with
  | ⟨0, _⟩ => show win1_6.index t (0 : Fin 2) * 1 + 1 * p.val = p.val; rw [e0]; omega
  | ⟨1, _⟩ => show win1_6.index t (1 : Fin 2) * 1024 + 1 * q.val = 1024 * t.val + q.val; rw [e1]; omega

/-- What point `t` writes back is its block of the gate pre-activations of the entry arrays. -/
theorem flushed_gates (c : Dev nD) (t : Fin cfg1.N) :
    (dat1 V c).flushed 6 t = ((cfg1.win 6).blk t).view.read (Elt Ideal) (gatesArr V c) := by
  show (cfg1.win 6).cut (grid1.coords t) ((dat1 V c).after 6 t) = _
  rw [after1_6, out1_6_eq]
  funext j
  obtain ⟨p, q, rfl⟩ : ∃ (p : Fin 1) (q : Fin 1024), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = gatesArr V c (((cfg1.win 6).blk t).view.emb (ix2 p q))
  refine (tile_apply (iblk1 V c 0 t) (iblk1 V c 1 t) (iblk1 V c 2 t) (iblk1 V c 3 t) (iblk1 V c 4 t) (iblk1 V c 5 t) p q).trans ?_
  refine Eq.trans ?_ (congrArg (gatesArr V c) (outblk_emb t p q)).symm
  show _ = (((∑ k : Fin 1024, xArr V c (ix2 p k) * wihArr V c (ix2 (gcol t q) k))
      + bihArr V c (ix2 p (gcol t q)))
    + (∑ k : Fin 1024, hArr V c (ix2 p k) * whhArr V c (ix2 (gcol t q) k)))
    + bhhArr V c (ix2 p (gcol t q))
  exact congrArg₂ (· + ·)
    (congrArg₂ (· + ·)
      (congrArg₂ (· + ·)
        (Finset.sum_congr rfl fun k _ => congrArg₂ (· * ·) (xblk_apply V c t p k) (wihblk_apply V c t q k))
        (bihblk_apply V c t p q))
      (Finset.sum_congr rfl fun k _ => congrArg₂ (· * ·) (hblk_apply V c t p k) (whhblk_apply V c t q k)))
    (bhhblk_apply V c t p q)

/-- An index of the output array is in point `t`'s block iff each coordinate is in the block's range on its axis. -/
theorem mem_outblk (t : Fin cfg1.N) (i : S1x4096.Idx) :
    i ∈ ((cfg1.win 6).blk t).view.set ↔ ∀ a : Fin 2, win1_6.index t a * S1x1024.size a ≤ (i a).val ∧ (i a).val < win1_6.index t a * S1x1024.size a + S1x1024.size a := by
  show i ∈ ((View.whole main_v10).slice (win1_6.rect t)).set ↔ _
  rw [View.set_slice_whole, Rect.mem_set_unit]
  exact Iff.rfl

/-- The four column blocks tile the output array: gate column `j` is in the block of point `j / 1024`. -/
theorem outblks_cover (i : S1x4096.Idx) : ∃ t : Fin cfg1.N, (cfg1.win 6).flush t = true ∧ i ∈ ((cfg1.win 6).blk t).view.set := by
  have hi0 : (i 0).val < 1 := (i 0).isLt
  have hi1 : (i 1).val < 4096 := (i 1).isLt
  have hN : (i 1).val / 1024 < cfg1.N := by show _ < grid1.N; rw [N_1]; omega
  obtain ⟨-, -, -, -, -, -, -, -, -, -, -, -, e0, e1⟩ := index_facts ⟨(i 1).val / 1024, hN⟩
  refine ⟨⟨(i 1).val / 1024, hN⟩, flush1_6 _, ?_⟩
  rw [mem_outblk]
  intro a
  match a with
  | ⟨0, _⟩ =>
    show win1_6.index ⟨(i 1).val / 1024, hN⟩ (0 : Fin 2) * 1 ≤ (i 0).val ∧ (i 0).val < win1_6.index ⟨(i 1).val / 1024, hN⟩ (0 : Fin 2) * 1 + 1
    rw [e0]; omega
  | ⟨1, _⟩ =>
    show win1_6.index ⟨(i 1).val / 1024, hN⟩ (1 : Fin 2) * 1024 ≤ (i 1).val ∧ (i 1).val < win1_6.index ⟨(i 1).val / 1024, hN⟩ (1 : Fin 2) * 1024 + 1024
    rw [e1]
    show (i 1).val / 1024 * 1024 ≤ (i 1).val ∧ (i 1).val < (i 1).val / 1024 * 1024 + 1024
    omega

/-- After the call the output array holds the gate pre-activations of the six arrays the call was entered with. -/
theorem gates_arrAt (c : Dev nD) : (dat1 V c).arrAt 6 cfg1.N = gatesArr V c :=
  (dat1 V c).arrAt_eq_of_cover 6 (gatesArr V c) (fun t _ => flushed_gates V c t) outblks_cover

/-! ## The second call in the program's run

The arrays the call is entered with are: the first call's output x, untouched since; the hidden state and the two biases
as the host's reshapes left them; the two weight matrices as launched. -/

section Run

variable (m : (ℓ : Loc nD τ sig) → Buf (Elt Ideal) ℓ) (c : Dev nD)

/-- The hidden state as a row: the host's reshape of argument 1. -/
abbrev hRow : S1x1024.Idx → EReal :=
  shapeCast S1x1024 (m ((c : Thread nD τ).loc main_arg1) : (⟨S1x1x1024, .f32⟩ : BufTy).Contents (Elt Ideal)) shapeCasts_S1x1x1024_S1x1024
/-- b_ih as a row: the host's reshape of argument 11. -/
abbrev bihRow : S1x4096.Idx → EReal :=
  shapeCast S1x4096 (m ((c : Thread nD τ).loc main_arg11) : (⟨S4096, .f32⟩ : BufTy).Contents (Elt Ideal)) shapeCasts_S4096_S1x4096
/-- b_hh as a row: the host's reshape of argument 12. -/
abbrev bhhRow : S1x4096.Idx → EReal :=
  shapeCast S1x4096 (m ((c : Thread nD τ).loc main_arg12) : (⟨S4096, .f32⟩ : BufTy).Contents (Elt Ideal)) shapeCasts_S4096_S1x4096

/-- The call finds x as the first call left it. -/
theorem entry_x : xArr (E1 m) c = (U4 m c main_v9_0 : S1x1024.Idx → EReal) :=
  (Function.update_of_ne (StableHlo.devRef_ne_of_ne (by decide : (main_v9_0 : Ref sig .tc) ≠ main_v9_1)) ..).trans (Function.update_self ..)

/-- The call finds h as the host's reshape left it. -/
theorem entry_h : hArr (E1 m) c = hRow m c := by
  refine (V4_of m (outsA m) c main_v1 (by decide)).trans ?_
  dsimp only [V3, V2, V1, V0, hostOps0, hostOps0_1, hostOps0_2]
  after_results
  rfl

/-- The call finds W_ih as launched. -/
theorem entry_wih : wihArr (E1 m) c = (m ((c : Thread nD τ).loc main_arg9) : S4096x1024.Idx → EReal) :=
  (V4_of m (outsA m) c main_arg9 (by decide)).trans <| (V3_of m c main_arg9 (by decide)).trans <| (V2_of m c main_arg9 (by decide)).trans <| (V1_of m c main_arg9 (by decide)).trans rfl

/-- The call finds W_hh as launched. -/
theorem entry_whh : whhArr (E1 m) c = (m ((c : Thread nD τ).loc main_arg10) : S4096x1024.Idx → EReal) :=
  (V4_of m (outsA m) c main_arg10 (by decide)).trans <| (V3_of m c main_arg10 (by decide)).trans <| (V2_of m c main_arg10 (by decide)).trans <| (V1_of m c main_arg10 (by decide)).trans rfl

/-- The call finds b_ih as the host's reshape left it. -/
theorem entry_bih : bihArr (E1 m) c = bihRow m c := by
  refine (V4_of m (outsA m) c main_v6 (by decide)).trans ?_
  dsimp only [V3, V2, V1, V0, hostOps0, hostOps0_1, hostOps0_2]
  after_results
  rfl

/-- The call finds b_hh as the host's reshape left it. -/
theorem entry_bhh : bhhArr (E1 m) c = bhhRow m c := by
  refine (V4_of m (outsA m) c main_v7 (by decide)).trans ?_
  dsimp only [V3, V2, V1, V0, hostOps0, hostOps0_1, hostOps0_2]
  after_results
  rfl

/-- A vector reshaped to a row reads its entry `j` at column `j`. -/
theorem row_apply (b : S4096.Idx → EReal) (p : Fin 1) (j : Fin 4096) :
    shapeCast S1x4096 b shapeCasts_S4096_S1x4096 (ix2 p j) = b (ix1 j) := by
  refine shapeCast_apply b shapeCasts_S4096_S1x4096 (ix2 p j) (ix1 j) ?_
  rw [Shape.rowMajor_val_one, Shape.rowMajor_val_two]
  show j.val = p.val * 4096 + j.val
  have := p.isLt
  omega

/-- After the second call its output array holds the gate pre-activations of the first call's output x, the hidden
    state, the launched weights and the two biases. -/
theorem exit_gates : (U5 m c main_v10 : S1x4096.Idx → EReal)
    = gatesOf (U4 m c main_v9_0) (hRow m c) (m ((c : Thread nD τ).loc main_arg9)) (m ((c : Thread nD τ).loc main_arg10)) (bihRow m c) (bhhRow m c) := by
  have h : (dat1 (E1 m) c).arrAt 6 cfg1.N = U5 m c (Pipeline.arrRef spec1 6) := (hF1 m c 6).trans (V5_eq m c _)
  refine h.symm.trans ((gates_arrAt (E1 m) c).trans ?_)
  show gatesOf (xArr (E1 m) c) (hArr (E1 m) c) (wihArr (E1 m) c) (whhArr (E1 m) c) (bihArr (E1 m) c) (bhhArr (E1 m) c) = _
  rw [entry_x, entry_h, entry_wih, entry_whh, entry_bih, entry_bhh]

end Run

end Cert.Bridge.Gates

end
-- ==== Proof.Bridge.Gates.lean ====
/- The gate pre-activations: what the second pallas_call leaves in its output array is what the reference computes.
   The reference spells x · Wᵀ as the contraction of x with the transpose of W and adds each bias broadcast to a row;
   entry by entry that is the same sum over the contracted axis and the same entry of the bias, added in the same order. -/
import proofs.«413536_j14714557956454_3_alg».proof.Proof.Bridge.GatesK
import proofs.«413536_j14714557956454_3_alg».proof.Proof.Bridge.Args
import proofs.«413536_j14714557956454_3_alg».proof.Proof.RefRead

set_option maxRecDepth 16384

noncomputable section

namespace Cert.Bridge.Gates

open Cert.KernelIdeal Cert.KernelIdeal.Gen Cert.KernelIdeal.Hand
open Idealize.ShloMosaic Idealize.ShloMosaic.TcCoe Idealize.ShloMosaic.ValueIdx
open Idealize.SL Idealize.SL.Sem

/-! ## The reference's gates, entry by entry -/

/-- The reference's gates are the gate pre-activations of its rectified combined input, its hidden state as a row, the
    two weight matrices and the two biases as rows: each `dot_general` with a transposed weight is the sum over the
    contracted axis of x[0, k] · W[j, k], each broadcast bias reads b[j]. -/
theorem ref_gates (x0 : (⟨S1, .i32⟩ : BufTy).Contents (Elt Ideal)) (x1 : (⟨S1x1x1024, .f32⟩ : BufTy).Contents (Elt Ideal))
    (x3 : (⟨S512x1024, .f32⟩ : BufTy).Contents (Elt Ideal)) (x4 : (⟨S50257x1024, .f32⟩ : BufTy).Contents (Elt Ideal))
    (x5 : (⟨S512x2048, .f32⟩ : BufTy).Contents (Elt Ideal)) (x6 : (⟨S512, .f32⟩ : BufTy).Contents (Elt Ideal))
    (x7 : (⟨S1024x2048, .f32⟩ : BufTy).Contents (Elt Ideal)) (x8 : (⟨S1024, .f32⟩ : BufTy).Contents (Elt Ideal))
    (x9 x10 : (⟨S4096x1024, .f32⟩ : BufTy).Contents (Elt Ideal)) (x11 x12 : (⟨S4096, .f32⟩ : BufTy).Contents (Elt Ideal)) :
    Cert.ReferenceIdeal.Read.val_main_v40 (F := Ideal) x0 x1 x3 x4 x5 x6 x7 x8 x9 x10 x11 x12
      = gatesOf (Cert.ReferenceIdeal.Read.val_main_v31 (F := Ideal) x0 x1 x3 x4 x5 x6 x7 x8) (Cert.ReferenceIdeal.Read.val_main_v7 (F := Ideal) x1) x9 x10
          (shapeCast S1x4096 x11 shapeCasts_S4096_S1x4096) (shapeCast S1x4096 x12 shapeCasts_S4096_S1x4096) := by
  funext i
  obtain ⟨p, j, rfl⟩ : ∃ (p : Fin 1) (j : Fin 4096), i = ix2 p j := ⟨i 0, i 1, eq_ix2 i⟩
  -- the operand indices of the two contractions and of the two broadcasts, by coordinates
  have el (k : Fin 1024) : Cert.ReferenceIdeal.Read.lidx_main_v33 (ix2 p j) k = ix2 p k :=
    funext fun a => by match a with | ⟨0, _⟩ => rfl | ⟨1, _⟩ => rfl
  have er (k : Fin 1024) : Cert.ReferenceIdeal.Read.idx_main_v32 (Cert.ReferenceIdeal.Read.ridx_main_v33 (ix2 p j) k) = ix2 j k :=
    funext fun a => by match a with | ⟨0, _⟩ => rfl | ⟨1, _⟩ => rfl
  have el' (k : Fin 1024) : Cert.ReferenceIdeal.Read.lidx_main_v37 (ix2 p j) k = ix2 p k :=
    funext fun a => by match a with | ⟨0, _⟩ => rfl | ⟨1, _⟩ => rfl
  have er' (k : Fin 1024) : Cert.ReferenceIdeal.Read.idx_main_v36 (Cert.ReferenceIdeal.Read.ridx_main_v37 (ix2 p j) k) = ix2 j k :=
    funext fun a => by match a with | ⟨0, _⟩ => rfl | ⟨1, _⟩ => rfl
  have eb : Cert.ReferenceIdeal.Read.idx_main_v34 (ix2 p j) = ix1 j :=
    funext fun a => by match a with | ⟨0, _⟩ => rfl
  have eb' : Cert.ReferenceIdeal.Read.idx_main_v39 (ix2 p j) = ix1 j :=
    funext fun a => by match a with | ⟨0, _⟩ => rfl
  rw [gatesOf_apply, row_apply, row_apply]
  show ((Cert.ReferenceIdeal.Read.val_main_v33 (F := Ideal) x0 x1 x3 x4 x5 x6 x7 x8 x9 (ix2 p j) + Cert.ReferenceIdeal.Read.val_main_v34 (F := Ideal) x11 (ix2 p j))
      + Cert.ReferenceIdeal.Read.val_main_v37 (F := Ideal) x1 x10 (ix2 p j)) + Cert.ReferenceIdeal.Read.val_main_v39 (F := Ideal) x12 (ix2 p j) = _
  refine congrArg₂ (· + ·) (congrArg₂ (· + ·) (congrArg₂ (· + ·) ?_ ?_) ?_) ?_
  · refine (Cert.ReferenceIdeal.Read.val_main_v33_apply x0 x1 x3 x4 x5 x6 x7 x8 x9 (ix2 p j)).trans ?_
    refine Finset.sum_congr rfl fun k _ => congrArg₂ (· * ·) ?_ ?_
    · exact congrArg (Cert.ReferenceIdeal.Read.val_main_v31 (F := Ideal) x0 x1 x3 x4 x5 x6 x7 x8) (el k)
    · exact (Cert.ReferenceIdeal.Read.val_main_v32_apply (F := Ideal) x9 _).trans (congrArg x9 (er k))
  · exact (Cert.ReferenceIdeal.Read.val_main_v34_apply (F := Ideal) x11 _).trans (congrArg x11 eb)
  · refine (Cert.ReferenceIdeal.Read.val_main_v37_apply x1 x10 (ix2 p j)).trans ?_
    refine Finset.sum_congr rfl fun k _ => congrArg₂ (· * ·) ?_ ?_
    · exact congrArg (Cert.ReferenceIdeal.Read.val_main_v7 (F := Ideal) x1) (el' k)
    · exact (Cert.ReferenceIdeal.Read.val_main_v36_apply (F := Ideal) x10 _).trans (congrArg x10 (er' k))
  · exact (Cert.ReferenceIdeal.Read.val_main_v39_apply (F := Ideal) x12 _).trans (congrArg x12 eb')

end Cert.Bridge.Gates

namespace Cert.Bridge

open Cert.KernelIdeal Cert.KernelIdeal.Gen Cert.KernelIdeal.Hand Cert.Bridge.Gates
open Idealize.ShloMosaic Idealize.ShloMosaic.TcCoe Idealize.ShloMosaic.ValueIdx
open Idealize.SL Idealize.SL.Sem

/-! ## The second call's output is the reference's gates -/

variable (m : (ℓ : Loc nD τ sig) → Buf (Elt Ideal) ℓ) (c : Dev nD)

/-- If the first call left the reference's rectified combined input, the second call leaves the reference's gates. -/
theorem gates_eq (hx : U4 m c main_v9_0 = Cert.ReferenceIdeal.Read.val_main_v31 (a0 m c) (a1 m c) (a3 m c) (a4 m c) (a5 m c) (a6 m c) (a7 m c) (a8 m c)) :
    U5 m c main_v10 = Cert.ReferenceIdeal.Read.val_main_v40 (a0 m c) (a1 m c) (a3 m c) (a4 m c) (a5 m c) (a6 m c) (a7 m c) (a8 m c) (a9 m c) (a10 m c) (a11 m c) (a12 m c) := by
  refine (exit_gates m c).trans ?_
  rw [hx]
  exact (ref_gates (a0 m c) (a1 m c) (a3 m c) (a4 m c) (a5 m c) (a6 m c) (a7 m c) (a8 m c) (a9 m c) (a10 m c) (a11 m c) (a12 m c)).symm

end Cert.Bridge

end
-- ==== Proof.Bridge.HostK.lean ====
/- The host arithmetic between and after the pallas_calls, at the extended reals, each chain as one function of the
   values it reads. The LSTM cell's nonlinearity: the 4096 gate pre-activations are cut into four slices of 1024
   (input, forget, candidate, output); with σ(x) = 1 / (1 + exp (−x)) entrywise, the new cell state is
   c' = σ(f)·c + σ(i)·tanh(g) and the new hidden state h' = σ(o)·tanh(c'). The log-softmax of the logits:
   x − max x − log Σ exp (x − max x), the maximum and the sum taken along the one row. The rank-3 view [1,1,1024] of a
   row [1,1024]. And the facts that tie these functions to the program's run: the buffer contents after the host
   stretch that follows the second call are the cell functions of the gates' and the cell state's buffers before it,
   the contents after the stretches that follow the third call are the log-softmax of the logits' buffer and the
   rank-3 views of the two state rows, and the attention weights' buffer is not written again after the first call. -/
import proofs.«413536_j14714557956454_3_alg».proof.Proof.Gen.KernelIdeal.Regions
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe
open Idealize.SL Idealize.SL.Sem

section Generic

variable {F : FTy → Type} [FloatOps F]

variable (F) in
/-- A row of the four gates' pre-activations, [1,4096]. -/
abbrev VGates : Type := FVec F S1x4096 .f32
variable (F) in
/-- A state row, [1,1024]. -/
abbrev VRow : Type := FVec F S1x1024 .f32
variable (F) in
/-- A state row seen with a leading unit axis, [1,1,1024]. -/
abbrev VRow3 : Type := FVec F S1x1x1024 .f32
variable (F) in
/-- The row of logits, [1,50257]. -/
abbrev VLogits : Type := FVec F S1x50257 .f32

/-! ## The cell's nonlinearity -/

/-- The row of ones. -/
def ones : VRow F := broadcastInDim S1x1024 ![] bcast_S_S1x1024 (constant (F := F) S_ .f32 0x3F800000#32)

/-- The logistic function entrywise: 1 / (1 + exp (−x)). -/
def sigm (x : VRow F) : VRow F :=
  Host.divf (F := F) ones (addf (F := F) ones (Host.exp (F := F) (Host.negf (F := F) x)))

/-- The input gate's slice, columns 0 … 1023. -/
def gateI (g : VGates F) : VRow F := extractStridedSlice S1x1024 ![0, 0] g slices_S1x4096_S1x1024_0_0
/-- The forget gate's slice, columns 1024 … 2047. -/
def gateF (g : VGates F) : VRow F := extractStridedSlice S1x1024 ![0, 1024] g slices_S1x4096_S1x1024_0_1024
/-- The candidate's slice, columns 2048 … 3071. -/
def gateG (g : VGates F) : VRow F := extractStridedSlice S1x1024 ![0, 2048] g slices_S1x4096_S1x1024_0_2048
/-- The output gate's slice, columns 3072 … 4095. -/
def gateO (g : VGates F) : VRow F := extractStridedSlice S1x1024 ![0, 3072] g slices_S1x4096_S1x1024_0_3072

/-- The new cell state: σ(f)·c + σ(i)·tanh(g). -/
def cellC1 (g : VGates F) (c : VRow F) : VRow F :=
  addf (F := F) (mulf (F := F) (sigm (gateF g)) c) (mulf (F := F) (sigm (gateI g)) (Host.tanh (F := F) (gateG g)))

/-- The new hidden state: σ(o)·tanh(c'). -/
def cellH1 (g : VGates F) (c : VRow F) : VRow F :=
  mulf (F := F) (sigm (gateO g)) (Host.tanh (F := F) (cellC1 g c))

/-! ## The log-softmax -/

/-- The logits less their maximum along the row (the maximum folded from −∞ and joined with −∞ once more). -/
def shifted (x : VLogits F) : VLogits F :=
  subf (F := F) x
    (broadcastInDim S1x50257 ![0, 1] bcast_S1x1_S1x50257_0_1
      (broadcastInDim S1x1 ![0] bcast_S1_S1x1_0
        (maximumf (F := F) (broadcastInDim S1 ![] bcast_S_S1 (constant (F := F) S_ .f32 0xFF800000#32))
          (Host.reduce (FloatOps.maximumf (F := F)) x (constant (F := F) S_ .f32 0xFF800000#32) reducesTo_S1x50257_S1_d1 h_S_))))

/-- The log-softmax along the row: the shifted logits less the logarithm of the sum of their exponentials. -/
def logSoftmax (x : VLogits F) : VLogits F :=
  subf (F := F) (shifted x)
    (broadcastInDim S1x50257 ![0, 1] bcast_S1x1_S1x50257_0_1
      (Host.log (F := F)
        (broadcastInDim S1x1 ![0] bcast_S1_S1x1_0
          (Host.reduceAdd (F := F) (Host.exp (F := F) (shifted x)) (constant (F := F) S_ .f32 0x00000000#32) reducesTo_S1x50257_S1_d1 h_S_))))

/-! ## The rank-3 view -/

/-- A row [1,1024] as [1,1,1024]. -/
def up3 (x : VRow F) : VRow3 F := broadcastInDim S1x1x1024 ![1, 2] bcast_S1x1024_S1x1x1024_1_2 x

/-! ## The program's host stretches are these functions -/

variable (m : (ℓ : Loc nD τ sig) → Buf (Elt F) ℓ) (outs : Outs (F := F)) (c : Dev nD)

/-- After the cell's host stretch the new cell state's buffer holds the cell function of the gates' and the cell
    state's buffers as the stretch found them. -/
theorem V6_c1 : (V6 m outs c main_v30 : VRow F) = cellC1 (V5 m outs c main_v10) (V5 m outs c main_v2) := by
  dsimp only [V6, hostOps2]
  after_results_simp
  rfl

/-- After the cell's host stretch the new hidden state's buffer holds the hidden-state function of the same two. -/
theorem V6_h1 : (V6 m outs c main_v38 : VRow F) = cellH1 (V5 m outs c main_v10) (V5 m outs c main_v2) := by
  dsimp only [V6, hostOps2]
  after_results_simp
  rfl

/-! ### The log-softmax's stretch over plain references

The stretch's operations are stated over references that carry their tensor type, each function moved to the
reference's own buffer type along an equation of types that holds by computation. Here each operation is restated over
the bare references, the function as it is: the same operation. -/

section Plain

variable {Val : EltTy → Type}

/-- A constant written through a typed reference is the constant written at the reference. -/
theorem tref_nullary_eq {y : Ref sig .tc} (dy : y.space ≠ .host) (uy : y.isScoped = false) (v : y.ty.Contents Val) :
    StableHlo.TRef.nullary (τ := τ) (⟨y, rfl, dy, uy⟩ : StableHlo.TRef sig y.ty) v
      = StableHlo.nullary y v ⟨dy, uy⟩ := rfl

/-- A one-operand operation through typed references is the operation at the references. -/
theorem tref_unary_eq {x y : Ref sig .tc} (dx : x.space ≠ .host) (ux : x.isScoped = false)
    (dy : y.space ≠ .host) (uy : y.isScoped = false) (f : x.ty.Contents Val → y.ty.Contents Val) :
    StableHlo.TRef.unary (τ := τ) (⟨x, rfl, dx, ux⟩ : StableHlo.TRef sig x.ty) (⟨y, rfl, dy, uy⟩ : StableHlo.TRef sig y.ty) f
      = StableHlo.unary x y f ⟨dx, ux⟩ ⟨dy, uy⟩ := rfl

/-- A two-operand operation through typed references is the operation at the references. -/
theorem tref_binary_eq {a b y : Ref sig .tc} (da : a.space ≠ .host) (ua : a.isScoped = false)
    (db : b.space ≠ .host) (ub : b.isScoped = false) (dy : y.space ≠ .host) (uy : y.isScoped = false)
    (f : a.ty.Contents Val → b.ty.Contents Val → y.ty.Contents Val) :
    StableHlo.TRef.binary (τ := τ) (⟨a, rfl, da, ua⟩ : StableHlo.TRef sig a.ty) (⟨b, rfl, db, ub⟩ : StableHlo.TRef sig b.ty)
        (⟨y, rfl, dy, uy⟩ : StableHlo.TRef sig y.ty) f
      = StableHlo.binary a b y f ⟨da, ua⟩ ⟨db, ub⟩ ⟨dy, uy⟩ := rfl

end Plain

/-- The log-softmax's stretch, over the bare references. -/
def hostOps3c : List (HloOp τ sig (Elt F)) :=
  [ StableHlo.nullary main_call1_cst (constant S_ .f32 0xFF800000#32),
    StableHlo.binary main_v39 main_call1_cst main_call1_v0 ((fun x v => Host.reduce FloatOps.maximumf x v reducesTo_S1x50257_S1_d1 h_S_) : (⟨S1x50257, .f32⟩ : BufTy).Contents (Elt F) → (⟨S_, .f32⟩ : BufTy).Contents (Elt F) → (⟨S1, .f32⟩ : BufTy).Contents (Elt F)),
    StableHlo.nullary main_call1_cst_0 (constant S_ .f32 0xFF800000#32),
    StableHlo.unary main_call1_cst_0 main_call1_v1 (broadcastInDim S1 ![] bcast_S_S1 : (⟨S_, .f32⟩ : BufTy).Contents (Elt F) → (⟨S1, .f32⟩ : BufTy).Contents (Elt F)),
    StableHlo.binary main_call1_v1 main_call1_v0 main_call1_v2 (maximumf : (⟨S1, .f32⟩ : BufTy).Contents (Elt F) → (⟨S1, .f32⟩ : BufTy).Contents (Elt F) → (⟨S1, .f32⟩ : BufTy).Contents (Elt F)),
    StableHlo.unary main_call1_v2 main_call1_v3 (broadcastInDim S1x1 ![0] bcast_S1_S1x1_0 : (⟨S1, .f32⟩ : BufTy).Contents (Elt F) → (⟨S1x1, .f32⟩ : BufTy).Contents (Elt F)),
    StableHlo.unary main_call1_v3 main_call1_v4 (broadcastInDim S1x50257 ![0, 1] bcast_S1x1_S1x50257_0_1 : (⟨S1x1, .f32⟩ : BufTy).Contents (Elt F) → (⟨S1x50257, .f32⟩ : BufTy).Contents (Elt F)),
    StableHlo.binary main_v39 main_call1_v4 main_call1_v5 (subf : (⟨S1x50257, .f32⟩ : BufTy).Contents (Elt F) → (⟨S1x50257, .f32⟩ : BufTy).Contents (Elt F) → (⟨S1x50257, .f32⟩ : BufTy).Contents (Elt F)),
    StableHlo.unary main_call1_v5 main_call1_v6 (Host.exp : (⟨S1x50257, .f32⟩ : BufTy).Contents (Elt F) → (⟨S1x50257, .f32⟩ : BufTy).Contents (Elt F)),
    StableHlo.nullary main_call1_cst_1 (constant S_ .f32 0x00000000#32),
    StableHlo.binary main_call1_v6 main_call1_cst_1 main_call1_v7 ((fun x v => Host.reduceAdd x v reducesTo_S1x50257_S1_d1 h_S_) : (⟨S1x50257, .f32⟩ : BufTy).Contents (Elt F) → (⟨S_, .f32⟩ : BufTy).Contents (Elt F) → (⟨S1, .f32⟩ : BufTy).Contents (Elt F)),
    StableHlo.unary main_call1_v7 main_call1_v8 (broadcastInDim S1x1 ![0] bcast_S1_S1x1_0 : (⟨S1, .f32⟩ : BufTy).Contents (Elt F) → (⟨S1x1, .f32⟩ : BufTy).Contents (Elt F)),
    StableHlo.unary main_call1_v8 main_call1_v9 (Host.log : (⟨S1x1, .f32⟩ : BufTy).Contents (Elt F) → (⟨S1x1, .f32⟩ : BufTy).Contents (Elt F)),
    StableHlo.unary main_call1_v9 main_call1_v10 (broadcastInDim S1x50257 ![0, 1] bcast_S1x1_S1x50257_0_1 : (⟨S1x1, .f32⟩ : BufTy).Contents (Elt F) → (⟨S1x50257, .f32⟩ : BufTy).Contents (Elt F)),
    StableHlo.binary main_call1_v5 main_call1_v10 main_v40 (subf : (⟨S1x50257, .f32⟩ : BufTy).Contents (Elt F) → (⟨S1x50257, .f32⟩ : BufTy).Contents (Elt F) → (⟨S1x50257, .f32⟩ : BufTy).Contents (Elt F)) ]

/-- The stretch as printed is the stretch over the bare references, operation by operation. -/
theorem hostOps3_eq : (hostOps3 : List (HloOp τ sig (Elt F))) = hostOps3c := by
  unfold hostOps3c
  exact congrArg₂ List.cons (tref_nullary_eq _ _ _) <|
    congrArg₂ List.cons (tref_binary_eq _ _ _ _ _ _ _) <|
    congrArg₂ List.cons (tref_nullary_eq _ _ _) <|
    congrArg₂ List.cons (tref_unary_eq _ _ _ _ _) <|
    congrArg₂ List.cons (tref_binary_eq _ _ _ _ _ _ _) <|
    congrArg₂ List.cons (tref_unary_eq _ _ _ _ _) <|
    congrArg₂ List.cons (tref_unary_eq _ _ _ _ _) <|
    congrArg₂ List.cons (tref_binary_eq _ _ _ _ _ _ _) <|
    congrArg₂ List.cons (tref_unary_eq _ _ _ _ _) <|
    congrArg₂ List.cons (tref_nullary_eq _ _ _) <|
    congrArg₂ List.cons (tref_binary_eq _ _ _ _ _ _ _) <|
    congrArg₂ List.cons (tref_unary_eq _ _ _ _ _) <|
    congrArg₂ List.cons (tref_unary_eq _ _ _ _ _) <|
    congrArg₂ List.cons (tref_unary_eq _ _ _ _ _) <|
    congrArg₂ List.cons (tref_binary_eq _ _ _ _ _ _ _) rfl

/-- After the last host stretches the first result's buffer holds the log-softmax of the logits' buffer as the third
    call left it. -/
theorem V9_res0 : (V9 m outs c main_v40 : VLogits F) = logSoftmax (V7 m outs c main_v39) := by
  rw [V9_of m outs c main_v40 (by decide)]
  dsimp only [V8]
  rw [hostOps3_eq]
  unfold hostOps3c
  after_results
  rfl

/-- The new hidden state's buffer is not written by the third call nor by the log-softmax's stretch. -/
theorem V8_h1 : (V8 m outs c main_v38 : VRow F) = V6 m outs c main_v38 :=
  (V8_of m outs c main_v38 (by decide)).trans (V7_of m outs c main_v38 (by decide))
/-- Nor is the new cell state's. -/
theorem V8_c1 : (V8 m outs c main_v30 : VRow F) = V6 m outs c main_v30 :=
  (V8_of m outs c main_v30 (by decide)).trans (V7_of m outs c main_v30 (by decide))

/-- The second result's buffer: the rank-3 view of the new hidden state. -/
theorem V9_res1 : (V9 m outs c main_v41 : VRow3 F) = up3 (V6 m outs c main_v38) := by
  rw [← V8_h1]
  dsimp only [V9, hostOps3_1]
  after_results
  rfl

/-- The third result's buffer: the rank-3 view of the new cell state. -/
theorem V9_res2 : (V9 m outs c main_v42 : VRow3 F) = up3 (V6 m outs c main_v30) := by
  rw [← V8_c1]
  dsimp only [V9, hostOps3_1]
  after_results
  rfl

/-- The attention weights' buffer reaches the end as the first call left it: nothing after that call writes it. -/
theorem V9_res3 : V9 m outs c main_v9_1 = V4 m outs c main_v9_1 :=
  (V9_of m outs c main_v9_1 (by decide)).trans <| (V8_of m outs c main_v9_1 (by decide)).trans <|
    (V7_of m outs c main_v9_1 (by decide)).trans <| (V6_of m outs c main_v9_1 (by decide)).trans
      (V5_of m outs c main_v9_1 (by decide))

/-- The cell state's [1,1024] buffer is the reshape of the cell-state argument, untouched from the leading host
    stretch on. -/
theorem V5_c0 : (V5 m outs c main_v2 : VRow F)
    = shapeCast S1x1024 (m ((c : Thread nD τ).loc main_arg2) : VRow3 F) shapeCasts_S1x1x1024_S1x1024 := by
  rw [V5_of m outs c main_v2 (by decide), V4_of m outs c main_v2 (by decide)]
  dsimp only [V3, V2, V1, V0, hostOps0, hostOps0_1, hostOps0_2]
  after_results
  rfl

end Generic

end Cert.Bridge

end
-- ==== Proof.Bridge.Host.lean ====
/- The host arithmetic the two programs share, stage by stage. The reference applies to its gates, its cell state and
   its logits the same chains the kernel program's host stretches apply: the cell's nonlinearity
   (c' = σ(f)·c + σ(i)·tanh(g), h' = σ(o)·tanh(c'), σ(x) = 1 / (1 + exp (−x))), the log-softmax along the row, and the
   rank-3 view [1,1,1024] of a row. So once the values going into a chain agree — the gates after the second call, the
   logits after the third, the attention weights after the first — the values coming out agree: the new hidden and
   cell states, and the four results. -/
import proofs.«413536_j14714557956454_3_alg».proof.Proof.Bridge.HostK
import proofs.«413536_j14714557956454_3_alg».proof.Proof.Bridge.Args
import proofs.«413536_j14714557956454_3_alg».proof.Proof.RefRead

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem

/-! ## The reference's stages are the same functions -/

section Reference

variable {F : FTy → Type} [FloatOps F]

/-- The reference's cell state as [1,1024] is the reshape of the cell-state argument. -/
theorem ref_c0 (x2 : (⟨S1x1x1024, .f32⟩ : BufTy).Contents (Elt F)) :
    Cert.ReferenceIdeal.Read.val_main_v8 (F := F) x2 = shapeCast S1x1024 (x2 : VRow3 F) shapeCasts_S1x1x1024_S1x1024 := rfl

/-- The reference's new cell state is the cell function of its gates and its cell state. -/
theorem ref_c1 (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F)) :
    Cert.ReferenceIdeal.Read.val_main_v60 (F := F) x0 x1 x2 x3 x4 x5 x6 x7 x8 x9 x10 x11 x12
      = cellC1 (Cert.ReferenceIdeal.Read.val_main_v40 (F := F) x0 x1 x3 x4 x5 x6 x7 x8 x9 x10 x11 x12) (Cert.ReferenceIdeal.Read.val_main_v8 (F := F) x2) := by
  simp only [Cert.ReferenceIdeal.Read.val_main_v60, Cert.ReferenceIdeal.Read.val_main_v59, Cert.ReferenceIdeal.Read.val_main_v58, Cert.ReferenceIdeal.Read.val_main_v57, Cert.ReferenceIdeal.Read.val_main_v56, Cert.ReferenceIdeal.Read.val_main_cst_6, Cert.ReferenceIdeal.Read.val_main_v55, Cert.ReferenceIdeal.Read.val_main_v54, Cert.ReferenceIdeal.Read.val_main_cst_5, Cert.ReferenceIdeal.Read.val_main_v53, Cert.ReferenceIdeal.Read.val_main_v52, Cert.ReferenceIdeal.Read.val_main_v51, Cert.ReferenceIdeal.Read.val_main_v50, Cert.ReferenceIdeal.Read.val_main_v49, Cert.ReferenceIdeal.Read.val_main_cst_4, Cert.ReferenceIdeal.Read.val_main_v48, Cert.ReferenceIdeal.Read.val_main_v47, Cert.ReferenceIdeal.Read.val_main_cst_3, Cert.ReferenceIdeal.Read.val_main_v46, Cert.ReferenceIdeal.Read.val_main_v45, Cert.ReferenceIdeal.Read.val_main_v43, Cert.ReferenceIdeal.Read.val_main_v42, Cert.ReferenceIdeal.Read.val_main_v41]
  generalize Cert.ReferenceIdeal.Read.val_main_v40 (F := F) x0 x1 x3 x4 x5 x6 x7 x8 x9 x10 x11 x12 = g
  generalize Cert.ReferenceIdeal.Read.val_main_v8 (F := F) x2 = c0
  rfl

/-- The reference's new hidden state is the hidden-state function of the same two. -/
theorem ref_h1 (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F)) :
    Cert.ReferenceIdeal.Read.val_main_v68 (F := F) x0 x1 x2 x3 x4 x5 x6 x7 x8 x9 x10 x11 x12
      = cellH1 (Cert.ReferenceIdeal.Read.val_main_v40 (F := F) x0 x1 x3 x4 x5 x6 x7 x8 x9 x10 x11 x12) (Cert.ReferenceIdeal.Read.val_main_v8 (F := F) x2) := by
  simp only [Cert.ReferenceIdeal.Read.val_main_v68, Cert.ReferenceIdeal.Read.val_main_v67, Cert.ReferenceIdeal.Read.val_main_v66, Cert.ReferenceIdeal.Read.val_main_v65, Cert.ReferenceIdeal.Read.val_main_cst_8, Cert.ReferenceIdeal.Read.val_main_v64, Cert.ReferenceIdeal.Read.val_main_v63, Cert.ReferenceIdeal.Read.val_main_cst_7, Cert.ReferenceIdeal.Read.val_main_v62, Cert.ReferenceIdeal.Read.val_main_v61, Cert.ReferenceIdeal.Read.val_main_v44, Cert.ReferenceIdeal.Read.val_main_v60, Cert.ReferenceIdeal.Read.val_main_v59, Cert.ReferenceIdeal.Read.val_main_v58, Cert.ReferenceIdeal.Read.val_main_v57, Cert.ReferenceIdeal.Read.val_main_v56, Cert.ReferenceIdeal.Read.val_main_cst_6, Cert.ReferenceIdeal.Read.val_main_v55, Cert.ReferenceIdeal.Read.val_main_v54, Cert.ReferenceIdeal.Read.val_main_cst_5, Cert.ReferenceIdeal.Read.val_main_v53, Cert.ReferenceIdeal.Read.val_main_v52, Cert.ReferenceIdeal.Read.val_main_v51, Cert.ReferenceIdeal.Read.val_main_v50, Cert.ReferenceIdeal.Read.val_main_v49, Cert.ReferenceIdeal.Read.val_main_cst_4, Cert.ReferenceIdeal.Read.val_main_v48, Cert.ReferenceIdeal.Read.val_main_v47, Cert.ReferenceIdeal.Read.val_main_cst_3, Cert.ReferenceIdeal.Read.val_main_v46, Cert.ReferenceIdeal.Read.val_main_v45, Cert.ReferenceIdeal.Read.val_main_v43, Cert.ReferenceIdeal.Read.val_main_v42, Cert.ReferenceIdeal.Read.val_main_v41]
  generalize Cert.ReferenceIdeal.Read.val_main_v40 (F := F) x0 x1 x3 x4 x5 x6 x7 x8 x9 x10 x11 x12 = g
  generalize Cert.ReferenceIdeal.Read.val_main_v8 (F := F) x2 = c0
  rfl

attribute [local irreducible] Host.reduce Host.reduceAdd in
/-- The reference's first result is the log-softmax of its logits. -/
theorem ref_ls (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F)) (x13 : (⟨S50257x1024, .f32⟩ : BufTy).Contents (Elt F)) (x14 : (⟨S50257, .f32⟩ : BufTy).Contents (Elt F)) :
    Cert.ReferenceIdeal.Read.val_main_v73 (F := F) x0 x1 x2 x3 x4 x5 x6 x7 x8 x9 x10 x11 x12 x13 x14 = logSoftmax (Cert.ReferenceIdeal.Read.val_main_v72 (F := F) x0 x1 x2 x3 x4 x5 x6 x7 x8 x9 x10 x11 x12 x13 x14) := by
  simp only [Cert.ReferenceIdeal.Read.val_main_v73, Cert.ReferenceIdeal.Read.val_main_call1_v10, Cert.ReferenceIdeal.Read.val_main_call1_v9, Cert.ReferenceIdeal.Read.val_main_call1_v8, Cert.ReferenceIdeal.Read.val_main_call1_v7, Cert.ReferenceIdeal.Read.val_main_call1_cst_1, Cert.ReferenceIdeal.Read.val_main_call1_v6, Cert.ReferenceIdeal.Read.val_main_call1_v5, Cert.ReferenceIdeal.Read.val_main_call1_v4, Cert.ReferenceIdeal.Read.val_main_call1_v3, Cert.ReferenceIdeal.Read.val_main_call1_v2, Cert.ReferenceIdeal.Read.val_main_call1_v1, Cert.ReferenceIdeal.Read.val_main_call1_cst_0, Cert.ReferenceIdeal.Read.val_main_call1_v0, Cert.ReferenceIdeal.Read.val_main_call1_cst]
  generalize Cert.ReferenceIdeal.Read.val_main_v72 (F := F) x0 x1 x2 x3 x4 x5 x6 x7 x8 x9 x10 x11 x12 x13 x14 = x
  rfl

/-- The reference's second result is the rank-3 view of its new hidden state. -/
theorem ref_up_h (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F)) :
    Cert.ReferenceIdeal.Read.val_main_v74 (F := F) x0 x1 x2 x3 x4 x5 x6 x7 x8 x9 x10 x11 x12 = up3 (Cert.ReferenceIdeal.Read.val_main_v68 (F := F) x0 x1 x2 x3 x4 x5 x6 x7 x8 x9 x10 x11 x12) := by
  simp only [Cert.ReferenceIdeal.Read.val_main_v74]
  generalize Cert.ReferenceIdeal.Read.val_main_v68 (F := F) x0 x1 x2 x3 x4 x5 x6 x7 x8 x9 x10 x11 x12 = h
  rfl

/-- The reference's third result is the rank-3 view of its new cell state. -/
theorem ref_up_c (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F)) :
    Cert.ReferenceIdeal.Read.val_main_v75 (F := F) x0 x1 x2 x3 x4 x5 x6 x7 x8 x9 x10 x11 x12 = up3 (Cert.ReferenceIdeal.Read.val_main_v60 (F := F) x0 x1 x2 x3 x4 x5 x6 x7 x8 x9 x10 x11 x12) := by
  simp only [Cert.ReferenceIdeal.Read.val_main_v75]
  generalize Cert.ReferenceIdeal.Read.val_main_v60 (F := F) x0 x1 x2 x3 x4 x5 x6 x7 x8 x9 x10 x11 x12 = c1
  rfl

end Reference

/-! ## What the calls leave, read at the generated valuations -/

variable (m : (ℓ : Loc nD τ sig) → Buf (Elt Ideal) ℓ) (c : Dev nD)

theorem outsB_5 (r : Ref sig .tc) : outsB m 5 r c = U5 m c r := rfl

/-- The gates' buffer as the cell's host stretch finds it is what the second call left. -/
theorem V5_gates : (V5 m (outsB m) c main_v10 : VGates Ideal) = U5 m c main_v10 := by
  dsimp only [V5]
  rw [Function.update_self]
  exact outsB_5 m c main_v10

/-- The logits' buffer as the log-softmax's stretch finds it is what the third call left. -/
theorem V7_logits : (V7 m (outsN m) c main_v39 : VLogits Ideal) = U7 m c main_v39 := by
  dsimp only [V7]
  rw [Function.update_self]
  exact outsN_7 m main_v39 c

/-- The attention weights' buffer after the first call is what that call left. -/
theorem V4_attn : V4 m (outsN m) c main_v9_1 = U4 m c main_v9_1 := by
  dsimp only [V4]
  rw [Function.update_self]
  rfl

/-! ## The stages -/

/-- The new cell state: given the gates, the two programs' cell states after the cell's nonlinearity agree. -/
theorem c1_eq (hg : U5 m c main_v10 = Cert.ReferenceIdeal.Read.val_main_v40 (a0 m c) (a1 m c) (a3 m c) (a4 m c) (a5 m c) (a6 m c) (a7 m c) (a8 m c) (a9 m c) (a10 m c) (a11 m c) (a12 m c)) :
    V6 m (outsB m) c main_v30 = Cert.ReferenceIdeal.Read.val_main_v60 (a0 m c) (a1 m c) (a2 m c) (a3 m c) (a4 m c) (a5 m c) (a6 m c) (a7 m c) (a8 m c) (a9 m c) (a10 m c) (a11 m c) (a12 m c) := by
  refine (V6_c1 m (outsB m) c).trans ?_
  rw [V5_gates, hg, V5_c0, ref_c1, ref_c0]

/-- The new hidden state: given the gates, the two programs' hidden states agree. -/
theorem h1_eq (hg : U5 m c main_v10 = Cert.ReferenceIdeal.Read.val_main_v40 (a0 m c) (a1 m c) (a3 m c) (a4 m c) (a5 m c) (a6 m c) (a7 m c) (a8 m c) (a9 m c) (a10 m c) (a11 m c) (a12 m c)) :
    V6 m (outsB m) c main_v38 = Cert.ReferenceIdeal.Read.val_main_v68 (a0 m c) (a1 m c) (a2 m c) (a3 m c) (a4 m c) (a5 m c) (a6 m c) (a7 m c) (a8 m c) (a9 m c) (a10 m c) (a11 m c) (a12 m c) := by
  refine (V6_h1 m (outsB m) c).trans ?_
  rw [V5_gates, hg, V5_c0, ref_h1, ref_c0]

/-- The first result: given the logits, the two programs' log-softmax rows agree. -/
theorem res0_eq (hl : U7 m c main_v39 = Cert.ReferenceIdeal.Read.val_main_v72 (a0 m c) (a1 m c) (a2 m c) (a3 m c) (a4 m c) (a5 m c) (a6 m c) (a7 m c) (a8 m c) (a9 m c) (a10 m c) (a11 m c) (a12 m c) (a13 m c) (a14 m c)) :
    V9 m (outsN m) c main_v40 = Cert.ReferenceIdeal.Read.val_main_v73 (a0 m c) (a1 m c) (a2 m c) (a3 m c) (a4 m c) (a5 m c) (a6 m c) (a7 m c) (a8 m c) (a9 m c) (a10 m c) (a11 m c) (a12 m c) (a13 m c) (a14 m c) := by
  refine (V9_res0 m (outsN m) c).trans ?_
  rw [V7_logits, hl, ref_ls]

/-- The second result: the rank-3 view of the new hidden state. -/
theorem res1_eq (hh : V6 m (outsB m) c main_v38 = Cert.ReferenceIdeal.Read.val_main_v68 (a0 m c) (a1 m c) (a2 m c) (a3 m c) (a4 m c) (a5 m c) (a6 m c) (a7 m c) (a8 m c) (a9 m c) (a10 m c) (a11 m c) (a12 m c)) :
    V9 m (outsN m) c main_v41 = Cert.ReferenceIdeal.Read.val_main_v74 (a0 m c) (a1 m c) (a2 m c) (a3 m c) (a4 m c) (a5 m c) (a6 m c) (a7 m c) (a8 m c) (a9 m c) (a10 m c) (a11 m c) (a12 m c) := by
  refine (V9_res1 m (outsN m) c).trans ?_
  rw [V6_outs, hh, ref_up_h]

/-- The third result: the rank-3 view of the new cell state. -/
theorem res2_eq (hc : V6 m (outsB m) c main_v30 = Cert.ReferenceIdeal.Read.val_main_v60 (a0 m c) (a1 m c) (a2 m c) (a3 m c) (a4 m c) (a5 m c) (a6 m c) (a7 m c) (a8 m c) (a9 m c) (a10 m c) (a11 m c) (a12 m c)) :
    V9 m (outsN m) c main_v42 = Cert.ReferenceIdeal.Read.val_main_v75 (a0 m c) (a1 m c) (a2 m c) (a3 m c) (a4 m c) (a5 m c) (a6 m c) (a7 m c) (a8 m c) (a9 m c) (a10 m c) (a11 m c) (a12 m c) := by
  refine (V9_res2 m (outsN m) c).trans ?_
  rw [V6_outs, hc, ref_up_c]

/-- The fourth result: the attention weights, untouched after the first call. -/
theorem res3_eq (ha : U4 m c main_v9_1 = Cert.ReferenceIdeal.Read.val_main_v24 (a0 m c) (a1 m c) (a4 m c) (a5 m c) (a6 m c)) :
    V9 m (outsN m) c main_v9_1 = Cert.ReferenceIdeal.Read.val_main_v24 (a0 m c) (a1 m c) (a4 m c) (a5 m c) (a6 m c) :=
  (V9_res3 m (outsN m) c).trans ((V4_attn m c).trans ha)

end Cert.Bridge

end
-- ==== Proof.Bridge.LogitsK.lean ====
/- The logits of the decode step as the third pallas_call leaves them. The call writes the row h₁·W_outᵀ + b_out in
   seventeen tiles of 3072 columns; the last tile overhangs the row's 50257 columns and only its first 1105 columns are
   written back. Here: the row as one function of the hidden state, the output weights and the bias row, entry by
   entry; a tile's column as the plain sum over the contracted axis plus the bias entry; each tile's written part as the
   matching columns of that one function; and, the seventeen written parts covering columns 0 … 50256, the array after
   the call; then the call in the program's run: it is entered with the output weights as launched and the bias as a
   one-row array, so its output is the row of logits of the hidden state it finds, those weights and that bias. -/
import proofs.«413536_j14714557956454_3_alg».proof.Proof.Hand.KernelIdeal.Region2Ideal
import proofs.«413536_j14714557956454_3_alg».proof.Proof.Hand.KernelIdeal.Chain
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem
open Idealize.ShloMosaic.Pipeline (Dat Cfg Window)

/-! ## The row of logits, entry by entry -/

/-- Entry k of the one-row hidden state, for column j of the logits. -/
abbrev hidAt (j : S1x50257.Idx) (k : Fin 1024) : S1x1024.Idx := fun a => match a with
  | ⟨0, _⟩ => ⟨(j 0).val, (j 0).isLt⟩
  | ⟨1, _⟩ => ⟨k.val, k.isLt⟩

/-- Entry (j, k) of the output weights: the row is the logit's column. -/
abbrev outWAt (j : S1x50257.Idx) (k : Fin 1024) : S50257x1024.Idx := fun a => match a with
  | ⟨0, _⟩ => ⟨(j 1).val, (j 1).isLt⟩
  | ⟨1, _⟩ => ⟨k.val, k.isLt⟩

/-- The logits: column j is ∑ₖ h[0,k]·W[j,k] + b[0,j]. -/
def logitsOf (h : (⟨S1x1024, .f32⟩ : BufTy).Contents (Elt Ideal)) (W : (⟨S50257x1024, .f32⟩ : BufTy).Contents (Elt Ideal))
    (b : (⟨S1x50257, .f32⟩ : BufTy).Contents (Elt Ideal)) : (⟨S1x50257, .f32⟩ : BufTy).Contents (Elt Ideal) :=
  fun j => (∑ k : Fin 1024, h (hidAt j k) * W (outWAt j k)) + b j

/-! ## A tile's column: the contraction read at an entry -/

/-- The left operand of the tile's contraction is read at the output's row, -/
theorem lhs_tile_0 (i : S1x3072.Idx) (q : dot_S1x1024_S3072x1024_S1x3072_1_1_0_0_n_n.contr.Idx) :
    (dot_S1x1024_S3072x1024_S1x3072_1_1_0_0_n_n.lhsIdx i q 0).val = (i 0).val := by
  unfold DotDims.lhsIdx
  rw [dif_neg (show ¬(0 : Fin S1x1024.rank) ∈ dot_S1x1024_S3072x1024_S1x3072_1_1_0_0_n_n.lhsBatch by decide), dif_pos (show (0 : Fin S1x1024.rank) ∈ dot_S1x1024_S3072x1024_S1x3072_1_1_0_0_n_n.lhsNonContracting by decide)]
  rfl
/-- and at the contracted coordinate; -/
theorem lhs_tile_1 (i : S1x3072.Idx) (q : dot_S1x1024_S3072x1024_S1x3072_1_1_0_0_n_n.contr.Idx) :
    (dot_S1x1024_S3072x1024_S1x3072_1_1_0_0_n_n.lhsIdx i q 1).val = (q ⟨0, by decide⟩).val :=
  dot_S1x1024_S3072x1024_S1x3072_1_1_0_0_n_n.lhsIdx_val_of_single rfl i q
/-- the right operand, contracted on its second axis, at the row that is the output's column, -/
theorem rhs_tile_0 (i : S1x3072.Idx) (q : dot_S1x1024_S3072x1024_S1x3072_1_1_0_0_n_n.contr.Idx) :
    (dot_S1x1024_S3072x1024_S1x3072_1_1_0_0_n_n.rhsIdx i q 0).val = (i 1).val := by
  unfold DotDims.rhsIdx
  rw [dif_neg (show ¬(0 : Fin S3072x1024.rank) ∈ dot_S1x1024_S3072x1024_S1x3072_1_1_0_0_n_n.rhsBatch by decide), dif_pos (show (0 : Fin S3072x1024.rank) ∈ dot_S1x1024_S3072x1024_S1x3072_1_1_0_0_n_n.rhsNonContracting by decide)]
  rfl
/-- and at the contracted coordinate. -/
theorem rhs_tile_1 (i : S1x3072.Idx) (q : dot_S1x1024_S3072x1024_S1x3072_1_1_0_0_n_n.contr.Idx) :
    (dot_S1x1024_S3072x1024_S1x3072_1_1_0_0_n_n.rhsIdx i q 1).val = (q ⟨0, by decide⟩).val :=
  dot_S1x1024_S3072x1024_S1x3072_1_1_0_0_n_n.rhsIdx_val_of_single rfl i q

/-- Entry k of the tile's hidden-state operand, for the tile's column j. -/
abbrev tileHAt (j : S1x3072.Idx) (k : Fin 1024) : S1x1024.Idx := fun a => match a with
  | ⟨0, _⟩ => ⟨(j 0).val, (j 0).isLt⟩
  | ⟨1, _⟩ => ⟨k.val, k.isLt⟩
/-- Entry (j, k) of the tile's weight block. -/
abbrev tileWAt (j : S1x3072.Idx) (k : Fin 1024) : S3072x1024.Idx := fun a => match a with
  | ⟨0, _⟩ => ⟨(j 1).val, (j 1).isLt⟩
  | ⟨1, _⟩ => ⟨k.val, k.isLt⟩

/-- The body's tile at a column: the change of float format is the identity and the accumulator is zero, so the column
    is the plain sum over the contracted axis, plus the bias block's entry. -/
theorem k2_pay1_apply (x0 : Vec Ideal S1x1024 .f32) (x1 : Vec Ideal S3072x1024 .f32) (x2 : Vec Ideal S1x3072 .f32) (j : S1x3072.Idx) :
    k2_pay1 x0 x1 x2 j = (∑ k : Fin 1024, x0 (tileHAt j k) * x1 (tileWAt j k)) + x2 j := by
  unfold k2_pay1
  rw [shapeCast_self, shapeCast_self]
  simp only [addf, matmul]
  rw [Ideal.matmul_constant_zero_apply, ← Equiv.sum_comp (ValueIdx.contrEquiv1 dot_S1x1024_S3072x1024_S1x3072_1_1_0_0_n_n 1024 rfl rfl).symm]
  congr 1
  refine Finset.sum_congr rfl fun k _ => ?_
  have hk := ValueIdx.contrEquiv1_symm_val dot_S1x1024_S3072x1024_S1x3072_1_1_0_0_n_n 1024 rfl rfl k
  have el : dot_S1x1024_S3072x1024_S1x3072_1_1_0_0_n_n.lhsIdx j ((ValueIdx.contrEquiv1 dot_S1x1024_S3072x1024_S1x3072_1_1_0_0_n_n 1024 rfl rfl).symm k) = tileHAt j k := funext fun a => Fin.ext (by
    match a with
    | ⟨0, _⟩ => exact lhs_tile_0 _ _
    | ⟨1, _⟩ => exact (lhs_tile_1 _ _).trans hk)
  have er : dot_S1x1024_S3072x1024_S1x3072_1_1_0_0_n_n.rhsIdx j ((ValueIdx.contrEquiv1 dot_S1x1024_S3072x1024_S1x3072_1_1_0_0_n_n 1024 rfl rfl).symm k) = tileWAt j k := funext fun a => Fin.ext (by
    match a with
    | ⟨0, _⟩ => exact rhs_tile_0 _ _
    | ⟨1, _⟩ => exact (rhs_tile_1 _ _).trans hk)
  show x0 _ * x1 _ = x0 _ * x1 _
  rw [el, er]

/-! ## The windows' blocks, read at an entry -/

/-- The index maps and the cuts, decided over the seventeen points: the hidden state's block never moves; the weight
    block's rows, the bias block's columns and the tile's columns start at 3072 times the point; the tile is cut on its
    columns only, to 1105 columns at the last point. -/
theorem pointFacts : ∀ t : Fin grid2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_3.xsize (grid2.coords t) (0 : Fin 2) = 1
    ∧ (t.val < 16 → win2_3.xsize (grid2.coords t) (1 : Fin 2) = 3072)
    ∧ (t.val = 16 → win2_3.xsize (grid2.coords t) (1 : Fin 2) = 1105) := by
  decide +kernel

section Blocks

variable (V : (c : Dev nD) → (b : Ref sig .tc) → Buf (Elt Ideal) ((c : Thread nD τ).loc b))

/-- The hidden state's block at any point is the hidden state. -/
theorem hidBlk_at (c : Dev nD) (t : Fin cfg2.N) (x k : S1x1024.Idx) (h0 : (k 0).val = (x 0).val) (h1 : (k 1).val = (x 1).val) :
    (iblk2 V c 0 t : Vec Ideal S1x1024 .f32) x = (V c main_v38 : (⟨S1x1024, .f32⟩ : BufTy).Contents (Elt Ideal)) k := by
  obtain ⟨e00, e01, -⟩ := pointFacts t
  unfold iblk2
  rw [View.read_apply]
  show V c main_v38 _ = V c main_v38 _
  congr 1
  funext a
  apply Fin.ext
  match a with
  | ⟨0, _⟩ => show win2_0.index t (0 : Fin 2) * 1 + 1 * (x 0).val = (k 0).val; rw [e00, h0]; omega
  | ⟨1, _⟩ => show win2_0.index t (1 : Fin 2) * 1024 + 1 * (x 1).val = (k 1).val; rw [e01, h1]; omega

/-- Row r of the weight block at point t, for r inside the part the fetch moves, is row 3072·t + r of the output weights,
    whatever fills the block out past the array's end. -/
theorem wBlk_at (c : Dev nD) (t : Fin cfg2.N) (d : (cfg2.win 1).block.Idx → Elt Ideal (cfg2.win 1).elt) (x : S3072x1024.Idx)
    (hx : (x 0).val < win2_3.xsize (grid2.coords t) (1 : Fin 2))
    (i : S50257x1024.Idx) (h0 : (i 0).val = t.val * 3072 + (x 0).val) (h1 : (i 1).val = (x 1).val) :
    (cfg2.win 1).fill (cfg2.grid.coords t) d (iblk2 V c 1 t) x = (V c main_arg13 : (⟨S50257x1024, .f32⟩ : BufTy).Contents (Elt Ideal)) i := by
  obtain ⟨e10, e11, e20, e21⟩ := xsize2 t
  obtain ⟨-, -, i10, i11, -⟩ := pointFacts t
  have hm : (cfg2.win 1).moved (cfg2.grid.coords t) x = true :=
    ((cfg2.win 1).moved_iff _ x).mpr fun a => by
      match a with
      | ⟨0, _⟩ => show (x 0).val < win2_1.xsize (grid2.coords t) (0 : Fin 2); rw [e10]; exact hx
      | ⟨1, _⟩ => show (x 1).val < win2_1.xsize (grid2.coords t) (1 : Fin 2); rw [e11]; exact (x 1).isLt
  unfold Window.fill
  rw [dif_pos hm]
  unfold iblk2
  rw [View.read_apply]
  show V c main_arg13 _ = V c main_arg13 _
  congr 1
  funext a
  apply Fin.ext
  match a with
  | ⟨0, _⟩ => show win2_1.index t (0 : Fin 2) * 3072 + 1 * (x 0).val = (i 0).val; rw [i10, h0]; omega
  | ⟨1, _⟩ => show win2_1.index t (1 : Fin 2) * 1024 + 1 * (x 1).val = (i 1).val; rw [i11, h1]; omega

/-- Entry q of the bias block at point t, for q inside the part the fetch moves, is entry 3072·t + q of the bias row. -/
theorem bBlk_at (c : Dev nD) (t : Fin cfg2.N) (d : (cfg2.win 2).block.Idx → Elt Ideal (cfg2.win 2).elt) (x : S1x3072.Idx)
    (hx : (x 1).val < win2_3.xsize (grid2.coords t) (1 : Fin 2))
    (i : S1x50257.Idx) (h0 : (i 0).val = (x 0).val) (h1 : (i 1).val = t.val * 3072 + (x 1).val) :
    (cfg2.win 2).fill (cfg2.grid.coords t) d (iblk2 V c 2 t) x = (V c main_v8 : (⟨S1x50257, .f32⟩ : BufTy).Contents (Elt Ideal)) i := by
  obtain ⟨e10, e11, e20, e21⟩ := xsize2 t
  obtain ⟨-, -, -, -, i20, i21, -⟩ := pointFacts t
  have hx0 : (x 0).val < 1 := (x 0).isLt
  have hm : (cfg2.win 2).moved (cfg2.grid.coords t) x = true :=
    ((cfg2.win 2).moved_iff _ x).mpr fun a => by
      match a with
      | ⟨0, _⟩ => show (x 0).val < win2_2.xsize (grid2.coords t) (0 : Fin 2); rw [e20]; exact hx0
      | ⟨1, _⟩ => show (x 1).val < win2_2.xsize (grid2.coords t) (1 : Fin 2); rw [e21]; exact hx
  unfold Window.fill
  rw [dif_pos hm]
  unfold iblk2
  rw [View.read_apply]
  show V c main_v8 _ = V c main_v8 _
  congr 1
  funext a
  apply Fin.ext
  match a with
  | ⟨0, _⟩ => show win2_2.index t (0 : Fin 2) * 1 + 1 * (x 0).val = (i 0).val; rw [i20, h0]; omega
  | ⟨1, _⟩ => show win2_2.index t (1 : Fin 2) * 3072 + 1 * (x 1).val = (i 1).val; rw [i21, h1]; omega

/-! ## A tile's written part, and the array after the call -/

/-- A tile's column is a column of the row of logits once its three operands are the matching entries of the arrays. -/
theorem tile_col (x0 : Vec Ideal S1x1024 .f32) (x1 : Vec Ideal S3072x1024 .f32) (x2 : Vec Ideal S1x3072 .f32)
    (h : (⟨S1x1024, .f32⟩ : BufTy).Contents (Elt Ideal)) (W : (⟨S50257x1024, .f32⟩ : BufTy).Contents (Elt Ideal))
    (b : (⟨S1x50257, .f32⟩ : BufTy).Contents (Elt Ideal)) (j : S1x3072.Idx) (i : S1x50257.Idx)
    (h0 : ∀ k : Fin 1024, x0 (tileHAt j k) = h (hidAt i k)) (h1 : ∀ k : Fin 1024, x1 (tileWAt j k) = W (outWAt i k)) (h2 : x2 j = b i) :
    k2_pay1 x0 x1 x2 j = logitsOf h W b i := by
  rw [k2_pay1_apply]
  unfold logitsOf
  rw [h2]
  congr 1
  exact Finset.sum_congr rfl fun k _ => by rw [h0 k, h1 k]

/-- What point t writes back — the columns of its tile that lie inside the row — is the row of logits read through the
    same columns. -/
theorem tile_written (c : Dev nD) (t : Fin cfg2.N) :
    (dat2 V c).flushed 3 t = ((cfg2.win 3).blk t).view.read (Elt Ideal) (logitsOf (V c main_v38) (V c main_arg13) (V c main_v8)) := by
  show (cfg2.win 3).cut (cfg2.grid.coords t) ((dat2 V c).after 3 t) = _
  rw [after2_3, out2_3_eq]
  obtain ⟨-, -, -, -, -, -, i30, i31, s30, -⟩ := pointFacts t
  funext y
  have hy1 : (y 1).val < win2_3.xsize (grid2.coords t) (1 : Fin 2) := (y 1).isLt
  have ei0 : ((((cfg2.win 3).blk t).view.emb y : S1x50257.Idx) 0).val = (y 0).val := by
    show win2_3.index t (0 : Fin 2) * 1 + 1 * (y 0).val = (y 0).val; rw [i30]; omega
  have ei1 : ((((cfg2.win 3).blk t).view.emb y : S1x50257.Idx) 1).val = t.val * 3072 + (y 1).val := by
    show win2_3.index t (1 : Fin 2) * 3072 + 1 * (y 1).val = _; rw [i31]; omega
  rw [View.read_apply]
  show k2_pay1 (F := Ideal) _ _ _ ((cfg2.win 3).xinj (cfg2.grid.coords t) y) = logitsOf _ _ _ (((cfg2.win 3).blk t).view.emb y)
  refine tile_col _ _ _ _ _ _ _ _ (fun k => ?_) (fun k => ?_) ?_
  · exact hidBlk_at V c t _ _ ei0 rfl
  · exact wBlk_at V c t _ _ hy1 _ ei1 rfl
  · exact bBlk_at V c t _ _ hy1 _ ei0 ei1

/-- A column of the row is in point t's written part iff it lies in the tile's columns inside the row. -/
theorem mem_tile (t : Fin cfg2.N) (i : S1x50257.Idx) :
    i ∈ ((cfg2.win 3).blk t).view.set ↔ ∀ a : Fin 2, win2_3.index t a * S1x3072.size a ≤ (i a).val
      ∧ (i a).val < win2_3.index t a * S1x3072.size a + win2_3.xsize (grid2.coords t) a := by
  show i ∈ ((View.whole main_v39).slice (win2_3.rect t)).set ↔ _
  rw [View.set_slice_whole, Rect.mem_set_unit]
  exact Iff.rfl

/-- Column q of the row is written by point q / 3072: sixteen whole tiles reach column 49151 and the last one's 1105
    columns reach 50256. -/
theorem tiles_cover (i : S1x50257.Idx) : ∃ t : Fin cfg2.N, (cfg2.win 3).flush t = true ∧ i ∈ ((cfg2.win 3).blk t).view.set := by
  have hi0 : (i 0).val < 1 := (i 0).isLt
  have hi1 : (i 1).val < 50257 := (i 1).isLt
  have hN : cfg2.N = 17 := N_2
  have hq : (i 1).val / 3072 < cfg2.N := by rw [hN]; omega
  obtain ⟨-, -, -, -, -, -, i30, i31, s30, s31, s31'⟩ := pointFacts ⟨(i 1).val / 3072, hq⟩
  refine ⟨⟨(i 1).val / 3072, hq⟩, flush2_3 _, ?_⟩
  rw [mem_tile]
  intro a
  match a with
  | ⟨0, _⟩ =>
    show win2_3.index ⟨(i 1).val / 3072, hq⟩ (0 : Fin 2) * 1 ≤ (i 0).val
      ∧ (i 0).val < win2_3.index ⟨(i 1).val / 3072, hq⟩ (0 : Fin 2) * 1 + win2_3.xsize (grid2.coords ⟨(i 1).val / 3072, hq⟩) (0 : Fin 2)
    rw [i30, s30]; omega
  | ⟨1, _⟩ =>
    show win2_3.index ⟨(i 1).val / 3072, hq⟩ (1 : Fin 2) * 3072 ≤ (i 1).val
      ∧ (i 1).val < win2_3.index ⟨(i 1).val / 3072, hq⟩ (1 : Fin 2) * 3072 + win2_3.xsize (grid2.coords ⟨(i 1).val / 3072, hq⟩) (1 : Fin 2)
    rw [i31]
    by_cases h16 : (i 1).val / 3072 < 16
    · rw [s31 h16]; show (i 1).val / 3072 * 3072 ≤ (i 1).val ∧ (i 1).val < (i 1).val / 3072 * 3072 + 3072; omega
    · have e16 : (i 1).val / 3072 = 16 := by omega
      rw [s31' e16]; show (i 1).val / 3072 * 3072 ≤ (i 1).val ∧ (i 1).val < (i 1).val / 3072 * 3072 + 1105; omega

/-- After the third call its output array holds the row of logits of the hidden state, the output weights and the bias
    row the call was entered with. -/
theorem logits_arr (c : Dev nD) :
    (dat2 V c).arrAt 3 cfg2.N = logitsOf (V c main_v38) (V c main_arg13) (V c main_v8) :=
  (dat2 V c).arrAt_eq_of_cover 3 _ (fun t _ => tile_written V c t) tiles_cover

end Blocks

/-! ## The call in the program's run -/

section InRun

variable (m : (ℓ : Loc nD τ sig) → Buf (Elt Ideal) ℓ) (c : Dev nD)

/-- The bias as a one-row array: column j of the row is entry j. -/
def biasRow (b : (⟨S50257, .f32⟩ : BufTy).Contents (Elt Ideal)) : (⟨S1x50257, .f32⟩ : BufTy).Contents (Elt Ideal) :=
  fun j => b (fun a => match a with | ⟨0, _⟩ => ⟨(j 1).val, (j 1).isLt⟩)

/-- The third call finds the output weights as launched: nothing before it writes them. -/
theorem entry_outW : (E2 m c main_arg13 : (⟨S50257x1024, .f32⟩ : BufTy).Contents (Elt Ideal)) = m ((c : Thread nD τ).loc main_arg13) :=
  (V6_of m (outsB m) c main_arg13 (by decide)).trans <| (V5_of m (outsB m) c main_arg13 (by decide)).trans <|
    (V4_of m (outsB m) c main_arg13 (by decide)).trans <| (V3_of m c main_arg13 (by decide)).trans <|
    (V2_of m c main_arg13 (by decide)).trans <| (V1_of m c main_arg13 (by decide)).trans rfl

/-- It finds the bias reshaped by the host to one row, and nothing after that reshape writes the row. -/
theorem entry_bias : (E2 m c main_v8 : (⟨S1x50257, .f32⟩ : BufTy).Contents (Elt Ideal)) = biasRow (m ((c : Thread nD τ).loc main_arg14)) := by
  refine (V6_of m (outsB m) c main_v8 (by decide)).trans <| (V5_of m (outsB m) c main_v8 (by decide)).trans <|
    (V4_of m (outsB m) c main_v8 (by decide)).trans ?_
  have e : (V3 m c main_v8 : (⟨S1x50257, .f32⟩ : BufTy).Contents (Elt Ideal))
      = shapeCast S1x50257 (m ((c : Thread nD τ).loc main_arg14) : (⟨S50257, .f32⟩ : BufTy).Contents (Elt Ideal)) shapeCasts_S50257_S1x50257 := by
    dsimp only [V3, V2, V1, V0, hostOps0, hostOps0_1, hostOps0_2]
    after_results
    rfl
  rw [e]
  funext j
  unfold biasRow
  exact shapeCast_apply _ shapeCasts_S50257_S1x50257 j _
    (by rewrite [Shape.rowMajor_val_one, Shape.rowMajor_val_two]; have h0 : (j 0).val < 1 := (j 0).isLt; show (j 1).val = (j 0).val * 50257 + (j 1).val; omega)

/-- After the third call its output array holds the row of logits of the hidden state the call found, the output
    weights as launched and the bias. -/
theorem exit_logits : (U7 m c main_v39 : (⟨S1x50257, .f32⟩ : BufTy).Contents (Elt Ideal))
    = logitsOf (V6 m (outsB m) c main_v38) (m ((c : Thread nD τ).loc main_arg13)) (biasRow (m ((c : Thread nD τ).loc main_arg14))) := by
  have h : U7 m c main_v39 = (dat2 (E2 m) c).arrAt 3 cfg2.N :=
    Pipeline.withArrays_arr spec2 (launch2 (F := Ideal)).win.arr_inj c (V6 m (outsB m) c) (fun w => (dat2 (E2 m) c).arrAt w cfg2.N) 3
  rw [h, logits_arr, entry_outW, entry_bias]

end InRun

end Cert.Bridge

end
-- ==== Proof.Bridge.Logits.lean ====
/- The logits of the decode step, kernel against reference. The reference multiplies the new hidden state by the
   transposed output weights and adds the bias broadcast to one row: entry by entry that is the sum over the contracted
   axis of the hidden state against row j of the weights, plus entry j of the bias — the row of logits the third
   pallas_call leaves. So once the hidden state the call finds is the reference's, its output is the reference's logits. -/
import proofs.«413536_j14714557956454_3_alg».proof.Proof.Bridge.LogitsK
import proofs.«413536_j14714557956454_3_alg».proof.Proof.Bridge.Args
import proofs.«413536_j14714557956454_3_alg».proof.Proof.RefRead

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem

/-- The reference's logits are the row of logits of its hidden state, the output weights and the bias: the product with
    the transposed weights reads the weights at (column, k), and the broadcast bias is the bias row. -/
theorem ref_logits (x0 : (⟨S1, .i32⟩ : BufTy).Contents (Elt Ideal)) (x1 x2 : (⟨S1x1x1024, .f32⟩ : BufTy).Contents (Elt Ideal))
    (x3 : (⟨S512x1024, .f32⟩ : BufTy).Contents (Elt Ideal)) (x4 : (⟨S50257x1024, .f32⟩ : BufTy).Contents (Elt Ideal))
    (x5 : (⟨S512x2048, .f32⟩ : BufTy).Contents (Elt Ideal)) (x6 : (⟨S512, .f32⟩ : BufTy).Contents (Elt Ideal))
    (x7 : (⟨S1024x2048, .f32⟩ : BufTy).Contents (Elt Ideal)) (x8 : (⟨S1024, .f32⟩ : BufTy).Contents (Elt Ideal))
    (x9 x10 : (⟨S4096x1024, .f32⟩ : BufTy).Contents (Elt Ideal)) (x11 x12 : (⟨S4096, .f32⟩ : BufTy).Contents (Elt Ideal))
    (x13 : (⟨S50257x1024, .f32⟩ : BufTy).Contents (Elt Ideal)) (x14 : (⟨S50257, .f32⟩ : BufTy).Contents (Elt Ideal)) :
    Cert.ReferenceIdeal.Read.val_main_v72 (F := Ideal) x0 x1 x2 x3 x4 x5 x6 x7 x8 x9 x10 x11 x12 x13 x14
      = logitsOf (Cert.ReferenceIdeal.Read.val_main_v68 (F := Ideal) x0 x1 x2 x3 x4 x5 x6 x7 x8 x9 x10 x11 x12) x13 (biasRow x14) := by
  funext i
  rw [Cert.ReferenceIdeal.Read.val_main_v72_apply, Cert.ReferenceIdeal.Read.val_main_v70_apply, Cert.ReferenceIdeal.Read.val_main_v71_apply]
  generalize Cert.ReferenceIdeal.Read.val_main_v68 (F := Ideal) x0 x1 x2 x3 x4 x5 x6 x7 x8 x9 x10 x11 x12 = y
  unfold logitsOf biasRow
  have es : ∀ k : Fin 1024, y (Cert.ReferenceIdeal.Read.lidx_main_v70 i k)
        * Cert.ReferenceIdeal.Read.val_main_v69 (F := Ideal) x13 (Cert.ReferenceIdeal.Read.ridx_main_v70 i k)
      = y (hidAt i k) * x13 (outWAt i k) := fun k => by
    rw [Cert.ReferenceIdeal.Read.val_main_v69_apply]
    have e : Cert.ReferenceIdeal.Read.idx_main_v69 (Cert.ReferenceIdeal.Read.ridx_main_v70 i k) = outWAt i k :=
      funext fun a => Fin.ext (by
        match a with
        | ⟨0, _⟩ => rfl
        | ⟨1, _⟩ => rfl)
    have e' : Cert.ReferenceIdeal.Read.lidx_main_v70 i k = hidAt i k :=
      funext fun a => Fin.ext (by
        match a with
        | ⟨0, _⟩ => rfl
        | ⟨1, _⟩ => rfl)
    rw [e, e']
  rw [Finset.sum_congr rfl fun k _ => es k]
  have eb : Cert.ReferenceIdeal.Read.idx_main_v71 i = (fun a => match a with | ⟨0, _⟩ => ⟨(i 1).val, (i 1).isLt⟩ : S50257.Idx) :=
    funext fun a => Fin.ext (by
      match a with
      | ⟨0, _⟩ => rfl)
  rw [eb]
  rfl

variable (m : (ℓ : Loc nD τ sig) → Buf (Elt Ideal) ℓ) (c : Dev nD)

/-- The third call's output is the reference's logits, once the hidden state it finds is the reference's new hidden
    state. -/
theorem logits_eq (hh : V6 m (outsB m) c main_v38 = Cert.ReferenceIdeal.Read.val_main_v68 (a0 m c) (a1 m c) (a2 m c) (a3 m c) (a4 m c) (a5 m c) (a6 m c) (a7 m c) (a8 m c) (a9 m c) (a10 m c) (a11 m c) (a12 m c)) :
    U7 m c main_v39 = Cert.ReferenceIdeal.Read.val_main_v72 (a0 m c) (a1 m c) (a2 m c) (a3 m c) (a4 m c) (a5 m c) (a6 m c) (a7 m c) (a8 m c) (a9 m c) (a10 m c) (a11 m c) (a12 m c) (a13 m c) (a14 m c) := by
  refine ((exit_logits m c).trans (congrArg (fun h => logitsOf h (a13 m c) (biasRow (a14 m c))) hh)).trans ?_
  exact (ref_logits (a0 m c) (a1 m c) (a2 m c) (a3 m c) (a4 m c) (a5 m c) (a6 m c) (a7 m c) (a8 m c) (a9 m c) (a10 m c) (a11 m c) (a12 m c) (a13 m c) (a14 m c)).symm

end Cert.Bridge

end
-- ==== Proof.RefRunHand.lean ====
/- The reference program's run, read in stages. The operation list of @main (`ops`, with the raw run
   `run_raw`: every buffer ends at what the list leaves in it from the launch contents) is cut into consecutive
   segments at points where few computed values are still live. For each segment, from an ARBITRARY incoming
   valuation whose live buffers are at their stage functions `Read.val_…` of the arguments, the buffers live after it
   are at theirs. Chaining the segments gives `run_stages`: the log-softmax of the logits, the new hidden and cell
   states and the attention weights, each as its stage function of the fifteen arguments, and the arguments
   unchanged. No result is ever written out as one closed term of the arguments. -/
import proofs.«413536_j14714557956454_3_alg».proof.Proof.RefOps
import proofs.«413536_j14714557956454_3_alg».proof.Proof.RefRead
import Idealize.ShloMosaic.Lib.StableHlo.Run
import Idealize.ShloMosaic.Lib.Pipeline.Frame
import Idealize.ShloMosaic.PureOps.Ideal

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The operation list cut where few computed values are live

@main's 103 operations in 11 consecutive segments. Between two segments only a handful of computed buffers are
read again (the list after each segment's name below); everything else a segment wrote is dead. -/

/-- Segment 1: the token index wrapped into range, the embedded row, and the two recurrent states as rows. Live after it: `main_v6`, `main_v7`, `main_v8`. -/
abbrev seg1 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg4 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024,
    reshape main_arg2 main_v8 rfl shapeCasts_S1x1x1024_S1x1024 ]

/-- Segment 2: the attention scores: the embedded row joined to the hidden state, times the transposed attention weight, plus its bias. Live after it: `main_v6`, `main_v7`, `main_v8`, `main_v13`. -/
abbrev seg2 : List (HloOp τ sig (Elt F)) :=
  [ binary main_v6 main_v7 main_v9 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg5 main_v10 ((transpose S2048x512 [1, 0] · transposes_S512x2048_S2048x512_1_0) : (⟨S512x2048, .f32⟩ : BufTy).Contents (Elt F) → (⟨S2048x512, .f32⟩ : BufTy).Contents (Elt F)),
    binary main_v9 main_v10 main_v11 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    unary main_arg6 main_v12 (broadcastInDim S1x512 ![1] bcast_S512_S1x512_1 : (⟨S512, .f32⟩ : BufTy).Contents (Elt F) → (⟨S1x512, .f32⟩ : BufTy).Contents (Elt F)),
    binary main_v11 main_v12 main_v13 (addf : (⟨S1x512, .f32⟩ : BufTy).Contents (Elt F) → (⟨S1x512, .f32⟩ : BufTy).Contents (Elt F) → (⟨S1x512, .f32⟩ : BufTy).Contents (Elt F)) ]

/-- Segment 3: the scores less their maximum, exponentiated. Live after it: `main_v6`, `main_v7`, `main_v8`, `main_v20`. -/
abbrev seg3 : List (HloOp τ sig (Elt F)) :=
  [ nullary main_cst (constant S_ .f32 0xFF800000#32),
    binary main_v13 main_cst main_v14 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v15 (broadcastInDim S1 ![] bcast_S_S1 : (⟨S_, .f32⟩ : BufTy).Contents (Elt F) → (⟨S1, .f32⟩ : BufTy).Contents (Elt F)),
    binary main_v15 main_v14 main_v16 (maximumf : (⟨S1, .f32⟩ : BufTy).Contents (Elt F) → (⟨S1, .f32⟩ : BufTy).Contents (Elt F) → (⟨S1, .f32⟩ : BufTy).Contents (Elt F)),
    unary main_v16 main_v17 (broadcastInDim S1x1 ![0] bcast_S1_S1x1_0 : (⟨S1, .f32⟩ : BufTy).Contents (Elt F) → (⟨S1x1, .f32⟩ : BufTy).Contents (Elt F)),
    unary main_v17 main_v18 (broadcastInDim S1x512 ![0, 1] bcast_S1x1_S1x512_0_1 : (⟨S1x1, .f32⟩ : BufTy).Contents (Elt F) → (⟨S1x512, .f32⟩ : BufTy).Contents (Elt F)),
    binary main_v13 main_v18 main_v19 (subf : (⟨S1x512, .f32⟩ : BufTy).Contents (Elt F) → (⟨S1x512, .f32⟩ : BufTy).Contents (Elt F) → (⟨S1x512, .f32⟩ : BufTy).Contents (Elt F)),
    unary main_v19 main_v20 (Host.exp : (⟨S1x512, .f32⟩ : BufTy).Contents (Elt F) → (⟨S1x512, .f32⟩ : BufTy).Contents (Elt F)) ]

/-- Segment 4: the exponentials over their sum: the attention weights. Live after it: `main_v6`, `main_v7`, `main_v8`, `main_v24`. -/
abbrev seg4 : List (HloOp τ sig (Elt F)) :=
  [ nullary main_cst_2 (constant S_ .f32 0x00000000#32),
    binary main_v20 main_cst_2 main_v21 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v21 main_v22 (broadcastInDim S1x1 ![0] bcast_S1_S1x1_0 : (⟨S1, .f32⟩ : BufTy).Contents (Elt F) → (⟨S1x1, .f32⟩ : BufTy).Contents (Elt F)),
    unary main_v22 main_v23 (broadcastInDim S1x512 ![0, 1] bcast_S1x1_S1x512_0_1 : (⟨S1x1, .f32⟩ : BufTy).Contents (Elt F) → (⟨S1x512, .f32⟩ : BufTy).Contents (Elt F)),
    binary main_v20 main_v23 main_v24 (Host.divf : (⟨S1x512, .f32⟩ : BufTy).Contents (Elt F) → (⟨S1x512, .f32⟩ : BufTy).Contents (Elt F) → (⟨S1x512, .f32⟩ : BufTy).Contents (Elt F)) ]

/-- Segment 5: the attention applied to the encoder outputs, joined to the embedded row, through the combining layer and rectified. Live after it: `main_v7`, `main_v8`, `main_v24`, `main_v31`. -/
abbrev seg5 : List (HloOp τ sig (Elt F)) :=
  [ binary main_v24 main_arg3 main_v25 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)),
    binary main_v6 main_v25 main_v26 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg7 main_v27 ((transpose S2048x1024 [1, 0] · transposes_S1024x2048_S2048x1024_1_0) : (⟨S1024x2048, .f32⟩ : BufTy).Contents (Elt F) → (⟨S2048x1024, .f32⟩ : BufTy).Contents (Elt F)),
    binary main_v26 main_v27 main_v28 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg8 main_v29 (broadcastInDim S1x1024 ![1] bcast_S1024_S1x1024_1 : (⟨S1024, .f32⟩ : BufTy).Contents (Elt F) → (⟨S1x1024, .f32⟩ : BufTy).Contents (Elt F)),
    binary main_v28 main_v29 main_v30 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v30) (TRef.of (T := ⟨S1x1024, .f32⟩) main_call0_v0) (TRef.of (T := ⟨S1x1024, .f32⟩) main_v31) maximumf ]

/-- Segment 6: the four gates' pre-activations: the input and hidden projections and the two biases. Live after it: `main_v8`, `main_v24`, `main_v40`. -/
abbrev seg6 : List (HloOp τ sig (Elt F)) :=
  [ unary main_arg9 main_v32 ((transpose S1024x4096 [1, 0] · transposes_S4096x1024_S1024x4096_1_0) : (⟨S4096x1024, .f32⟩ : BufTy).Contents (Elt F) → (⟨S1024x4096, .f32⟩ : BufTy).Contents (Elt F)),
    binary main_v31 main_v32 main_v33 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    unary main_arg11 main_v34 (broadcastInDim S1x4096 ![1] bcast_S4096_S1x4096_1 : (⟨S4096, .f32⟩ : BufTy).Contents (Elt F) → (⟨S1x4096, .f32⟩ : BufTy).Contents (Elt F)),
    binary main_v33 main_v34 main_v35 (addf : (⟨S1x4096, .f32⟩ : BufTy).Contents (Elt F) → (⟨S1x4096, .f32⟩ : BufTy).Contents (Elt F) → (⟨S1x4096, .f32⟩ : BufTy).Contents (Elt F)),
    unary main_arg10 main_v36 ((transpose S1024x4096 [1, 0] · transposes_S4096x1024_S1024x4096_1_0) : (⟨S4096x1024, .f32⟩ : BufTy).Contents (Elt F) → (⟨S1024x4096, .f32⟩ : BufTy).Contents (Elt F)),
    binary main_v7 main_v36 main_v37 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    binary main_v35 main_v37 main_v38 (addf : (⟨S1x4096, .f32⟩ : BufTy).Contents (Elt F) → (⟨S1x4096, .f32⟩ : BufTy).Contents (Elt F) → (⟨S1x4096, .f32⟩ : BufTy).Contents (Elt F)),
    unary main_arg12 main_v39 (broadcastInDim S1x4096 ![1] bcast_S4096_S1x4096_1 : (⟨S4096, .f32⟩ : BufTy).Contents (Elt F) → (⟨S1x4096, .f32⟩ : BufTy).Contents (Elt F)),
    binary main_v38 main_v39 main_v40 (addf : (⟨S1x4096, .f32⟩ : BufTy).Contents (Elt F) → (⟨S1x4096, .f32⟩ : BufTy).Contents (Elt F) → (⟨S1x4096, .f32⟩ : BufTy).Contents (Elt F)) ]

/-- Segment 7: the four gate slices, the forget gate, and its product with the old cell state. Live after it: `main_v24`, `main_v41`, `main_v43`, `main_v44`, `main_v51`. -/
abbrev seg7 : List (HloOp τ sig (Elt F)) :=
  [ unary main_v40 main_v41 ((extractStridedSlice S1x1024 ![0, 0] · slices_S1x4096_S1x1024_0_0) : (⟨S1x4096, .f32⟩ : BufTy).Contents (Elt F) → (⟨S1x1024, .f32⟩ : BufTy).Contents (Elt F)),
    unary main_v40 main_v42 ((extractStridedSlice S1x1024 ![0, 1024] · slices_S1x4096_S1x1024_0_1024) : (⟨S1x4096, .f32⟩ : BufTy).Contents (Elt F) → (⟨S1x1024, .f32⟩ : BufTy).Contents (Elt F)),
    unary main_v40 main_v43 ((extractStridedSlice S1x1024 ![0, 2048] · slices_S1x4096_S1x1024_0_2048) : (⟨S1x4096, .f32⟩ : BufTy).Contents (Elt F) → (⟨S1x1024, .f32⟩ : BufTy).Contents (Elt F)),
    unary main_v40 main_v44 ((extractStridedSlice S1x1024 ![0, 3072] · slices_S1x4096_S1x1024_0_3072) : (⟨S1x4096, .f32⟩ : BufTy).Contents (Elt F) → (⟨S1x1024, .f32⟩ : BufTy).Contents (Elt F)),
    unary main_v42 main_v45 (Host.negf : (⟨S1x1024, .f32⟩ : BufTy).Contents (Elt F) → (⟨S1x1024, .f32⟩ : BufTy).Contents (Elt F)),
    unary main_v45 main_v46 (Host.exp : (⟨S1x1024, .f32⟩ : BufTy).Contents (Elt F) → (⟨S1x1024, .f32⟩ : BufTy).Contents (Elt F)),
    nullary main_cst_3 (constant S_ .f32 0x3F800000#32),
    unary main_cst_3 main_v47 (broadcastInDim S1x1024 ![] bcast_S_S1x1024 : (⟨S_, .f32⟩ : BufTy).Contents (Elt F) → (⟨S1x1024, .f32⟩ : BufTy).Contents (Elt F)),
    binary main_v47 main_v46 main_v48 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v49 (broadcastInDim S1x1024 ![] bcast_S_S1x1024 : (⟨S_, .f32⟩ : BufTy).Contents (Elt F) → (⟨S1x1024, .f32⟩ : BufTy).Contents (Elt F)),
    binary main_v49 main_v48 main_v50 (Host.divf : (⟨S1x1024, .f32⟩ : BufTy).Contents (Elt F) → (⟨S1x1024, .f32⟩ : BufTy).Contents (Elt F) → (⟨S1x1024, .f32⟩ : BufTy).Contents (Elt F)),
    binary main_v50 main_v8 main_v51 (mulf : (⟨S1x1024, .f32⟩ : BufTy).Contents (Elt F) → (⟨S1x1024, .f32⟩ : BufTy).Contents (Elt F) → (⟨S1x1024, .f32⟩ : BufTy).Contents (Elt F)) ]

/-- Segment 8: the input gate, the candidate, and the new cell state. Live after it: `main_v24`, `main_v44`, `main_v60`. -/
abbrev seg8 : List (HloOp τ sig (Elt F)) :=
  [ unary main_v41 main_v52 (Host.negf : (⟨S1x1024, .f32⟩ : BufTy).Contents (Elt F) → (⟨S1x1024, .f32⟩ : BufTy).Contents (Elt F)),
    unary main_v52 main_v53 (Host.exp : (⟨S1x1024, .f32⟩ : BufTy).Contents (Elt F) → (⟨S1x1024, .f32⟩ : BufTy).Contents (Elt F)),
    nullary main_cst_5 (constant S_ .f32 0x3F800000#32),
    unary main_cst_5 main_v54 (broadcastInDim S1x1024 ![] bcast_S_S1x1024 : (⟨S_, .f32⟩ : BufTy).Contents (Elt F) → (⟨S1x1024, .f32⟩ : BufTy).Contents (Elt F)),
    binary main_v54 main_v53 main_v55 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v56 (broadcastInDim S1x1024 ![] bcast_S_S1x1024 : (⟨S_, .f32⟩ : BufTy).Contents (Elt F) → (⟨S1x1024, .f32⟩ : BufTy).Contents (Elt F)),
    binary main_v56 main_v55 main_v57 (Host.divf : (⟨S1x1024, .f32⟩ : BufTy).Contents (Elt F) → (⟨S1x1024, .f32⟩ : BufTy).Contents (Elt F) → (⟨S1x1024, .f32⟩ : BufTy).Contents (Elt F)),
    unary main_v43 main_v58 (Host.tanh : (⟨S1x1024, .f32⟩ : BufTy).Contents (Elt F) → (⟨S1x1024, .f32⟩ : BufTy).Contents (Elt F)),
    binary main_v57 main_v58 main_v59 (mulf : (⟨S1x1024, .f32⟩ : BufTy).Contents (Elt F) → (⟨S1x1024, .f32⟩ : BufTy).Contents (Elt F) → (⟨S1x1024, .f32⟩ : BufTy).Contents (Elt F)),
    binary main_v51 main_v59 main_v60 (addf : (⟨S1x1024, .f32⟩ : BufTy).Contents (Elt F) → (⟨S1x1024, .f32⟩ : BufTy).Contents (Elt F) → (⟨S1x1024, .f32⟩ : BufTy).Contents (Elt F)) ]

/-- Segment 9: the output gate and the new hidden state. Live after it: `main_v24`, `main_v60`, `main_v68`. -/
abbrev seg9 : List (HloOp τ sig (Elt F)) :=
  [ unary main_v44 main_v61 (Host.negf : (⟨S1x1024, .f32⟩ : BufTy).Contents (Elt F) → (⟨S1x1024, .f32⟩ : BufTy).Contents (Elt F)),
    unary main_v61 main_v62 (Host.exp : (⟨S1x1024, .f32⟩ : BufTy).Contents (Elt F) → (⟨S1x1024, .f32⟩ : BufTy).Contents (Elt F)),
    nullary main_cst_7 (constant S_ .f32 0x3F800000#32),
    unary main_cst_7 main_v63 (broadcastInDim S1x1024 ![] bcast_S_S1x1024 : (⟨S_, .f32⟩ : BufTy).Contents (Elt F) → (⟨S1x1024, .f32⟩ : BufTy).Contents (Elt F)),
    binary main_v63 main_v62 main_v64 (addf : (⟨S1x1024, .f32⟩ : BufTy).Contents (Elt F) → (⟨S1x1024, .f32⟩ : BufTy).Contents (Elt F) → (⟨S1x1024, .f32⟩ : BufTy).Contents (Elt F)),
    nullary main_cst_8 (constant S_ .f32 0x3F800000#32),
    unary main_cst_8 main_v65 (broadcastInDim S1x1024 ![] bcast_S_S1x1024 : (⟨S_, .f32⟩ : BufTy).Contents (Elt F) → (⟨S1x1024, .f32⟩ : BufTy).Contents (Elt F)),
    binary main_v65 main_v64 main_v66 (Host.divf : (⟨S1x1024, .f32⟩ : BufTy).Contents (Elt F) → (⟨S1x1024, .f32⟩ : BufTy).Contents (Elt F) → (⟨S1x1024, .f32⟩ : BufTy).Contents (Elt F)),
    unary main_v60 main_v67 (Host.tanh : (⟨S1x1024, .f32⟩ : BufTy).Contents (Elt F) → (⟨S1x1024, .f32⟩ : BufTy).Contents (Elt F)),
    binary main_v66 main_v67 main_v68 (mulf : (⟨S1x1024, .f32⟩ : BufTy).Contents (Elt F) → (⟨S1x1024, .f32⟩ : BufTy).Contents (Elt F) → (⟨S1x1024, .f32⟩ : BufTy).Contents (Elt F)) ]

/-- Segment 10: the logits: the hidden state times the transposed output weight, plus its bias. Live after it: `main_v24`, `main_v60`, `main_v68`, `main_v72`. -/
abbrev seg10 : List (HloOp τ sig (Elt F)) :=
  [ unary main_arg13 main_v69 ((transpose S1024x50257 [1, 0] · transposes_S50257x1024_S1024x50257_1_0) : (⟨S50257x1024, .f32⟩ : BufTy).Contents (Elt F) → (⟨S1024x50257, .f32⟩ : BufTy).Contents (Elt F)),
    binary main_v68 main_v69 main_v70 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg14 main_v71 (broadcastInDim S1x50257 ![1] bcast_S50257_S1x50257_1 : (⟨S50257, .f32⟩ : BufTy).Contents (Elt F) → (⟨S1x50257, .f32⟩ : BufTy).Contents (Elt F)),
    binary main_v70 main_v71 main_v72 (addf : (⟨S1x50257, .f32⟩ : BufTy).Contents (Elt F) → (⟨S1x50257, .f32⟩ : BufTy).Contents (Elt F) → (⟨S1x50257, .f32⟩ : BufTy).Contents (Elt F)) ]

/-- Segment 11: the log-softmax of the logits, and the two new states as rank-three results. Live after it: `main_v24`, `main_v73`, `main_v74`, `main_v75`. -/
abbrev seg11 : List (HloOp τ sig (Elt F)) :=
  [ TRef.nullary (TRef.of (T := ⟨S_, .f32⟩) main_call1_cst) (constant S_ .f32 0xFF800000#32),
    TRef.binary (TRef.of (T := ⟨S1x50257, .f32⟩) main_v72) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v72) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v73) subf,
    unary main_v68 main_v74 (broadcastInDim S1x1x1024 ![1, 2] bcast_S1x1024_S1x1x1024_1_2 : (⟨S1x1024, .f32⟩ : BufTy).Contents (Elt F) → (⟨S1x1x1024, .f32⟩ : BufTy).Contents (Elt F)),
    unary main_v60 main_v75 (broadcastInDim S1x1x1024 ![1, 2] bcast_S1x1024_S1x1x1024_1_2 : (⟨S1x1024, .f32⟩ : BufTy).Contents (Elt F) → (⟨S1x1x1024, .f32⟩ : BufTy).Contents (Elt F)) ]

/-! ## The segments in a row -/

/-- The first segment. -/
abbrev pre1 : List (HloOp τ sig (Elt F)) := seg1
/-- The first 2 segments. -/
abbrev pre2 : List (HloOp τ sig (Elt F)) := pre1 ++ seg2
/-- The first 3 segments. -/
abbrev pre3 : List (HloOp τ sig (Elt F)) := pre2 ++ seg3
/-- The first 4 segments. -/
abbrev pre4 : List (HloOp τ sig (Elt F)) := pre3 ++ seg4
/-- The first 5 segments. -/
abbrev pre5 : List (HloOp τ sig (Elt F)) := pre4 ++ seg5
/-- The first 6 segments. -/
abbrev pre6 : List (HloOp τ sig (Elt F)) := pre5 ++ seg6
/-- The first 7 segments. -/
abbrev pre7 : List (HloOp τ sig (Elt F)) := pre6 ++ seg7
/-- The first 8 segments. -/
abbrev pre8 : List (HloOp τ sig (Elt F)) := pre7 ++ seg8
/-- The first 9 segments. -/
abbrev pre9 : List (HloOp τ sig (Elt F)) := pre8 ++ seg9
/-- The first 10 segments. -/
abbrev pre10 : List (HloOp τ sig (Elt F)) := pre9 ++ seg10
/-- The first 11 segments. -/
abbrev pre11 : List (HloOp τ sig (Elt F)) := pre10 ++ seg11

set_option maxRecDepth 8192 in
/-- The operation list is its segments in a row. -/
theorem ops_eq : (ops : List (HloOp τ sig (Elt F))) = pre11 := rfl

/-! ## What each segment writes, and that no segment writes an argument -/

/-- One operation writes its result buffer, a member of the segment's list. -/
local macro "writes_mem" : tactic =>
  `(tactic| (simp only [nullary_writes, unary_writes, binary_writes, ternary_writes, reshape_writes,
      Finset.singleton_subset_iff, List.mem_toFinset]; exact List.mem_map_of_mem (by decide)))

/-- The fifteen argument buffers. -/
abbrev argRefs : List (Ref sig .tc) := [main_arg0, main_arg1, main_arg2, main_arg3, main_arg4, main_arg5, main_arg6, main_arg7, main_arg8, main_arg9, main_arg10, main_arg11, main_arg12, main_arg13, main_arg14]

/-- The buffers segment 1 writes. -/
abbrev seg1_W : List (Ref sig .tc) := [main_c, main_v0, main_v1, main_c_0, main_v2, main_v3, main_v4, main_v5, main_v6, main_v7, main_v8]
theorem seg1_writes : (seg1 : List (HloOp τ sig (Elt F))).Forall fun op => op.writes ⊆ (seg1_W.map (Proc.devRef (τ := τ) .tc)).toFinset := by
  simp only [List.Forall]
  refine ⟨?_, ?_, ?_, ?_, ?_, ?_, ?_, ?_, ?_, ?_, ?_⟩ <;> writes_mem
/-- A buffer segment 1 does not write keeps its contents. -/
theorem seg1_keeps (W : Valuation τ sig (Elt F)) (r : Ref sig .tc) (h : r ∉ seg1_W) :
    after seg1 W (Proc.devRef .tc r) = W (Proc.devRef .tc r) :=
  after_of_writes_sub seg1 W seg1_writes h
theorem seg1_args : ∀ r ∈ argRefs, r ∉ seg1_W := by decide
/-- The first segment leaves every argument as found. -/
theorem pre1_arg (V : Valuation τ sig (Elt F)) (r : Ref sig .tc) (hr : r ∈ argRefs) :
    after pre1 V (Proc.devRef .tc r) = V (Proc.devRef .tc r) :=
  seg1_keeps V r (seg1_args r hr)

/-- The buffers segment 2 writes. -/
abbrev seg2_W : List (Ref sig .tc) := [main_v9, main_v10, main_v11, main_v12, main_v13]
theorem seg2_writes : (seg2 : List (HloOp τ sig (Elt F))).Forall fun op => op.writes ⊆ (seg2_W.map (Proc.devRef (τ := τ) .tc)).toFinset := by
  simp only [List.Forall]
  refine ⟨?_, ?_, ?_, ?_, ?_⟩ <;> writes_mem
/-- A buffer segment 2 does not write keeps its contents. -/
theorem seg2_keeps (W : Valuation τ sig (Elt F)) (r : Ref sig .tc) (h : r ∉ seg2_W) :
    after seg2 W (Proc.devRef .tc r) = W (Proc.devRef .tc r) :=
  after_of_writes_sub seg2 W seg2_writes h
theorem seg2_args : ∀ r ∈ argRefs, r ∉ seg2_W := by decide
/-- The first 2 segments leave every argument as found. -/
theorem pre2_arg (V : Valuation τ sig (Elt F)) (r : Ref sig .tc) (hr : r ∈ argRefs) :
    after pre2 V (Proc.devRef .tc r) = V (Proc.devRef .tc r) :=
  (congrFun (after_append pre1 seg2 V) _).trans ((seg2_keeps _ r (seg2_args r hr)).trans (pre1_arg V r hr))

/-- The buffers segment 3 writes. -/
abbrev seg3_W : List (Ref sig .tc) := [main_cst, main_v14, main_cst_1, main_v15, main_v16, main_v17, main_v18, main_v19, main_v20]
theorem seg3_writes : (seg3 : List (HloOp τ sig (Elt F))).Forall fun op => op.writes ⊆ (seg3_W.map (Proc.devRef (τ := τ) .tc)).toFinset := by
  simp only [List.Forall]
  refine ⟨?_, ?_, ?_, ?_, ?_, ?_, ?_, ?_, ?_⟩ <;> writes_mem
/-- A buffer segment 3 does not write keeps its contents. -/
theorem seg3_keeps (W : Valuation τ sig (Elt F)) (r : Ref sig .tc) (h : r ∉ seg3_W) :
    after seg3 W (Proc.devRef .tc r) = W (Proc.devRef .tc r) :=
  after_of_writes_sub seg3 W seg3_writes h
theorem seg3_args : ∀ r ∈ argRefs, r ∉ seg3_W := by decide
/-- The first 3 segments leave every argument as found. -/
theorem pre3_arg (V : Valuation τ sig (Elt F)) (r : Ref sig .tc) (hr : r ∈ argRefs) :
    after pre3 V (Proc.devRef .tc r) = V (Proc.devRef .tc r) :=
  (congrFun (after_append pre2 seg3 V) _).trans ((seg3_keeps _ r (seg3_args r hr)).trans (pre2_arg V r hr))

/-- The buffers segment 4 writes. -/
abbrev seg4_W : List (Ref sig .tc) := [main_cst_2, main_v21, main_v22, main_v23, main_v24]
theorem seg4_writes : (seg4 : List (HloOp τ sig (Elt F))).Forall fun op => op.writes ⊆ (seg4_W.map (Proc.devRef (τ := τ) .tc)).toFinset := by
  simp only [List.Forall]
  refine ⟨?_, ?_, ?_, ?_, ?_⟩ <;> writes_mem
/-- A buffer segment 4 does not write keeps its contents. -/
theorem seg4_keeps (W : Valuation τ sig (Elt F)) (r : Ref sig .tc) (h : r ∉ seg4_W) :
    after seg4 W (Proc.devRef .tc r) = W (Proc.devRef .tc r) :=
  after_of_writes_sub seg4 W seg4_writes h
theorem seg4_args : ∀ r ∈ argRefs, r ∉ seg4_W := by decide
/-- The first 4 segments leave every argument as found. -/
theorem pre4_arg (V : Valuation τ sig (Elt F)) (r : Ref sig .tc) (hr : r ∈ argRefs) :
    after pre4 V (Proc.devRef .tc r) = V (Proc.devRef .tc r) :=
  (congrFun (after_append pre3 seg4 V) _).trans ((seg4_keeps _ r (seg4_args r hr)).trans (pre3_arg V r hr))

/-- The buffers segment 5 writes. -/
abbrev seg5_W : List (Ref sig .tc) := [main_v25, main_v26, main_v27, main_v28, main_v29, main_v30, main_call0_cst, main_call0_v0, main_v31]
theorem seg5_writes : (seg5 : List (HloOp τ sig (Elt F))).Forall fun op => op.writes ⊆ (seg5_W.map (Proc.devRef (τ := τ) .tc)).toFinset := by
  simp only [List.Forall]
  refine ⟨?_, ?_, ?_, ?_, ?_, ?_, ?_, ?_, ?_⟩ <;> writes_mem
/-- A buffer segment 5 does not write keeps its contents. -/
theorem seg5_keeps (W : Valuation τ sig (Elt F)) (r : Ref sig .tc) (h : r ∉ seg5_W) :
    after seg5 W (Proc.devRef .tc r) = W (Proc.devRef .tc r) :=
  after_of_writes_sub seg5 W seg5_writes h
theorem seg5_args : ∀ r ∈ argRefs, r ∉ seg5_W := by decide
/-- The first 5 segments leave every argument as found. -/
theorem pre5_arg (V : Valuation τ sig (Elt F)) (r : Ref sig .tc) (hr : r ∈ argRefs) :
    after pre5 V (Proc.devRef .tc r) = V (Proc.devRef .tc r) :=
  (congrFun (after_append pre4 seg5 V) _).trans ((seg5_keeps _ r (seg5_args r hr)).trans (pre4_arg V r hr))

/-- The buffers segment 6 writes. -/
abbrev seg6_W : List (Ref sig .tc) := [main_v32, main_v33, main_v34, main_v35, main_v36, main_v37, main_v38, main_v39, main_v40]
theorem seg6_writes : (seg6 : List (HloOp τ sig (Elt F))).Forall fun op => op.writes ⊆ (seg6_W.map (Proc.devRef (τ := τ) .tc)).toFinset := by
  simp only [List.Forall]
  refine ⟨?_, ?_, ?_, ?_, ?_, ?_, ?_, ?_, ?_⟩ <;> writes_mem
/-- A buffer segment 6 does not write keeps its contents. -/
theorem seg6_keeps (W : Valuation τ sig (Elt F)) (r : Ref sig .tc) (h : r ∉ seg6_W) :
    after seg6 W (Proc.devRef .tc r) = W (Proc.devRef .tc r) :=
  after_of_writes_sub seg6 W seg6_writes h
theorem seg6_args : ∀ r ∈ argRefs, r ∉ seg6_W := by decide
/-- The first 6 segments leave every argument as found. -/
theorem pre6_arg (V : Valuation τ sig (Elt F)) (r : Ref sig .tc) (hr : r ∈ argRefs) :
    after pre6 V (Proc.devRef .tc r) = V (Proc.devRef .tc r) :=
  (congrFun (after_append pre5 seg6 V) _).trans ((seg6_keeps _ r (seg6_args r hr)).trans (pre5_arg V r hr))

/-- The buffers segment 7 writes. -/
abbrev seg7_W : List (Ref sig .tc) := [main_v41, main_v42, main_v43, main_v44, main_v45, main_v46, main_cst_3, main_v47, main_v48, main_cst_4, main_v49, main_v50, main_v51]
theorem seg7_writes : (seg7 : List (HloOp τ sig (Elt F))).Forall fun op => op.writes ⊆ (seg7_W.map (Proc.devRef (τ := τ) .tc)).toFinset := by
  simp only [List.Forall]
  refine ⟨?_, ?_, ?_, ?_, ?_, ?_, ?_, ?_, ?_, ?_, ?_, ?_, ?_⟩ <;> writes_mem
/-- A buffer segment 7 does not write keeps its contents. -/
theorem seg7_keeps (W : Valuation τ sig (Elt F)) (r : Ref sig .tc) (h : r ∉ seg7_W) :
    after seg7 W (Proc.devRef .tc r) = W (Proc.devRef .tc r) :=
  after_of_writes_sub seg7 W seg7_writes h
theorem seg7_args : ∀ r ∈ argRefs, r ∉ seg7_W := by decide
/-- The first 7 segments leave every argument as found. -/
theorem pre7_arg (V : Valuation τ sig (Elt F)) (r : Ref sig .tc) (hr : r ∈ argRefs) :
    after pre7 V (Proc.devRef .tc r) = V (Proc.devRef .tc r) :=
  (congrFun (after_append pre6 seg7 V) _).trans ((seg7_keeps _ r (seg7_args r hr)).trans (pre6_arg V r hr))

/-- The buffers segment 8 writes. -/
abbrev seg8_W : List (Ref sig .tc) := [main_v52, main_v53, main_cst_5, main_v54, main_v55, main_cst_6, main_v56, main_v57, main_v58, main_v59, main_v60]
theorem seg8_writes : (seg8 : List (HloOp τ sig (Elt F))).Forall fun op => op.writes ⊆ (seg8_W.map (Proc.devRef (τ := τ) .tc)).toFinset := by
  simp only [List.Forall]
  refine ⟨?_, ?_, ?_, ?_, ?_, ?_, ?_, ?_, ?_, ?_, ?_⟩ <;> writes_mem
/-- A buffer segment 8 does not write keeps its contents. -/
theorem seg8_keeps (W : Valuation τ sig (Elt F)) (r : Ref sig .tc) (h : r ∉ seg8_W) :
    after seg8 W (Proc.devRef .tc r) = W (Proc.devRef .tc r) :=
  after_of_writes_sub seg8 W seg8_writes h
theorem seg8_args : ∀ r ∈ argRefs, r ∉ seg8_W := by decide
/-- The first 8 segments leave every argument as found. -/
theorem pre8_arg (V : Valuation τ sig (Elt F)) (r : Ref sig .tc) (hr : r ∈ argRefs) :
    after pre8 V (Proc.devRef .tc r) = V (Proc.devRef .tc r) :=
  (congrFun (after_append pre7 seg8 V) _).trans ((seg8_keeps _ r (seg8_args r hr)).trans (pre7_arg V r hr))

/-- The buffers segment 9 writes. -/
abbrev seg9_W : List (Ref sig .tc) := [main_v61, main_v62, main_cst_7, main_v63, main_v64, main_cst_8, main_v65, main_v66, main_v67, main_v68]
theorem seg9_writes : (seg9 : List (HloOp τ sig (Elt F))).Forall fun op => op.writes ⊆ (seg9_W.map (Proc.devRef (τ := τ) .tc)).toFinset := by
  simp only [List.Forall]
  refine ⟨?_, ?_, ?_, ?_, ?_, ?_, ?_, ?_, ?_, ?_⟩ <;> writes_mem
/-- A buffer segment 9 does not write keeps its contents. -/
theorem seg9_keeps (W : Valuation τ sig (Elt F)) (r : Ref sig .tc) (h : r ∉ seg9_W) :
    after seg9 W (Proc.devRef .tc r) = W (Proc.devRef .tc r) :=
  after_of_writes_sub seg9 W seg9_writes h
theorem seg9_args : ∀ r ∈ argRefs, r ∉ seg9_W := by decide
/-- The first 9 segments leave every argument as found. -/
theorem pre9_arg (V : Valuation τ sig (Elt F)) (r : Ref sig .tc) (hr : r ∈ argRefs) :
    after pre9 V (Proc.devRef .tc r) = V (Proc.devRef .tc r) :=
  (congrFun (after_append pre8 seg9 V) _).trans ((seg9_keeps _ r (seg9_args r hr)).trans (pre8_arg V r hr))

/-- The buffers segment 10 writes. -/
abbrev seg10_W : List (Ref sig .tc) := [main_v69, main_v70, main_v71, main_v72]
theorem seg10_writes : (seg10 : List (HloOp τ sig (Elt F))).Forall fun op => op.writes ⊆ (seg10_W.map (Proc.devRef (τ := τ) .tc)).toFinset := by
  simp only [List.Forall]
  refine ⟨?_, ?_, ?_, ?_⟩ <;> writes_mem
/-- A buffer segment 10 does not write keeps its contents. -/
theorem seg10_keeps (W : Valuation τ sig (Elt F)) (r : Ref sig .tc) (h : r ∉ seg10_W) :
    after seg10 W (Proc.devRef .tc r) = W (Proc.devRef .tc r) :=
  after_of_writes_sub seg10 W seg10_writes h
theorem seg10_args : ∀ r ∈ argRefs, r ∉ seg10_W := by decide
/-- The first 10 segments leave every argument as found. -/
theorem pre10_arg (V : Valuation τ sig (Elt F)) (r : Ref sig .tc) (hr : r ∈ argRefs) :
    after pre10 V (Proc.devRef .tc r) = V (Proc.devRef .tc r) :=
  (congrFun (after_append pre9 seg10 V) _).trans ((seg10_keeps _ r (seg10_args r hr)).trans (pre9_arg V r hr))

/-- The buffers segment 11 writes. -/
abbrev seg11_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v73, main_v74, main_v75]
theorem seg11_writes : (seg11 : List (HloOp τ sig (Elt F))).Forall fun op => op.writes ⊆ (seg11_W.map (Proc.devRef (τ := τ) .tc)).toFinset := by
  simp only [List.Forall]
  refine ⟨?_, ?_, ?_, ?_, ?_, ?_, ?_, ?_, ?_, ?_, ?_, ?_, ?_, ?_, ?_, ?_, ?_⟩ <;> writes_mem
/-- A buffer segment 11 does not write keeps its contents. -/
theorem seg11_keeps (W : Valuation τ sig (Elt F)) (r : Ref sig .tc) (h : r ∉ seg11_W) :
    after seg11 W (Proc.devRef .tc r) = W (Proc.devRef .tc r) :=
  after_of_writes_sub seg11 W seg11_writes h
theorem seg11_args : ∀ r ∈ argRefs, r ∉ seg11_W := by decide
/-- The first 11 segments leave every argument as found. -/
theorem pre11_arg (V : Valuation τ sig (Elt F)) (r : Ref sig .tc) (hr : r ∈ argRefs) :
    after pre11 V (Proc.devRef .tc r) = V (Proc.devRef .tc r) :=
  (congrFun (after_append pre10 seg11 V) _).trans ((seg11_keeps _ r (seg11_args r hr)).trans (pre10_arg V r hr))

/-! ## Operations through typed references

An inlined function's operations are printed over references that carry their tensor type, each function moved to the
reference's own buffer type along an equation of types that holds by computation. Such an operation IS the operation at
the bare references with the function as it is. -/

section Typed

variable {Val : EltTy → Type}

/-- A constant written through a typed reference is the constant written at the reference. -/
theorem typed_nullary_eq {y : Ref sig .tc} (dy : y.space ≠ .host) (uy : y.isScoped = false) (v : y.ty.Contents Val) :
    TRef.nullary (τ := τ) (⟨y, rfl, dy, uy⟩ : TRef sig y.ty) v = nullary y v ⟨dy, uy⟩ := rfl

/-- A one-operand operation through typed references is the operation at the references. -/
theorem typed_unary_eq {x y : Ref sig .tc} (dx : x.space ≠ .host) (ux : x.isScoped = false)
    (dy : y.space ≠ .host) (uy : y.isScoped = false) (f : x.ty.Contents Val → y.ty.Contents Val) :
    TRef.unary (τ := τ) (⟨x, rfl, dx, ux⟩ : TRef sig x.ty) (⟨y, rfl, dy, uy⟩ : TRef sig y.ty) f
      = unary x y f ⟨dx, ux⟩ ⟨dy, uy⟩ := rfl

/-- A two-operand operation through typed references is the operation at the references. -/
theorem typed_binary_eq {a b y : Ref sig .tc} (da : a.space ≠ .host) (ua : a.isScoped = false)
    (db : b.space ≠ .host) (ub : b.isScoped = false) (dy : y.space ≠ .host) (uy : y.isScoped = false)
    (f : a.ty.Contents Val → b.ty.Contents Val → y.ty.Contents Val) :
    TRef.binary (τ := τ) (⟨a, rfl, da, ua⟩ : TRef sig a.ty) (⟨b, rfl, db, ub⟩ : TRef sig b.ty)
        (⟨y, rfl, dy, uy⟩ : TRef sig y.ty) f
      = binary a b y f ⟨da, ua⟩ ⟨db, ub⟩ ⟨dy, uy⟩ := rfl

end Typed

/-! ## Each segment from an arbitrary incoming valuation

The buffers a segment reads from before it are atoms `W b`, equal by hypothesis to their stage functions
`Read.val_…` of the arguments (an argument buffer to the argument itself); what the segment leaves in each buffer
still live after it is that buffer's stage function, by unfolding only the definitions of the buffers the segment
itself writes on the way. A live buffer the segment does not write is carried across. -/

set_option maxRecDepth 8192 in
set_option maxHeartbeats 1000000 in
/-- Segment 1: the token index wrapped into range, the embedded row, and the two recurrent states as rows. -/
theorem seg1_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x4 : (⟨S50257x1024, .f32⟩ : BufTy).Contents (Elt F))
    (a0 : W (Proc.devRef .tc main_arg0) = x0) (a1 : W (Proc.devRef .tc main_arg1) = x1) (a2 : W (Proc.devRef .tc main_arg2) = x2) (a4 : W (Proc.devRef .tc main_arg4) = x4) :
    after seg1 W (Proc.devRef .tc main_v6) = Read.val_main_v6 x0 x4
    ∧ after seg1 W (Proc.devRef .tc main_v7) = Read.val_main_v7 x1
    ∧ after seg1 W (Proc.devRef .tc main_v8) = Read.val_main_v8 x2 := by
  refine ⟨?_, ?_, ?_⟩
  · after_results
    rw [a4, a0]
    simp only [Read.val_main_c, Read.val_main_v0, Read.val_main_v1, Read.val_main_c_0, Read.val_main_v2, Read.val_main_v3, Read.val_main_v4, Read.val_main_v5, Read.val_main_v6] <;> rfl
  · after_results
    rw [a1]
    simp only [Read.val_main_v7] <;> rfl
  · after_results
    rw [a2]
    simp only [Read.val_main_v8] <;> rfl

set_option maxRecDepth 8192 in
set_option maxHeartbeats 1000000 in
/-- Segment 2: the attention scores: the embedded row joined to the hidden state, times the transposed attention weight, plus its bias. -/
theorem seg2_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F))
    (h_v6 : W (Proc.devRef .tc main_v6) = Read.val_main_v6 x0 x4)
    (h_v7 : W (Proc.devRef .tc main_v7) = Read.val_main_v7 x1)
    (h_v8 : W (Proc.devRef .tc main_v8) = Read.val_main_v8 x2)
    (a5 : W (Proc.devRef .tc main_arg5) = x5) (a6 : W (Proc.devRef .tc main_arg6) = x6) :
    after seg2 W (Proc.devRef .tc main_v6) = Read.val_main_v6 x0 x4
    ∧ after seg2 W (Proc.devRef .tc main_v7) = Read.val_main_v7 x1
    ∧ after seg2 W (Proc.devRef .tc main_v8) = Read.val_main_v8 x2
    ∧ after seg2 W (Proc.devRef .tc main_v13) = Read.val_main_v13 x0 x1 x4 x5 x6 := by
  refine ⟨?_, ?_, ?_, ?_⟩
  · exact (seg2_keeps W main_v6 (by decide)).trans h_v6
  · exact (seg2_keeps W main_v7 (by decide)).trans h_v7
  · exact (seg2_keeps W main_v8 (by decide)).trans h_v8
  · after_results
    rw [a6, a5, h_v6, h_v7]
    simp only [Read.val_main_v9, Read.val_main_v10, Read.val_main_v11, Read.val_main_v12, Read.val_main_v13] <;> rfl

set_option maxRecDepth 8192 in
set_option maxHeartbeats 1000000 in
/-- Segment 3: the scores less their maximum, exponentiated. -/
theorem seg3_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F))
    (h_v6 : W (Proc.devRef .tc main_v6) = Read.val_main_v6 x0 x4)
    (h_v7 : W (Proc.devRef .tc main_v7) = Read.val_main_v7 x1)
    (h_v8 : W (Proc.devRef .tc main_v8) = Read.val_main_v8 x2)
    (h_v13 : W (Proc.devRef .tc main_v13) = Read.val_main_v13 x0 x1 x4 x5 x6) :
    after seg3 W (Proc.devRef .tc main_v6) = Read.val_main_v6 x0 x4
    ∧ after seg3 W (Proc.devRef .tc main_v7) = Read.val_main_v7 x1
    ∧ after seg3 W (Proc.devRef .tc main_v8) = Read.val_main_v8 x2
    ∧ after seg3 W (Proc.devRef .tc main_v20) = Read.val_main_v20 x0 x1 x4 x5 x6 := by
  refine ⟨?_, ?_, ?_, ?_⟩
  · exact (seg3_keeps W main_v6 (by decide)).trans h_v6
  · exact (seg3_keeps W main_v7 (by decide)).trans h_v7
  · exact (seg3_keeps W main_v8 (by decide)).trans h_v8
  · after_results
    rw [h_v13]
    simp only [Read.val_main_cst, Read.val_main_v14, Read.val_main_cst_1, Read.val_main_v15, Read.val_main_v16, Read.val_main_v17, Read.val_main_v18, Read.val_main_v19, Read.val_main_v20] <;> rfl

set_option maxRecDepth 8192 in
set_option maxHeartbeats 1000000 in
/-- Segment 4: the exponentials over their sum: the attention weights. -/
theorem seg4_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F))
    (h_v6 : W (Proc.devRef .tc main_v6) = Read.val_main_v6 x0 x4)
    (h_v7 : W (Proc.devRef .tc main_v7) = Read.val_main_v7 x1)
    (h_v8 : W (Proc.devRef .tc main_v8) = Read.val_main_v8 x2)
    (h_v20 : W (Proc.devRef .tc main_v20) = Read.val_main_v20 x0 x1 x4 x5 x6) :
    after seg4 W (Proc.devRef .tc main_v6) = Read.val_main_v6 x0 x4
    ∧ after seg4 W (Proc.devRef .tc main_v7) = Read.val_main_v7 x1
    ∧ after seg4 W (Proc.devRef .tc main_v8) = Read.val_main_v8 x2
    ∧ after seg4 W (Proc.devRef .tc main_v24) = Read.val_main_v24 x0 x1 x4 x5 x6 := by
  refine ⟨?_, ?_, ?_, ?_⟩
  · exact (seg4_keeps W main_v6 (by decide)).trans h_v6
  · exact (seg4_keeps W main_v7 (by decide)).trans h_v7
  · exact (seg4_keeps W main_v8 (by decide)).trans h_v8
  · after_results
    rw [h_v20]
    simp only [Read.val_main_cst_2, Read.val_main_v21, Read.val_main_v22, Read.val_main_v23, Read.val_main_v24] <;> rfl

/-- Segment 5 over the bare references: each operation printed through typed references restated at the
    references themselves, its function as it is. -/
abbrev seg5c : List (HloOp τ sig (Elt F)) :=
  [ binary main_v24 main_arg3 main_v25 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)),
    binary main_v6 main_v25 main_v26 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg7 main_v27 ((transpose S2048x1024 [1, 0] · transposes_S1024x2048_S2048x1024_1_0) : (⟨S1024x2048, .f32⟩ : BufTy).Contents (Elt F) → (⟨S2048x1024, .f32⟩ : BufTy).Contents (Elt F)),
    binary main_v26 main_v27 main_v28 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg8 main_v29 (broadcastInDim S1x1024 ![1] bcast_S1024_S1x1024_1 : (⟨S1024, .f32⟩ : BufTy).Contents (Elt F) → (⟨S1x1024, .f32⟩ : BufTy).Contents (Elt F)),
    binary main_v28 main_v29 main_v30 (addf : (⟨S1x1024, .f32⟩ : BufTy).Contents (Elt F) → (⟨S1x1024, .f32⟩ : BufTy).Contents (Elt F) → (⟨S1x1024, .f32⟩ : BufTy).Contents (Elt F)),
    nullary main_call0_cst ((constant S_ .f32 0x00000000#32) : (⟨S_, .f32⟩ : BufTy).Contents (Elt F)),
    unary main_call0_cst main_call0_v0 ((broadcastInDim S1x1024 ![] bcast_S_S1x1024) : (⟨S_, .f32⟩ : BufTy).Contents (Elt F) → (⟨S1x1024, .f32⟩ : BufTy).Contents (Elt F)),
    binary main_v30 main_call0_v0 main_v31 (maximumf : (⟨S1x1024, .f32⟩ : BufTy).Contents (Elt F) → (⟨S1x1024, .f32⟩ : BufTy).Contents (Elt F) → (⟨S1x1024, .f32⟩ : BufTy).Contents (Elt F)) ]
/-- Segment 5 as printed is segment 5 over the bare references, operation by operation. -/
theorem seg5_plain : (seg5 : List (HloOp τ sig (Elt F))) = seg5c :=
  congrArg₂ List.cons rfl <|
  congrArg₂ List.cons rfl <|
  congrArg₂ List.cons rfl <|
  congrArg₂ List.cons rfl <|
  congrArg₂ List.cons rfl <|
  congrArg₂ List.cons rfl <|
  congrArg₂ List.cons (typed_nullary_eq _ _ _) <|
  congrArg₂ List.cons (typed_unary_eq _ _ _ _ _) <|
  congrArg₂ List.cons (typed_binary_eq _ _ _ _ _ _ _) <| rfl

set_option maxRecDepth 8192 in
set_option maxHeartbeats 1000000 in
/-- Segment 5: the attention applied to the encoder outputs, joined to the embedded row, through the combining layer and rectified. -/
theorem seg5_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F))
    (h_v6 : W (Proc.devRef .tc main_v6) = Read.val_main_v6 x0 x4)
    (h_v7 : W (Proc.devRef .tc main_v7) = Read.val_main_v7 x1)
    (h_v8 : W (Proc.devRef .tc main_v8) = Read.val_main_v8 x2)
    (h_v24 : W (Proc.devRef .tc main_v24) = Read.val_main_v24 x0 x1 x4 x5 x6)
    (a3 : W (Proc.devRef .tc main_arg3) = x3) (a7 : W (Proc.devRef .tc main_arg7) = x7) (a8 : W (Proc.devRef .tc main_arg8) = x8) :
    after seg5 W (Proc.devRef .tc main_v7) = Read.val_main_v7 x1
    ∧ after seg5 W (Proc.devRef .tc main_v8) = Read.val_main_v8 x2
    ∧ after seg5 W (Proc.devRef .tc main_v24) = Read.val_main_v24 x0 x1 x4 x5 x6
    ∧ after seg5 W (Proc.devRef .tc main_v31) = Read.val_main_v31 x0 x1 x3 x4 x5 x6 x7 x8 := by
  refine ⟨?_, ?_, ?_, ?_⟩
  · exact (seg5_keeps W main_v7 (by decide)).trans h_v7
  · exact (seg5_keeps W main_v8 (by decide)).trans h_v8
  · exact (seg5_keeps W main_v24 (by decide)).trans h_v24
  · rw [seg5_plain]
    after_results
    rw [a8, a7, h_v6, h_v24, a3]
    simp only [Read.val_main_v25, Read.val_main_v26, Read.val_main_v27, Read.val_main_v28, Read.val_main_v29, Read.val_main_v30, Read.val_main_call0_cst, Read.val_main_call0_v0, Read.val_main_v31] <;> rfl

set_option maxRecDepth 8192 in
set_option maxHeartbeats 1000000 in
/-- Segment 6: the four gates' pre-activations: the input and hidden projections and the two biases. -/
theorem seg6_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F))
    (h_v7 : W (Proc.devRef .tc main_v7) = Read.val_main_v7 x1)
    (h_v8 : W (Proc.devRef .tc main_v8) = Read.val_main_v8 x2)
    (h_v24 : W (Proc.devRef .tc main_v24) = Read.val_main_v24 x0 x1 x4 x5 x6)
    (h_v31 : W (Proc.devRef .tc main_v31) = Read.val_main_v31 x0 x1 x3 x4 x5 x6 x7 x8)
    (a9 : W (Proc.devRef .tc main_arg9) = x9) (a10 : W (Proc.devRef .tc main_arg10) = x10) (a11 : W (Proc.devRef .tc main_arg11) = x11) (a12 : W (Proc.devRef .tc main_arg12) = x12) :
    after seg6 W (Proc.devRef .tc main_v8) = Read.val_main_v8 x2
    ∧ after seg6 W (Proc.devRef .tc main_v24) = Read.val_main_v24 x0 x1 x4 x5 x6
    ∧ after seg6 W (Proc.devRef .tc main_v40) = Read.val_main_v40 x0 x1 x3 x4 x5 x6 x7 x8 x9 x10 x11 x12 := by
  refine ⟨?_, ?_, ?_⟩
  · exact (seg6_keeps W main_v8 (by decide)).trans h_v8
  · exact (seg6_keeps W main_v24 (by decide)).trans h_v24
  · after_results
    rw [a12, h_v7, a10, a11, h_v31, a9]
    simp only [Read.val_main_v32, Read.val_main_v33, Read.val_main_v34, Read.val_main_v35, Read.val_main_v36, Read.val_main_v37, Read.val_main_v38, Read.val_main_v39, Read.val_main_v40] <;> rfl

set_option maxRecDepth 8192 in
set_option maxHeartbeats 1000000 in
/-- Segment 7: the four gate slices, the forget gate, and its product with the old cell state. -/
theorem seg7_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F))
    (h_v8 : W (Proc.devRef .tc main_v8) = Read.val_main_v8 x2)
    (h_v24 : W (Proc.devRef .tc main_v24) = Read.val_main_v24 x0 x1 x4 x5 x6)
    (h_v40 : W (Proc.devRef .tc main_v40) = Read.val_main_v40 x0 x1 x3 x4 x5 x6 x7 x8 x9 x10 x11 x12) :
    after seg7 W (Proc.devRef .tc main_v24) = Read.val_main_v24 x0 x1 x4 x5 x6
    ∧ after seg7 W (Proc.devRef .tc main_v41) = Read.val_main_v41 x0 x1 x3 x4 x5 x6 x7 x8 x9 x10 x11 x12
    ∧ after seg7 W (Proc.devRef .tc main_v43) = Read.val_main_v43 x0 x1 x3 x4 x5 x6 x7 x8 x9 x10 x11 x12
    ∧ after seg7 W (Proc.devRef .tc main_v44) = Read.val_main_v44 x0 x1 x3 x4 x5 x6 x7 x8 x9 x10 x11 x12
    ∧ after seg7 W (Proc.devRef .tc main_v51) = Read.val_main_v51 x0 x1 x2 x3 x4 x5 x6 x7 x8 x9 x10 x11 x12 := by
  refine ⟨?_, ?_, ?_, ?_, ?_⟩
  · exact (seg7_keeps W main_v24 (by decide)).trans h_v24
  · after_results
    rw [h_v40]
    simp only [Read.val_main_v41] <;> rfl
  · after_results
    rw [h_v40]
    simp only [Read.val_main_v43] <;> rfl
  · after_results
    rw [h_v40]
    simp only [Read.val_main_v44] <;> rfl
  · after_results
    rw [h_v8, h_v40]
    simp only [Read.val_main_v42, Read.val_main_v45, Read.val_main_v46, Read.val_main_cst_3, Read.val_main_v47, Read.val_main_v48, Read.val_main_cst_4, Read.val_main_v49, Read.val_main_v50, Read.val_main_v51] <;> rfl

set_option maxRecDepth 8192 in
set_option maxHeartbeats 1000000 in
/-- Segment 8: the input gate, the candidate, and the new cell state. -/
theorem seg8_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F))
    (h_v24 : W (Proc.devRef .tc main_v24) = Read.val_main_v24 x0 x1 x4 x5 x6)
    (h_v41 : W (Proc.devRef .tc main_v41) = Read.val_main_v41 x0 x1 x3 x4 x5 x6 x7 x8 x9 x10 x11 x12)
    (h_v43 : W (Proc.devRef .tc main_v43) = Read.val_main_v43 x0 x1 x3 x4 x5 x6 x7 x8 x9 x10 x11 x12)
    (h_v44 : W (Proc.devRef .tc main_v44) = Read.val_main_v44 x0 x1 x3 x4 x5 x6 x7 x8 x9 x10 x11 x12)
    (h_v51 : W (Proc.devRef .tc main_v51) = Read.val_main_v51 x0 x1 x2 x3 x4 x5 x6 x7 x8 x9 x10 x11 x12) :
    after seg8 W (Proc.devRef .tc main_v24) = Read.val_main_v24 x0 x1 x4 x5 x6
    ∧ after seg8 W (Proc.devRef .tc main_v44) = Read.val_main_v44 x0 x1 x3 x4 x5 x6 x7 x8 x9 x10 x11 x12
    ∧ after seg8 W (Proc.devRef .tc main_v60) = Read.val_main_v60 x0 x1 x2 x3 x4 x5 x6 x7 x8 x9 x10 x11 x12 := by
  refine ⟨?_, ?_, ?_⟩
  · exact (seg8_keeps W main_v24 (by decide)).trans h_v24
  · exact (seg8_keeps W main_v44 (by decide)).trans h_v44
  · after_results
    rw [h_v51, h_v43, h_v41]
    simp only [Read.val_main_v52, Read.val_main_v53, Read.val_main_cst_5, Read.val_main_v54, Read.val_main_v55, Read.val_main_cst_6, Read.val_main_v56, Read.val_main_v57, Read.val_main_v58, Read.val_main_v59, Read.val_main_v60] <;> rfl

set_option maxRecDepth 8192 in
set_option maxHeartbeats 1000000 in
/-- Segment 9: the output gate and the new hidden state. -/
theorem seg9_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F))
    (h_v24 : W (Proc.devRef .tc main_v24) = Read.val_main_v24 x0 x1 x4 x5 x6)
    (h_v44 : W (Proc.devRef .tc main_v44) = Read.val_main_v44 x0 x1 x3 x4 x5 x6 x7 x8 x9 x10 x11 x12)
    (h_v60 : W (Proc.devRef .tc main_v60) = Read.val_main_v60 x0 x1 x2 x3 x4 x5 x6 x7 x8 x9 x10 x11 x12) :
    after seg9 W (Proc.devRef .tc main_v24) = Read.val_main_v24 x0 x1 x4 x5 x6
    ∧ after seg9 W (Proc.devRef .tc main_v60) = Read.val_main_v60 x0 x1 x2 x3 x4 x5 x6 x7 x8 x9 x10 x11 x12
    ∧ after seg9 W (Proc.devRef .tc main_v68) = Read.val_main_v68 x0 x1 x2 x3 x4 x5 x6 x7 x8 x9 x10 x11 x12 := by
  refine ⟨?_, ?_, ?_⟩
  · exact (seg9_keeps W main_v24 (by decide)).trans h_v24
  · exact (seg9_keeps W main_v60 (by decide)).trans h_v60
  · after_results
    rw [h_v60, h_v44]
    simp only [Read.val_main_v61, Read.val_main_v62, Read.val_main_cst_7, Read.val_main_v63, Read.val_main_v64, Read.val_main_cst_8, Read.val_main_v65, Read.val_main_v66, Read.val_main_v67, Read.val_main_v68] <;> rfl

set_option maxRecDepth 8192 in
set_option maxHeartbeats 1000000 in
/-- Segment 10: the logits: the hidden state times the transposed output weight, plus its bias. -/
theorem seg10_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F)) (x13 : (⟨S50257x1024, .f32⟩ : BufTy).Contents (Elt F)) (x14 : (⟨S50257, .f32⟩ : BufTy).Contents (Elt F))
    (h_v24 : W (Proc.devRef .tc main_v24) = Read.val_main_v24 x0 x1 x4 x5 x6)
    (h_v60 : W (Proc.devRef .tc main_v60) = Read.val_main_v60 x0 x1 x2 x3 x4 x5 x6 x7 x8 x9 x10 x11 x12)
    (h_v68 : W (Proc.devRef .tc main_v68) = Read.val_main_v68 x0 x1 x2 x3 x4 x5 x6 x7 x8 x9 x10 x11 x12)
    (a13 : W (Proc.devRef .tc main_arg13) = x13) (a14 : W (Proc.devRef .tc main_arg14) = x14) :
    after seg10 W (Proc.devRef .tc main_v24) = Read.val_main_v24 x0 x1 x4 x5 x6
    ∧ after seg10 W (Proc.devRef .tc main_v60) = Read.val_main_v60 x0 x1 x2 x3 x4 x5 x6 x7 x8 x9 x10 x11 x12
    ∧ after seg10 W (Proc.devRef .tc main_v68) = Read.val_main_v68 x0 x1 x2 x3 x4 x5 x6 x7 x8 x9 x10 x11 x12
    ∧ after seg10 W (Proc.devRef .tc main_v72) = Read.val_main_v72 x0 x1 x2 x3 x4 x5 x6 x7 x8 x9 x10 x11 x12 x13 x14 := by
  refine ⟨?_, ?_, ?_, ?_⟩
  · exact (seg10_keeps W main_v24 (by decide)).trans h_v24
  · exact (seg10_keeps W main_v60 (by decide)).trans h_v60
  · exact (seg10_keeps W main_v68 (by decide)).trans h_v68
  · after_results
    rw [a14, h_v68, a13]
    simp only [Read.val_main_v69, Read.val_main_v70, Read.val_main_v71, Read.val_main_v72] <;> rfl

/-- Segment 11 over the bare references: each operation printed through typed references restated at the
    references themselves, its function as it is. -/
abbrev seg11c : List (HloOp τ sig (Elt F)) :=
  [ nullary main_call1_cst ((constant S_ .f32 0xFF800000#32) : (⟨S_, .f32⟩ : BufTy).Contents (Elt F)),
    binary main_v72 main_call1_cst main_call1_v0 ((fun x v => Host.reduce FloatOps.maximumf x v reducesTo_S1x50257_S1_d1 h_S_) : (⟨S1x50257, .f32⟩ : BufTy).Contents (Elt F) → (⟨S_, .f32⟩ : BufTy).Contents (Elt F) → (⟨S1, .f32⟩ : BufTy).Contents (Elt F)),
    nullary main_call1_cst_0 ((constant S_ .f32 0xFF800000#32) : (⟨S_, .f32⟩ : BufTy).Contents (Elt F)),
    unary main_call1_cst_0 main_call1_v1 ((broadcastInDim S1 ![] bcast_S_S1) : (⟨S_, .f32⟩ : BufTy).Contents (Elt F) → (⟨S1, .f32⟩ : BufTy).Contents (Elt F)),
    binary main_call1_v1 main_call1_v0 main_call1_v2 (maximumf : (⟨S1, .f32⟩ : BufTy).Contents (Elt F) → (⟨S1, .f32⟩ : BufTy).Contents (Elt F) → (⟨S1, .f32⟩ : BufTy).Contents (Elt F)),
    unary main_call1_v2 main_call1_v3 ((broadcastInDim S1x1 ![0] bcast_S1_S1x1_0) : (⟨S1, .f32⟩ : BufTy).Contents (Elt F) → (⟨S1x1, .f32⟩ : BufTy).Contents (Elt F)),
    unary main_call1_v3 main_call1_v4 ((broadcastInDim S1x50257 ![0, 1] bcast_S1x1_S1x50257_0_1) : (⟨S1x1, .f32⟩ : BufTy).Contents (Elt F) → (⟨S1x50257, .f32⟩ : BufTy).Contents (Elt F)),
    binary main_v72 main_call1_v4 main_call1_v5 (subf : (⟨S1x50257, .f32⟩ : BufTy).Contents (Elt F) → (⟨S1x50257, .f32⟩ : BufTy).Contents (Elt F) → (⟨S1x50257, .f32⟩ : BufTy).Contents (Elt F)),
    unary main_call1_v5 main_call1_v6 (Host.exp : (⟨S1x50257, .f32⟩ : BufTy).Contents (Elt F) → (⟨S1x50257, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S1x50257_S1_d1 h_S_) : (⟨S1x50257, .f32⟩ : BufTy).Contents (Elt F) → (⟨S_, .f32⟩ : BufTy).Contents (Elt F) → (⟨S1, .f32⟩ : BufTy).Contents (Elt F)),
    unary main_call1_v7 main_call1_v8 ((broadcastInDim S1x1 ![0] bcast_S1_S1x1_0) : (⟨S1, .f32⟩ : BufTy).Contents (Elt F) → (⟨S1x1, .f32⟩ : BufTy).Contents (Elt F)),
    unary main_call1_v8 main_call1_v9 (Host.log : (⟨S1x1, .f32⟩ : BufTy).Contents (Elt F) → (⟨S1x1, .f32⟩ : BufTy).Contents (Elt F)),
    unary main_call1_v9 main_call1_v10 ((broadcastInDim S1x50257 ![0, 1] bcast_S1x1_S1x50257_0_1) : (⟨S1x1, .f32⟩ : BufTy).Contents (Elt F) → (⟨S1x50257, .f32⟩ : BufTy).Contents (Elt F)),
    binary main_call1_v5 main_call1_v10 main_v73 (subf : (⟨S1x50257, .f32⟩ : BufTy).Contents (Elt F) → (⟨S1x50257, .f32⟩ : BufTy).Contents (Elt F) → (⟨S1x50257, .f32⟩ : BufTy).Contents (Elt F)),
    unary main_v68 main_v74 (broadcastInDim S1x1x1024 ![1, 2] bcast_S1x1024_S1x1x1024_1_2 : (⟨S1x1024, .f32⟩ : BufTy).Contents (Elt F) → (⟨S1x1x1024, .f32⟩ : BufTy).Contents (Elt F)),
    unary main_v60 main_v75 (broadcastInDim S1x1x1024 ![1, 2] bcast_S1x1024_S1x1x1024_1_2 : (⟨S1x1024, .f32⟩ : BufTy).Contents (Elt F) → (⟨S1x1x1024, .f32⟩ : BufTy).Contents (Elt F)) ]
/-- Segment 11 as printed is segment 11 over the bare references, operation by operation. -/
theorem seg11_plain : (seg11 : List (HloOp τ sig (Elt F))) = seg11c :=
  congrArg₂ List.cons (typed_nullary_eq _ _ _) <|
  congrArg₂ List.cons (typed_binary_eq _ _ _ _ _ _ _) <|
  congrArg₂ List.cons (typed_nullary_eq _ _ _) <|
  congrArg₂ List.cons (typed_unary_eq _ _ _ _ _) <|
  congrArg₂ List.cons (typed_binary_eq _ _ _ _ _ _ _) <|
  congrArg₂ List.cons (typed_unary_eq _ _ _ _ _) <|
  congrArg₂ List.cons (typed_unary_eq _ _ _ _ _) <|
  congrArg₂ List.cons (typed_binary_eq _ _ _ _ _ _ _) <|
  congrArg₂ List.cons (typed_unary_eq _ _ _ _ _) <|
  congrArg₂ List.cons (typed_nullary_eq _ _ _) <|
  congrArg₂ List.cons (typed_binary_eq _ _ _ _ _ _ _) <|
  congrArg₂ List.cons (typed_unary_eq _ _ _ _ _) <|
  congrArg₂ List.cons (typed_unary_eq _ _ _ _ _) <|
  congrArg₂ List.cons (typed_unary_eq _ _ _ _ _) <|
  congrArg₂ List.cons (typed_binary_eq _ _ _ _ _ _ _) <|
  congrArg₂ List.cons rfl <|
  congrArg₂ List.cons rfl <| rfl

set_option maxRecDepth 8192 in
set_option maxHeartbeats 1000000 in
/-- Segment 11: the log-softmax of the logits, and the two new states as rank-three results. -/
theorem seg11_stage (W : Valuation τ sig (Elt F)) (x0 : (⟨S1, .i32⟩ : BufTy).Contents (Elt F)) (x1 : (⟨S1x1x1024, .f32⟩ : BufTy).Contents (Elt F)) (x2 : (⟨S1x1x1024, .f32⟩ : BufTy).Contents (Elt F)) (x3 : (⟨S512x1024, .f32⟩ : BufTy).Contents (Elt F)) (x4 : (⟨S50257x1024, .f32⟩ : BufTy).Contents (Elt F)) (x5 : (⟨S512x2048, .f32⟩ : BufTy).Contents (Elt F)) (x6 : (⟨S512, .f32⟩ : BufTy).Contents (Elt F)) (x7 : (⟨S1024x2048, .f32⟩ : BufTy).Contents (Elt F)) (x8 : (⟨S1024, .f32⟩ : BufTy).Contents (Elt F)) (x9 : (⟨S4096x1024, .f32⟩ : BufTy).Contents (Elt F)) (x10 : (⟨S4096x1024, .f32⟩ : BufTy).Contents (Elt F)) (x11 : (⟨S4096, .f32⟩ : BufTy).Contents (Elt F)) (x12 : (⟨S4096, .f32⟩ : BufTy).Contents (Elt F)) (x13 : (⟨S50257x1024, .f32⟩ : BufTy).Contents (Elt F)) (x14 : (⟨S50257, .f32⟩ : BufTy).Contents (Elt F))
    (h_v24 : W (Proc.devRef .tc main_v24) = Read.val_main_v24 x0 x1 x4 x5 x6)
    (h_v60 : W (Proc.devRef .tc main_v60) = Read.val_main_v60 x0 x1 x2 x3 x4 x5 x6 x7 x8 x9 x10 x11 x12)
    (h_v68 : W (Proc.devRef .tc main_v68) = Read.val_main_v68 x0 x1 x2 x3 x4 x5 x6 x7 x8 x9 x10 x11 x12)
    (h_v72 : W (Proc.devRef .tc main_v72) = Read.val_main_v72 x0 x1 x2 x3 x4 x5 x6 x7 x8 x9 x10 x11 x12 x13 x14) :
    after seg11 W (Proc.devRef .tc main_v24) = Read.val_main_v24 x0 x1 x4 x5 x6
    ∧ after seg11 W (Proc.devRef .tc main_v73) = Read.val_main_v73 x0 x1 x2 x3 x4 x5 x6 x7 x8 x9 x10 x11 x12 x13 x14
    ∧ after seg11 W (Proc.devRef .tc main_v74) = Read.val_main_v74 x0 x1 x2 x3 x4 x5 x6 x7 x8 x9 x10 x11 x12
    ∧ after seg11 W (Proc.devRef .tc main_v75) = Read.val_main_v75 x0 x1 x2 x3 x4 x5 x6 x7 x8 x9 x10 x11 x12 := by
  refine ⟨?_, ?_, ?_, ?_⟩
  · exact (seg11_keeps W main_v24 (by decide)).trans h_v24
  · rw [seg11_plain]
    after_results
    rw [h_v72]
    simp only [Read.val_main_call1_cst, Read.val_main_call1_v0, Read.val_main_call1_cst_0, Read.val_main_call1_v1, Read.val_main_call1_v2, Read.val_main_call1_v3, Read.val_main_call1_v4, Read.val_main_call1_v5, Read.val_main_call1_v6, Read.val_main_call1_cst_1, Read.val_main_call1_v7, Read.val_main_call1_v8, Read.val_main_call1_v9, Read.val_main_call1_v10, Read.val_main_v73] <;> rfl
  · rw [seg11_plain]
    after_results
    rw [h_v68]
    simp only [Read.val_main_v74] <;> rfl
  · rw [seg11_plain]
    after_results
    rw [h_v60]
    simp only [Read.val_main_v75] <;> rfl

/-! ## The segments chained: after the first `j` segments, from any valuation `V`, each live buffer is at its
stage function of the arguments `V` holds -/

theorem upto1 (V : Valuation τ sig (Elt F)) :
    after pre1 V (Proc.devRef .tc main_v6) = Read.val_main_v6 (V (Proc.devRef .tc main_arg0)) (V (Proc.devRef .tc main_arg4))
    ∧ after pre1 V (Proc.devRef .tc main_v7) = Read.val_main_v7 (V (Proc.devRef .tc main_arg1))
    ∧ after pre1 V (Proc.devRef .tc main_v8) = Read.val_main_v8 (V (Proc.devRef .tc main_arg2)) := by
  exact seg1_stage V _ _ _ _ rfl rfl rfl rfl

theorem upto2 (V : Valuation τ sig (Elt F)) :
    after pre2 V (Proc.devRef .tc main_v6) = Read.val_main_v6 (V (Proc.devRef .tc main_arg0)) (V (Proc.devRef .tc main_arg4))
    ∧ after pre2 V (Proc.devRef .tc main_v7) = Read.val_main_v7 (V (Proc.devRef .tc main_arg1))
    ∧ after pre2 V (Proc.devRef .tc main_v8) = Read.val_main_v8 (V (Proc.devRef .tc main_arg2))
    ∧ after pre2 V (Proc.devRef .tc main_v13) = Read.val_main_v13 (V (Proc.devRef .tc main_arg0)) (V (Proc.devRef .tc main_arg1)) (V (Proc.devRef .tc main_arg4)) (V (Proc.devRef .tc main_arg5)) (V (Proc.devRef .tc main_arg6)) := by
  obtain ⟨h_v6, h_v7, h_v8⟩ := upto1 V
  simp only [after_append pre1 seg2 V]
  exact seg2_stage (after pre1 V) _ _ _ _ _ _ h_v6 h_v7 h_v8 (pre1_arg V main_arg5 (by decide)) (pre1_arg V main_arg6 (by decide))

theorem upto3 (V : Valuation τ sig (Elt F)) :
    after pre3 V (Proc.devRef .tc main_v6) = Read.val_main_v6 (V (Proc.devRef .tc main_arg0)) (V (Proc.devRef .tc main_arg4))
    ∧ after pre3 V (Proc.devRef .tc main_v7) = Read.val_main_v7 (V (Proc.devRef .tc main_arg1))
    ∧ after pre3 V (Proc.devRef .tc main_v8) = Read.val_main_v8 (V (Proc.devRef .tc main_arg2))
    ∧ after pre3 V (Proc.devRef .tc main_v20) = Read.val_main_v20 (V (Proc.devRef .tc main_arg0)) (V (Proc.devRef .tc main_arg1)) (V (Proc.devRef .tc main_arg4)) (V (Proc.devRef .tc main_arg5)) (V (Proc.devRef .tc main_arg6)) := by
  obtain ⟨h_v6, h_v7, h_v8, h_v13⟩ := upto2 V
  simp only [after_append pre2 seg3 V]
  exact seg3_stage (after pre2 V) _ _ _ _ _ _ h_v6 h_v7 h_v8 h_v13

theorem upto4 (V : Valuation τ sig (Elt F)) :
    after pre4 V (Proc.devRef .tc main_v6) = Read.val_main_v6 (V (Proc.devRef .tc main_arg0)) (V (Proc.devRef .tc main_arg4))
    ∧ after pre4 V (Proc.devRef .tc main_v7) = Read.val_main_v7 (V (Proc.devRef .tc main_arg1))
    ∧ after pre4 V (Proc.devRef .tc main_v8) = Read.val_main_v8 (V (Proc.devRef .tc main_arg2))
    ∧ after pre4 V (Proc.devRef .tc main_v24) = Read.val_main_v24 (V (Proc.devRef .tc main_arg0)) (V (Proc.devRef .tc main_arg1)) (V (Proc.devRef .tc main_arg4)) (V (Proc.devRef .tc main_arg5)) (V (Proc.devRef .tc main_arg6)) := by
  obtain ⟨h_v6, h_v7, h_v8, h_v20⟩ := upto3 V
  simp only [after_append pre3 seg4 V]
  exact seg4_stage (after pre3 V) _ _ _ _ _ _ h_v6 h_v7 h_v8 h_v20

theorem upto5 (V : Valuation τ sig (Elt F)) :
    after pre5 V (Proc.devRef .tc main_v7) = Read.val_main_v7 (V (Proc.devRef .tc main_arg1))
    ∧ after pre5 V (Proc.devRef .tc main_v8) = Read.val_main_v8 (V (Proc.devRef .tc main_arg2))
    ∧ after pre5 V (Proc.devRef .tc main_v24) = Read.val_main_v24 (V (Proc.devRef .tc main_arg0)) (V (Proc.devRef .tc main_arg1)) (V (Proc.devRef .tc main_arg4)) (V (Proc.devRef .tc main_arg5)) (V (Proc.devRef .tc main_arg6))
    ∧ after pre5 V (Proc.devRef .tc main_v31) = Read.val_main_v31 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  obtain ⟨h_v6, h_v7, h_v8, h_v24⟩ := upto4 V
  simp only [after_append pre4 seg5 V]
  exact seg5_stage (after pre4 V) _ _ _ _ _ _ _ _ _ h_v6 h_v7 h_v8 h_v24 (pre4_arg V main_arg3 (by decide)) (pre4_arg V main_arg7 (by decide)) (pre4_arg V main_arg8 (by decide))

theorem upto6 (V : Valuation τ sig (Elt F)) :
    after pre6 V (Proc.devRef .tc main_v8) = Read.val_main_v8 (V (Proc.devRef .tc main_arg2))
    ∧ after pre6 V (Proc.devRef .tc main_v24) = Read.val_main_v24 (V (Proc.devRef .tc main_arg0)) (V (Proc.devRef .tc main_arg1)) (V (Proc.devRef .tc main_arg4)) (V (Proc.devRef .tc main_arg5)) (V (Proc.devRef .tc main_arg6))
    ∧ after pre6 V (Proc.devRef .tc main_v40) = Read.val_main_v40 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  obtain ⟨h_v7, h_v8, h_v24, h_v31⟩ := upto5 V
  simp only [after_append pre5 seg6 V]
  exact seg6_stage (after pre5 V) _ _ _ _ _ _ _ _ _ _ _ _ _ h_v7 h_v8 h_v24 h_v31 (pre5_arg V main_arg9 (by decide)) (pre5_arg V main_arg10 (by decide)) (pre5_arg V main_arg11 (by decide)) (pre5_arg V main_arg12 (by decide))

theorem upto7 (V : Valuation τ sig (Elt F)) :
    after pre7 V (Proc.devRef .tc main_v24) = Read.val_main_v24 (V (Proc.devRef .tc main_arg0)) (V (Proc.devRef .tc main_arg1)) (V (Proc.devRef .tc main_arg4)) (V (Proc.devRef .tc main_arg5)) (V (Proc.devRef .tc main_arg6))
    ∧ after pre7 V (Proc.devRef .tc main_v41) = Read.val_main_v41 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after pre7 V (Proc.devRef .tc main_v43) = Read.val_main_v43 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after pre7 V (Proc.devRef .tc main_v44) = Read.val_main_v44 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after pre7 V (Proc.devRef .tc main_v51) = Read.val_main_v51 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  obtain ⟨h_v8, h_v24, h_v40⟩ := upto6 V
  simp only [after_append pre6 seg7 V]
  exact seg7_stage (after pre6 V) _ _ _ _ _ _ _ _ _ _ _ _ _ h_v8 h_v24 h_v40

theorem upto8 (V : Valuation τ sig (Elt F)) :
    after pre8 V (Proc.devRef .tc main_v24) = Read.val_main_v24 (V (Proc.devRef .tc main_arg0)) (V (Proc.devRef .tc main_arg1)) (V (Proc.devRef .tc main_arg4)) (V (Proc.devRef .tc main_arg5)) (V (Proc.devRef .tc main_arg6))
    ∧ after pre8 V (Proc.devRef .tc main_v44) = Read.val_main_v44 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after pre8 V (Proc.devRef .tc main_v60) = Read.val_main_v60 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  obtain ⟨h_v24, h_v41, h_v43, h_v44, h_v51⟩ := upto7 V
  simp only [after_append pre7 seg8 V]
  exact seg8_stage (after pre7 V) _ _ _ _ _ _ _ _ _ _ _ _ _ h_v24 h_v41 h_v43 h_v44 h_v51

theorem upto9 (V : Valuation τ sig (Elt F)) :
    after pre9 V (Proc.devRef .tc main_v24) = Read.val_main_v24 (V (Proc.devRef .tc main_arg0)) (V (Proc.devRef .tc main_arg1)) (V (Proc.devRef .tc main_arg4)) (V (Proc.devRef .tc main_arg5)) (V (Proc.devRef .tc main_arg6))
    ∧ after pre9 V (Proc.devRef .tc main_v60) = Read.val_main_v60 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after pre9 V (Proc.devRef .tc main_v68) = Read.val_main_v68 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  obtain ⟨h_v24, h_v44, h_v60⟩ := upto8 V
  simp only [after_append pre8 seg9 V]
  exact seg9_stage (after pre8 V) _ _ _ _ _ _ _ _ _ _ _ _ _ h_v24 h_v44 h_v60

theorem upto10 (V : Valuation τ sig (Elt F)) :
    after pre10 V (Proc.devRef .tc main_v24) = Read.val_main_v24 (V (Proc.devRef .tc main_arg0)) (V (Proc.devRef .tc main_arg1)) (V (Proc.devRef .tc main_arg4)) (V (Proc.devRef .tc main_arg5)) (V (Proc.devRef .tc main_arg6))
    ∧ after pre10 V (Proc.devRef .tc main_v60) = Read.val_main_v60 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after pre10 V (Proc.devRef .tc main_v68) = Read.val_main_v68 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after pre10 V (Proc.devRef .tc main_v72) = Read.val_main_v72 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  obtain ⟨h_v24, h_v60, h_v68⟩ := upto9 V
  simp only [after_append pre9 seg10 V]
  exact seg10_stage (after pre9 V) _ _ _ _ _ _ _ _ _ _ _ _ _ _ _ h_v24 h_v60 h_v68 (pre9_arg V main_arg13 (by decide)) (pre9_arg V main_arg14 (by decide))

theorem upto11 (V : Valuation τ sig (Elt F)) :
    after pre11 V (Proc.devRef .tc main_v24) = Read.val_main_v24 (V (Proc.devRef .tc main_arg0)) (V (Proc.devRef .tc main_arg1)) (V (Proc.devRef .tc main_arg4)) (V (Proc.devRef .tc main_arg5)) (V (Proc.devRef .tc main_arg6))
    ∧ after pre11 V (Proc.devRef .tc main_v73) = Read.val_main_v73 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))
    ∧ after pre11 V (Proc.devRef .tc main_v74) = Read.val_main_v74 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after pre11 V (Proc.devRef .tc main_v75) = Read.val_main_v75 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  obtain ⟨h_v24, h_v60, h_v68, h_v72⟩ := upto10 V
  simp only [after_append pre10 seg11 V]
  exact seg11_stage (after pre10 V) _ _ _ _ _ _ _ _ _ _ _ _ _ _ _ h_v24 h_v60 h_v68 h_v72

/-! ## The whole list, and the run -/

/-- From any valuation `V`, the operation list leaves the four results at their stage functions of the fifteen
    arguments `V` holds. -/
theorem results (V : Valuation τ sig (Elt F)) :
    after ops V (Proc.devRef .tc main_v73) = Read.val_main_v73 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))
    ∧ after ops V (Proc.devRef .tc main_v74) = Read.val_main_v74 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after ops V (Proc.devRef .tc main_v75) = Read.val_main_v75 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ after ops V (Proc.devRef .tc main_v24) = Read.val_main_v24 (V (Proc.devRef .tc main_arg0)) (V (Proc.devRef .tc main_arg1)) (V (Proc.devRef .tc main_arg4)) (V (Proc.devRef .tc main_arg5)) (V (Proc.devRef .tc main_arg6)) := by
  obtain ⟨h_v24, h_v73, h_v74, h_v75⟩ := upto11 V
  rw [ops_eq]
  exact ⟨h_v73, h_v74, h_v75, h_v24⟩

/-- The operation list leaves every argument as found. -/
theorem args_kept (V : Valuation τ sig (Elt F)) (r : Ref sig .tc) (hr : r ∈ argRefs) :
    after ops V (Proc.devRef .tc r) = V (Proc.devRef .tc r) := by
  rw [ops_eq]
  exact pre11_arg V r hr

/-- On every device, at the ideal float instance, from any memory with zero counters: every weakly fair execution of
    @main terminates with the log-softmax of the logits, the new hidden and cell states and the attention weights at
    their stage functions of the fifteen arguments' launch contents, and the arguments unchanged. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73) = Read.val_main_v73 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v74) = Read.val_main_v74 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v75) = Read.val_main_v75 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v24) = Read.val_main_v24 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨(h c main_v73).trans (results (launchContents m c)).1,
      (h c main_v74).trans (results (launchContents m c)).2.1,
      (h c main_v75).trans (results (launchContents m c)).2.2.1,
      (h c main_v24).trans (results (launchContents m c)).2.2.2,
      (h c main_arg0).trans (args_kept (launchContents m c) main_arg0 (by decide)),
      (h c main_arg1).trans (args_kept (launchContents m c) main_arg1 (by decide)),
      (h c main_arg2).trans (args_kept (launchContents m c) main_arg2 (by decide)),
      (h c main_arg3).trans (args_kept (launchContents m c) main_arg3 (by decide)),
      (h c main_arg4).trans (args_kept (launchContents m c) main_arg4 (by decide)),
      (h c main_arg5).trans (args_kept (launchContents m c) main_arg5 (by decide)),
      (h c main_arg6).trans (args_kept (launchContents m c) main_arg6 (by decide)),
      (h c main_arg7).trans (args_kept (launchContents m c) main_arg7 (by decide)),
      (h c main_arg8).trans (args_kept (launchContents m c) main_arg8 (by decide)),
      (h c main_arg9).trans (args_kept (launchContents m c) main_arg9 (by decide)),
      (h c main_arg10).trans (args_kept (launchContents m c) main_arg10 (by decide)),
      (h c main_arg11).trans (args_kept (launchContents m c) main_arg11 (by decide)),
      (h c main_arg12).trans (args_kept (launchContents m c) main_arg12 (by decide)),
      (h c main_arg13).trans (args_kept (launchContents m c) main_arg13 (by decide)),
      (h c main_arg14).trans (args_kept (launchContents m c) main_arg14 (by decide))⟩)
    (run_raw m ρ)

end Cert.ReferenceIdeal.Value

end
-- ==== Proof.Bridge.Algebraic.lean ====
/- The algebraic claim: run from memories that agree on the fifteen arguments, the idealized kernel program and the idealized
   reference both end, with equal results as extended reals. The kernel program's results are the last valuation of its
   chain read at what its three calls leave; each is the reference's stage of the same arguments: the embedded row (the
   clamp and the gather pick one row when the token index is not negative), the attention weights and the rectified
   combined input, the four gate tiles, the cell's outputs, the seventeen logit tiles, and the shared log-softmax. -/
import proofs.«413536_j14714557956454_3_alg».proof.Proof.Hand.KernelIdeal.RunValues
import proofs.«413536_j14714557956454_3_alg».proof.Proof.Hand.KernelIdeal.Region2Ideal
import proofs.«413536_j14714557956454_3_alg».proof.Proof.Bridge.PreIndex
import proofs.«413536_j14714557956454_3_alg».proof.Proof.Bridge.Emb
import proofs.«413536_j14714557956454_3_alg».proof.Proof.Bridge.Attn
import proofs.«413536_j14714557956454_3_alg».proof.Proof.Bridge.Gates
import proofs.«413536_j14714557956454_3_alg».proof.Proof.Bridge.Host
import proofs.«413536_j14714557956454_3_alg».proof.Proof.Bridge.Logits
import proofs.«413536_j14714557956454_3_alg».proof.Proof.RefRunHand
import proofs.«413536_j14714557956454_3_alg».proof.Proof.Gen.KernelIdeal
import proofs.«413536_j14714557956454_3_alg».proof.Proof.Gen.ReferenceIdeal
import proofs.«413536_j14714557956454_3_alg».proof.Proof.Gen.Pre_finite_inputs

noncomputable section

namespace Cert.Proof.Claims

open Idealize.ShloMosaic Idealize.ShloMosaic.TcCoe Idealize.SL.Sem
open Cert.KernelIdeal Cert.KernelIdeal.Gen Cert.KernelIdeal.Hand Cert.Bridge

/-- The idealized kernel program's frame: its run with the results dropped. -/
theorem frame_ki : @Cert.frame_KernelIdeal Cert.KernelIdeal.Gen.facts Cert.Pre_finite_inputs.Gen.facts := fun m ρ _ =>
  (θ_run Cert.KernelIdeal.defs _ _).mono (fun _ h c => (h c).2.2.2.2)
    (run_values (F := Ideal) m ρ (fun c => body_obligation2_ideal (E2 m) c))

/-- The reference's frame: its run, stated in its stages, with the results dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2.2.2.2) (Cert.ReferenceIdeal.Value.run_stages m ρ)

-- four comparisons across the two programs' buffer tables: each walks both signatures
set_option maxHeartbeats 4000000 in
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => V9 m (outsN m) c main_v40, fun c => V9 m (outsN m) c main_v41, fun c => V9 m (outsN m) c main_v42,
    fun c => V9 m (outsN m) c main_v9_1, run_values (F := Ideal) m ρ (fun c => body_obligation2_ideal (E2 m) c), ?_⟩
  refine (θ_run Cert.ReferenceIdeal.defs _ _).mono (fun r h c => ?_) (Cert.ReferenceIdeal.Value.run_stages m' ρ')
  obtain ⟨h0, h1, h2, h3, hargs⟩ := h c
  obtain ⟨e0, e1, e2, e3, e4, e5, e6, e7, e8, e9, e10, e11, e12, e13, e14⟩ := hagree c
  have hn := nonneg_of_pre m hpre c
  have hE := fun t => emb_eq m c hn t
  have hA := attn_eq m c hE
  have hX := x_eq m c hE
  have hG := gates_eq m c hX
  have hH := h1_eq m c hG
  have hC := c1_eq m c hG
  have hL := logits_eq m c hH
  refine ⟨h0.trans ?_, h1.trans ?_, h2.trans ?_, h3.trans ?_, hargs⟩
  · rw [e0, e1, e2, e3, e4, e5, e6, e7, e8, e9, e10, e11, e12, e13, e14]
    exact (res0_eq m c hL).symm
  · rw [e0, e1, e2, e3, e4, e5, e6, e7, e8, e9, e10, e11, e12]
    exact (res1_eq m c hH).symm
  · rw [e0, e1, e2, e3, e4, e5, e6, e7, e8, e9, e10, e11, e12]
    exact (res2_eq m c hC).symm
  · rw [e0, e1, e4, e5, e6]
    exact (res3_eq m c hA).symm

end Cert.Proof.Claims

end
-- ==== Proof.lean ====
/- The certificate: a batch-1 attention-LSTM decode step in three pallas_calls (embedding row + attention + combine;
   the four gate tiles; the logits in seventeen tiles, the last cut) against its plain reference, under the
   precondition "every float input finite and the token index not negative".
   frame_Kernel: at the word level the program's run ends with the arguments as launched, through the relational
   pipeline rule with the third call's output forgotten (its last tile holds words nothing names at the word level).
   frame_KernelIdeal and the kernel half of the algebraic claim: the run at exact proof data, every call's output named.
   frame_ReferenceIdeal: the reference's generated run. preserves: the ideal pass rewrote nothing.
   algebraic: stage by stage the kernel's arrays are the reference's stages of the same arguments. -/
import proofs.«413536_j14714557956454_3_alg».proof.Defs
import proofs.«413536_j14714557956454_3_alg».proof.Proof.Gen.Kernel
import proofs.«413536_j14714557956454_3_alg».proof.Proof.Gen.KernelIdeal
import proofs.«413536_j14714557956454_3_alg».proof.Proof.Gen.ReferenceIdeal
import proofs.«413536_j14714557956454_3_alg».proof.Proof.Gen.Pre_finite_inputs
import proofs.«413536_j14714557956454_3_alg».proof.Proof.Hand.Kernel.FrameRelLaunch
import proofs.«413536_j14714557956454_3_alg».proof.Proof.Bridge.Algebraic
import Idealize.ShloMosaic.Adequacy
import Idealize.ShloMosaic.Init

noncomputable section

namespace Cert.Proof

open Idealize.ShloMosaic Idealize.SL.Sem

/-- The word-level program's frame. -/
theorem frame_k : @Cert.frame_Kernel Cert.Kernel.Gen.facts Cert.Pre_finite_inputs.Gen.facts := fun m ρ _ => Cert.Kernel.Hand.frame_rel (F := Bits) m ρ

theorem claim : Cert.Claim := ⟨Cert.Kernel.Gen.facts, Cert.KernelIdeal.Gen.facts, Cert.ReferenceIdeal.Gen.facts, Cert.Pre_finite_inputs.Gen.facts,
  frame_k, Claims.frame_ki, Claims.frame_ri, trivial, Claims.algebraic⟩

end Cert.Proof

end
